-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x100x88x80 : Shape := ⟨5, ![1, 64, 100, 88, 80]⟩
abbrev S16384x3 : Shape := ⟨2, ![16384, 3]⟩
abbrev S_ : Shape := ⟨0, ![]⟩

class Facts : Prop where
  bcast_S_S1x64x100x88x80 : S_.BroadcastsInDim S1x64x100x88x80 (![] : Fin 0 → Fin S1x64x100x88x80.rank)
  reducesTo_S1x64x100x88x80_S_d0_1_2_3_4 : S1x64x100x88x80.ReducesTo [0, 1, 2, 3, 4] S_
  h_S_ : 0 < S_.numel

variable [Facts]

def fn {F : FTy → Type} [FloatOps F] (main_arg0 : FVec F S1x64x100x88x80 .f32) (main_arg1 : FVec F S1x64x100x88x80 .f32) (main_arg2 : IVec S16384x3 32) (main_arg3 : IVec S16384x3 32) (main_arg4 : IVec S16384x3 32) : IVec S_ 1 :=
  let main_v0 : FVec F S1x64x100x88x80 .f32 := Host.absf main_arg0
  let main_cst : FVec F S_ .f32 := constant S_ .f32 0x7F800000#32
  let main_v1 : FVec F S1x64x100x88x80 .f32 := broadcastInDim S1x64x100x88x80 ![] bcast_S_S1x64x100x88x80 main_cst
  let main_v2 : IVec S1x64x100x88x80 1 := cmpf .olt main_v0 main_v1
  let main_c : IVec S_ 1 := constantI S_ 1 1#1
  let main_v3 : IVec S_ 1 := (fun x v => Host.reduce IntOp.andi x v reducesTo_S1x64x100x88x80_S_d0_1_2_3_4 h_S_) main_v2 main_c
  let main_v4 : FVec F S1x64x100x88x80 .f32 := Host.absf main_arg1
  let main_cst_0 : FVec F S_ .f32 := constant S_ .f32 0x7F800000#32
  let main_v5 : FVec F S1x64x100x88x80 .f32 := broadcastInDim S1x64x100x88x80 ![] bcast_S_S1x64x100x88x80 main_cst_0
  let main_v6 : IVec S1x64x100x88x80 1 := cmpf .olt main_v4 main_v5
  let main_c_1 : IVec S_ 1 := constantI S_ 1 1#1
  let main_v7 : IVec S_ 1 := (fun x v => Host.reduce IntOp.andi x v reducesTo_S1x64x100x88x80_S_d0_1_2_3_4 h_S_) main_v6 main_c_1
  let main_v8 : IVec S_ 1 := andi main_v3 main_v7
  main_v8
-- ==== Kernel.lean ====
abbrev S1x64x100x88x80 : Shape := ⟨5, ![1, 64, 100, 88, 80]⟩
abbrev S16384x3 : Shape := ⟨2, ![16384, 3]⟩
abbrev S3 : Shape := ⟨1, ![3]⟩
abbrev S1x3 : Shape := ⟨2, ![1, 3]⟩
abbrev S_ : Shape := ⟨0, ![]⟩
abbrev S16384x1 : Shape := ⟨2, ![16384, 1]⟩
abbrev S16384 : Shape := ⟨1, ![16384]⟩
abbrev S64x704000 : Shape := ⟨2, ![64, 704000]⟩
abbrev S704000x64 : Shape := ⟨2, ![704000, 64]⟩
abbrev S64x7040 : Shape := ⟨2, ![64, 7040]⟩
abbrev S7040x64 : Shape := ⟨2, ![7040, 64]⟩
abbrev S1x1 : Shape := ⟨2, ![1, 1]⟩
abbrev S8x64 : Shape := ⟨2, ![8, 64]⟩
abbrev S1 : Shape := ⟨1, ![1]⟩
abbrev S64 : Shape := ⟨1, ![64]⟩
abbrev S1x64 : Shape := ⟨2, ![1, 64]⟩

abbrev nBuf : Space → Nat
  | .hbm => 133
  | .vmem => 17
  | .smem => 3
  | _ => 0

abbrev hbmTy0_0 (i : Nat) : BufTy := match i % 128 with
  | 0 => ⟨S1x64x100x88x80, .f32⟩
  | 1 => ⟨S1x64x100x88x80, .f32⟩
  | 2 => ⟨S16384x3, .i32⟩
  | 3 => ⟨S16384x3, .i32⟩
  | 4 => ⟨S16384x3, .i32⟩
  | 5 => ⟨S3, .i32⟩
  | 6 => ⟨S3, .i32⟩
  | 7 => ⟨S1x3, .i32⟩
  | 8 => ⟨S16384x3, .i32⟩
  | 9 => ⟨S16384x3, .i32⟩
  | 10 => ⟨S1x3, .i32⟩
  | 11 => ⟨S_, .i32⟩
  | 12 => ⟨S1x3, .i32⟩
  | 13 => ⟨S1x3, .i1⟩
  | 14 => ⟨S_, .i32⟩
  | 15 => ⟨S1x3, .i32⟩
  | 16 => ⟨S1x3, .i32⟩
  | 17 => ⟨S16384x3, .i32⟩
  | 18 => ⟨S16384x3, .i32⟩
  | 19 => ⟨S_, .i32⟩
  | 20 => ⟨S16384x3, .i32⟩
  | 21 => ⟨S16384x3, .i1⟩
  | 22 => ⟨S_, .i32⟩
  | 23 => ⟨S16384x3, .i32⟩
  | 24 => ⟨S16384x3, .i1⟩
  | 25 => ⟨S_, .i32⟩
  | 26 => ⟨S1x3, .i32⟩
  | 27 => ⟨S1x3, .i1⟩
  | 28 => ⟨S16384x3, .i1⟩
  | 29 => ⟨S16384x3, .i1⟩
  | 30 => ⟨S16384x3, .i1⟩
  | 31 => ⟨S16384x3, .i32⟩
  | 32 => ⟨S16384x3, .i32⟩
  | 33 => ⟨S16384x3, .i32⟩
  | 34 => ⟨S1x3, .i32⟩
  | 35 => ⟨S16384x3, .i32⟩
  | 36 => ⟨S16384x3, .i32⟩
  | 37 => ⟨S1x3, .i32⟩
  | 38 => ⟨S_, .i32⟩
  | 39 => ⟨S1x3, .i32⟩
  | 40 => ⟨S1x3, .i1⟩
  | 41 => ⟨S_, .i32⟩
  | 42 => ⟨S1x3, .i32⟩
  | 43 => ⟨S1x3, .i32⟩
  | 44 => ⟨S16384x3, .i32⟩
  | 45 => ⟨S16384x3, .i32⟩
  | 46 => ⟨S_, .i32⟩
  | 47 => ⟨S16384x3, .i32⟩
  | 48 => ⟨S16384x3, .i1⟩
  | 49 => ⟨S_, .i32⟩
  | 50 => ⟨S16384x3, .i32⟩
  | 51 => ⟨S16384x3, .i1⟩
  | 52 => ⟨S_, .i32⟩
  | 53 => ⟨S1x3, .i32⟩
  | 54 => ⟨S1x3, .i1⟩
  | 55 => ⟨S16384x3, .i1⟩
  | 56 => ⟨S16384x3, .i1⟩
  | 57 => ⟨S16384x3, .i1⟩
  | 58 => ⟨S16384x3, .i32⟩
  | 59 => ⟨S16384x3, .i32⟩
  | 60 => ⟨S16384x3, .i32⟩
  | 61 => ⟨S1x3, .i32⟩
  | 62 => ⟨S16384x3, .i32⟩
  | 63 => ⟨S16384x3, .i32⟩
  | 64 => ⟨S1x3, .i32⟩
  | 65 => ⟨S_, .i32⟩
  | 66 => ⟨S1x3, .i32⟩
  | 67 => ⟨S1x3, .i1⟩
  | 68 => ⟨S_, .i32⟩
  | 69 => ⟨S1x3, .i32⟩
  | 70 => ⟨S1x3, .i32⟩
  | 71 => ⟨S16384x3, .i32⟩
  | 72 => ⟨S16384x3, .i32⟩
  | 73 => ⟨S_, .i32⟩
  | 74 => ⟨S16384x3, .i32⟩
  | 75 => ⟨S16384x3, .i1⟩
  | 76 => ⟨S_, .i32⟩
  | 77 => ⟨S16384x3, .i32⟩
  | 78 => ⟨S16384x3, .i1⟩
  | 79 => ⟨S_, .i32⟩
  | 80 => ⟨S1x3, .i32⟩
  | 81 => ⟨S1x3, .i1⟩
  | 82 => ⟨S16384x3, .i1⟩
  | 83 => ⟨S16384x3, .i1⟩
  | 84 => ⟨S16384x3, .i1⟩
  | 85 => ⟨S16384x3, .i32⟩
  | 86 => ⟨S16384x3, .i32⟩
  | 87 => ⟨S16384x3, .i32⟩
  | 88 => ⟨S16384x1, .i32⟩
  | 89 => ⟨S16384, .i32⟩
  | 90 => ⟨S_, .i32⟩
  | 91 => ⟨S16384, .i32⟩
  | 92 => ⟨S16384, .i32⟩
  | 93 => ⟨S16384x1, .i32⟩
  | 94 => ⟨S16384, .i32⟩
  | 95 => ⟨S_, .i32⟩
  | 96 => ⟨S16384, .i32⟩
  | 97 => ⟨S16384, .i32⟩
  | 98 => ⟨S16384, .i32⟩
  | 99 => ⟨S16384x1, .i32⟩
  | 100 => ⟨S16384, .i32⟩
  | 101 => ⟨S16384x1, .i32⟩
  | 102 => ⟨S16384, .i32⟩
  | 103 => ⟨S_, .i32⟩
  | 104 => ⟨S16384, .i32⟩
  | 105 => ⟨S16384, .i32⟩
  | 106 => ⟨S16384x1, .i32⟩
  | 107 => ⟨S16384, .i32⟩
  | 108 => ⟨S_, .i32⟩
  | 109 => ⟨S16384, .i32⟩
  | 110 => ⟨S16384, .i32⟩
  | 111 => ⟨S16384, .i32⟩
  | 112 => ⟨S16384x1, .i32⟩
  | 113 => ⟨S16384, .i32⟩
  | 114 => ⟨S16384x1, .i32⟩
  | 115 => ⟨S16384, .i32⟩
  | 116 => ⟨S_, .i32⟩
  | 117 => ⟨S16384, .i32⟩
  | 118 => ⟨S16384, .i32⟩
  | 119 => ⟨S16384x1, .i32⟩
  | 120 => ⟨S16384, .i32⟩
  | 121 => ⟨S_, .i32⟩
  | 122 => ⟨S16384, .i32⟩
  | 123 => ⟨S16384, .i32⟩
  | 124 => ⟨S16384, .i32⟩
  | 125 => ⟨S16384x1, .i32⟩
  | 126 => ⟨S16384, .i32⟩
  | 127 => ⟨S64x704000, .f32⟩
  | _ => ⟨S1x64x100x88x80, .f32⟩

abbrev hbmTy0_1 (i : Nat) : BufTy := match i % 128 with
  | 0 => ⟨S64x704000, .f32⟩
  | 1 => ⟨S704000x64, .f32⟩
  | 2 => ⟨S704000x64, .f32⟩
  | 3 => ⟨S1x1, .f32⟩
  | 4 => ⟨S_, .f32⟩
  | _ => ⟨S1x64x100x88x80, .f32⟩

abbrev hbmTy (i : Nat) : BufTy := match i / 128 with
  | 0 => hbmTy0_0 i
  | 1 => hbmTy0_1 i
  | _ => ⟨S1x64x100x88x80, .f32⟩

abbrev bufTy : (tb : Table) → Fin (tcTables nBuf tb) → BufTy
  | .hbm, ⟨i, _⟩ => hbmTy i
  | .local _ .vmem, ⟨0, _⟩ => ⟨S64x7040, .f32⟩
  | .local _ .vmem, ⟨1, _⟩ => ⟨S64x7040, .f32⟩
  | .local _ .vmem, ⟨2, _⟩ => ⟨S7040x64, .f32⟩
  | .local _ .vmem, ⟨3, _⟩ => ⟨S7040x64, .f32⟩
  | .local _ .vmem, ⟨4, _⟩ => ⟨S64x7040, .f32⟩
  | .local _ .vmem, ⟨5, _⟩ => ⟨S64x7040, .f32⟩
  | .local _ .vmem, ⟨6, _⟩ => ⟨S7040x64, .f32⟩
  | .local _ .vmem, ⟨7, _⟩ => ⟨S7040x64, .f32⟩
  | .local _ .vmem, ⟨8, _⟩ => ⟨S8x64, .f32⟩
  | .local _ .vmem, ⟨9, _⟩ => ⟨S8x64, .f32⟩
  | .local _ .vmem, ⟨10, _⟩ => ⟨S8x64, .f32⟩
  | .local _ .vmem, ⟨11, _⟩ => ⟨S8x64, .f32⟩
  | .local _ .vmem, ⟨12, _⟩ => ⟨S8x64, .f32⟩
  | .local _ .vmem, ⟨13, _⟩ => ⟨S8x64, .f32⟩
  | .local _ .vmem, ⟨14, _⟩ => ⟨S1x1, .f32⟩
  | .local _ .vmem, ⟨15, _⟩ => ⟨S1x1, .f32⟩
  | .local _ .vmem, ⟨16, _⟩ => ⟨S1x1, .f32⟩
  | .local _ .smem, ⟨0, _⟩ => ⟨S16384, .i32⟩
  | .local _ .smem, ⟨1, _⟩ => ⟨S16384, .i32⟩
  | .local _ .smem, ⟨2, _⟩ => ⟨S16384, .i32⟩
  | _, _ => ⟨S1x64x100x88x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_v6 : Ref sig .tc := ⟨.hbm, 20, rfl⟩
abbrev main_call0_v7 : Ref sig .tc := ⟨.hbm, 21, rfl⟩
abbrev main_call0_c_2 : Ref sig .tc := ⟨.hbm, 22, rfl⟩
abbrev main_call0_v8 : Ref sig .tc := ⟨.hbm, 23, rfl⟩
abbrev main_call0_v9 : Ref sig .tc := ⟨.hbm, 24, rfl⟩
abbrev main_call0_c_3 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_v6 : Ref sig .tc := ⟨.hbm, 47, rfl⟩
abbrev main_call1_v7 : Ref sig .tc := ⟨.hbm, 48, rfl⟩
abbrev main_call1_c_2 : Ref sig .tc := ⟨.hbm, 49, rfl⟩
abbrev main_call1_v8 : Ref sig .tc := ⟨.hbm, 50, rfl⟩
abbrev main_call1_v9 : Ref sig .tc := ⟨.hbm, 51, rfl⟩
abbrev main_call1_c_3 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_v15 : Ref sig .tc := ⟨.hbm, 58, rfl⟩
abbrev main_call1_v16 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_v6 : Ref sig .tc := ⟨.hbm, 74, rfl⟩
abbrev main_call2_v7 : Ref sig .tc := ⟨.hbm, 75, rfl⟩
abbrev main_call2_c_2 : Ref sig .tc := ⟨.hbm, 76, rfl⟩
abbrev main_call2_v8 : Ref sig .tc := ⟨.hbm, 77, rfl⟩
abbrev main_call2_v9 : Ref sig .tc := ⟨.hbm, 78, rfl⟩
abbrev main_call2_c_3 : Ref sig .tc := ⟨.hbm, 79, rfl⟩
abbrev main_call2_v10 : Ref sig .tc := ⟨.hbm, 80, rfl⟩
abbrev main_call2_v11 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_v15 : Ref sig .tc := ⟨.hbm, 85, rfl⟩
abbrev main_call2_v16 : Ref sig .tc := ⟨.hbm, 86, rfl⟩
abbrev main_v14 : Ref sig .tc := ⟨.hbm, 87, rfl⟩
abbrev main_v15 : Ref sig .tc := ⟨.hbm, 88, rfl⟩
abbrev main_v16 : Ref sig .tc := ⟨.hbm, 89, rfl⟩
abbrev main_c_1 : Ref sig .tc := ⟨.hbm, 90, rfl⟩
abbrev main_v17 : Ref sig .tc := ⟨.hbm, 91, rfl⟩
abbrev main_v18 : Ref sig .tc := ⟨.hbm, 92, rfl⟩
abbrev main_v19 : Ref sig .tc := ⟨.hbm, 93, rfl⟩
abbrev main_v20 : Ref sig .tc := ⟨.hbm, 94, rfl⟩
abbrev main_c_2 : Ref sig .tc := ⟨.hbm, 95, rfl⟩
abbrev main_v21 : Ref sig .tc := ⟨.hbm, 96, rfl⟩
abbrev main_v22 : Ref sig .tc := ⟨.hbm, 97, rfl⟩
abbrev main_v23 : Ref sig .tc := ⟨.hbm, 98, rfl⟩
abbrev main_v24 : Ref sig .tc := ⟨.hbm, 99, rfl⟩
abbrev main_v25 : Ref sig .tc := ⟨.hbm, 100, rfl⟩
abbrev main_v27 : Ref sig .tc := ⟨.hbm, 101, rfl⟩
abbrev main_v28 : Ref sig .tc := ⟨.hbm, 102, rfl⟩
abbrev main_c_3 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_c_4 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_v37 : Ref sig .tc := ⟨.hbm, 113, rfl⟩
abbrev main_v39 : Ref sig .tc := ⟨.hbm, 114, rfl⟩
abbrev main_v40 : Ref sig .tc := ⟨.hbm, 115, rfl⟩
abbrev main_c_5 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_c_6 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_v49 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v26 : Ref sig .tc := ⟨.smem, 0, rfl⟩
abbrev main_v38 : Ref sig .tc := ⟨.smem, 1, rfl⟩
abbrev main_v50 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_scratch0 : Ref sig .tc := ⟨.vmem, 15, rfl⟩
abbrev cc2_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x7040 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7040x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x7040 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S7040x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![16384], ![false]⟩

abbrev pre2 : Pipeline.Prefetch sig := ⟨3, ![main_v26.idx, main_v38.idx, main_v50.idx], fun | 0 => main_v26.names | 1 => main_v38.names | 2 => main_v50.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_cond2 (i : grid2.Coords) : BitVec 1 :=
  let arg0 : BitVec 32 := BitVec.ofNat 32 (i 0).val
  let c16383_i32 : BitVec 32 := 16383#32
  let v89 : BitVec 1 := Scalar.cmpi .eq arg0 c16383_i32
  let v90 : BitVec 32 := Scalar.extui v89
  let c0_i32_39 : BitVec 32 := 0#32
  let v91 : BitVec 1 := Scalar.cmpi .ne v90 c0_i32_39
  v91

def cc2_transform_0 (k2_off1_inb : ∀ i : grid2.Coords, ∀ a, (k2_off1 i) a + S1.size a ≤ S16384.size a) (numel1_S1 : S1.numel = 1) (pf : pre2.Contents (Elt F)) (i : grid2.Coords) : Fin 2 → Nat :=
  let arg0 : BitVec 32 := BitVec.ofNat 32 (i 0).val
  let v0 : Index := Scalar.indexCast arg0
  let v1 : BitVec 32 := pf.at 0 (Rect.unit (s := S16384) ![v0.toNat] S1.size (k2_off1_inb i)) numel1_S1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc2_transform_1 (k2_off1_inb : ∀ i : grid2.Coords, ∀ a, (k2_off1 i) a + S1.size a ≤ S16384.size a) (numel1_S1 : S1.numel = 1) (pf : pre2.Contents (Elt F)) (i : grid2.Coords) : Fin 2 → Nat :=
  let arg0 : BitVec 32 := BitVec.ofNat 32 (i 0).val
  let v0 : Index := Scalar.indexCast arg0
  let v1 : BitVec 32 := pf.at 1 (Rect.unit (s := S16384) ![v0.toNat] S1.size (k2_off1_inb i)) numel1_S1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc2_transform_2 (k2_off1_inb : ∀ i : grid2.Coords, ∀ a, (k2_off1 i) a + S1.size a ≤ S16384.size a) (numel1_S1 : S1.numel = 1) (pf : pre2.Contents (Elt F)) (i : grid2.Coords) : Fin 2 → Nat :=
  let arg0 : BitVec 32 := BitVec.ofNat 32 (i 0).val
  let v0 : Index := Scalar.indexCast arg0
  let v1 : BitVec 32 := pf.at 2 (Rect.unit (s := S16384) ![v0.toNat] S1.size (k2_off1_inb i)) numel1_S1
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S8x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  bcast_S3_S1x3_1 : S3.BroadcastsInDim S1x3 (![1] : Fin 1 → Fin S1x3.rank)
  bcast_S1x3_S16384x3_0_1 : S1x3.BroadcastsInDim S16384x3 (![0, 1] : Fin 2 → Fin S16384x3.rank)
  bcast_S_S1x3 : S_.BroadcastsInDim S1x3 (![] : Fin 0 → Fin S1x3.rank)
  bcast_S_S16384x3 : S_.BroadcastsInDim S16384x3 (![] : Fin 0 → Fin S16384x3.rank)
  slices_S16384x3_S16384x1_0_0 : S16384x3.Slices ![0, 0] S16384x1
  shapeCasts_S16384x1_S16384 : S16384x1.ShapeCasts S16384
  bcast_S_S16384 : S_.BroadcastsInDim S16384 (![] : Fin 0 → Fin S16384.rank)
  slices_S16384x3_S16384x1_0_1 : S16384x3.Slices ![0, 1] S16384x1
  slices_S16384x3_S16384x1_0_2 : S16384x3.Slices ![0, 2] S16384x1
  shapeCasts_S1x64x100x88x80_S64x704000 : S1x64x100x88x80.ShapeCasts S64x704000
  inb_S64x7040_S64x7040_0_0 : ∀ a, (![0, 0] : Fin 2 → Nat) a + S64x7040.size a ≤ S64x7040.size a
  h_S64x7040 : 0 < S64x7040.numel
  shapeCasts_S64x7040_S64x7040 : S64x7040.ShapeCasts S64x7040
  transposes_S64x7040_p1_0_S7040x64 : S64x7040.Transposes [1, 0] S7040x64
  inb_S7040x64_S7040x64_0_0 : ∀ a, (![0, 0] : Fin 2 → Nat) a + S7040x64.size a ≤ S7040x64.size a
  h_S7040x64 : 0 < S7040x64.numel
  numel1_S1 : S1.numel = 1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  iota_S8x64_d0_w32 : S8x64.Iotas .tc 32 [0]
  inb_S8x64_S8x64_0_0 : ∀ a, (![0, 0] : Fin 2 → Nat) a + S8x64.size a ≤ S8x64.size a
  h_S8x64 : 0 < S8x64.numel
  shapeCasts_S8x64_S8x64 : S8x64.ShapeCasts S8x64
  reduces_S8x64_S64 : S8x64.Reduces [0] S64
  shapeCasts_S64_S1x64 : S64.ShapeCasts S1x64
  reduces_S1x64_S1 : S1x64.Reduces [1] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x7040.size a ≤ S64x704000.size a
  hwx0_0 : ∀ i : grid0.Coords, EltTy.bits .f32 = 32 ∨ (Rect.block (s := S64x704000) S64x7040.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S7040x64.size a ≤ S704000x64.size a
  hwx0_1 : ∀ i : grid0.Coords, EltTy.bits .f32 = 32 ∨ (Rect.block (s := S704000x64) S7040x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x7040.size a ≤ S64x704000.size a
  hwx1_0 : ∀ i : grid1.Coords, EltTy.bits .f32 = 32 ∨ (Rect.block (s := S64x704000) S64x7040.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S7040x64.size a ≤ S704000x64.size a
  hwx1_1 : ∀ i : grid1.Coords, EltTy.bits .f32 = 32 ∨ (Rect.block (s := S704000x64) S7040x64.size (cc1_transform_1 i) (hinb1_1 i)).WholeWords (EltTy.packing .f32)
  hrank2 : 0 < grid2.rank
  k2_off1_inb : ∀ i : grid2.Coords, ∀ a, (k2_off1 i) a + S1.size a ≤ S16384.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ {F : FTy → Type} [FloatOps F] (pf : pre2.Contents (Elt F)) (i i' : grid2.Coords), (∀ a, reads2_1 a = true → i a = i' a) → cc2_transform_1 k2_off1_inb numel1_S1 pf i = cc2_transform_1 k2_off1_inb numel1_S1 pf i'
  hstage2_2 : ∀ j, (stage2_2 j).IsWhole
  nbuf2_2 : grid2.bufCount reads2_2 false = 2
  hreads2_2 : ∀ {F : FTy → Type} [FloatOps F] (pf : pre2.Contents (Elt F)) (i i' : grid2.Coords), (∀ a, reads2_2 a = true → i a = i' a) → cc2_transform_2 k2_off1_inb numel1_S1 pf i = cc2_transform_2 k2_off1_inb numel1_S1 pf i'
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)

variable [Facts₀]

abbrev win0_0 : Pipeline.Window sig grid0 :=
  Pipeline.Window.ofSpec (Memref.whole main_v51) S64x7040.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v53) S7040x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v52) S64x7040.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S7040x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev spec2_0 : Pipeline.WinSpec sig grid2.rank :=
  Pipeline.WinSpec.ofSpec (Memref.whole main_v53) S8x64.size reads2_0 false false 2 stage2_0 sem2_0 nbuf2_0 hstage2_0

abbrev spec2_1 : Pipeline.WinSpec sig grid2.rank :=
  Pipeline.WinSpec.ofSpec (Memref.whole main_v54) S8x64.size reads2_1 false false 2 stage2_1 sem2_1 nbuf2_1 hstage2_1

abbrev spec2_2 : Pipeline.WinSpec sig grid2.rank :=
  Pipeline.WinSpec.ofSpec (Memref.whole main_v54) S8x64.size reads2_2 false false 2 stage2_2 sem2_2 nbuf2_2 hstage2_2

abbrev spec2_3 : Pipeline.WinSpec sig grid2.rank :=
  Pipeline.WinSpec.ofSpec (Memref.whole main_v55) S1x1.size reads2_3 true true 1 stage2_3 sem2_3 nbuf2_3 hstage2_3

abbrev spec2 : Fin 4 → Pipeline.WinSpec sig grid2.rank := fun | 0 => spec2_0 | 1 => spec2_1 | 2 => spec2_2 | 3 => spec2_3 | ⟨_ + 4, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | 3 => nbuf2_3 | ⟨_ + 4, h⟩ => absurd h (Nat.not_lt.2 (Nat.le_add_left _ _))
abbrev ix2 (pf : pre2.Contents (Elt F)) : (w : Fin 4) → grid2.Coords → Fin (spec2 w).shape.rank → Nat := fun | 0 => cc2_transform_0 k2_off1_inb numel1_S1 pf | 1 => cc2_transform_1 k2_off1_inb numel1_S1 pf | 2 => cc2_transform_2 k2_off1_inb numel1_S1 pf | 3 => cc2_transform_3 | ⟨_ + 4, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 pf | 2 => hreads2_2 pf | 3 => hreads2_3 | ⟨_ + 4, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S8x64.size a ≤ S704000x64.size a), EltTy.bits .f32 = 32 ∨ (Rect.block (s := S704000x64) S8x64.size (cc2_transform_0 k2_off1_inb numel1_S1 pf i) h).WholeWords (EltTy.packing .f32)) ∧
  (∀ i : grid2.Coords, ∃ h : (∀ a, (cc2_transform_1 k2_off1_inb numel1_S1 pf i a + 1) * S8x64.size a ≤ S704000x64.size a), EltTy.bits .f32 = 32 ∨ (Rect.block (s := S704000x64) S8x64.size (cc2_transform_1 k2_off1_inb numel1_S1 pf i) h).WholeWords (EltTy.packing .f32)) ∧
  (∀ i : grid2.Coords, ∃ h : (∀ a, (cc2_transform_2 k2_off1_inb numel1_S1 pf i a + 1) * S8x64.size a ≤ S704000x64.size a), EltTy.bits .f32 = 32 ∨ (Rect.block (s := S704000x64) S8x64.size (cc2_transform_2 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok.1 i).elim fun h _ => h a | 1 => fun i a => (hok.2.1 i).elim fun h _ => h a | 2 => fun i a => (hok.2.2 i).elim fun h _ => h a | 3 => hinb2_3 | ⟨_ + 4, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok.1 i).elim fun _ h => h | 1 => fun i => (hok.2.1 i).elim fun _ h => h | 2 => fun i => (hok.2.2 i).elim fun _ h => h | 3 => hwx2_3 | ⟨_ + 4, h⟩ => absurd h (Nat.not_lt.2 (Nat.le_add_left _ _))
abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where
  harr2 : ∀ w, (spec2 w).arr.IsWhole

variable [Facts]
-- ==== ReferenceIdeal.lean ====
abbrev S1x64x100x88x80 : Shape := ⟨5, ![1, 64, 100, 88, 80]⟩
abbrev S16384x3 : Shape := ⟨2, ![16384, 3]⟩
abbrev S3 : Shape := ⟨1, ![3]⟩
abbrev S1x3 : Shape := ⟨2, ![1, 3]⟩
abbrev S_ : Shape := ⟨0, ![]⟩
abbrev S64x100x88x80 : Shape := ⟨4, ![64, 100, 88, 80]⟩
abbrev S16384x1 : Shape := ⟨2, ![16384, 1]⟩
abbrev S16384 : Shape := ⟨1, ![16384]⟩
abbrev S64x16384 : Shape := ⟨2, ![64, 16384]⟩
abbrev S16384x64 : Shape := ⟨2, ![16384, 64]⟩

abbrev nBuf : Space → Nat
  | .hbm => 216
  | .vmem => 0
  | .smem => 0
  | _ => 0

abbrev hbmTy0_0 (i : Nat) : BufTy := match i % 128 with
  | 0 => ⟨S1x64x100x88x80, .f32⟩
  | 1 => ⟨S1x64x100x88x80, .f32⟩
  | 2 => ⟨S16384x3, .i32⟩
  | 3 => ⟨S16384x3, .i32⟩
  | 4 => ⟨S16384x3, .i32⟩
  | 5 => ⟨S3, .i32⟩
  | 6 => ⟨S3, .i32⟩
  | 7 => ⟨S1x3, .i32⟩
  | 8 => ⟨S16384x3, .i32⟩
  | 9 => ⟨S16384x3, .i32⟩
  | 10 => ⟨S1x3, .i32⟩
  | 11 => ⟨S_, .i32⟩
  | 12 => ⟨S1x3, .i32⟩
  | 13 => ⟨S1x3, .i1⟩
  | 14 => ⟨S_, .i32⟩
  | 15 => ⟨S1x3, .i32⟩
  | 16 => ⟨S1x3, .i32⟩
  | 17 => ⟨S16384x3, .i32⟩
  | 18 => ⟨S16384x3, .i32⟩
  | 19 => ⟨S_, .i32⟩
  | 20 => ⟨S16384x3, .i32⟩
  | 21 => ⟨S16384x3, .i1⟩
  | 22 => ⟨S_, .i32⟩
  | 23 => ⟨S16384x3, .i32⟩
  | 24 => ⟨S16384x3, .i1⟩
  | 25 => ⟨S_, .i32⟩
  | 26 => ⟨S1x3, .i32⟩
  | 27 => ⟨S1x3, .i1⟩
  | 28 => ⟨S16384x3, .i1⟩
  | 29 => ⟨S16384x3, .i1⟩
  | 30 => ⟨S16384x3, .i1⟩
  | 31 => ⟨S16384x3, .i32⟩
  | 32 => ⟨S16384x3, .i32⟩
  | 33 => ⟨S16384x3, .i32⟩
  | 34 => ⟨S1x3, .i32⟩
  | 35 => ⟨S16384x3, .i32⟩
  | 36 => ⟨S16384x3, .i32⟩
  | 37 => ⟨S1x3, .i32⟩
  | 38 => ⟨S_, .i32⟩
  | 39 => ⟨S1x3, .i32⟩
  | 40 => ⟨S1x3, .i1⟩
  | 41 => ⟨S_, .i32⟩
  | 42 => ⟨S1x3, .i32⟩
  | 43 => ⟨S1x3, .i32⟩
  | 44 => ⟨S16384x3, .i32⟩
  | 45 => ⟨S16384x3, .i32⟩
  | 46 => ⟨S_, .i32⟩
  | 47 => ⟨S16384x3, .i32⟩
  | 48 => ⟨S16384x3, .i1⟩
  | 49 => ⟨S_, .i32⟩
  | 50 => ⟨S16384x3, .i32⟩
  | 51 => ⟨S16384x3, .i1⟩
  | 52 => ⟨S_, .i32⟩
  | 53 => ⟨S1x3, .i32⟩
  | 54 => ⟨S1x3, .i1⟩
  | 55 => ⟨S16384x3, .i1⟩
  | 56 => ⟨S16384x3, .i1⟩
  | 57 => ⟨S16384x3, .i1⟩
  | 58 => ⟨S16384x3, .i32⟩
  | 59 => ⟨S16384x3, .i32⟩
  | 60 => ⟨S16384x3, .i32⟩
  | 61 => ⟨S1x3, .i32⟩
  | 62 => ⟨S16384x3, .i32⟩
  | 63 => ⟨S16384x3, .i32⟩
  | 64 => ⟨S1x3, .i32⟩
  | 65 => ⟨S_, .i32⟩
  | 66 => ⟨S1x3, .i32⟩
  | 67 => ⟨S1x3, .i1⟩
  | 68 => ⟨S_, .i32⟩
  | 69 => ⟨S1x3, .i32⟩
  | 70 => ⟨S1x3, .i32⟩
  | 71 => ⟨S16384x3, .i32⟩
  | 72 => ⟨S16384x3, .i32⟩
  | 73 => ⟨S_, .i32⟩
  | 74 => ⟨S16384x3, .i32⟩
  | 75 => ⟨S16384x3, .i1⟩
  | 76 => ⟨S_, .i32⟩
  | 77 => ⟨S16384x3, .i32⟩
  | 78 => ⟨S16384x3, .i1⟩
  | 79 => ⟨S_, .i32⟩
  | 80 => ⟨S1x3, .i32⟩
  | 81 => ⟨S1x3, .i1⟩
  | 82 => ⟨S16384x3, .i1⟩
  | 83 => ⟨S16384x3, .i1⟩
  | 84 => ⟨S16384x3, .i1⟩
  | 85 => ⟨S16384x3, .i32⟩
  | 86 => ⟨S16384x3, .i32⟩
  | 87 => ⟨S16384x3, .i32⟩
  | 88 => ⟨S64x100x88x80, .f32⟩
  | 89 => ⟨S16384x1, .i32⟩
  | 90 => ⟨S16384, .i32⟩
  | 91 => ⟨S16384x1, .i32⟩
  | 92 => ⟨S16384, .i32⟩
  | 93 => ⟨S16384x1, .i32⟩
  | 94 => ⟨S16384, .i32⟩
  | 95 => ⟨S_, .i32⟩
  | 96 => ⟨S16384, .i32⟩
  | 97 => ⟨S16384, .i1⟩
  | 98 => ⟨S_, .i32⟩
  | 99 => ⟨S16384, .i32⟩
  | 100 => ⟨S16384, .i32⟩
  | 101 => ⟨S16384, .i32⟩
  | 102 => ⟨S_, .i32⟩
  | 103 => ⟨S16384, .i32⟩
  | 104 => ⟨S16384, .i1⟩
  | 105 => ⟨S_, .i32⟩
  | 106 => ⟨S16384, .i32⟩
  | 107 => ⟨S16384, .i32⟩
  | 108 => ⟨S16384, .i32⟩
  | 109 => ⟨S_, .i32⟩
  | 110 => ⟨S16384, .i32⟩
  | 111 => ⟨S16384, .i1⟩
  | 112 => ⟨S_, .i32⟩
  | 113 => ⟨S16384, .i32⟩
  | 114 => ⟨S16384, .i32⟩
  | 115 => ⟨S16384, .i32⟩
  | 116 => ⟨S16384x1, .i32⟩
  | 117 => ⟨S16384x1, .i32⟩
  | 118 => ⟨S16384x1, .i32⟩
  | 119 => ⟨S16384x3, .i32⟩
  | 120 => ⟨S64x16384, .f32⟩
  | 121 => ⟨S16384x64, .f32⟩
  | 122 => ⟨S64x100x88x80, .f32⟩
  | 123 => ⟨S16384x1, .i32⟩
  | 124 => ⟨S16384, .i32⟩
  | 125 => ⟨S16384x1, .i32⟩
  | 126 => ⟨S16384, .i32⟩
  | 127 => ⟨S16384x1, .i32⟩
  | _ => ⟨S1x64x100x88x80, .f32⟩

abbrev hbmTy0_1 (i : Nat) : BufTy := match i % 128 with
  | 0 => ⟨S16384, .i32⟩
  | 1 => ⟨S_, .i32⟩
  | 2 => ⟨S16384, .i32⟩
  | 3 => ⟨S16384, .i1⟩
  | 4 => ⟨S_, .i32⟩
  | 5 => ⟨S16384, .i32⟩
  | 6 => ⟨S16384, .i32⟩
  | 7 => ⟨S16384, .i32⟩
  | 8 => ⟨S_, .i32⟩
  | 9 => ⟨S16384, .i32⟩
  | 10 => ⟨S16384, .i1⟩
  | 11 => ⟨S_, .i32⟩
  | 12 => ⟨S16384, .i32⟩
  | 13 => ⟨S16384, .i32⟩
  | 14 => ⟨S16384, .i32⟩
  | 15 => ⟨S_, .i32⟩
  | 16 => ⟨S16384, .i32⟩
  | 17 => ⟨S16384, .i1⟩
  | 18 => ⟨S_, .i32⟩
  | 19 => ⟨S16384, .i32⟩
  | 20 => ⟨S16384, .i32⟩
  | 21 => ⟨S16384, .i32⟩
  | 22 => ⟨S16384x1, .i32⟩
  | 23 => ⟨S16384x1, .i32⟩
  | 24 => ⟨S16384x1, .i32⟩
  | 25 => ⟨S16384x3, .i32⟩
  | 26 => ⟨S64x16384, .f32⟩
  | 27 => ⟨S16384x64, .f32⟩
  | 28 => ⟨S64x100x88x80, .f32⟩
  | 29 => ⟨S16384x1, .i32⟩
  | 30 => ⟨S16384, .i32⟩
  | 31 => ⟨S16384x1, .i32⟩
  | 32 => ⟨S16384, .i32⟩
  | 33 => ⟨S16384x1, .i32⟩
  | 34 => ⟨S16384, .i32⟩
  | 35 => ⟨S_, .i32⟩
  | 36 => ⟨S16384, .i32⟩
  | 37 => ⟨S16384, .i1⟩
  | 38 => ⟨S_, .i32⟩
  | 39 => ⟨S16384, .i32⟩
  | 40 => ⟨S16384, .i32⟩
  | 41 => ⟨S16384, .i32⟩
  | 42 => ⟨S_, .i32⟩
  | 43 => ⟨S16384, .i32⟩
  | 44 => ⟨S16384, .i1⟩
  | 45 => ⟨S_, .i32⟩
  | 46 => ⟨S16384, .i32⟩
  | 47 => ⟨S16384, .i32⟩
  | 48 => ⟨S16384, .i32⟩
  | 49 => ⟨S_, .i32⟩
  | 50 => ⟨S16384, .i32⟩
  | 51 => ⟨S16384, .i1⟩
  | 52 => ⟨S_, .i32⟩
  | 53 => ⟨S16384, .i32⟩
  | 54 => ⟨S16384, .i32⟩
  | 55 => ⟨S16384, .i32⟩
  | 56 => ⟨S16384x1, .i32⟩
  | 57 => ⟨S16384x1, .i32⟩
  | 58 => ⟨S16384x1, .i32⟩
  | 59 => ⟨S16384x3, .i32⟩
  | 60 => ⟨S64x16384, .f32⟩
  | 61 => ⟨S16384x64, .f32⟩
  | 62 => ⟨S16384x64, .f32⟩
  | 63 => ⟨S16384x64, .f32⟩
  | 64 => ⟨S_, .f32⟩
  | 65 => ⟨S16384, .f32⟩
  | 66 => ⟨S16384x64, .f32⟩
  | 67 => ⟨S16384x64, .f32⟩
  | 68 => ⟨S_, .f32⟩
  | 69 => ⟨S16384, .f32⟩
  | 70 => ⟨S16384, .f32⟩
  | 71 => ⟨S_, .f32⟩
  | 72 => ⟨S_, .f32⟩
  | 73 => ⟨S16384, .f32⟩
  | 74 => ⟨S_, .f32⟩
  | 75 => ⟨S16384, .f32⟩
  | 76 => ⟨S16384, .f32⟩
  | 77 => ⟨S_, .f32⟩
  | 78 => ⟨S16384, .f32⟩
  | 79 => ⟨S16384, .f32⟩
  | 80 => ⟨S16384, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | _ => ⟨S1x64x100x88x80, .f32⟩

abbrev hbmTy (i : Nat) : BufTy := match i / 128 with
  | 0 => hbmTy0_0 i
  | 1 => hbmTy0_1 i
  | _ => ⟨S1x64x100x88x80, .f32⟩

abbrev bufTy : (tb : Table) → Fin (tcTables nBuf tb) → BufTy
  | .hbm, ⟨i, _⟩ => hbmTy i
  | _, _ => ⟨S1x64x100x88x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_v6 : Ref sig .tc := ⟨.hbm, 20, rfl⟩
abbrev main_call0_v7 : Ref sig .tc := ⟨.hbm, 21, rfl⟩
abbrev main_call0_c_2 : Ref sig .tc := ⟨.hbm, 22, rfl⟩
abbrev main_call0_v8 : Ref sig .tc := ⟨.hbm, 23, rfl⟩
abbrev main_call0_v9 : Ref sig .tc := ⟨.hbm, 24, rfl⟩
abbrev main_call0_c_3 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_v6 : Ref sig .tc := ⟨.hbm, 47, rfl⟩
abbrev main_call1_v7 : Ref sig .tc := ⟨.hbm, 48, rfl⟩
abbrev main_call1_c_2 : Ref sig .tc := ⟨.hbm, 49, rfl⟩
abbrev main_call1_v8 : Ref sig .tc := ⟨.hbm, 50, rfl⟩
abbrev main_call1_v9 : Ref sig .tc := ⟨.hbm, 51, rfl⟩
abbrev main_call1_c_3 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_v15 : Ref sig .tc := ⟨.hbm, 58, rfl⟩
abbrev main_call1_v16 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_v6 : Ref sig .tc := ⟨.hbm, 74, rfl⟩
abbrev main_call2_v7 : Ref sig .tc := ⟨.hbm, 75, rfl⟩
abbrev main_call2_c_2 : Ref sig .tc := ⟨.hbm, 76, rfl⟩
abbrev main_call2_v8 : Ref sig .tc := ⟨.hbm, 77, rfl⟩
abbrev main_call2_v9 : Ref sig .tc := ⟨.hbm, 78, rfl⟩
abbrev main_call2_c_3 : Ref sig .tc := ⟨.hbm, 79, rfl⟩
abbrev main_call2_v10 : Ref sig .tc := ⟨.hbm, 80, rfl⟩
abbrev main_call2_v11 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_v15 : Ref sig .tc := ⟨.hbm, 85, rfl⟩
abbrev main_call2_v16 : Ref sig .tc := ⟨.hbm, 86, rfl⟩
abbrev main_v14 : Ref sig .tc := ⟨.hbm, 87, rfl⟩
abbrev main_v15 : Ref sig .tc := ⟨.hbm, 88, rfl⟩
abbrev main_v16 : Ref sig .tc := ⟨.hbm, 89, rfl⟩
abbrev main_v17 : Ref sig .tc := ⟨.hbm, 90, rfl⟩
abbrev main_v18 : Ref sig .tc := ⟨.hbm, 91, rfl⟩
abbrev main_v19 : Ref sig .tc := ⟨.hbm, 92, rfl⟩
abbrev main_v20 : Ref sig .tc := ⟨.hbm, 93, rfl⟩
abbrev main_v21 : Ref sig .tc := ⟨.hbm, 94, rfl⟩
abbrev main_c_1 : Ref sig .tc := ⟨.hbm, 95, rfl⟩
abbrev main_v22 : Ref sig .tc := ⟨.hbm, 96, rfl⟩
abbrev main_v23 : Ref sig .tc := ⟨.hbm, 97, rfl⟩
abbrev main_c_2 : Ref sig .tc := ⟨.hbm, 98, rfl⟩
abbrev main_v24 : Ref sig .tc := ⟨.hbm, 99, rfl⟩
abbrev main_v25 : Ref sig .tc := ⟨.hbm, 100, rfl⟩
abbrev main_v26 : Ref sig .tc := ⟨.hbm, 101, rfl⟩
abbrev main_c_3 : Ref sig .tc := ⟨.hbm, 102, rfl⟩
abbrev main_v27 : Ref sig .tc := ⟨.hbm, 103, rfl⟩
abbrev main_v28 : Ref sig .tc := ⟨.hbm, 104, rfl⟩
abbrev main_c_4 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_c_5 : Ref sig .tc := ⟨.hbm, 109, rfl⟩
abbrev main_v32 : Ref sig .tc := ⟨.hbm, 110, rfl⟩
abbrev main_v33 : Ref sig .tc := ⟨.hbm, 111, rfl⟩
abbrev main_c_6 : Ref sig .tc := ⟨.hbm, 112, rfl⟩
abbrev main_v34 : Ref sig .tc := ⟨.hbm, 113, rfl⟩
abbrev main_v35 : Ref sig .tc := ⟨.hbm, 114, rfl⟩
abbrev main_v36 : Ref sig .tc := ⟨.hbm, 115, rfl⟩
abbrev main_v37 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_c_7 : Ref sig .tc := ⟨.hbm, 129, rfl⟩
abbrev main_v50 : Ref sig .tc := ⟨.hbm, 130, rfl⟩
abbrev main_v51 : Ref sig .tc := ⟨.hbm, 131, rfl⟩
abbrev main_c_8 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_c_9 : Ref sig .tc := ⟨.hbm, 136, rfl⟩
abbrev main_v55 : Ref sig .tc := ⟨.hbm, 137, rfl⟩
abbrev main_v56 : Ref sig .tc := ⟨.hbm, 138, rfl⟩
abbrev main_c_10 : Ref sig .tc := ⟨.hbm, 139, rfl⟩
abbrev main_v57 : Ref sig .tc := ⟨.hbm, 140, rfl⟩
abbrev main_v58 : Ref sig .tc := ⟨.hbm, 141, rfl⟩
abbrev main_v59 : Ref sig .tc := ⟨.hbm, 142, rfl⟩
abbrev main_c_11 : Ref sig .tc := ⟨.hbm, 143, rfl⟩
abbrev main_v60 : Ref sig .tc := ⟨.hbm, 144, rfl⟩
abbrev main_v61 : Ref sig .tc := ⟨.hbm, 145, rfl⟩
abbrev main_c_12 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_c_13 : Ref sig .tc := ⟨.hbm, 163, rfl⟩
abbrev main_v78 : Ref sig .tc := ⟨.hbm, 164, rfl⟩
abbrev main_v79 : Ref sig .tc := ⟨.hbm, 165, rfl⟩
abbrev main_c_14 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_c_15 : Ref sig .tc := ⟨.hbm, 170, rfl⟩
abbrev main_v83 : Ref sig .tc := ⟨.hbm, 171, rfl⟩
abbrev main_v84 : Ref sig .tc := ⟨.hbm, 172, rfl⟩
abbrev main_c_16 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_c_17 : Ref sig .tc := ⟨.hbm, 177, rfl⟩
abbrev main_v88 : Ref sig .tc := ⟨.hbm, 178, rfl⟩
abbrev main_v89 : Ref sig .tc := ⟨.hbm, 179, rfl⟩
abbrev main_c_18 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_cst : Ref sig .tc := ⟨.hbm, 192, rfl⟩
abbrev main_v101 : Ref sig .tc := ⟨.hbm, 193, rfl⟩
abbrev main_v102 : Ref sig .tc := ⟨.hbm, 194, rfl⟩
abbrev main_v103 : Ref sig .tc := ⟨.hbm, 195, rfl⟩
abbrev main_cst_19 : Ref sig .tc := ⟨.hbm, 196, rfl⟩
abbrev main_v104 : Ref sig .tc := ⟨.hbm, 197, rfl⟩
abbrev main_v105 : Ref sig .tc := ⟨.hbm, 198, rfl⟩
abbrev main_cst_20 : Ref sig .tc := ⟨.hbm, 199, rfl⟩
abbrev main_v106 : Ref sig .tc := ⟨.hbm, 200, rfl⟩
abbrev main_v107 : Ref sig .tc := ⟨.hbm, 201, rfl⟩
abbrev main_cst_21 : Ref sig .tc := ⟨.hbm, 202, rfl⟩
abbrev main_v108 : Ref sig .tc := ⟨.hbm, 203, rfl⟩
abbrev main_v109 : Ref sig .tc := ⟨.hbm, 204, rfl⟩
abbrev main_cst_22 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_cst_23 : Ref sig .tc := ⟨.hbm, 209, rfl⟩
abbrev main_v113 : Ref sig .tc := ⟨.hbm, 210, rfl⟩
abbrev main_v114 : Ref sig .tc := ⟨.hbm, 211, rfl⟩
abbrev main_cst_24 : Ref sig .tc := ⟨.hbm, 212, rfl⟩
abbrev main_v115 : Ref sig .tc := ⟨.hbm, 213, rfl⟩
abbrev main_cst_25 : Ref sig .tc := ⟨.hbm, 214, rfl⟩
abbrev main_v116 : Ref sig .tc := ⟨.hbm, 215, rfl⟩

abbrev nD : Nat := 1
abbrev τ : Topo := Topo.v7x

variable {F : FTy → Type} [FloatOps F]

class Facts₀ : Prop where
  bcast_S3_S1x3_1 : S3.BroadcastsInDim S1x3 (![1] : Fin 1 → Fin S1x3.rank)
  bcast_S1x3_S16384x3_0_1 : S1x3.BroadcastsInDim S16384x3 (![0, 1] : Fin 2 → Fin S16384x3.rank)
  bcast_S_S1x3 : S_.BroadcastsInDim S1x3 (![] : Fin 0 → Fin S1x3.rank)
  bcast_S_S16384x3 : S_.BroadcastsInDim S16384x3 (![] : Fin 0 → Fin S16384x3.rank)
  shapeCasts_S1x64x100x88x80_S64x100x88x80 : S1x64x100x88x80.ShapeCasts S64x100x88x80
  slices_S16384x3_S16384x1_0_0 : S16384x3.Slices ![0, 0] S16384x1
  shapeCasts_S16384x1_S16384 : S16384x1.ShapeCasts S16384
  slices_S16384x3_S16384x1_0_1 : S16384x3.Slices ![0, 1] S16384x1
  slices_S16384x3_S16384x1_0_2 : S16384x3.Slices ![0, 2] S16384x1
  bcast_S_S16384 : S_.BroadcastsInDim S16384 (![] : Fin 0 → Fin S16384.rank)
  bcast_S16384_S16384x1_0 : S16384.BroadcastsInDim S16384x1 (![0] : Fin 1 → Fin S16384x1.rank)
  concatenates_S16384x1_S16384x1_S16384x1_S16384x3_d1 : Shape.Concatenates [S16384x1, S16384x1, S16384x1] S16384x3 1
  transposes_S64x16384_S16384x64_1_0 : S64x16384.Transposes [1, 0] S16384x64
  reducesTo_S16384x64_S16384_d1 : S16384x64.ReducesTo [1] S16384
  h_S_ : 0 < S_.numel
  reducesTo_S16384_S_d0 : S16384.ReducesTo [0] S_
  gather_S64x100x88x80_S16384x3_S64x16384_0_123_n_n_123_1_64111_wf : GatherDims.WF S64x100x88x80 S16384x3 S64x16384 [0] [1, 2, 3] [] [1, 2, 3] [] 1 ![64, 1, 1, 1]

variable [Facts₀]

def gather_S64x100x88x80_S16384x3_S64x16384_0_123_n_n_123_1_64111 : GatherDims S64x100x88x80 S16384x3 S64x16384 where
  offsetDims := [0]
  collapsedSliceDims := [1, 2, 3]
  operandBatchingDims := []
  startIndicesBatchingDims := []
  startIndexMap := [1, 2, 3]
  indexVectorDim := 1
  sliceSizes := ![64, 1, 1, 1]
  wf := gather_S64x100x88x80_S16384x3_S64x16384_0_123_n_n_123_1_64111_wf

class Facts : Prop extends Facts₀ where

variable [Facts]
-- ==== Proof.Spec.lean ====
/-
  The loss as ONE function of the two feature volumes and of the three lists of redirected grid positions.

  A position is a voxel `(x, y, z)` of the 100 x 88 x 80 volume. For a point the feature vector of a volume at its
  position is the 64 entries `feat[0, c, x, y, z]`. The squared distance of two such vectors is the sum over the 64
  channels of the squared difference. The loss adds, over the 16384 points, the square of the distance between the
  fixed volume's vector and the moving volume's vector at the positive position, and the squared hinge
  `max(0, 1 - sqrt d)` of the distance to the moving volume's vector at the negative position; the total is divided
  by 65536 and scaled by one million. Every operation is the exact one on the extended reals.
-/
import Idealize.ShloMosaic.PureOps.Ideal
import Idealize.ShloMosaic.Lib.ValueIdx

noncomputable section

namespace Cert.Spec

open Idealize.ShloMosaic

/-- The shape of a feature volume: batch 1, 64 channels, 100 x 88 x 80 voxels. -/
abbrev SFeat : Shape := ⟨5, ![1, 64, 100, 88, 80]⟩

/-- A voxel of the volume. -/
abbrev Voxel : Type := Fin 100 × Fin 88 × Fin 80

/-- The flat index of a voxel in the row-major order of the three spatial axes. -/
def Voxel.flat (p : Voxel) : Nat := p.1.val * 7040 + p.2.1.val * 80 + p.2.2.val

theorem Voxel.flat_lt (p : Voxel) : p.flat < 704000 := by
  unfold Voxel.flat
  have h1 := p.1.isLt; have h2 := p.2.1.isLt; have h3 := p.2.2.isLt
  omega

/-- Channel `c` of a volume's feature vector at a voxel. -/
def rowAt (feat : SFeat.Idx → EReal) (p : Voxel) (c : Fin 64) : EReal :=
  feat (ValueIdx.ix5 (0 : Fin 1) c p.1 p.2.1 p.2.2)

/-- The squared distance between the fixed volume's vector at `pf` and the moving volume's vector at `pq`. -/
def dist (fixF movF : SFeat.Idx → EReal) (pf pq : Voxel) : EReal :=
  ∑ c : Fin 64, (rowAt fixF pf c - rowAt movF pq c) * (rowAt fixF pf c - rowAt movF pq c)

/-- The squared hinge of a squared distance at margin one. -/
def hinge (d : EReal) : EReal :=
  max (Ideal.ofBits .f32 0x00000000#32) (Ideal.ofBits .f32 0x3F800000#32 - Ideal.sqrt d)
    * max (Ideal.ofBits .f32 0x00000000#32) (Ideal.ofBits .f32 0x3F800000#32 - Ideal.sqrt d)

/-- The positive term: the sum over the points of the squared distance, squared. -/
def posSum (fixF movF : SFeat.Idx → EReal) (pf pp : Fin 16384 → Voxel) : EReal :=
  ∑ i : Fin 16384, dist fixF movF (pf i) (pp i) * dist fixF movF (pf i) (pp i)

/-- The negative term: the sum over the points of the squared hinge of the distance. -/
def negSum (fixF movF : SFeat.Idx → EReal) (pf pn : Fin 16384 → Voxel) : EReal :=
  ∑ i : Fin 16384, hinge (dist fixF movF (pf i) (pn i))

/-- The loss. -/
def loss (fixF movF : SFeat.Idx → EReal) (pf pp pn : Fin 16384 → Voxel) : EReal :=
  Ideal.div (posSum fixF movF pf pp + negSum fixF movF pf pn) (Ideal.ofBits .f32 0x47800000#32)
    * Ideal.ofBits .f32 0x49742400#32

end Cert.Spec

end
-- ==== Proof.Redirect.lean ====
/-
  Redirected grid positions. A point's coordinate `w` on axis `k` is moved by the crop origin and wrapped into the
  volume: `(w - off k) mod ext k` with the floored remainder, `off = (25, 225, 28)`, `ext = (100, 88, 80)`, all in
  32-bit two's complement (the subtraction may wrap; the truncated remainder of the wrapped difference is then
  corrected by one extent when it is negative). The result always lies in `[0, ext k)`, so it is a voxel coordinate.

  The wrapped word is written with the word operations of the host chain that computes it: the divisor is the extent
  unless the extent is zero, the remainder is the truncated one, and the divisor is added where the remainder is not
  zero and its sign differs from the divisor's. For a positive extent below `2 ^ 30` this is the truncated remainder,
  plus the extent when negative.
-/
import Idealize.ShloMosaic.PureOps
import Idealize.ShloMosaic.Lib.ValueIdx
import proofs.«427562_j44873818309267_2_alg».proof.Proof.Spec

noncomputable section

namespace Cert.Redirect

open Idealize.ShloMosaic

/-- The shape of a list of points: 16384 points, three coordinates each. -/
abbrev SPts : Shape := ⟨2, ![16384, 3]⟩

/-- The crop origin per axis. -/
def off : Fin 3 → BitVec 32 := ![25#32, 225#32, 28#32]
/-- The volume's extent per axis. -/
def ext : Fin 3 → BitVec 32 := ![100#32, 88#32, 80#32]
/-- The extents as numbers. -/
def extN : Fin 3 → Nat := ![100, 88, 80]

/-- The divisor of the floored remainder by `e`: `e`, or one when `e` is zero. -/
def divisor (e : BitVec 32) : BitVec 32 := Scalar.select (IntOp.cmpi .eq e 0#32) 1#32 e

/-- The floored remainder of `a` by `e` as the host spells it: the truncated remainder `r` by the divisor `d`, and
    `r + d` where the signs of `r` and `d` differ and `r` is not zero. -/
def wrap (a e : BitVec 32) : BitVec 32 :=
  Scalar.select
    (IntOp.andi
      (IntOp.cmpi .ne (IntOp.cmpi .slt (IntOp.remsi .host a (divisor e)) 0#32) (IntOp.cmpi .slt (divisor e) 0#32))
      (IntOp.cmpi .ne (IntOp.remsi .host a (divisor e)) 0#32))
    (IntOp.addi (IntOp.remsi .host a (divisor e)) (divisor e))
    (IntOp.remsi .host a (divisor e))

/-- The redirected coordinate of the word `w` on axis `k`. -/
def coordW (k : Fin 3) (w : BitVec 32) : BitVec 32 := wrap (IntOp.subi w (off k)) (ext k)

/-- For a positive extent below `2 ^ 30` the wrapped word is the truncated remainder, plus the extent when negative. -/
theorem wrap_eq (a e : BitVec 32) (n : Nat) (he : e.toNat = n) (hn0 : 0 < n) (hn : n < 2 ^ 30) :
    wrap a e = if (a.srem e).toInt < 0 then a.srem e + e else a.srem e := by
  have he0 : e ≠ 0#32 := by
    intro h; rw [h] at he; simp at he; omega
  have hem1 : e ≠ -1#32 := by
    intro h; rw [h] at he; simp at he; omega
  have heInt : e.toInt = (n : Int) := by
    rw [BitVec.toInt_eq_toNat_of_lt (by omega)]; omega
  have hd : divisor e = e := by
    have : IntOp.cmpi .eq e 0#32 = 0#1 := by
      show BitVec.ofBool (e == 0#32) = 0#1
      rw [beq_eq_false_iff_ne.mpr he0]; rfl
    unfold divisor
    rw [this]; exact ValueIdx.select_zero _ _
  have hr : IntOp.remsi .host a e = a.srem e := by
    unfold IntOp.remsi
    rw [if_neg]
    rintro (h | ⟨_, h⟩)
    · exact he0 h
    · exact hem1 h
  have hes : IntOp.cmpi .slt e 0#32 = 0#1 := by
    show BitVec.ofBool (e.slt 0#32) = 0#1
    have : e.slt 0#32 = false := by
      rw [BitVec.slt_eq_decide, BitVec.toInt_zero, heInt]
      exact decide_eq_false (by omega)
    rw [this]; rfl
  unfold wrap
  rw [hd, hr, hes]
  generalize a.srem e = r
  by_cases hneg : r.toInt < 0
  · have hs : IntOp.cmpi .slt r 0#32 = 1#1 := by
      show BitVec.ofBool (r.slt 0#32) = 1#1
      have : r.slt 0#32 = true := by
        rw [BitVec.slt_eq_decide, BitVec.toInt_zero]
        exact decide_eq_true hneg
      rw [this]; rfl
    have hr0 : r ≠ 0#32 := by
      intro h; rw [h, BitVec.toInt_zero] at hneg; omega
    have hn0' : IntOp.cmpi .ne r 0#32 = 1#1 := by
      show BitVec.ofBool (r != 0#32) = 1#1
      rw [bne_iff_ne.mpr hr0]; rfl
    rw [hs, hn0', if_pos hneg]
    exact ValueIdx.select_one _ _
  · have hs : IntOp.cmpi .slt r 0#32 = 0#1 := by
      show BitVec.ofBool (r.slt 0#32) = 0#1
      have : r.slt 0#32 = false := by
        rw [BitVec.slt_eq_decide, BitVec.toInt_zero]
        exact decide_eq_false hneg
      rw [this]; rfl
    rw [hs, if_neg hneg]
    have : IntOp.andi (IntOp.cmpi .ne 0#1 0#1) (IntOp.cmpi .ne r 0#32) = 0#1 := by
      show (BitVec.ofBool (0#1 != 0#1)) &&& _ = 0#1
      show 0#1 &&& _ = 0#1
      exact BitVec.zero_and
    rw [this]
    exact ValueIdx.select_zero _ _

/-- The wrapped word of a positive extent below `2 ^ 30` lies below the extent. -/
theorem wrap_lt (a e : BitVec 32) (n : Nat) (he : e.toNat = n) (hn0 : 0 < n) (hn : n < 2 ^ 30) :
    (wrap a e).toNat < n := by
  have heInt : e.toInt = (n : Int) := by
    rw [BitVec.toInt_eq_toNat_of_lt (by omega)]; omega
  rw [wrap_eq a e n he hn0 hn]
  have hrI : (a.srem e).toInt = a.toInt.tmod (n : Int) := by rw [BitVec.toInt_srem, heInt]
  have hlo := Int.lt_tmod_of_pos a.toInt (b := (n : Int)) (by omega)
  have hhi := Int.tmod_lt_of_pos a.toInt (b := (n : Int)) (by omega)
  rw [← hrI] at hlo hhi
  generalize a.srem e = r at *
  by_cases hneg : r.toInt < 0
  · rw [if_pos hneg]
    have hsum : (r + e).toInt = r.toInt + n := by
      rw [BitVec.toInt_add, heInt]
      exact Int.bmod_eq_of_le_mul_two (by omega) (by omega)
    have hc := BitVec.toInt_eq_toNat_cond (r + e)
    rw [hsum] at hc
    have hlt := (r + e).isLt
    split at hc <;> omega
  · rw [if_neg hneg]
    have hc := BitVec.toInt_eq_toNat_cond r
    have hlt := r.isLt
    split at hc <;> omega

/-- A redirected coordinate lies inside the volume. -/
theorem coordW_lt (k : Fin 3) (w : BitVec 32) : (coordW k w).toNat < extN k := by
  unfold coordW
  match k with
  | 0 => exact wrap_lt _ _ 100 rfl (by omega) (by omega)
  | 1 => exact wrap_lt _ _ 88 rfl (by omega) (by omega)
  | 2 => exact wrap_lt _ _ 80 rfl (by omega) (by omega)

/-- The voxel a point is redirected to. -/
def pos (pts : SPts.Idx → BitVec 32) (i : Fin 16384) : Cert.Spec.Voxel :=
  (⟨(coordW 0 (pts (ValueIdx.ix2 i (0 : Fin 3)))).toNat, coordW_lt 0 _⟩,
   ⟨(coordW 1 (pts (ValueIdx.ix2 i (1 : Fin 3)))).toNat, coordW_lt 1 _⟩,
   ⟨(coordW 2 (pts (ValueIdx.ix2 i (2 : Fin 3)))).toNat, coordW_lt 2 _⟩)

end Cert.Redirect

end
-- ==== Proof.RedirectChain.lean ====
/-
  The host chain that redirects a list of points, read at an index. The list `x` is shifted by the crop origin
  (a constant of three words broadcast along the points), and the floored remainder by the extents (three words
  broadcast the same way) is computed as the programs spell it: the divisor `d` is the extent unless the extent is
  zero (it never is), `r` is the truncated remainder of the shifted word by `d`, and `r + d` replaces `r` where the
  signs of `r` and `d` differ and `r` is not zero. Entry `(i, k)` of the result is `coordW k (x (i, k))`.
-/
import Idealize.ShloMosaic.PureOps
import Idealize.ShloMosaic.Lib.ValueIdx
import Idealize.ShloMosaic.Lib.StableHlo.Predicate
import proofs.«427562_j44873818309267_2_alg».proof.Proof.Redirect

noncomputable section

namespace Cert.Redirect

open Idealize.ShloMosaic

/-- Three words, one per axis. -/
abbrev S3 : Shape := ⟨1, ![3]⟩
/-- The three words as one row. -/
abbrev S1x3 : Shape := ⟨2, ![1, 3]⟩
/-- A single word. -/
abbrev S_ : Shape := ⟨0, ![]⟩

/-- The position in a list of three words is the axis. -/
theorem rowMajor3 (i : S3.Idx) : (S3.rowMajor i : Fin 3) = i 0 :=
  Fin.ext (Shape.rowMajor_val_one i)

/-- A list of three words whose entries are the extents, read through the row-major position, is `ext`. -/
theorem ext_of_lit (l : Fin 3 → BitVec 32) (h0 : l 0 = 100#32) (h1 : l 1 = 88#32) (h2 : l 2 = 80#32) (i : S3.Idx) :
    l (S3.rowMajor i) = ext (i 0) := by
  rw [rowMajor3]
  have key : ∀ k : Fin 3, l k = ext k := fun k =>
    match k with
    | 0 => h0
    | 1 => h1
    | 2 => h2
  exact key (i 0)

/-- A list of three words whose entries are the crop origin, read through the row-major position, is `off`. -/
theorem off_of_lit (l : Fin 3 → BitVec 32) (h0 : l 0 = 25#32) (h1 : l 1 = 225#32) (h2 : l 2 = 28#32) (i : S3.Idx) :
    l (S3.rowMajor i) = off (i 0) := by
  rw [rowMajor3]
  have key : ∀ k : Fin 3, l k = off k := fun k =>
    match k with
    | 0 => h0
    | 1 => h1
    | 2 => h2
  exact key (i 0)

/-- The redirecting chain over a list of points `x`, with the extents `cE` and the crop origin `cO` as lists of three
    words: entry `j` is the redirected coordinate of `x j` on axis `j 1`. -/
theorem chain_eq
    (b31 : S3.BroadcastsInDim S1x3 (![1] : Fin 1 → Fin S1x3.rank))
    (b13 : S1x3.BroadcastsInDim SPts (![0, 1] : Fin 2 → Fin SPts.rank))
    (b01 : S_.BroadcastsInDim S1x3 (![] : Fin 0 → Fin S1x3.rank))
    (b0P : S_.BroadcastsInDim SPts (![] : Fin 0 → Fin SPts.rank))
    (cE cO : S3.Idx → BitVec 32)
    (hE : ∀ i, cE i = ext (i 0)) (hO : ∀ i, cO i = off (i 0))
    (x : SPts.Idx → BitVec 32) :
    select
      (andi
        (cmpi CmpIPredicate.ne
          (cmpi CmpIPredicate.slt
            (Host.remsi (subi x (broadcastInDim SPts ![0, 1] b13 (broadcastInDim S1x3 ![1] b31 cO))) (broadcastInDim SPts ![0, 1] b13 (select (cmpi CmpIPredicate.eq (broadcastInDim S1x3 ![1] b31 cE) (broadcastInDim S1x3 ![] b01 (constantI S_ 32 0#32))) (broadcastInDim S1x3 ![] b01 (constantI S_ 32 1#32)) (broadcastInDim S1x3 ![1] b31 cE))))
            (broadcastInDim SPts ![] b0P (constantI S_ 32 0#32)))
          (broadcastInDim SPts ![0, 1] b13
            (cmpi CmpIPredicate.slt
              (select (cmpi CmpIPredicate.eq (broadcastInDim S1x3 ![1] b31 cE) (broadcastInDim S1x3 ![] b01 (constantI S_ 32 0#32))) (broadcastInDim S1x3 ![] b01 (constantI S_ 32 1#32)) (broadcastInDim S1x3 ![1] b31 cE))
              (broadcastInDim S1x3 ![] b01 (constantI S_ 32 0#32)))))
        (cmpi CmpIPredicate.ne
          (Host.remsi (subi x (broadcastInDim SPts ![0, 1] b13 (broadcastInDim S1x3 ![1] b31 cO))) (broadcastInDim SPts ![0, 1] b13 (select (cmpi CmpIPredicate.eq (broadcastInDim S1x3 ![1] b31 cE) (broadcastInDim S1x3 ![] b01 (constantI S_ 32 0#32))) (broadcastInDim S1x3 ![] b01 (constantI S_ 32 1#32)) (broadcastInDim S1x3 ![1] b31 cE))))
          (broadcastInDim SPts ![] b0P (constantI S_ 32 0#32))))
      (addi
        (Host.remsi (subi x (broadcastInDim SPts ![0, 1] b13 (broadcastInDim S1x3 ![1] b31 cO))) (broadcastInDim SPts ![0, 1] b13 (select (cmpi CmpIPredicate.eq (broadcastInDim S1x3 ![1] b31 cE) (broadcastInDim S1x3 ![] b01 (constantI S_ 32 0#32))) (broadcastInDim S1x3 ![] b01 (constantI S_ 32 1#32)) (broadcastInDim S1x3 ![1] b31 cE))))
        (broadcastInDim SPts ![0, 1] b13
          (select (cmpi CmpIPredicate.eq (broadcastInDim S1x3 ![1] b31 cE) (broadcastInDim S1x3 ![] b01 (constantI S_ 32 0#32))) (broadcastInDim S1x3 ![] b01 (constantI S_ 32 1#32)) (broadcastInDim S1x3 ![1] b31 cE))))
      (Host.remsi (subi x (broadcastInDim SPts ![0, 1] b13 (broadcastInDim S1x3 ![1] b31 cO))) (broadcastInDim SPts ![0, 1] b13 (select (cmpi CmpIPredicate.eq (broadcastInDim S1x3 ![1] b31 cE) (broadcastInDim S1x3 ![] b01 (constantI S_ 32 0#32))) (broadcastInDim S1x3 ![] b01 (constantI S_ 32 1#32)) (broadcastInDim S1x3 ![1] b31 cE))))
      = fun j => coordW (j 1) (x j) := by
  have h0 : 0 < S_.numel := by decide
  have hZ1 : ∀ (z : BitVec 32) (u : S1x3.Idx), broadcastInDim S1x3 ![] b01 (constantI S_ 32 z) u = z :=
    fun z u => StableHlo.Predicate.bcast_scalar b01 h0 _ u
  have hZ : ∀ (z : BitVec 32) (u : SPts.Idx), broadcastInDim SPts ![] b0P (constantI S_ 32 z) u = z :=
    fun z u => StableHlo.Predicate.bcast_scalar b0P h0 _ u
  have hE1 : ∀ q : Fin 3, broadcastInDim S1x3 ![1] b31 cE (StableHlo.Predicate.i1q q) = ext q := fun q => by
    rw [StableHlo.Predicate.bcast_row1, hE, Shape.Idx.ofFin_zero]
  have hO1 : ∀ q : Fin 3, broadcastInDim S1x3 ![1] b31 cO (StableHlo.Predicate.i1q q) = off q := fun q => by
    rw [StableHlo.Predicate.bcast_row1, hO, Shape.Idx.ofFin_zero]
  have hB : ∀ (v : S1x3.Idx → BitVec 32) (p : Fin 16384) (q : Fin 3),
      broadcastInDim SPts ![0, 1] b13 v (StableHlo.Predicate.ij p q) = v (StableHlo.Predicate.i1q q) :=
    fun v p q => StableHlo.Predicate.bcast_of_row b13 v p q
  have hB1 : ∀ (v : S1x3.Idx → BitVec 1) (p : Fin 16384) (q : Fin 3),
      broadcastInDim SPts ![0, 1] b13 v (StableHlo.Predicate.ij p q) = v (StableHlo.Predicate.i1q q) :=
    fun v p q => StableHlo.Predicate.bcast_of_row b13 v p q
  have key : ∀ (p : Fin 16384) (q : Fin 3),
      (select
      (andi
        (cmpi CmpIPredicate.ne
          (cmpi CmpIPredicate.slt
            (Host.remsi (subi x (broadcastInDim SPts ![0, 1] b13 (broadcastInDim S1x3 ![1] b31 cO))) (broadcastInDim SPts ![0, 1] b13 (select (cmpi CmpIPredicate.eq (broadcastInDim S1x3 ![1] b31 cE) (broadcastInDim S1x3 ![] b01 (constantI S_ 32 0#32))) (broadcastInDim S1x3 ![] b01 (constantI S_ 32 1#32)) (broadcastInDim S1x3 ![1] b31 cE))))
            (broadcastInDim SPts ![] b0P (constantI S_ 32 0#32)))
          (broadcastInDim SPts ![0, 1] b13
            (cmpi CmpIPredicate.slt
              (select (cmpi CmpIPredicate.eq (broadcastInDim S1x3 ![1] b31 cE) (broadcastInDim S1x3 ![] b01 (constantI S_ 32 0#32))) (broadcastInDim S1x3 ![] b01 (constantI S_ 32 1#32)) (broadcastInDim S1x3 ![1] b31 cE))
              (broadcastInDim S1x3 ![] b01 (constantI S_ 32 0#32)))))
        (cmpi CmpIPredicate.ne
          (Host.remsi (subi x (broadcastInDim SPts ![0, 1] b13 (broadcastInDim S1x3 ![1] b31 cO))) (broadcastInDim SPts ![0, 1] b13 (select (cmpi CmpIPredicate.eq (broadcastInDim S1x3 ![1] b31 cE) (broadcastInDim S1x3 ![] b01 (constantI S_ 32 0#32))) (broadcastInDim S1x3 ![] b01 (constantI S_ 32 1#32)) (broadcastInDim S1x3 ![1] b31 cE))))
          (broadcastInDim SPts ![] b0P (constantI S_ 32 0#32))))
      (addi
        (Host.remsi (subi x (broadcastInDim SPts ![0, 1] b13 (broadcastInDim S1x3 ![1] b31 cO))) (broadcastInDim SPts ![0, 1] b13 (select (cmpi CmpIPredicate.eq (broadcastInDim S1x3 ![1] b31 cE) (broadcastInDim S1x3 ![] b01 (constantI S_ 32 0#32))) (broadcastInDim S1x3 ![] b01 (constantI S_ 32 1#32)) (broadcastInDim S1x3 ![1] b31 cE))))
        (broadcastInDim SPts ![0, 1] b13
          (select (cmpi CmpIPredicate.eq (broadcastInDim S1x3 ![1] b31 cE) (broadcastInDim S1x3 ![] b01 (constantI S_ 32 0#32))) (broadcastInDim S1x3 ![] b01 (constantI S_ 32 1#32)) (broadcastInDim S1x3 ![1] b31 cE))))
      (Host.remsi (subi x (broadcastInDim SPts ![0, 1] b13 (broadcastInDim S1x3 ![1] b31 cO))) (broadcastInDim SPts ![0, 1] b13 (select (cmpi CmpIPredicate.eq (broadcastInDim S1x3 ![1] b31 cE) (broadcastInDim S1x3 ![] b01 (constantI S_ 32 0#32))) (broadcastInDim S1x3 ![] b01 (constantI S_ 32 1#32)) (broadcastInDim S1x3 ![1] b31 cE))))) (StableHlo.Predicate.ij p q) = coordW q (x (StableHlo.Predicate.ij p q)) := by
    intro p q
    simp only [select, andi, cmpi, addi, subi, Host.remsi, hB, hB1, hZ, hZ1, hE1, hO1]
    rfl
  funext j
  have hj : @StableHlo.Predicate.ij 16384 3 (j 0) (j 1) = j := StableHlo.Predicate.ij_eta j
  have := key (j 0) (j 1)
  rw [hj] at this
  exact this

end Cert.Redirect

end
-- ==== Proof.FlatTable.lean ====
/-
  The flat voxel index of a redirected point as 32-bit arithmetic. The three columns of a redirected list of points
  are cut out, each `[16384, 1]` column is read as a vector of 16384 words, and the words are combined as
  `c0 * 7040 + c1 * 80 + c2`. Every coordinate lies inside the volume, so the sum is the row-major index of the voxel
  (below 704000) and the 32-bit arithmetic does not wrap.
-/
import Idealize.ShloMosaic.PureOps
import Idealize.ShloMosaic.Lib.ValueIdx
import Idealize.ShloMosaic.Lib.ValueLayout
import Idealize.ShloMosaic.Lib.StableHlo.Predicate
import proofs.«427562_j44873818309267_2_alg».proof.Proof.Redirect

noncomputable section

namespace Cert.Redirect

open Idealize.ShloMosaic Idealize.ShloMosaic.ValueIdx

/-- One column of a list of points. -/
abbrev SCol : Shape := ⟨2, ![16384, 1]⟩
/-- One word per point. -/
abbrev SVec : Shape := ⟨1, ![16384]⟩
/-- A single word. -/
abbrev SWord : Shape := ⟨0, ![]⟩

/-- Column `k` of a list of points, cut out and read as a vector, holds at point `i` the list's entry `(i, k)`. -/
theorem col_read {α : Type} (o : Nat) (k : Fin 3) (hk : k.val = o) (T : SPts.Idx → α)
    (sk : SPts.Slices ![0, o] SCol) (sc : SCol.ShapeCasts SVec) (i : SVec.Idx) :
    shapeCast SVec (extractStridedSlice SCol ![0, o] T sk) sc i = T (ix2 (i 0) k) := by
  rw [shapeCast_apply _ sc i (ix2 (i 0) (0 : Fin 1)) (by
    rw [Shape.rowMajor_val_two, Shape.rowMajor_val_one]
    show (i 0).val * 1 + 0 = (i 0).val
    omega)]
  exact slice2_axis1_apply o T sk (i 0) (0 : Fin 1) k (by rw [hk]; rfl)

/-- The flat index of the voxel a point is redirected to, in 32-bit arithmetic. -/
theorem flat_word (x : SPts.Idx → BitVec 32) (i : Fin 16384) :
    IntOp.addi
        (IntOp.addi (IntOp.muli (coordW 0 (x (ix2 i (0 : Fin 3)))) 7040#32) (IntOp.muli (coordW 1 (x (ix2 i (1 : Fin 3)))) 80#32))
        (coordW 2 (x (ix2 i (2 : Fin 3))))
      = BitVec.ofNat 32 (pos x i).flat := by
  have h0 := coordW_lt 0 (x (ix2 i (0 : Fin 3)))
  have h1 := coordW_lt 1 (x (ix2 i (1 : Fin 3)))
  have h2 := coordW_lt 2 (x (ix2 i (2 : Fin 3)))
  change (coordW 0 (x (ix2 i (0 : Fin 3)))).toNat < 100 at h0
  change (coordW 1 (x (ix2 i (1 : Fin 3)))).toNat < 88 at h1
  change (coordW 2 (x (ix2 i (2 : Fin 3)))).toNat < 80 at h2
  apply BitVec.eq_of_toNat_eq
  show ((coordW 0 (x (ix2 i (0 : Fin 3)))) * 7040#32 + (coordW 1 (x (ix2 i (1 : Fin 3)))) * 80#32
      + coordW 2 (x (ix2 i (2 : Fin 3)))).toNat = _
  rw [BitVec.toNat_add, BitVec.toNat_add, BitVec.toNat_mul, BitVec.toNat_mul, BitVec.toNat_ofNat]
  show _ = ((coordW 0 (x (ix2 i (0 : Fin 3)))).toNat * 7040 + (coordW 1 (x (ix2 i (1 : Fin 3)))).toNat * 80
      + (coordW 2 (x (ix2 i (2 : Fin 3)))).toNat) % 2 ^ 32
  generalize (coordW 0 (x (ix2 i (0 : Fin 3)))).toNat = a at h0 ⊢
  generalize (coordW 1 (x (ix2 i (1 : Fin 3)))).toNat = b at h1 ⊢
  generalize (coordW 2 (x (ix2 i (2 : Fin 3)))).toNat = e at h2 ⊢
  simp only [BitVec.toNat_ofNat]
  omega

/-- The table of flat voxel indices of a redirected list of points, spelled as the host computes it from the three
    columns, holds at point `i` the flat index of the voxel point `i` is redirected to. -/
theorem flat_table (x : SPts.Idx → BitVec 32)
    (s0 : SPts.Slices ![0, 0] SCol) (s1 : SPts.Slices ![0, 1] SCol) (s2 : SPts.Slices ![0, 2] SCol)
    (sc : SCol.ShapeCasts SVec) (hb : SWord.BroadcastsInDim SVec (![] : Fin 0 → Fin SVec.rank)) :
    (addi
      (addi
        (muli
          (fun i => shapeCast SVec (extractStridedSlice SCol ![0, 0] (fun j => coordW (j 1) (x j)) s0) sc i)
          (broadcastInDim SVec ![] hb (constantI SWord 32 7040#32)))
        (muli
          (fun i => shapeCast SVec (extractStridedSlice SCol ![0, 1] (fun j => coordW (j 1) (x j)) s1) sc i)
          (broadcastInDim SVec ![] hb (constantI SWord 32 80#32))))
      fun i => shapeCast SVec (extractStridedSlice SCol ![0, 2] (fun j => coordW (j 1) (x j)) s2) sc i)
      = fun i => BitVec.ofNat 32 (pos x (i 0)).flat := by
  funext i
  have h0 : 0 < SWord.numel := by decide
  show IntOp.addi
        (IntOp.addi
          (IntOp.muli (shapeCast SVec (extractStridedSlice SCol ![0, 0] (fun j => coordW (j 1) (x j)) s0) sc i)
            (broadcastInDim SVec ![] hb (constantI SWord 32 7040#32) i))
          (IntOp.muli (shapeCast SVec (extractStridedSlice SCol ![0, 1] (fun j => coordW (j 1) (x j)) s1) sc i)
            (broadcastInDim SVec ![] hb (constantI SWord 32 80#32) i)))
        (shapeCast SVec (extractStridedSlice SCol ![0, 2] (fun j => coordW (j 1) (x j)) s2) sc i) = _
  rw [col_read 0 0 rfl, col_read 1 1 rfl, col_read 2 2 rfl,
    StableHlo.Predicate.bcast_scalar hb h0, StableHlo.Predicate.bcast_scalar hb h0]
  exact flat_word x (i 0)

end Cert.Redirect

end
-- ==== Proof.Transpose0.lean ====
/-
  Region 0 of @main: the Pallas transpose of the feature volume viewed as [64, 704000] into the table
  [704000, 64], over a grid of 100 points; point i reads the block of columns [7040 i, 7040 (i+1)) and writes
  the block of rows [7040 i, 7040 (i+1)). Stated at a parameter V, the TensorCore's buffer contents when the
  region is entered: the body's triple, the pipeline's proof data, its body obligation; then the value of the
  output array after the region: entry (n, ch) of the table is entry (ch, n) of the view.
-/
import proofs.«427562_j44873818309267_2_alg».proof.Proof.Gen.KernelIdeal.Launch
import proofs.«427562_j44873818309267_2_alg».proof.Proof.Gen.KernelIdeal.Skeleton
import proofs.«427562_j44873818309267_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.ValueLayout
import Idealize.ShloMosaic.Lib.ValueIdx
import Idealize.ShloMosaic.Lib.Tactic

set_option maxRecDepth 16384

noncomputable section

namespace Cert.KernelIdeal.T0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S64x7040 := Rect.unit (s := S64x7040) ![0, 0] S64x7040.size inb_S64x7040_S64x7040_0_0
abbrev r0_1 : Rect S7040x64 := Rect.unit (s := S7040x64) ![0, 0] S7040x64.size inb_S7040x64_S7040x64_0_0

/-- The output block after the body, from the input block: its one store as a piece. -/
def out0_1 (x0 : Vec F S64x7040 .f32) : Vec F S7040x64 .f32 :=
  View.canon [⟨r0_1, k0_pay1 (View.ld x0 r0_0)⟩]

/-- The store is of the whole buffer, so it covers it. -/
theorem cover0_1 (p0 : Vec F S7040x64 .f32) (y : S7040x64.Idx) :
    ∃ pc ∈ ([⟨r0_1, p0⟩] : List (View.Piece (Elt F) S7040x64 .f32)), y ∈ pc.1.set :=
  View.cover_of_tiled [⟨r0_1, p0⟩] S7040x64.size (by rfl) y

set_option maxHeartbeats 1000000 in
theorem sound_kernel0 (c : Dev nD) (E : Set ℕ) (i : grid0.Coords) (arg0 : Memref sig .tc .vmem S64x7040 .f32) (harg0 : arg0.IsWhole) (arg1 : Memref sig .tc .vmem S7040x64 .f32) (harg1 : arg1.IsWhole)
    (x0 : Vec F S64x7040 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__transpose_kernel i arg0 harg0 arg1 harg1) K := by
  simp only [cc0__transpose_kernel_eq_skeleton]; unfold cc0__transpose_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

/-! ## The value of the output array after the region -/

theorem hz : (![0, 0] : Fin 2 → Nat) = fun _ => 0 := funext fun a => by fin_cases a <;> rfl

/-- The stored block at an index: entry (n, ch) is the loaded block's entry (ch, n). -/
theorem pay_apply (x0 : Vec F S64x7040 .f32) (j : S7040x64.Idx) :
    k0_pay1 x0 j = x0 (ValueIdx.ix2 (j 1) (j 0)) := by
  unfold k0_pay1
  dsimp only
  rw [shapeCast_self]
  rw [ValueIdx.eq_ix2 j]
  exact ValueIdx.transpose_ix2_apply x0 _ (j 0) (j 1)

/-- The printed index maps, decided over the grid: point t reads the block of columns t and writes the block of rows t. -/
theorem idx_facts : ∀ t : Fin cfg0.N, win0_0.index t (0 : Fin 2) = 0 ∧ win0_0.index t (1 : Fin 2) = t.val
    ∧ win0_1.index t (0 : Fin 2) = t.val ∧ win0_1.index t (1 : Fin 2) = 0 :=
  (by decide +kernel : ∀ t : Fin grid0.N, _)

/-- The transposed table as one function of the view the region finds. -/
abbrev G0 (c : Dev nD) : Buf (Elt F) ((c : Thread nD τ).loc main_v53) :=
  fun j => V c main_v51 (ValueIdx.ix2 (j 1) (j 0))

/-- What point t writes back is block t of the transposed table. -/
theorem flushed_eq (c : Dev nD) (t : Fin cfg0.N) :
    (dat0 V c).flushed 1 t = ((cfg0.win 1).blk t).view.read (Elt F) (G0 V c) := by
  show (cfg0.win 1).cut (grid0.coords t) ((dat0 V c).after 1 t) = _
  rw [after0_1]
  unfold out0_1
  rw [View.canon_unit_zero hz]
  simp only [View.ld_unit_zero (S := S64x7040) hz]
  obtain ⟨e0, e1, e2, e3⟩ := idx_facts t
  funext j
  show k0_pay1 (iblk0 V c 0 t) j = V c main_v51 (ValueIdx.ix2 ((((cfg0.win 1).blk t).view.emb j) 1) ((((cfg0.win 1).blk t).view.emb j) 0))
  rw [pay_apply]
  show V c main_v51 (((cfg0.win 0).blk t).view.emb (ValueIdx.ix2 (j 1) (j 0))) = _
  congr 1
  funext a; apply Fin.ext
  match a with
  | ⟨0, _⟩ => show win0_0.index t (0 : Fin 2) * 64 + 1 * (j 1).val = win0_1.index t (1 : Fin 2) * 64 + 1 * (j 1).val; omega
  | ⟨1, _⟩ => show win0_0.index t (1 : Fin 2) * 7040 + 1 * (j 0).val = win0_1.index t (0 : Fin 2) * 7040 + 1 * (j 0).val; omega

/-- An index of the table is in point t's block iff each coordinate is in the block's range on its axis. -/
theorem mem_blk (t : Fin cfg0.N) (i : S704000x64.Idx) :
    i ∈ ((cfg0.win 1).blk t).view.set ↔ ∀ a : Fin 2, win0_1.index t a * S7040x64.size a ≤ (i a).val ∧ (i a).val < win0_1.index t a * S7040x64.size a + S7040x64.size a := by
  show i ∈ ((View.whole main_v53).slice (win0_1.rect t)).set ↔ _
  rw [View.set_slice_whole, Rect.mem_set_unit]
  exact Iff.rfl

/-- Row r of the table is in the block of point r / 7040. -/
theorem cover (i : S704000x64.Idx) :
    ∃ t : Fin cfg0.N, (cfg0.win 1).flush t = true ∧ i ∈ ((cfg0.win 1).blk t).view.set := by
  have hi0 : (i 0).val < 704000 := (i 0).isLt
  have hi1 : (i 1).val < 64 := (i 1).isLt
  have hN : cfg0.N = 100 := N_0
  have ht : (i 0).val / 7040 < cfg0.N := by rw [hN]; omega
  obtain ⟨e0, e1, e2, e3⟩ := idx_facts ⟨(i 0).val / 7040, ht⟩
  refine ⟨⟨(i 0).val / 7040, ht⟩, flush0_1 _, ?_⟩
  rw [mem_blk]
  intro a
  match a with
  | ⟨0, _⟩ =>
    show win0_1.index ⟨(i 0).val / 7040, ht⟩ (0 : Fin 2) * 7040 ≤ (i 0).val ∧ (i 0).val < win0_1.index ⟨(i 0).val / 7040, ht⟩ (0 : Fin 2) * 7040 + 7040
    rw [e2]; show (i 0).val / 7040 * 7040 ≤ (i 0).val ∧ (i 0).val < (i 0).val / 7040 * 7040 + 7040; omega
  | ⟨1, _⟩ =>
    show win0_1.index ⟨(i 0).val / 7040, ht⟩ (1 : Fin 2) * 64 ≤ (i 1).val ∧ (i 1).val < win0_1.index ⟨(i 0).val / 7040, ht⟩ (1 : Fin 2) * 64 + 64
    rw [e3]; omega

/-- The table after the region: entry (n, ch) is the view's entry (ch, n). -/
theorem final0 (c : Dev nD) : (dat0 V c).arrAt 1 cfg0.N = fun j => V c main_v51 (ValueIdx.ix2 (j 1) (j 0)) :=
  (dat0 V c).arrAt_eq_of_cover 1 (G0 V c) (fun t _ => flushed_eq V c t) cover

/-- The view is left as the region found it. -/
theorem kept0 (c : Dev nD) : (dat0 V c).arrAt 0 cfg0.N = V c main_v51 :=
  ((dat0 V c).arrAt_in 0 rfl cfg0.N).trans (A_eq0 V c 0)

end Cert.KernelIdeal.T0

end
-- ==== Proof.RunValue.lean ====
/-
  The run of @main with the result buffer in its post.

  @main is seven host stretches, three kernel regions and one last host stretch, the reshape of the third region's
  [1, 1] output into the scalar result. Between two items a core holds every unscoped buffer whole at a known
  valuation: the launch contents, then what each host stretch computes, then what a region leaves in the one array
  it writes. Given each region as a segment entered from the valuation before it and left at the one after it, every
  weakly fair execution terminates and the final memory holds each argument as launched AND holds, at the result
  buffer, the last valuation's value there: the third region's output read at its one entry.
-/
import proofs.«427562_j44873818309267_2_alg».proof.Proof.Gen.KernelIdeal.Regions
import Idealize.ShloMosaic.Lib.StableHlo.Run
import Idealize.ShloMosaic.Lib.Pipeline.Value
import Idealize.ShloMosaic.Lib.ValueIdx

-- decided memberships over the program's 153 references recurse past the default depth
set_option maxRecDepth 1124

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal.Gen

variable {F : FTy → Type} [FloatOps F]

variable (m : (ℓ : Loc nD τ sig) → Buf (Elt F) ℓ)

/-! ## The result buffer after the last host stretch -/

/-- The last host stretch is one reshape: the scalar result is the shape cast of the third region's [1, 1] output. -/
theorem V11_v56_cast (outs : Outs (F := F)) (c : Dev nD) :
    (V11 m outs c main_v56 : S_.Idx → Elt F .f32)
      = shapeCast S_ (V10 m outs c main_v55 : S1x1.Idx → Elt F .f32) shapeCasts_S1x1_S_ := by
  show StableHlo.after hostOps3 (V10 m outs c) (Proc.devRef .tc main_v56) = _
  after_results
  rfl

/-- Read at its one index: the scalar result is entry (0, 0) of the third region's output. -/
theorem V11_v56 (outs : Outs (F := F)) (c : Dev nD) :
    (V11 m outs c main_v56 : S_.Idx → Elt F .f32)
      = fun _ => (V10 m outs c main_v55 : S1x1.Idx → Elt F .f32) (ValueIdx.ix2 (0 : Fin 1) (0 : Fin 1)) := by
  rw [V11_v56_cast]
  funext j
  -- both shapes have one element, so both row-major positions are 0
  have h1 := (S1x1.rowMajor (ValueIdx.ix2 (0 : Fin 1) (0 : Fin 1))).isLt
  have h2 := (S_.rowMajor j).isLt
  have e1 : S1x1.numel = 1 := by decide
  have e2 : S_.numel = 1 := by decide
  exact shapeCast_apply _ shapeCasts_S1x1_S_ j (ValueIdx.ix2 (0 : Fin 1) (0 : Fin 1)) (by omega)

/-! ## The run, given the regions' records -/

-- the launch theorem's implicit arguments are found by unifying its conclusion with this one, which takes unfolding
-- plain definitions in a metavariable's type
set_option backward.isDefEq.respectTransparency.types false in
/-- THE CONDITIONAL RUN WITH THE RESULT. For any user algebra, level assignment, launch dues and ghost resources, any
    rest states `E` the launch makes on every core at once (`hE0`) and that end owing nothing (`hE3`), any contents the
    regions leave (`outs`) and any proof data: GIVEN, per region K, a segment record entered from the thread state
    before it and left at the one after it, every weakly fair execution of @main from memory `m` with zero counters
    terminates, every final memory holds each argument as launched, and the result buffer holds the last valuation's
    value `V11 m outs c main_v56`. -/
theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 3) → (pcfgs (F := F) p).Adm)
    (pdats : (p : Fin 3) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V7 m c) ∗ E 0 c) ⊢ R0.pre c)
    (hpost0 : ∀ c : Dev nD, R0.post c ⊢ iprop(StableHlo.held (c : Thread nD τ) (Pipeline.ucRefs τ sig) (V8 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V8 m outs c) ∗ E 1 c) ⊢ R1.pre c)
    (hpost1 : ∀ c : Dev nD, R1.post c ⊢ iprop(StableHlo.held (c : Thread nD τ) (Pipeline.ucRefs τ sig) (V9 m outs c) ∗ E 2 c))
    (R2 : RegionSeg (pcfgs (F := F)) a pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c)) :
    θ_run defs (onTc (τ := τ) (main (F := F))) ⟨m, fun _ => 0, ρ⟩ (fun r => ∀ c : Dev nD,
      r.2.mem ((c.tc : Thread nD τ).loc main_v56) = V11 m outs c main_v56
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) a pdats ι (cellOf_inj a) EP defs₀ 𝒱₀ L lv m ρ main
    (segs m outs 𝒱₀ L lv E ι a pdats R0 R1 R2)
    (fun c Q => by
      rewrite [main_chain c, Seg.run_eq_chain,
        show (segs m outs 𝒱₀ L lv E ι a pdats R0 R1 R2 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, .rfl, .rfl, .rfl, .rfl, .rfl, .rfl, hpre0 c, (hpost0 c).trans (hpre1 c), (hpost1 c).trans (hpre2 c), hpost2 c, sep_mono .rfl (hE3 c)⟩)
    (hinit := ?_) (QY := fun c s => s.mem ((c.tc : Thread nD τ).loc main_v56) = V11 m outs c main_v56 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact ⟨h (Proc.devRef .tc main_v56) (Finset.mem_filter.mpr ⟨StableHlo.devRef_mem_tcRefs main_v56, by decide⟩),
        (h (Proc.devRef .tc main_arg0) (Finset.mem_filter.mpr ⟨StableHlo.devRef_mem_tcRefs main_arg0, by decide⟩)).trans (V11_main_arg0 m outs c),
        (h (Proc.devRef .tc main_arg1) (Finset.mem_filter.mpr ⟨StableHlo.devRef_mem_tcRefs main_arg1, by decide⟩)).trans (V11_main_arg1 m outs c),
        (h (Proc.devRef .tc main_arg2) (Finset.mem_filter.mpr ⟨StableHlo.devRef_mem_tcRefs main_arg2, by decide⟩)).trans (V11_main_arg2 m outs c),
        (h (Proc.devRef .tc main_arg3) (Finset.mem_filter.mpr ⟨StableHlo.devRef_mem_tcRefs main_arg3, by decide⟩)).trans (V11_main_arg3 m outs c),
        (h (Proc.devRef .tc main_arg4) (Finset.mem_filter.mpr ⟨StableHlo.devRef_mem_tcRefs main_arg4, by decide⟩)).trans (V11_main_arg4 m outs c)⟩
    · iexact HSI

end Cert.KernelIdeal.Run

end
-- ==== Proof.RunRegions.lean ====
/-
  @main's three kernel regions as segments of its run, and the run itself.

  Between two items of @main a core holds every unscoped buffer whole at a known valuation. Entering the first
  transpose the valuation is what the seven host stretches computed from the launch memory; each region then changes
  exactly one array, its output: the first transpose leaves in its table the transposed view of the fixed volume, the
  second the transposed view of the moving volume, the third region its [1, 1] output. So the valuation after a region
  is the one before it updated at that one reference, at the array the pipeline leaves there (its write-backs folded
  over the whole grid). A region's arrays are split out of the unscoped buffers at its entry and put back at its
  exit at the updated valuation; beside the buffers ride the core's generator register, at some state, and the core
  owing nothing. The third region's proof data and its segment record are parameters here.
-/
import proofs.«427562_j44873818309267_2_alg».proof.Proof.Transpose0
import proofs.«427562_j44873818309267_2_alg».proof.Proof.Transpose1
import proofs.«427562_j44873818309267_2_alg».proof.Proof.RunValue
import proofs.«427562_j44873818309267_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at the regions' boundaries -/

/-- The contents the first transpose is entered from, read at the TensorCore's references. -/
abbrev V7r : (c : Dev nD) → (b : Ref sig .tc) → Buf (Elt F) ((c : Thread nD τ).loc b) := fun c b => V7 m c b
/-- After the first transpose: its table holds what the pipeline leaves, every other buffer is as entered. -/
def W8 (c : Dev nD) : Valuation τ sig (Elt F) :=
  Function.update (V7 m c) main_v53 ((T0.dat0 (V7r m) c).arrAt 1 cfg0.N)
/-- The same read at the TensorCore's references (what the second transpose is entered from). -/
abbrev V8r : (c : Dev nD) → (b : Ref sig .tc) → Buf (Elt F) ((c : Thread nD τ).loc b) := fun c b => W8 m c b
/-- After the second transpose: its table holds what the pipeline leaves, every other buffer is as entered. -/
def W9 (c : Dev nD) : Valuation τ sig (Elt F) :=
  Function.update (W8 m c) main_v54 ((T1.dat1 (V8r m) c).arrAt 1 cfg1.N)
/-- The same read at the TensorCore's references (what the third region is entered from). -/
abbrev V9r : (c : Dev nD) → (b : Ref sig .tc) → Buf (Elt F) ((c : Thread nD τ).loc b) := fun c b => W9 m c b

-- what the third region leaves in its [1, 1] output, per core
variable (o2 : (c : Dev nD) → Buf (Elt F) ((c : Thread nD τ).loc main_v55))

/-- After the third region: its output holds `o2`, every other buffer is as entered. -/
def W10 (c : Dev nD) : Valuation τ sig (Elt F) := Function.update (W9 m c) main_v55 (o2 c)
/-- The same read at the TensorCore's references. -/
abbrev V10r : (c : Dev nD) → (b : Ref sig .tc) → Buf (Elt F) ((c : Thread nD τ).loc b) := fun c b => W10 m o2 c b

/-- What the regions leave, as the family the valuations between items are written over: after item 7 the
    contents `W8`, after item 8 `W9`, after item 9 `W10` (read only at the one array each region writes). -/
def outs : Outs (F := F) := fun n r c =>
  match n with
  | 8 => W8 m c r
  | 9 => W9 m c r
  | 10 => W10 m o2 c r
  | _ => V7 m c r

theorem V8_eq (c : Dev nD) : V8 m (outs m o2) c = W8 m c := by
  show Function.update (V7 m c) (Proc.devRef .tc main_v53) (W8 m c (Proc.devRef .tc main_v53)) = W8 m c
  unfold W8
  rw [Function.update_self]

theorem V9_eq (c : Dev nD) : V9 m (outs m o2) c = W9 m c := by
  show Function.update (V8 m (outs m o2) c) (Proc.devRef .tc main_v54) (W9 m c (Proc.devRef .tc main_v54)) = W9 m c
  rw [V8_eq]
  unfold W9
  rw [Function.update_self]

theorem V10_eq (c : Dev nD) : V10 m (outs m o2) c = W10 m o2 c := by
  show Function.update (V9 m (outs m o2) c) (Proc.devRef .tc main_v55) (W10 m o2 c (Proc.devRef .tc main_v55)) = W10 m o2 c
  rw [V9_eq]
  unfold W10
  rw [Function.update_self]

/-- At the first transpose's exit each of its arrays holds what the pipeline leaves: the view it reads is kept, the
    table is the updated entry. -/
theorem hF0 (c : Dev nD) : ∀ w : Fin 2, (T0.dat0 (V7r m) c).arrAt w cfg0.N = V8r m c (Pipeline.arrRef spec0 w)
  | 0 => (T0.kept0 (V7r m) c).trans
      (Function.update_of_ne (StableHlo.devRef_ne_of_ne (by decide) : (Proc.devRef .tc main_v51 : DevRef τ sig) ≠ Proc.devRef .tc main_v53) _ _).symm
  | 1 => by
      show _ = W8 m c (Proc.devRef .tc main_v53)
      unfold W8
      rw [Function.update_self]
  | ⟨_ + 2, h⟩ => absurd h (Nat.not_lt.2 (Nat.le_add_left _ _))
/-- Every buffer that is no array of the first transpose is as entered. -/
theorem hrest0 (c : Dev nD) : ∀ b, b ∉ Finset.univ.image (Pipeline.arrRef spec0) → V8r m c b = V7r m c b :=
  fun b hb => Function.update_of_ne (StableHlo.devRef_ne_of_ne fun e => hb (Finset.mem_image.mpr ⟨1, Finset.mem_univ _, e.symm⟩)) _ _

/-- At the second transpose's exit each of its arrays holds what the pipeline leaves. -/
theorem hF1 (c : Dev nD) : ∀ w : Fin 2, (T1.dat1 (V8r m) c).arrAt w cfg1.N = V9r m c (Pipeline.arrRef spec1 w)
  | 0 => (T1.kept1 (V8r m) c).trans
      (Function.update_of_ne (StableHlo.devRef_ne_of_ne (by decide) : (Proc.devRef .tc main_v52 : DevRef τ sig) ≠ Proc.devRef .tc main_v54) _ _).symm
  | 1 => by
      show _ = W9 m c (Proc.devRef .tc main_v54)
      unfold W9
      rw [Function.update_self]
  | ⟨_ + 2, h⟩ => absurd h (Nat.not_lt.2 (Nat.le_add_left _ _))
/-- Every buffer that is no array of the second transpose is as entered. -/
theorem hrest1 (c : Dev nD) : ∀ b, b ∉ Finset.univ.image (Pipeline.arrRef spec1) → V9r m c b = V8r m c b :=
  fun b hb => Function.update_of_ne (StableHlo.devRef_ne_of_ne fun e => hb (Finset.mem_image.mpr ⟨1, Finset.mem_univ _, e.symm⟩)) _ _

/-! ## The proof data family and the thread state -/

-- the third region's prefetched tables at admissible contents
variable (a2 : (pcfg2 (F := F)).Adm)

/-- Every pipeline's admissible table contents: the transposes have no table, the third region's are `a2`. -/
abbrev adm : (p : Fin 3) → (pcfgs (F := F) p).Adm
  | ⟨0, _⟩ => cfg0.toPCfg_adm
  | ⟨1, _⟩ => cfg1.toPCfg_adm
  | ⟨2, _⟩ => a2

-- the third region's proof data
variable (pd2 : (c : Dev nD) → Dat τ (Elt F) Unit ℕ (UR sig nD τ) ℕ (cfg2 a2) c)

/-- Every pipeline's proof data, each at its region's entry contents: a literal match, so that the pinned
    configuration at a numeral reduces to the printed one. -/
def pdats : (p : Fin 3) → (c : Dev nD) → Dat τ (Elt F) Unit ℕ (UR sig nD τ) ℕ (Pipeline.pin (pcfgs (F := F)) (adm a2) p) c
  | ⟨0, _⟩ => fun c => T0.dat0 (V7r m) c
  | ⟨1, _⟩ => fun c => T1.dat1 (V8r m) c
  | ⟨2, _⟩ => fun c => pd2 c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and the core owing
    nothing. -/
abbrev R (c : Dev nD) : sProp 𝕄 := iprop((∃ r, prngReg c r) ∗ ∃ W, owes (c : Thread nD τ) (0 : CellTallies nD τ sig Unit) W)
/-- The same rest between every two items. -/
abbrev E : Fin 4 → Dev nD → sProp 𝕄 := fun _ c => R c

/-! ## The transposes as segments -/

-- `iapply` of a library lemma stated over `pin pcs a p` unifies with the pinned configuration only when unification may
-- unfold plain definitions in a metavariable's type
set_option backward.isDefEq.respectTransparency.types false in
/-- REGION 0 over the thread state: entered from every unscoped buffer at `V7 m`, left at `W8 m`. Its arrays are
    split out of the unscoped buffers and put back at the exit contents; the generator register goes into the class
    invariant and comes out; nothing is owed; the kernel has no semaphore of its own. -/
def reg0 : Pipeline.RegionSeg (pcfgs (F := F)) (adm a2) (pdats m a2 pd2) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (T0.body_obligation0 (V7r m) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec0 c (V7r m c)
  hentry c := by
    rw [Pipeline.ownSems0_none]
    have hsplit := Pipeline.arrays_of_unscopedBufs (p := 0) (pcfgs (F := F)) (adm a2) (pdats m a2 pd2) (launch0 (F := F)).win (launch0 (F := F)).arr_whole c
      ((pdats m a2 pd2 0 c).share_full fun _ => rfl) (V7r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a2 pd2 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m a2 pd2 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm a2) (Ix := Unit) (Name := ℕ) (U := UR sig nD τ) (Lvl := ℕ)
      (launch0 (F := F)).win (launch0 (F := F)).arr_whole c (pdats m a2 pd2) ((pdats m a2 pd2 0 c).share_full fun _ => rfl)
      (V7r m c) (V8r m c) ((pdats m a2 pd2 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 over the thread state: entered from every unscoped buffer at `W8 m`, left at `W9 m`. Its arrays are
    split out of the unscoped buffers and put back at the exit contents; the generator register goes into the class
    invariant and comes out; nothing is owed; the kernel has no semaphore of its own. -/
def reg1 : Pipeline.RegionSeg (pcfgs (F := F)) (adm a2) (pdats m a2 pd2) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (T1.body_obligation1 (V8r m) c).loose
  hwaits := Pipeline.hwaits_of_owed_zero _ _ _ _ L lv 1 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec1 c (V8r m c)
  hentry c := by
    rw [Pipeline.ownSems0_none]
    have hsplit := Pipeline.arrays_of_unscopedBufs (p := 1) (pcfgs (F := F)) (adm a2) (pdats m a2 pd2) (launch1 (F := F)).win (launch1 (F := F)).arr_whole c
      ((pdats m a2 pd2 1 c).share_full fun _ => rfl) (V8r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a2 pd2 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m a2 pd2 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm a2) (Ix := Unit) (Name := ℕ) (U := UR sig nD τ) (Lvl := ℕ)
      (launch1 (F := F)).win (launch1 (F := F)).arr_whole c (pdats m a2 pd2) ((pdats m a2 pd2 1 c).share_full fun _ => rfl)
      (V8r m c) (V9r m c) ((pdats m a2 pd2 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The result buffer's last value: entry (0, 0) of what the third region leaves in its output. -/
theorem V11_result (c : Dev nD) :
    (V11 m (outs m o2) c main_v56 : S_.Idx → Elt F .f32) = fun _ => (o2 c : S1x1.Idx → Elt F .f32) (ValueIdx.ix2 (0 : Fin 1) (0 : Fin 1)) := by
  rw [V11_v56, V10_eq]
  unfold W10
  rw [Function.update_self]

section TheRun

-- the third region as a segment, entered from the contents `W9` and left at `W10`
variable (reg2 : Pipeline.RegionSeg (pcfgs (F := F)) (adm a2) (pdats m a2 pd2) () defs₀ 𝒱₀ L lv 2)
  (hpre2 : ∀ c : Dev nD, iprop(StableHlo.held (c : Thread nD τ) (Pipeline.ucRefs τ sig) (W9 m c) ∗ R c) ⊢ reg2.pre c)
  (hpost2 : ∀ c : Dev nD, reg2.post c ⊢ iprop(StableHlo.held (c : Thread nD τ) (Pipeline.ucRefs τ sig) (W10 m o2 c) ∗ R c))
  (ρ : Dev nD → PrngReg)

include o2 a2 pd2 reg2 hpre2 hpost2

-- the launch theorem's implicit arguments are found by unifying its conclusion with this one, which takes unfolding
-- plain definitions in a metavariable's type
set_option backward.isDefEq.respectTransparency.types false in
/-- THE FRAME at any `F`: from any memory with zero counters, every weakly fair execution of @main on the TensorCores
    terminates, nothing faulting, and every final state has the five argument arrays as launched. The launch deals
    each core its generator register and its dues, at nothing, which is the rest that rides beside the buffers; no
    ghost resource is needed beyond the pipelines' own. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m emb₁ () 𝒱₀ L lv (fun _ _ => rfl) ρ (outs m o2) (adm a2) (pdats m a2 pd2)
    (O₀ := 0) (G := fun _ => iprop(emp))
    (u₀ := initOf (Pipeline.cells (Pipeline.pin (pcfgs (F := F)) (adm a2)) (cellOf_inj (adm a2))) (Pipeline.launchToks (Pipeline.pin (pcfgs (F := F)) (adm a2)) (cellOf_inj (adm a2))))
    (hu₀ := by
      iintro Hu; imodintro
      isplitl [Hu]
      · iapply (show (ownU (initOf (Pipeline.cells (Pipeline.pin (pcfgs (F := F)) (adm a2)) (cellOf_inj (adm a2))) (Pipeline.launchToks (Pipeline.pin (pcfgs (F := F)) (adm a2)) (cellOf_inj (adm a2)))) : sProp 𝕄)
            ⊢ BI.own (emb₁ (initOf (Pipeline.cells (Pipeline.pin (pcfgs (F := F)) (adm a2)) (cellOf_inj (adm a2))) (Pipeline.launchToks (Pipeline.pin (pcfgs (F := F)) (adm a2)) (cellOf_inj (adm a2))))) from .rfl)
        iexact Hu
      iapply (show (BI.emp : sProp 𝕄) ⊢ bigSep Finset.univ (fun _ : Dev nD => (BI.emp : sProp 𝕄)) from by rw [BI.bigSep_emp_const])
      iempintro)
    (E := E)
    (hE0 := by
      refine Pipeline.initEach L lv fun c => ?_
      iintro ⟨⟨-, HO, -, Hp, -⟩, -⟩
      imodintro
      isplitl [Hp]; · iexists _; iexact Hp
      iexists ∅; iexact HO)
    (hE3 := fun c => by
      iintro ⟨-, HO⟩
      iexact HO)
    (R0 := reg0 m a2 pd2) (hpre0 := fun _ => .rfl) (hpost0 := fun c => by rw [V8_eq]; exact .rfl)
    (R1 := reg1 m a2 pd2) (hpre1 := fun c => by rw [V8_eq]; exact .rfl) (hpost1 := fun c => by rw [V9_eq]; exact .rfl)
    (R2 := reg2) (hpre2 := fun c => by rw [V9_eq]; exact hpre2 c) (hpost2 := fun c => by rw [V10_eq]; exact hpost2 c)

set_option backward.isDefEq.respectTransparency.types false in
/-- THE RUN WITH THE RESULT at any `F`: as the frame, and the result buffer ends holding the last valuation's value:
    the scalar read off the third region's [1, 1] output. -/
theorem value : θ_run defs (onTc (τ := τ) (main (F := F))) ⟨m, fun _ => 0, ρ⟩ (fun r => ∀ c : Dev nD,
      r.2.mem ((c.tc : Thread nD τ).loc main_v56) = V11 m (outs m o2) c main_v56
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  value_cond m emb₁ () 𝒱₀ L lv (fun _ _ => rfl) ρ (outs m o2) (adm a2) (pdats m a2 pd2)
    (O₀ := 0) (G := fun _ => iprop(emp))
    (u₀ := initOf (Pipeline.cells (Pipeline.pin (pcfgs (F := F)) (adm a2)) (cellOf_inj (adm a2))) (Pipeline.launchToks (Pipeline.pin (pcfgs (F := F)) (adm a2)) (cellOf_inj (adm a2))))
    (hu₀ := by
      iintro Hu; imodintro
      isplitl [Hu]
      · iapply (show (ownU (initOf (Pipeline.cells (Pipeline.pin (pcfgs (F := F)) (adm a2)) (cellOf_inj (adm a2))) (Pipeline.launchToks (Pipeline.pin (pcfgs (F := F)) (adm a2)) (cellOf_inj (adm a2)))) : sProp 𝕄)
            ⊢ BI.own (emb₁ (initOf (Pipeline.cells (Pipeline.pin (pcfgs (F := F)) (adm a2)) (cellOf_inj (adm a2))) (Pipeline.launchToks (Pipeline.pin (pcfgs (F := F)) (adm a2)) (cellOf_inj (adm a2))))) from .rfl)
        iexact Hu
      iapply (show (BI.emp : sProp 𝕄) ⊢ bigSep Finset.univ (fun _ : Dev nD => (BI.emp : sProp 𝕄)) from by rw [BI.bigSep_emp_const])
      iempintro)
    (E := E)
    (hE0 := by
      refine Pipeline.initEach L lv fun c => ?_
      iintro ⟨⟨-, HO, -, Hp, -⟩, -⟩
      imodintro
      isplitl [Hp]; · iexists _; iexact Hp
      iexists ∅; iexact HO)
    (hE3 := fun c => by
      iintro ⟨-, HO⟩
      iexact HO)
    (R0 := reg0 m a2 pd2) (hpre0 := fun _ => .rfl) (hpost0 := fun c => by rw [V8_eq]; exact .rfl)
    (R1 := reg1 m a2 pd2) (hpre1 := fun c => by rw [V8_eq]; exact .rfl) (hpost1 := fun c => by rw [V9_eq]; exact .rfl)
    (R2 := reg2) (hpre2 := fun c => by rw [V9_eq]; exact hpre2 c) (hpost2 := fun c => by rw [V10_eq]; exact hpost2 c)

end TheRun

end Cert.KernelIdeal.Run

end
-- ==== Proof.RunTables.lean ====
/-
  What the third region finds when it is entered. Each transpose changes its own table only, so every other buffer,
  the three prefetched index tables among them, is as the host stretches left it; the fixed volume's table holds at
  (n, ch) entry (ch, n) of the fixed volume viewed as [64, 704000], and the moving volume's table the same of the
  moving volume.
-/
import proofs.«427562_j44873818309267_2_alg».proof.Proof.RunRegions

set_option maxRecDepth 16384

noncomputable section

namespace Cert.KernelIdeal.Run

open Idealize.ShloMosaic Idealize.ShloMosaic.TcCoe
open Cert.KernelIdeal.Gen

variable {F : FTy → Type} [FloatOps F]

variable (m : (ℓ : Loc nD τ sig) → Buf (Elt F) ℓ)

/-! ## The contents the third region is entered from -/

/-- Off the two tables the third region is entered from what the first transpose was entered from: each transpose
    changes its own table only. -/
theorem W9_of (c : Dev nD) (r : Ref sig .tc) (h3 : r ≠ main_v53) (h4 : r ≠ main_v54) : W9 m c r = V7 m c r := by
  unfold W9 W8
  rw [Function.update_of_ne (StableHlo.devRef_ne_of_ne h4), Function.update_of_ne (StableHlo.devRef_ne_of_ne h3)]

/-- The three index tables are as the host stretches computed them. -/
theorem W9_v26 (c : Dev nD) : W9 m c main_v26 = V7 m c main_v26 := W9_of m c main_v26 (by decide) (by decide)
theorem W9_v38 (c : Dev nD) : W9 m c main_v38 = V7 m c main_v38 := W9_of m c main_v38 (by decide) (by decide)
theorem W9_v50 (c : Dev nD) : W9 m c main_v50 = V7 m c main_v50 := W9_of m c main_v50 (by decide) (by decide)
/-- The same at the prefetched tables by number. -/
theorem V9r_pre (c : Dev nD) : ∀ j : Fin 3, V9r m c (pre2.ref j) = V7r m c (pre2.ref j)
  | 0 => W9_v26 m c
  | 1 => W9_v38 m c
  | 2 => W9_v50 m c
  | ⟨_ + 3, h⟩ => absurd h (Nat.not_lt.2 (Nat.le_add_left _ _))

/-- The fixed volume's table: entry (n, ch) is entry (ch, n) of the fixed volume viewed as [64, 704000]. -/
theorem W9_v53 (c : Dev nD) :
    (W9 m c main_v53 : S704000x64.Idx → Elt F .f32)
      = fun j => (V7 m c main_v51 : S64x704000.Idx → Elt F .f32) (ValueIdx.ix2 (j 1) (j 0)) := by
  unfold W9
  rw [Function.update_of_ne (StableHlo.devRef_ne_of_ne (by decide))]
  unfold W8
  rw [Function.update_self]
  exact T0.final0 (V7r m) c

/-- The moving volume's table: entry (n, ch) is entry (ch, n) of the moving volume viewed as [64, 704000]. -/
theorem W9_v54 (c : Dev nD) :
    (W9 m c main_v54 : S704000x64.Idx → Elt F .f32)
      = fun j => (V7 m c main_v52 : S64x704000.Idx → Elt F .f32) (ValueIdx.ix2 (j 1) (j 0)) := by
  unfold W9
  rw [Function.update_self]
  refine (T1.final1 (V8r m) c).trans ?_
  funext j
  show W8 m c (Proc.devRef .tc main_v52) _ = _
  unfold W8
  rw [Function.update_of_ne (StableHlo.devRef_ne_of_ne (by decide))]

end Cert.KernelIdeal.Run

end
-- ==== Proof.Tables.lean ====
/-
  The integers of the host stretches before the first region. Each of the three lists of points is shifted by the
  crop origin and wrapped into the volume by the floored remainder; the three tables of flat voxel indices are
  `c0 * 7040 + c1 * 80 + c2` over the wrapped coordinates, in 32-bit arithmetic that does not wrap because the index
  is below 704000. The two feature volumes are left as launched, and their flattened views `[64, 704000]` hold at
  `(ch, x * 7040 + y * 80 + z)` the volume's entry `(0, ch, x, y, z)`.
-/
import proofs.«427562_j44873818309267_2_alg».proof.Proof.Gen.KernelIdeal.Regions
import Idealize.ShloMosaic.Lib.ValueLayout
import proofs.«427562_j44873818309267_2_alg».proof.Proof.RedirectChain
import proofs.«427562_j44873818309267_2_alg».proof.Proof.FlatTable

noncomputable section

namespace Cert.KernelIdeal.Tables

open Idealize.ShloMosaic Idealize.ShloMosaic.TcCoe
open Idealize.SL Idealize.SL.Sem
open Cert.Redirect (SPts coordW pos chain_eq flat_table ext_of_lit off_of_lit)

variable {F : FTy → Type} [FloatOps F]

/-! ## The stretches from any contents -/

set_option maxHeartbeats 2000000 in
/-- The redirected list of points 0: the remainder chain over the list, from any contents `W` of the buffers. -/
theorem pts_after0 (W : Valuation τ sig (Elt F)) :
    StableHlo.after (Gen.hostOps0_1 (F := F)) (StableHlo.after Gen.hostOps0 W) (Proc.devRef .tc main_v4)
      = fun j => coordW (j 1) ((W (Proc.devRef .tc main_arg2) : SPts.Idx → BitVec 32) j) := by
  open StableHlo in after_results_simp
  simp only [StableHlo.TRef.ofBuf, StableHlo.TRef.toBuf, cast_eq]
  exact chain_eq Gen.bcast_S3_S1x3_1 Gen.bcast_S1x3_S16384x3_0_1 Gen.bcast_S_S1x3 Gen.bcast_S_S16384x3 _ _
    (ext_of_lit lit0 rfl rfl rfl) (off_of_lit lit1 rfl rfl rfl) _

set_option maxHeartbeats 2000000 in
/-- The redirected list of points 1: the remainder chain over the list, from any contents `W` of the buffers that hold
    the extents and the crop origin. -/
theorem pts_after1 (W : Valuation τ sig (Elt F))
    (hE : ∀ i, (W (Proc.devRef .tc main_c) : Cert.Redirect.S3.Idx → BitVec 32) i = Cert.Redirect.ext (i 0))
    (hO : ∀ i, (W (Proc.devRef .tc main_c_0) : Cert.Redirect.S3.Idx → BitVec 32) i = Cert.Redirect.off (i 0)) :
    StableHlo.after (Gen.hostOps0_3 (F := F)) (StableHlo.after Gen.hostOps0_2 W) (Proc.devRef .tc main_v9)
      = fun j => coordW (j 1) ((W (Proc.devRef .tc main_arg3) : SPts.Idx → BitVec 32) j) := by
  open StableHlo in after_results_simp
  simp only [StableHlo.TRef.ofBuf, StableHlo.TRef.toBuf, cast_eq]
  exact chain_eq Gen.bcast_S3_S1x3_1 Gen.bcast_S1x3_S16384x3_0_1 Gen.bcast_S_S1x3 Gen.bcast_S_S16384x3 _ _
    hE hO _

set_option maxHeartbeats 2000000 in
/-- The redirected list of points 2: the remainder chain over the list, from any contents `W` of the buffers that hold
    the extents and the crop origin. -/
theorem pts_after2 (W : Valuation τ sig (Elt F))
    (hE : ∀ i, (W (Proc.devRef .tc main_c) : Cert.Redirect.S3.Idx → BitVec 32) i = Cert.Redirect.ext (i 0))
    (hO : ∀ i, (W (Proc.devRef .tc main_c_0) : Cert.Redirect.S3.Idx → BitVec 32) i = Cert.Redirect.off (i 0)) :
    StableHlo.after (Gen.hostOps0_5 (F := F)) (StableHlo.after Gen.hostOps0_4 W) (Proc.devRef .tc main_v14)
      = fun j => coordW (j 1) ((W (Proc.devRef .tc main_arg4) : SPts.Idx → BitVec 32) j) := by
  open StableHlo in after_results_simp
  simp only [StableHlo.TRef.ofBuf, StableHlo.TRef.toBuf, cast_eq]
  exact chain_eq Gen.bcast_S3_S1x3_1 Gen.bcast_S1x3_S16384x3_0_1 Gen.bcast_S_S1x3 Gen.bcast_S_S16384x3 _ _
    hE hO _

set_option maxHeartbeats 2000000 in
/-- Table 0 from any contents `W` whose redirected list 0 is the redirection of `x`. -/
theorem tbl_after0 (W : Valuation τ sig (Elt F)) (x : SPts.Idx → BitVec 32)
    (h : (W (Proc.devRef .tc main_v4) : SPts.Idx → BitVec 32) = fun j => coordW (j 1) (x j)) :
    StableHlo.after (Gen.hostOps0_6 (F := F)) W (Proc.devRef .tc main_v26)
      = fun i : S16384.Idx => BitVec.ofNat 32 (pos x (i 0)).flat := by
  open StableHlo in after_results_simp
  rw [h]
  exact flat_table x Gen.slices_S16384x3_S16384x1_0_0 Gen.slices_S16384x3_S16384x1_0_1 Gen.slices_S16384x3_S16384x1_0_2
    Gen.shapeCasts_S16384x1_S16384 Gen.bcast_S_S16384

set_option maxHeartbeats 2000000 in
/-- Table 1 from any contents `W` whose redirected list 1 is the redirection of `x`. -/
theorem tbl_after1 (W : Valuation τ sig (Elt F)) (x : SPts.Idx → BitVec 32)
    (h : (W (Proc.devRef .tc main_v9) : SPts.Idx → BitVec 32) = fun j => coordW (j 1) (x j)) :
    StableHlo.after (Gen.hostOps0_6 (F := F)) W (Proc.devRef .tc main_v38)
      = fun i : S16384.Idx => BitVec.ofNat 32 (pos x (i 0)).flat := by
  open StableHlo in after_results_simp
  rw [h]
  exact flat_table x Gen.slices_S16384x3_S16384x1_0_0 Gen.slices_S16384x3_S16384x1_0_1 Gen.slices_S16384x3_S16384x1_0_2
    Gen.shapeCasts_S16384x1_S16384 Gen.bcast_S_S16384

set_option maxHeartbeats 2000000 in
/-- Table 2 from any contents `W` whose redirected list 2 is the redirection of `x`. -/
theorem tbl_after2 (W : Valuation τ sig (Elt F)) (x : SPts.Idx → BitVec 32)
    (h : (W (Proc.devRef .tc main_v14) : SPts.Idx → BitVec 32) = fun j => coordW (j 1) (x j)) :
    StableHlo.after (Gen.hostOps0_6 (F := F)) W (Proc.devRef .tc main_v50)
      = fun i : S16384.Idx => BitVec.ofNat 32 (pos x (i 0)).flat := by
  open StableHlo in after_results_simp
  rw [h]
  exact flat_table x Gen.slices_S16384x3_S16384x1_0_0 Gen.slices_S16384x3_S16384x1_0_1 Gen.slices_S16384x3_S16384x1_0_2
    Gen.shapeCasts_S16384x1_S16384 Gen.bcast_S_S16384

set_option maxHeartbeats 2000000 in
/-- The flattened view `main_v51` from any contents `W`: the volume `main_arg0` read in row-major order. -/
theorem view_after_main_v51 (W : Valuation τ sig (Elt F)) :
    StableHlo.after (Gen.hostOps0_6 (F := F)) W (Proc.devRef .tc main_v51)
      = shapeCast S64x704000 (W (Proc.devRef .tc main_arg0) : S1x64x100x88x80.Idx → F .f32) Gen.shapeCasts_S1x64x100x88x80_S64x704000 := by
  open StableHlo in after_results_simp
  rfl

set_option maxHeartbeats 2000000 in
/-- The flattened view `main_v52` from any contents `W`: the volume `main_arg1` read in row-major order. -/
theorem view_after_main_v52 (W : Valuation τ sig (Elt F)) :
    StableHlo.after (Gen.hostOps0_6 (F := F)) W (Proc.devRef .tc main_v52)
      = shapeCast S64x704000 (W (Proc.devRef .tc main_arg1) : S1x64x100x88x80.Idx → F .f32) Gen.shapeCasts_S1x64x100x88x80_S64x704000 := by
  open StableHlo in after_results_simp
  rfl

/-- The buffer of the extents after the first stretch. -/
theorem after0_c (W : Valuation τ sig (Elt F)) :
    StableHlo.after (Gen.hostOps0 (F := F)) W (Proc.devRef .tc main_c) = fun i => lit0 (S3.rowMajor i) := by
  open StableHlo in after_results_simp
  rfl

/-- The buffer of the crop origin after the first stretch. -/
theorem after0_c0 (W : Valuation τ sig (Elt F)) :
    StableHlo.after (Gen.hostOps0 (F := F)) W (Proc.devRef .tc main_c_0) = fun i => lit1 (S3.rowMajor i) := by
  open StableHlo in after_results_simp
  rfl

/-! ## The contents when the first region is entered -/

variable (m : (ℓ : Loc nD τ sig) → Buf (Elt F) ℓ)

/-- The extents stay in their buffer through the first five stretches. -/
theorem V_c (c : Dev nD) : (Gen.V1 m c main_c = fun i => lit0 (S3.rowMajor i))
    ∧ (Gen.V2 m c main_c = fun i => lit0 (S3.rowMajor i)) ∧ (Gen.V4 m c main_c = fun i => lit0 (S3.rowMajor i)) := by
  have h1 : Gen.V1 m c main_c = fun i => lit0 (S3.rowMajor i) := after0_c (Gen.V0 m c)
  have h2 : Gen.V2 m c main_c = fun i => lit0 (S3.rowMajor i) := (Gen.V2_of m c main_c (by decide)).trans h1
  exact ⟨h1, h2, (Gen.V4_of m c main_c (by decide)).trans ((Gen.V3_of m c main_c (by decide)).trans h2)⟩

/-- The crop origin stays in its buffer through the first five stretches. -/
theorem V_c0 (c : Dev nD) : (Gen.V1 m c main_c_0 = fun i => lit1 (S3.rowMajor i))
    ∧ (Gen.V2 m c main_c_0 = fun i => lit1 (S3.rowMajor i)) ∧ (Gen.V4 m c main_c_0 = fun i => lit1 (S3.rowMajor i)) := by
  have h1 : Gen.V1 m c main_c_0 = fun i => lit1 (S3.rowMajor i) := after0_c0 (Gen.V0 m c)
  have h2 : Gen.V2 m c main_c_0 = fun i => lit1 (S3.rowMajor i) := (Gen.V2_of m c main_c_0 (by decide)).trans h1
  exact ⟨h1, h2, (Gen.V4_of m c main_c_0 (by decide)).trans ((Gen.V3_of m c main_c_0 (by decide)).trans h2)⟩

/-- The first list of points, redirected. -/
theorem V2_v4 (c : Dev nD) :
    Gen.V2 m c main_v4 = fun j => coordW (j 1) ((m ((c : Thread nD τ).loc main_arg2) : SPts.Idx → BitVec 32) j) :=
  pts_after0 (Gen.V0 m c)

/-- The second list of points, redirected. -/
theorem V4_v9 (c : Dev nD) :
    Gen.V4 m c main_v9 = fun j => coordW (j 1) ((m ((c : Thread nD τ).loc main_arg3) : SPts.Idx → BitVec 32) j) := by
  have e := pts_after1 (Gen.V2 m c)
    (fun i => (congrFun (V_c m c).2.1 i).trans (ext_of_lit lit0 rfl rfl rfl i))
    (fun i => (congrFun (V_c0 m c).2.1 i).trans (off_of_lit lit1 rfl rfl rfl i))
  have ea : Gen.V2 m c main_arg3 = m ((c : Thread nD τ).loc main_arg3) :=
    (Gen.V2_of m c main_arg3 (by decide)).trans ((Gen.V1_of m c main_arg3 (by decide)).trans rfl)
  rw [ea] at e
  exact e

/-- The third list of points, redirected. -/
theorem V6_v14 (c : Dev nD) :
    Gen.V6 m c main_v14 = fun j => coordW (j 1) ((m ((c : Thread nD τ).loc main_arg4) : SPts.Idx → BitVec 32) j) := by
  have e := pts_after2 (Gen.V4 m c)
    (fun i => (congrFun (V_c m c).2.2 i).trans (ext_of_lit lit0 rfl rfl rfl i))
    (fun i => (congrFun (V_c0 m c).2.2 i).trans (off_of_lit lit1 rfl rfl rfl i))
  have ea : Gen.V4 m c main_arg4 = m ((c : Thread nD τ).loc main_arg4) :=
    (Gen.V4_of m c main_arg4 (by decide)).trans ((Gen.V3_of m c main_arg4 (by decide)).trans
      ((Gen.V2_of m c main_arg4 (by decide)).trans ((Gen.V1_of m c main_arg4 (by decide)).trans rfl)))
  rw [ea] at e
  exact e

/-- Table 0: the flat voxel index of each point of the first list, redirected. -/
theorem tbl0 (c : Dev nD) :
    Gen.V7 m c main_v26
      = fun i : S16384.Idx => BitVec.ofNat 32 (pos (m ((c : Thread nD τ).loc main_arg2)) (i 0)).flat :=
  tbl_after0 (Gen.V6 m c) _
    ((Gen.V6_of m c main_v4 (by decide)).trans ((Gen.V5_of m c main_v4 (by decide)).trans
      ((Gen.V4_of m c main_v4 (by decide)).trans ((Gen.V3_of m c main_v4 (by decide)).trans (V2_v4 m c)))))

/-- Table 1: the flat voxel index of each point of the second list, redirected. -/
theorem tbl1 (c : Dev nD) :
    Gen.V7 m c main_v38
      = fun i : S16384.Idx => BitVec.ofNat 32 (pos (m ((c : Thread nD τ).loc main_arg3)) (i 0)).flat :=
  tbl_after1 (Gen.V6 m c) _
    ((Gen.V6_of m c main_v9 (by decide)).trans ((Gen.V5_of m c main_v9 (by decide)).trans (V4_v9 m c)))

/-- Table 2: the flat voxel index of each point of the third list, redirected. -/
theorem tbl2 (c : Dev nD) :
    Gen.V7 m c main_v50
      = fun i : S16384.Idx => BitVec.ofNat 32 (pos (m ((c : Thread nD τ).loc main_arg4)) (i 0)).flat :=
  tbl_after2 (Gen.V6 m c) _ (V6_v14 m c)

/-- No stretch before the first region writes a buffer outside the seven lists of written buffers. -/
theorem V7_arg (c : Dev nD) (r : Ref sig .tc) (h0 : r ∉ Gen.hostOps0_W) (h1 : r ∉ Gen.hostOps0_1_W)
    (h2 : r ∉ Gen.hostOps0_2_W) (h3 : r ∉ Gen.hostOps0_3_W) (h4 : r ∉ Gen.hostOps0_4_W) (h5 : r ∉ Gen.hostOps0_5_W)
    (h6 : r ∉ Gen.hostOps0_6_W) : Gen.V7 m c r = m ((c : Thread nD τ).loc r) :=
  (Gen.V7_of m c r h6).trans <| (Gen.V6_of m c r h5).trans <| (Gen.V5_of m c r h4).trans <| (Gen.V4_of m c r h3).trans <|
    (Gen.V3_of m c r h2).trans <| (Gen.V2_of m c r h1).trans <| (Gen.V1_of m c r h0).trans rfl

/-- The fixed volume is as launched when the first region is entered. -/
theorem V7_arg0 (c : Dev nD) : Gen.V7 m c main_arg0 = m ((c : Thread nD τ).loc main_arg0) :=
  V7_arg m c main_arg0 (by decide) (by decide) (by decide) (by decide) (by decide) (by decide) (by decide)

/-- The moving volume is as launched when the first region is entered. -/
theorem V7_arg1 (c : Dev nD) : Gen.V7 m c main_arg1 = m ((c : Thread nD τ).loc main_arg1) :=
  V7_arg m c main_arg1 (by decide) (by decide) (by decide) (by decide) (by decide) (by decide) (by decide)

/-- The flattened view of the fixed volume. -/
theorem V7_v51 (c : Dev nD) :
    Gen.V7 m c main_v51 = shapeCast S64x704000 (m ((c : Thread nD τ).loc main_arg0) : S1x64x100x88x80.Idx → F .f32)
      Gen.shapeCasts_S1x64x100x88x80_S64x704000 := by
  have e := view_after_main_v51 (Gen.V6 m c)
  have ea : Gen.V6 m c main_arg0 = m ((c : Thread nD τ).loc main_arg0) :=
    (Gen.V6_of m c main_arg0 (by decide)).trans <| (Gen.V5_of m c main_arg0 (by decide)).trans <|
      (Gen.V4_of m c main_arg0 (by decide)).trans <| (Gen.V3_of m c main_arg0 (by decide)).trans <|
      (Gen.V2_of m c main_arg0 (by decide)).trans <| (Gen.V1_of m c main_arg0 (by decide)).trans rfl
  rw [ea] at e
  exact e

/-- The flattened view of the moving volume. -/
theorem V7_v52 (c : Dev nD) :
    Gen.V7 m c main_v52 = shapeCast S64x704000 (m ((c : Thread nD τ).loc main_arg1) : S1x64x100x88x80.Idx → F .f32)
      Gen.shapeCasts_S1x64x100x88x80_S64x704000 := by
  have e := view_after_main_v52 (Gen.V6 m c)
  have ea : Gen.V6 m c main_arg1 = m ((c : Thread nD τ).loc main_arg1) :=
    (Gen.V6_of m c main_arg1 (by decide)).trans <| (Gen.V5_of m c main_arg1 (by decide)).trans <|
      (Gen.V4_of m c main_arg1 (by decide)).trans <| (Gen.V3_of m c main_arg1 (by decide)).trans <|
      (Gen.V2_of m c main_arg1 (by decide)).trans <| (Gen.V1_of m c main_arg1 (by decide)).trans rfl
  rw [ea] at e
  exact e

/-- A flattened view of a volume `A` holds at `(ch, x * 7040 + y * 80 + z)` the entry `(0, ch, x, y, z)`. -/
theorem view_at {α : Type} (A : S1x64x100x88x80.Idx → α) (ch : Fin 64) (n : Fin 704000)
    (x : Fin 100) (y : Fin 88) (z : Fin 80) (hn : n.val = x.val * 7040 + y.val * 80 + z.val) :
    shapeCast S64x704000 A Gen.shapeCasts_S1x64x100x88x80_S64x704000 (ValueIdx.ix2 ch n)
      = A (ValueIdx.ix5 (0 : Fin 1) ch x y z) :=
  shapeCast_apply A _ _ _ (by
    rw [Shape.rowMajor_val_five, Shape.rowMajor_val_two]
    show (((0 * 64 + ch.val) * 100 + x.val) * 88 + y.val) * 80 + z.val = ch.val * 704000 + n.val
    omega)

/-- The fixed volume's view at a voxel's flat index. -/
theorem V7_v51_at (c : Dev nD) (ch : Fin 64) (n : Fin 704000) (x : Fin 100) (y : Fin 88) (z : Fin 80)
    (hn : n.val = x.val * 7040 + y.val * 80 + z.val) :
    (Gen.V7 m c main_v51 : S64x704000.Idx → F .f32) (ValueIdx.ix2 ch n)
      = (m ((c : Thread nD τ).loc main_arg0) : S1x64x100x88x80.Idx → F .f32) (ValueIdx.ix5 (0 : Fin 1) ch x y z) := by
  rw [V7_v51]
  exact view_at _ ch n x y z hn

/-- The moving volume's view at a voxel's flat index. -/
theorem V7_v52_at (c : Dev nD) (ch : Fin 64) (n : Fin 704000) (x : Fin 100) (y : Fin 88) (z : Fin 80)
    (hn : n.val = x.val * 7040 + y.val * 80 + z.val) :
    (Gen.V7 m c main_v52 : S64x704000.Idx → F .f32) (ValueIdx.ix2 ch n)
      = (m ((c : Thread nD τ).loc main_arg1) : S1x64x100x88x80.Idx → F .f32) (ValueIdx.ix5 (0 : Fin 1) ch x y z) := by
  rw [V7_v52]
  exact view_at _ ch n x y z hn

end Cert.KernelIdeal.Tables

end
-- ==== Proof.G2Runs.lean ====
/-
  Region 2 of @main: what one call of the gather body does to its buffers. At grid point i the body reads one
  word from each of the three prefetched tables (entry i of each), reduces each word to its floored remainder by
  eight (the row of the fetched 8-row block), selects that row of each of the three staged 8 x 64 blocks by a
  sublane mask and a sum over the eight sublanes, and adds to two one-element cells the square of the squared
  distance between the first and second rows, and the squared hinge of the distance between the first and third.
  At the first point the cells are first reset to zero; at the last point the output cell receives
  (first cell + second cell) / 65536 * 1e6. Three triples, one per control case: the first point, a middle point,
  the last point. Each states the contents of every buffer after the call explicitly.
-/
import proofs.«427562_j44873818309267_2_alg».proof.Proof.Gen.KernelIdeal.Launch
import proofs.«427562_j44873818309267_2_alg».proof.Proof.Gen.KernelIdeal.Skeleton
import proofs.«427562_j44873818309267_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic
import Idealize.ShloMosaic.Lib.Affine
import Idealize.ShloMosaic.Lib.ValueIdx

set_option maxRecDepth 16384

noncomputable section

namespace Cert.KernelIdeal.G2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The tables and the scratch cells as the body is handed them -/

/-- Each prefetched table as the body is handed it: its whole buffer as a memref. -/
abbrev tbM0 : Memref sig .tc .smem S16384 .i32 := Memref.whole main_v26
abbrev htbM0 : tbM0.IsWhole := Memref.isWhole_whole _
abbrev tbM1 : Memref sig .tc .smem S16384 .i32 := Memref.whole main_v38
abbrev htbM1 : tbM1.IsWhole := Memref.isWhole_whole _
abbrev tbM2 : Memref sig .tc .smem S16384 .i32 := Memref.whole main_v50
abbrev htbM2 : tbM2.IsWhole := Memref.isWhole_whole _

/-- The two accumulator cells: whole scoped buffers of one element. -/
abbrev scM0 : Memref sig .tc .vmem S1x1 .f32 := Memref.whole cc2_scratch0
abbrev scM1 : Memref sig .tc .vmem S1x1 .f32 := Memref.whole cc2_scratch1

/-- The contents type of a table's buffer on core `c`. -/
abbrev TbBuf (c : Dev nD) (M : Memref sig .tc .smem S16384 .i32) : Type := Buf (Elt F) (M.view.loc (c : Thread nD τ))

/-- A table's buffer held read-only (half the full share) at contents `f`. -/
abbrev tbPt (c : Dev nD) (M : Memref sig .tc .smem S16384 .i32) (f : TbBuf (F := F) c M) : sProp 𝕄 :=
  M.view.loc (c : Thread nD τ) ↦{fullShare.right} f

/-- The word of a table the body reads at grid point `i`: its entry at the point's number. -/
def wordAt {c : Dev nD} {M : Memref sig .tc .smem S16384 .i32} (xt : TbBuf (F := F) c M) (i : grid2.Coords) : BitVec 32 :=
  M.view.readAt (Elt F) (Rect.unit (s := S16384) (k2_off1 i) S1.size (k2_off1_inb i)).toLoadRect xt (Shape.Idx.first (numel1_S1.symm ▸ Nat.one_pos))

/-- The divisor the body takes remainders by: eight. -/
def eightW : BitVec 32 := 8#32

/-- The truncated remainder of a word by eight. -/
def remW (w : BitVec 32) : BitVec 32 := Scalar.remsi w eightW

/-- Whether the truncated remainder must be moved up by eight to be the floored one: it is nonzero and its sign
    differs from the divisor's (which is positive). -/
def fixW (w : BitVec 32) : BitVec 1 :=
  Scalar.andi (Scalar.xori (Scalar.cmpi .slt (remW w) 0#32) 0#1) (Scalar.cmpi .ne (remW w) 0#32)

/-- The row of the 8-row block a word selects: its floored remainder by eight. -/
def rowW (w : BitVec 32) : BitVec 32 := Scalar.select (fixW w) (Scalar.addi (remW w) eightW) (remW w)

/-- The sublane numbers 0..7 down the 8 x 64 block. -/
def iotaV : IVec S8x64 32 := iota .tc S8x64 32 [0] iota_S8x64_d0_w32

/-- The squared distance squared of the selected rows, added to the running sum `a`: what the body stores into the
    first cell. -/
def accP (w0 w1 : BitVec 32) (x0 x1 : Vec F S8x64 .f32) (a : Vec F S1x1 .f32) : Vec F S1x1 .f32 :=
  k2_pay1 (k2_pay7 iotaV (rowW w0) (rowW w1) x0 x1) a

/-- The squared hinge of the selected rows' distance, added to the running sum `a`: what the body stores into the
    second cell. -/
def accN (w0 w2 : BitVec 32) (x0 x2 : Vec F S8x64 .f32) (a : Vec F S1x1 .f32) : Vec F S1x1 .f32 :=
  k2_pay2 (k2_pay8 iotaV (rowW w0) eightW (remW w2) (fixW w2) x0 x2) a

/-- The reset value of a cell: zero. -/
def zeroCell : Vec F S1x1 .f32 := k2_pay4 (F := F)

/-- The output cell from the two sums. -/
def outCell (p n : Vec F S1x1 .f32) : Vec F S1x1 .f32 := k2_pay3 p n

/-- The first-point condition, as the body spells it. -/
abbrev condFirst (i : grid2.Coords) : Prop :=
  (Scalar.cmpi .ne (Scalar.extui (Scalar.cmpi .eq (BitVec.ofNat 32 (i 0).val) 0#32)) 0#32) = 1#1
/-- The last-point condition. -/
abbrev condLast (i : grid2.Coords) : Prop := k2_cond2 i = 1#1

/-- The word read at point `i` is the table's entry `i`, through whatever view the table is handed. -/
theorem wordAt_eq {c : Dev nD} {M : Memref sig .tc .smem S16384 .i32} (xt : TbBuf (F := F) c M) (i : grid2.Coords) :
    wordAt xt i = M.view.read (Elt F) xt (ValueIdx.ix1 (i 0)) := by
  have h : (i 0).val < 16384 := (i 0).isLt
  unfold wordAt
  rw [View.readAt_apply]
  congr 1
  funext a
  fin_cases a
  apply Fin.ext
  show (k2_off1 i) 0 + 1 * 0 = (i 0).val
  unfold k2_off1
  show (BitVec.ofNat 32 (i 0).val).toNat + 1 * 0 = (i 0).val
  rw [BitVec.toNat_ofNat, Nat.mod_eq_of_lt (by omega), Nat.mul_zero, Nat.add_zero]

/-- For the first table handed whole, the word read at point `i` is entry `i` of its contents; -/
theorem wordAt_tb0 (c : Dev nD) (xt : TbBuf (F := F) c tbM0) (i : grid2.Coords) : wordAt xt i = xt (ValueIdx.ix1 (i 0)) := wordAt_eq xt i
/-- likewise for the second -/
theorem wordAt_tb1 (c : Dev nD) (xt : TbBuf (F := F) c tbM1) (i : grid2.Coords) : wordAt xt i = xt (ValueIdx.ix1 (i 0)) := wordAt_eq xt i
/-- and the third. -/
theorem wordAt_tb2 (c : Dev nD) (xt : TbBuf (F := F) c tbM2) (i : grid2.Coords) : wordAt xt i = xt (ValueIdx.ix1 (i 0)) := wordAt_eq xt i

/-! ## The conditions in closed form -/

/-- The reset is taken exactly at point 0. -/
theorem hcondFirst (i : grid2.Coords) : condFirst i ↔ (i 0).val = 0 := by
  have h : (i 0).val < 16384 := (i 0).isLt
  show (Scalar.cmpi .ne (Scalar.extui (Scalar.cmpi .eq (BitVec.ofNat 32 (i 0).val) 0#32)) 0#32) = 1#1 ↔ _
  rw [Scalar.guard_iff, Scalar.cmpi, IntOp.cmpi_eq]
  constructor
  · intro e
    have e' := congrArg BitVec.toNat e
    rw [BitVec.toNat_ofNat, Nat.mod_eq_of_lt (by omega)] at e'
    exact e'
  · intro e; rw [e]

/-- The output is written exactly at point 16383, the last. -/
theorem hcondLast (i : grid2.Coords) : condLast i ↔ (i 0).val = 16383 := by
  have h : (i 0).val < 16384 := (i 0).isLt
  show k2_cond2 i = 1#1 ↔ _
  unfold k2_cond2
  show (Scalar.cmpi .ne (Scalar.extui (Scalar.cmpi .eq (BitVec.ofNat 32 (i 0).val) 16383#32)) 0#32) = 1#1 ↔ _
  rw [Scalar.guard_iff, Scalar.cmpi, IntOp.cmpi_eq]
  constructor
  · intro e
    have e' := congrArg BitVec.toNat e
    rw [BitVec.toNat_ofNat, Nat.mod_eq_of_lt (by omega)] at e'
    exact e'
  · intro e; rw [e]

/-- No point is both the first and the last. -/
theorem not_first_and_last (i : grid2.Coords) : ¬ (condFirst i ∧ condLast i) := by
  rw [hcondFirst, hcondLast]; omega

/-- The zero offsets of a whole-buffer access, however spelt. -/
theorem hz : (![0, 0] : Fin 2 → Nat) = fun _ => 0 := funext fun a => by fin_cases a <;> rfl

/-- A whole-cell store covers the cell. -/
theorem coverCell (p0 : Vec F S1x1 .f32) (y : S1x1.Idx) :
    ∃ pc ∈ ([⟨Rect.unit (s := S1x1) ![0, 0] S1x1.size inb_S1x1_S1x1_0_0, p0⟩] : List (View.Piece (Elt F) S1x1 .f32)), y ∈ pc.1.set :=
  ⟨_, List.mem_singleton_self _, View.mem_set_unit_zero hz inb_S1x1_S1x1_0_0 y⟩

/-- A whole-cell store, last, covers the cell whatever was stored before. -/
theorem coverCellCons (p0 : Vec F S1x1 .f32) (L : List (View.Piece (Elt F) S1x1 .f32)) (y : S1x1.Idx) :
    ∃ pc ∈ ((⟨Rect.unit (s := S1x1) ![0, 0] S1x1.size inb_S1x1_S1x1_0_0, p0⟩ : View.Piece (Elt F) S1x1 .f32) :: L), y ∈ pc.1.set :=
  ⟨_, List.mem_cons_self, View.mem_set_unit_zero hz inb_S1x1_S1x1_0_0 y⟩

/-! ## The first point: both cells reset, then updated -/

set_option maxHeartbeats 1000000 in
/-- At the first point the cells, found at any contents, are reset to zero and left at the first terms of the two
    sums; the three input blocks, the tables and the output cell are left as found. -/
theorem runA (c : Dev nD) (i : grid2.Coords)
    (arg4 : Memref sig .tc .vmem S8x64 .f32) (harg4 : arg4.IsWhole) (arg5 : Memref sig .tc .vmem S8x64 .f32) (harg5 : arg5.IsWhole)
    (arg6 : Memref sig .tc .vmem S8x64 .f32) (harg6 : arg6.IsWhole) (arg7 : Memref sig .tc .vmem S1x1 .f32) (harg7 : arg7.IsWhole)
    (hc1 : condFirst i) (hc2 : ¬ condLast i)
    (x0 x1 x2 : Vec F S8x64 .f32) (d : Vec F S1x1 .f32)
    (xt0 : TbBuf (F := F) c tbM0) (xt1 : TbBuf (F := F) c tbM1) (xt2 : TbBuf (F := F) c tbM2) (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare d ∗ (∃ s, owns (c : Thread nD τ) scM0 fullShare s) ∗ (∃ s, owns (c : Thread nD τ) scM1 fullShare s)
        ∗ tbPt c tbM0 xt0 ∗ tbPt c tbM1 xt1 ∗ tbPt c tbM2 xt2
        ∗ (iprop(owns (c : Thread nD τ) arg4 fullShare x0 ∗ owns (c : Thread nD τ) arg5 fullShare x1 ∗ owns (c : Thread nD τ) arg6 fullShare x2
            ∗ owns (c : Thread nD τ) arg7 fullShare d
            ∗ owns (c : Thread nD τ) scM0 fullShare (accP (wordAt xt0 i) (wordAt xt1 i) x0 x1 zeroCell)
            ∗ owns (c : Thread nD τ) scM1 fullShare (accN (wordAt xt0 i) (wordAt xt2 i) x0 x2 zeroCell)
            ∗ tbPt c tbM0 xt0 ∗ tbPt c tbM1 xt1 ∗ tbPt c tbM2 xt2) -∗ K ⟨⟩))
      ⊢ wp frame (wpE (defs₀ (F := F)) Variants.none c none) E
          (cc2__gather_kernel i tbM0 htbM0 tbM1 htbM1 tbM2 htbM2 arg4 harg4 arg5 harg5 arg6 harg6 arg7 harg7 scM0 (Memref.isWhole_whole _) scM1 (Memref.isWhole_whole _)) K := by
  simp only [cc2__gather_kernel_eq_skeleton]; unfold cc2__gather_kernel_skel
  simp only [k2_part1_eq_skeleton, k2_part2_eq_skeleton]
  unfold owns
  iintro ⟨⟨%f0, %hf0, H0⟩, ⟨%f1, %hf1, H1⟩, ⟨%f2, %hf2, H2⟩, H3, ⟨%ds0, %fs0, -, HS0⟩, ⟨%ds1, %fs1, -, HS1⟩, HT0, HT1, HT2, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]; · iexact H3
  isplitl [HS0]
  · iexists _; isplitr
    swap; · iexact HS0
    ipureintro
    sl_unfold_run_names
    rw [View.read_writes_eq_canon _ _ _ (coverCellCons _ _)]
    rw [View.canon_cons_unit_zero hz]
    simp only [View.readAt_eq_ld, View.ld_unit_zero (S := S8x64) hz, View.ld_unit_zero (S := S1x1) hz, View.readCov_unit_zero (S := S1x1) _ hz]
    rfl
  isplitl [HS1]
  · iexists _; isplitr
    swap; · iexact HS1
    ipureintro
    sl_unfold_run_names
    rw [View.read_writes_eq_canon _ _ _ (coverCellCons _ _)]
    rw [View.canon_cons_unit_zero hz]
    simp only [View.readAt_eq_ld, View.ld_unit_zero (S := S8x64) hz, View.ld_unit_zero (S := S1x1) hz, View.readCov_unit_zero (S := S1x1) _ hz]
    rfl
  isplitl [HT0]; · iexact HT0
  isplitl [HT1]; · iexact HT1
  iexact HT2

/-! ## A middle point: neither reset nor output -/

set_option maxHeartbeats 1000000 in
/-- At a point that is neither the first nor the last, the cells found at `s0`, `s1` are left at the updated sums;
    the three input blocks, the tables and the output cell are left as found. -/
theorem runB (c : Dev nD) (i : grid2.Coords)
    (arg4 : Memref sig .tc .vmem S8x64 .f32) (harg4 : arg4.IsWhole) (arg5 : Memref sig .tc .vmem S8x64 .f32) (harg5 : arg5.IsWhole)
    (arg6 : Memref sig .tc .vmem S8x64 .f32) (harg6 : arg6.IsWhole) (arg7 : Memref sig .tc .vmem S1x1 .f32) (harg7 : arg7.IsWhole)
    (hc1 : ¬ condFirst i) (hc2 : ¬ condLast i)
    (x0 x1 x2 : Vec F S8x64 .f32) (d s0 s1 : Vec F S1x1 .f32)
    (xt0 : TbBuf (F := F) c tbM0) (xt1 : TbBuf (F := F) c tbM1) (xt2 : TbBuf (F := F) c tbM2) (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare d ∗ owns (c : Thread nD τ) scM0 fullShare s0 ∗ owns (c : Thread nD τ) scM1 fullShare s1
        ∗ tbPt c tbM0 xt0 ∗ tbPt c tbM1 xt1 ∗ tbPt c tbM2 xt2
        ∗ (iprop(owns (c : Thread nD τ) arg4 fullShare x0 ∗ owns (c : Thread nD τ) arg5 fullShare x1 ∗ owns (c : Thread nD τ) arg6 fullShare x2
            ∗ owns (c : Thread nD τ) arg7 fullShare d
            ∗ owns (c : Thread nD τ) scM0 fullShare (accP (wordAt xt0 i) (wordAt xt1 i) x0 x1 s0)
            ∗ owns (c : Thread nD τ) scM1 fullShare (accN (wordAt xt0 i) (wordAt xt2 i) x0 x2 s1)
            ∗ tbPt c tbM0 xt0 ∗ tbPt c tbM1 xt1 ∗ tbPt c tbM2 xt2) -∗ K ⟨⟩))
      ⊢ wp frame (wpE (defs₀ (F := F)) Variants.none c none) E
          (cc2__gather_kernel i tbM0 htbM0 tbM1 htbM1 tbM2 htbM2 arg4 harg4 arg5 harg5 arg6 harg6 arg7 harg7 scM0 (Memref.isWhole_whole _) scM1 (Memref.isWhole_whole _)) K := by
  simp only [cc2__gather_kernel_eq_skeleton]; unfold cc2__gather_kernel_skel
  simp only [k2_part1_eq_skeleton, k2_part2_eq_skeleton]
  unfold owns
  iintro ⟨⟨%f0, %hf0, H0⟩, ⟨%f1, %hf1, H1⟩, ⟨%f2, %hf2, H2⟩, H3, ⟨%fs0, %hfs0, HS0⟩, ⟨%fs1, %hfs1, HS1⟩, HT0, HT1, HT2, Hk⟩
  subst hf0; subst hf1; subst hf2; subst hfs0; subst hfs1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]; · iexact H3
  isplitl [HS0]
  · iexists _; isplitr
    swap; · iexact HS0
    ipureintro
    sl_unfold_run_names
    rw [View.read_writes_eq_canon _ _ _ (coverCell _)]
    rw [View.canon_unit_zero hz]
    simp only [View.readAt_eq_ld, View.ld_unit_zero (S := S8x64) hz, View.ld_unit_zero (S := S1x1) hz]
    rfl
  isplitl [HS1]
  · iexists _; isplitr
    swap; · iexact HS1
    ipureintro
    sl_unfold_run_names
    rw [View.read_writes_eq_canon _ _ _ (coverCell _)]
    rw [View.canon_unit_zero hz]
    simp only [View.readAt_eq_ld, View.ld_unit_zero (S := S8x64) hz, View.ld_unit_zero (S := S1x1) hz]
    rfl
  isplitl [HT0]; · iexact HT0
  isplitl [HT1]; · iexact HT1
  iexact HT2

/-! ## The last point: the cells updated, the output cell written -/

set_option maxHeartbeats 1000000 in
/-- At the last point the cells found at `s0`, `s1` are left at the updated sums, and the output cell, found at any
    contents, is left at the loss computed from the two updated sums. -/
theorem runC (c : Dev nD) (i : grid2.Coords)
    (arg4 : Memref sig .tc .vmem S8x64 .f32) (harg4 : arg4.IsWhole) (arg5 : Memref sig .tc .vmem S8x64 .f32) (harg5 : arg5.IsWhole)
    (arg6 : Memref sig .tc .vmem S8x64 .f32) (harg6 : arg6.IsWhole) (arg7 : Memref sig .tc .vmem S1x1 .f32) (harg7 : arg7.IsWhole)
    (hc1 : ¬ condFirst i) (hc2 : condLast i)
    (x0 x1 x2 : Vec F S8x64 .f32) (s0 s1 : Vec F S1x1 .f32)
    (xt0 : TbBuf (F := F) c tbM0) (xt1 : TbBuf (F := F) c tbM1) (xt2 : TbBuf (F := F) c tbM2) (E : Set ℕ) (K : PUnit → sProp 𝕄) :
    iprop(owns (c : Thread nD τ) arg4 fullShare x0 ∗ owns (c : Thread nD τ) arg5 fullShare x1 ∗ owns (c : Thread nD τ) arg6 fullShare x2
        ∗ (∃ d, owns (c : Thread nD τ) arg7 fullShare d) ∗ owns (c : Thread nD τ) scM0 fullShare s0 ∗ owns (c : Thread nD τ) scM1 fullShare s1
        ∗ tbPt c tbM0 xt0 ∗ tbPt c tbM1 xt1 ∗ tbPt c tbM2 xt2
        ∗ (iprop(owns (c : Thread nD τ) arg4 fullShare x0 ∗ owns (c : Thread nD τ) arg5 fullShare x1 ∗ owns (c : Thread nD τ) arg6 fullShare x2
            ∗ owns (c : Thread nD τ) arg7 fullShare
                (outCell (accP (wordAt xt0 i) (wordAt xt1 i) x0 x1 s0) (accN (wordAt xt0 i) (wordAt xt2 i) x0 x2 s1))
            ∗ owns (c : Thread nD τ) scM0 fullShare (accP (wordAt xt0 i) (wordAt xt1 i) x0 x1 s0)
            ∗ owns (c : Thread nD τ) scM1 fullShare (accN (wordAt xt0 i) (wordAt xt2 i) x0 x2 s1)
            ∗ tbPt c tbM0 xt0 ∗ tbPt c tbM1 xt1 ∗ tbPt c tbM2 xt2) -∗ K ⟨⟩))
      ⊢ wp frame (wpE (defs₀ (F := F)) Variants.none c none) E
          (cc2__gather_kernel i tbM0 htbM0 tbM1 htbM1 tbM2 htbM2 arg4 harg4 arg5 harg5 arg6 harg6 arg7 harg7 scM0 (Memref.isWhole_whole _) scM1 (Memref.isWhole_whole _)) K := by
  simp only [cc2__gather_kernel_eq_skeleton]; unfold cc2__gather_kernel_skel
  simp only [k2_part1_eq_skeleton, k2_part2_eq_skeleton]
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, HT0, HT1, HT2, Hk⟩
  subst hf0; subst hf1; subst hf2; subst hfs0; subst hfs1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.read_writes_eq_canon _ _ _ (coverCell _)]
    rw [View.canon_unit_zero hz]
    simp only [View.readAt_eq_ld, View.ld_unit_zero (S := S8x64) hz, View.ld_unit_zero (S := S1x1) hz, View.readCov_unit_zero (S := S1x1) _ hz]
    rfl
  isplitl [HS0]
  · iexists _; isplitr
    swap; · iexact HS0
    ipureintro
    sl_unfold_run_names
    rw [View.read_writes_eq_canon _ _ _ (coverCell _)]
    rw [View.canon_unit_zero hz]
    simp only [View.readAt_eq_ld, View.ld_unit_zero (S := S8x64) hz, View.ld_unit_zero (S := S1x1) hz]
    rfl
  isplitl [HS1]
  · iexists _; isplitr
    swap; · iexact HS1
    ipureintro
    sl_unfold_run_names
    rw [View.read_writes_eq_canon _ _ _ (coverCell _)]
    rw [View.canon_unit_zero hz]
    simp only [View.readAt_eq_ld, View.ld_unit_zero (S := S8x64) hz, View.ld_unit_zero (S := S1x1) hz]
    rfl
  isplitl [HT0]; · iexact HT0
  isplitl [HT1]; · iexact HT1
  iexact HT2

end Cert.KernelIdeal.G2

end
-- ==== Proof.G2Words.lean ====
/-
  The integer side of one point: a table word below 2^31 is non-negative as a signed number, so its truncated
  remainder by eight is its remainder, the sign correction is off, and its truncated quotient by eight is its
  floored quotient. The row of the 8-row block is the word modulo 8 and the block index is the word divided by 8.
-/
import Idealize.ShloMosaic.PureOps.Float
import Idealize.ShloMosaic.Lib.ValueIdx

namespace Cert.KernelIdeal.G2V

open Idealize.ShloMosaic

/-- A word below 2^31 has its sign bit clear. -/
theorem msb_false_of_lt {w : BitVec 32} (hw : w.toNat < 2 ^ 31) : w.msb = false := by
  rw [BitVec.msb_eq_false_iff_two_mul_lt]
  omega

/-- Such a word read as a signed number is its unsigned value. -/
theorem toInt_of_lt {w : BitVec 32} (hw : w.toNat < 2 ^ 31) : w.toInt = (w.toNat : Int) := by
  rw [BitVec.toInt_eq_toNat_cond]
  rw [if_pos (by omega)]

/-- A number below 2^32 is the value of its word. -/
theorem toNat_ofNat_small {n : Nat} (h : n < 2 ^ 32) : (BitVec.ofNat 32 n).toNat = n := by
  rw [BitVec.toNat_ofNat]; exact Nat.mod_eq_of_lt h

/-- The divisor as the body computes it: eight. -/
theorem divisor_eq : Scalar.select (Scalar.cmpi .eq 8#32 0#32) 1#32 8#32 = 8#32 := by decide

/-- The divisor is not negative. -/
theorem divisor_not_neg : Scalar.cmpi .slt 8#32 0#32 = 0#1 := by decide

/-- The truncated remainder of a non-negative word by eight is its remainder. -/
theorem remsi_eight (w : BitVec 32) (hw : w.toNat < 2 ^ 31) : Scalar.remsi w 8#32 = BitVec.ofNat 32 (w.toNat % 8) := by
  have hc : ¬ IntOp.SDivCorner w 8#32 := by
    rintro (h | ⟨_, h⟩)
    · exact absurd h (by decide)
    · exact absurd h (by decide)
  show (if IntOp.SDivCorner w 8#32 then _ else w.srem 8#32) = _
  rw [if_neg hc]
  unfold BitVec.srem
  rw [msb_false_of_lt hw, show (8#32 : BitVec 32).msb = false by decide]
  apply BitVec.eq_of_toNat_eq
  show (w % 8#32).toNat = _
  rw [BitVec.toNat_umod, toNat_ofNat_small (n := w.toNat % 8) (by omega)]
  rfl

/-- The remainder is not negative. -/
theorem rem_not_neg (w : BitVec 32) (hw : w.toNat < 2 ^ 31) : Scalar.cmpi .slt (Scalar.remsi w 8#32) 0#32 = 0#1 := by
  rw [remsi_eight w hw]
  show BitVec.ofBool ((BitVec.ofNat 32 (w.toNat % 8)).slt 0#32) = 0#1
  have h : (BitVec.ofNat 32 (w.toNat % 8)).slt 0#32 = false := by
    unfold BitVec.slt
    rw [toInt_of_lt (by rw [toNat_ofNat_small (by omega)]; omega), BitVec.toInt_zero]
    exact decide_eq_false (by omega)
  rw [h]; rfl

/-- The row of the 8-row block: the sign correction is off and the row is the word modulo eight. -/
theorem row_chain (w : BitVec 32) (hw : w.toNat < 2 ^ 31) :
    Scalar.select
        (Scalar.andi (Scalar.xori (Scalar.cmpi .slt (Scalar.remsi w 8#32) 0#32) 0#1) (Scalar.cmpi .ne (Scalar.remsi w 8#32) 0#32))
        (Scalar.addi (Scalar.remsi w 8#32) 8#32) (Scalar.remsi w 8#32)
      = BitVec.ofNat 32 (w.toNat % 8) := by
  rw [rem_not_neg w hw]
  have hz : ∀ b : BitVec 1, Scalar.andi (Scalar.xori 0#1 0#1) b = 0#1 := by decide
  rw [hz, ValueIdx.select_zero, remsi_eight w hw]

/-- The truncated quotient of a non-negative word by eight is its quotient. -/
theorem divsi_eight (w : BitVec 32) (hw : w.toNat < 2 ^ 31) : (Scalar.divsi w 8#32).toNat = w.toNat / 8 := by
  have hc : ¬ IntOp.SDivCorner w 8#32 := by
    rintro (h | ⟨_, h⟩)
    · exact absurd h (by decide)
    · exact absurd h (by decide)
  show (if IntOp.SDivCorner w 8#32 then _ else w.sdiv 8#32).toNat = _
  rw [if_neg hc]
  unfold BitVec.sdiv
  rw [msb_false_of_lt hw, show (8#32 : BitVec 32).msb = false by decide]
  show (w / 8#32).toNat = _
  rw [BitVec.toNat_udiv]
  rfl

/-- A positive word compares greater than zero and not less than zero. -/
theorem sgt_zero_of_pos (w : BitVec 32) (hw : w.toNat < 2 ^ 31) (h0 : w.toNat ≠ 0) : Scalar.cmpi .sgt w 0#32 = 1#1 := by
  show BitVec.ofBool ((0#32 : BitVec 32).slt w) = 1#1
  have h : (0#32 : BitVec 32).slt w = true := by
    unfold BitVec.slt
    rw [toInt_of_lt hw, BitVec.toInt_zero]
    exact decide_eq_true (by omega)
  rw [h]; rfl

/-- A non-negative word does not compare less than zero. -/
theorem slt_zero_of_nonneg (w : BitVec 32) (hw : w.toNat < 2 ^ 31) : Scalar.cmpi .slt w 0#32 = 0#1 := by
  show BitVec.ofBool (w.slt 0#32) = 0#1
  have h : w.slt 0#32 = false := by
    unfold BitVec.slt
    rw [toInt_of_lt hw, BitVec.toInt_zero]
    exact decide_eq_false (by omega)
  rw [h]; rfl

/-- The block index: the floor correction is off and the index is the word divided by eight. -/
theorem block_chain (w : BitVec 32) (hw : w.toNat < 2 ^ 31) :
    (Scalar.select
        (Scalar.andi
          (Scalar.cmpi .ne
            (Scalar.subi (Scalar.extui (Scalar.cmpi .sgt w 0#32)) (Scalar.extui (Scalar.cmpi .slt w 0#32)))
            (Scalar.subi (Scalar.extui (Scalar.cmpi .sgt 8#32 0#32)) (Scalar.extui (Scalar.cmpi .slt 8#32 0#32))))
          (Scalar.cmpi .ne (Scalar.remsi w 8#32) 0#32))
        (Scalar.subi (Scalar.divsi w 8#32) 1#32)
        (Scalar.divsi w 8#32)).toNat
      = w.toNat / 8 := by
  have hflag : Scalar.andi
          (Scalar.cmpi .ne
            (Scalar.subi (Scalar.extui (Scalar.cmpi .sgt w 0#32)) (Scalar.extui (Scalar.cmpi .slt w 0#32)))
            (Scalar.subi (Scalar.extui (Scalar.cmpi .sgt 8#32 0#32)) (Scalar.extui (Scalar.cmpi .slt 8#32 0#32))))
          (Scalar.cmpi .ne (Scalar.remsi w 8#32) 0#32) = 0#1 := by
    by_cases h0 : w.toNat = 0
    · have hw0 : w = 0#32 := BitVec.eq_of_toNat_eq (by rw [h0]; rfl)
      subst hw0
      decide
    · rw [sgt_zero_of_pos w hw h0, slt_zero_of_nonneg w hw]
      have hz : ∀ b : BitVec 1, Scalar.andi
          (Scalar.cmpi .ne (Scalar.subi (Scalar.extui 1#1) (Scalar.extui 0#1))
            (Scalar.subi (Scalar.extui (Scalar.cmpi .sgt 8#32 0#32)) (Scalar.extui (Scalar.cmpi .slt 8#32 0#32)))) b = 0#1 := by
        decide
      exact hz _
  rw [hflag, ValueIdx.select_zero, divsi_eight w hw]

/-- A flat position splits into its block of eight and its row in the block. -/
theorem block_row_split (n : Nat) : 8 * (n / 8) + n % 8 = n := by omega

/-- The block of eight rows of a flat position below 704000 lies inside the table. -/
theorem block_inside {n : Nat} (h : n < 704000) : (n / 8 + 1) * 8 ≤ 704000 := by omega

/-- The row in the block is below eight. -/
theorem row_lt (n : Nat) : n % 8 < 8 := by omega

end Cert.KernelIdeal.G2V
-- ==== Proof.TablesOk.lean ====
/-
  The prefetched tables of region 2 hold flat voxel indices: entry i of table w is the row-major index, below 704000,
  of the voxel point i is redirected to. From that, over ANY contents of the tables with this property: the word an
  index map reads at grid point i is that flat index; the block index the map computes from it — the signed quotient
  by eight with the floor correction, which is idle on a nonnegative word — is flat / 8, and the row the body selects
  inside the fetched 8-row block — the signed remainder by eight with its correction, idle likewise — is flat % 8; and
  every block so indexed lies inside the 704000 x 64 table, which is the side condition the pipeline asks of the
  tables' contents.
-/
import proofs.«427562_j44873818309267_2_alg».proof.Proof.Gen.KernelIdeal.Launch
import proofs.«427562_j44873818309267_2_alg».proof.Proof.Spec
import proofs.«427562_j44873818309267_2_alg».proof.Proof.G2Runs
import proofs.«427562_j44873818309267_2_alg».proof.Proof.G2Words
import Idealize.ShloMosaic.Lib.ValueIdx

noncomputable section

namespace Cert.KernelIdeal.Tables

open Idealize.ShloMosaic
open Cert.KernelIdeal Cert.KernelIdeal.Gen
open Cert.Spec (Voxel)

variable {F : FTy → Type} [FloatOps F]

/-! ## Words -/

/-- The block index an index map computes from a table word: the signed quotient by eight, lowered by one when the
    word is negative and not a multiple of eight. -/
def blockW (v1 : BitVec 32) : BitVec 32 :=
  let v2 : BitVec 32 := Scalar.divsi v1 8#32
  let v3 : BitVec 1 := Scalar.cmpi .sgt v1 0#32
  let v4 : BitVec 32 := Scalar.extui v3
  let v5 : BitVec 1 := Scalar.cmpi .slt v1 0#32
  let v6 : BitVec 32 := Scalar.extui v5
  let v7 : BitVec 32 := Scalar.subi v4 v6
  let v8 : BitVec 1 := Scalar.cmpi .sgt 8#32 0#32
  let v9 : BitVec 32 := Scalar.extui v8
  let v10 : BitVec 1 := Scalar.cmpi .slt 8#32 0#32
  let v11 : BitVec 32 := Scalar.extui v10
  let v12 : BitVec 32 := Scalar.subi v9 v11
  let v13 : BitVec 1 := Scalar.cmpi .ne v7 v12
  let v14 : BitVec 32 := Scalar.remsi v1 8#32
  let v15 : BitVec 1 := Scalar.cmpi .ne v14 0#32
  let v16 : BitVec 1 := Scalar.andi v13 v15
  let v17 : BitVec 32 := Scalar.subi v2 1#32
  Scalar.select v16 v17 v2

/-- A flat voxel index as a word has its value. -/
theorem toNat_flatWord (n : Nat) (hn : n < 704000) : (BitVec.ofNat 32 n).toNat = n :=
  G2V.toNat_ofNat_small (by omega)

/-- The block index of a flat voxel index: its quotient by eight. -/
theorem blockW_flat (n : Nat) (hn : n < 704000) : (blockW (BitVec.ofNat 32 n)).toNat = n / 8 := by
  have h := G2V.block_chain (BitVec.ofNat 32 n) (by rw [toNat_flatWord n hn]; omega)
  rw [toNat_flatWord n hn] at h
  exact h

/-- The row of a flat voxel index inside its 8-row block: its remainder by eight. -/
theorem rowW_flat (n : Nat) (hn : n < 704000) : G2.rowW (BitVec.ofNat 32 n) = BitVec.ofNat 32 (n % 8) := by
  have h := G2V.row_chain (BitVec.ofNat 32 n) (by rw [toNat_flatWord n hn]; omega)
  rw [toNat_flatWord n hn] at h
  exact h

/-- The third row the body selects is spelled by the same chain as the first two. -/
theorem rowW_def (w : BitVec 32) :
    Scalar.select (G2.fixW w) (Scalar.addi (G2.remW w) G2.eightW) (G2.remW w) = G2.rowW w := rfl

/-! ## The word an index map reads -/

/-- The one entry an index map's load addresses at grid point `i`: entry `i`. -/
theorem emb_first (i : grid2.Coords) :
    (Rect.unit (s := S16384) ![(Scalar.indexCast (BitVec.ofNat 32 (i 0).val)).toNat] S1.size (k2_off1_inb i)).emb
        (Shape.Idx.first (numel1_S1.symm ▸ Nat.one_pos)) = ValueIdx.ix1 (i 0) := by
  have h : (i 0).val < 16384 := (i 0).isLt
  funext a
  fin_cases a
  apply Fin.ext
  show (BitVec.ofNat 32 (i 0).val).toNat + 1 * 0 = (i 0).val
  rw [BitVec.toNat_ofNat, Nat.mod_eq_of_lt (by omega), Nat.mul_zero, Nat.add_zero]

variable (pf : pre2.Contents (Elt F)) (p0 p1 p2 : Fin 16384 → Voxel)

/-- The word index map 0 reads at point `i` is the flat index of the first voxel of point `i`; -/
theorem mapWord0 (h0 : pf 0 = fun j : S16384.Idx => BitVec.ofNat 32 (p0 (j 0)).flat) (i : grid2.Coords) :
    pf.at 0 (Rect.unit (s := S16384) ![(Scalar.indexCast (BitVec.ofNat 32 (i 0).val)).toNat] S1.size (k2_off1_inb i)) numel1_S1
      = BitVec.ofNat 32 (p0 (i 0)).flat := by
  show pf 0 _ = _
  rw [h0]
  show BitVec.ofNat 32 (p0 (((Rect.unit (s := S16384) ![(Scalar.indexCast (BitVec.ofNat 32 (i 0).val)).toNat] S1.size (k2_off1_inb i)).emb
        (Shape.Idx.first (numel1_S1.symm ▸ Nat.one_pos))) 0)).flat = _
  rw [emb_first]

/-- index map 1, of the second; -/
theorem mapWord1 (h1 : pf 1 = fun j : S16384.Idx => BitVec.ofNat 32 (p1 (j 0)).flat) (i : grid2.Coords) :
    pf.at 1 (Rect.unit (s := S16384) ![(Scalar.indexCast (BitVec.ofNat 32 (i 0).val)).toNat] S1.size (k2_off1_inb i)) numel1_S1
      = BitVec.ofNat 32 (p1 (i 0)).flat := by
  show pf 1 _ = _
  rw [h1]
  show BitVec.ofNat 32 (p1 (((Rect.unit (s := S16384) ![(Scalar.indexCast (BitVec.ofNat 32 (i 0).val)).toNat] S1.size (k2_off1_inb i)).emb
        (Shape.Idx.first (numel1_S1.symm ▸ Nat.one_pos))) 0)).flat = _
  rw [emb_first]

/-- index map 2, of the third. -/
theorem mapWord2 (h2 : pf 2 = fun j : S16384.Idx => BitVec.ofNat 32 (p2 (j 0)).flat) (i : grid2.Coords) :
    pf.at 2 (Rect.unit (s := S16384) ![(Scalar.indexCast (BitVec.ofNat 32 (i 0).val)).toNat] S1.size (k2_off1_inb i)) numel1_S1
      = BitVec.ofNat 32 (p2 (i 0)).flat := by
  show pf 2 _ = _
  rw [h2]
  show BitVec.ofNat 32 (p2 (((Rect.unit (s := S16384) ![(Scalar.indexCast (BitVec.ofNat 32 (i 0).val)).toNat] S1.size (k2_off1_inb i)).emb
        (Shape.Idx.first (numel1_S1.symm ▸ Nat.one_pos))) 0)).flat = _
  rw [emb_first]

/-! ## The index maps -/

/-- Index map 0 at point `i`: block `flat / 8` of the rows, the one block of the columns; -/
theorem transform_eq_0 (h0 : pf 0 = fun j : S16384.Idx => BitVec.ofNat 32 (p0 (j 0)).flat) (i : grid2.Coords) :
    cc2_transform_0 k2_off1_inb numel1_S1 pf i = ![(p0 (i 0)).flat / 8, 0] := by
  show ![(blockW (pf.at 0 (Rect.unit (s := S16384) ![(Scalar.indexCast (BitVec.ofNat 32 (i 0).val)).toNat] S1.size (k2_off1_inb i)) numel1_S1)).toNat,
      (0#32 : BitVec 32).toNat] = _
  rw [mapWord0 pf p0 h0 i, blockW_flat _ (p0 (i 0)).flat_lt]
  rfl

/-- index map 1; -/
theorem transform_eq_1 (h1 : pf 1 = fun j : S16384.Idx => BitVec.ofNat 32 (p1 (j 0)).flat) (i : grid2.Coords) :
    cc2_transform_1 k2_off1_inb numel1_S1 pf i = ![(p1 (i 0)).flat / 8, 0] := by
  show ![(blockW (pf.at 1 (Rect.unit (s := S16384) ![(Scalar.indexCast (BitVec.ofNat 32 (i 0).val)).toNat] S1.size (k2_off1_inb i)) numel1_S1)).toNat,
      (0#32 : BitVec 32).toNat] = _
  rw [mapWord1 pf p1 h1 i, blockW_flat _ (p1 (i 0)).flat_lt]
  rfl

/-- index map 2. -/
theorem transform_eq_2 (h2 : pf 2 = fun j : S16384.Idx => BitVec.ofNat 32 (p2 (j 0)).flat) (i : grid2.Coords) :
    cc2_transform_2 k2_off1_inb numel1_S1 pf i = ![(p2 (i 0)).flat / 8, 0] := by
  show ![(blockW (pf.at 2 (Rect.unit (s := S16384) ![(Scalar.indexCast (BitVec.ofNat 32 (i 0).val)).toNat] S1.size (k2_off1_inb i)) numel1_S1)).toNat,
      (0#32 : BitVec 32).toNat] = _
  rw [mapWord2 pf p2 h2 i, blockW_flat _ (p2 (i 0)).flat_lt]
  rfl

/-! ## The pipeline's side condition -/

/-- The 8 x 64 block at block index `(flat / 8, 0)` lies inside the 704000 x 64 table. -/
theorem block_inb (n : Nat) (hn : n < 704000) : ∀ a, ((![n / 8, 0] : Fin 2 → Nat) a + 1) * S8x64.size a ≤ S704000x64.size a := by
  intro a
  fin_cases a
  · show (n / 8 + 1) * 8 ≤ 704000
    exact G2V.block_inside hn
  · show (0 + 1) * 64 ≤ 64
    omega

/-- Tables of flat voxel indices satisfy the side condition the region asks of its tables' contents. -/
theorem ok2_of_flat
    (h0 : pf 0 = fun j : S16384.Idx => BitVec.ofNat 32 (p0 (j 0)).flat)
    (h1 : pf 1 = fun j : S16384.Idx => BitVec.ofNat 32 (p1 (j 0)).flat)
    (h2 : pf 2 = fun j : S16384.Idx => BitVec.ofNat 32 (p2 (j 0)).flat) : ok2 (F := F) pf := by
  refine ⟨fun i => ⟨?_, .inl rfl⟩, fun i => ⟨?_, .inl rfl⟩, fun i => ⟨?_, .inl rfl⟩⟩
  · rw [transform_eq_0 pf p0 h0 i]; exact block_inb _ (p0 (i 0)).flat_lt
  · rw [transform_eq_1 pf p1 h1 i]; exact block_inb _ (p1 (i 0)).flat_lt
  · rw [transform_eq_2 pf p2 h2 i]; exact block_inb _ (p2 (i 0)).flat_lt

end Cert.KernelIdeal.Tables

end
-- ==== Proof.G2Sched.lean ====
/-
  Region 2 of @main, the schedule: a grid of 16384 points in one axis; three input windows of 8 x 64 blocks whose
  block index is a prefetched word divided by eight, and one output window of a single 1 x 1 block at index (0, 0).
  The facts here hold at any admissible contents of the prefetched tables: the output window is never fetched,
  is written back exactly at the last point, and is idle at every other point; the input windows are never idle and
  never cut; the two conditions of the body (first point, last point) in closed form in the point's number; and what
  the output window's buffer holds when the body runs (what it held when the region began).
-/
import proofs.«427562_j44873818309267_2_alg».proof.Proof.Gen.KernelIdeal.Launch
import proofs.«427562_j44873818309267_2_alg».proof.Proof.Gen.KernelIdeal.Skeleton
import proofs.«427562_j44873818309267_2_alg».proof.Proof.Gen.KernelIdeal.Points
import Idealize.ShloMosaic.Lib.Pipeline.FrameBody
import Idealize.ShloMosaic.Lib.Pipeline.TableIdle
import Idealize.ShloMosaic.Lib.Pipeline.Value
import Idealize.ShloMosaic.Lib.Tactic

set_option maxRecDepth 16384

noncomputable section

namespace Cert.KernelIdeal.G2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The grid and the two conditions of the body, in closed form -/

/-- The one grid axis has stride one: the point's number is its coordinate. -/
theorem stride2 : grid2.stride 0 = 1 := by decide

/-- The last-point condition holds exactly at coordinate 16383. -/
theorem last_iff (i : grid2.Coords) : k2_cond2 i = 1#1 ↔ (i 0).val = 16383 := by
  have hi : (i 0).val < 16384 := (i 0).isLt
  unfold k2_cond2
  dsimp only
  rw [Scalar.guard_iff, Scalar.cmpi, IntOp.cmpi_eq, ← BitVec.toNat_inj, BitVec.toNat_ofNat]
  show (i 0).val % 2 ^ 32 = 16383 ↔ _
  omega

/-- The first-point condition holds exactly at coordinate 0. -/
theorem first_iff (i : grid2.Coords) :
    (Scalar.cmpi .ne (Scalar.extui (Scalar.cmpi .eq (BitVec.ofNat 32 (i 0).val) 0#32)) 0#32) = 1#1 ↔ (i 0).val = 0 := by
  have hi : (i 0).val < 16384 := (i 0).isLt
  rw [Scalar.guard_iff, Scalar.cmpi, IntOp.cmpi_eq, ← BitVec.toNat_inj, BitVec.toNat_ofNat]
  show (i 0).val % 2 ^ 32 = 0 ↔ _
  omega

section Sched

variable (a : (pcfg2 (F := F)).Adm)

/-- The grid has 16384 points at any contents of the tables. -/
theorem N2 : (cfg2 a).N = 16384 := N_2

theorem lt_N2 (t : Fin (cfg2 a).N) : t.val < 16384 := lt_of_lt_of_eq t.isLt (N2 a)

/-- Point number t has coordinate t. -/
theorem coords0 (t : Fin (cfg2 a).N) : ((cfg2 a).grid.coords t 0).val = t.val := by
  have hN : t.val < 16384 := lt_N2 a t
  show t.val / grid2.stride 0 % 16384 = t.val
  rw [stride2]; omega

/-- The three block windows are inputs, the cell window the output. -/
theorem isOut0 : ((cfg2 a).win 0).isOut = false := rfl
theorem isOut1 : ((cfg2 a).win 1).isOut = false := rfl
theorem isOut2 : ((cfg2 a).win 2).isOut = false := rfl
theorem isOut3 : ((cfg2 a).win 3).isOut = true := rfl

/-- The output window is never fetched. -/
theorem fetch3 (t : Fin (cfg2 a).N) : ((cfg2 a).win 3).fetch t = false := ((cfg2 a).win 3).fetch_out rfl t

/-- Its block index is constant: block (0, 0). -/
theorem index3 (t t' : Fin (cfg2 a).N) : ((cfg2 a).win 3).index t = ((cfg2 a).win 3).index t' := rfl

/-- So it is written back exactly at the last point. -/
theorem flush3_iff (t : Fin (cfg2 a).N) : ((cfg2 a).win 3).flush t = true ↔ t.val = 16383 := by
  unfold Window.flush
  rw [isOut3, Bool.true_and, Bool.or_eq_true, decide_eq_true_eq, decide_eq_true_eq]
  constructor
  · rintro (h | ⟨h, hne⟩)
    · have h' : t.val + 1 = 16384 := h.trans N_2
      omega
    · exact absurd (index3 a _ _) hne
  · intro h; left
    rw [h]; exact N_2.symm

theorem flush3_last (t : Fin (cfg2 a).N) (h : t.val = 16383) : ((cfg2 a).win 3).flush t = true := (flush3_iff a t).mpr h

theorem flush3_not_last (t : Fin (cfg2 a).N) (h : t.val ≠ 16383) : ((cfg2 a).win 3).flush t = false := by
  cases hf : ((cfg2 a).win 3).flush t
  · rfl
  · exact absurd ((flush3_iff a t).mp hf) h

/-- The output window is idle at every point but the last. -/
theorem idle3_eq (t : Fin (cfg2 a).N) : (cfg2 a).idle 3 ((cfg2 a).grid.coords t) = !decide (t.val = 16383) := by
  show (!(k2_cond2 ((cfg2 a).grid.coords t) == 1#1)) = _
  congr 1
  rw [Bool.eq_iff_iff, beq_iff_eq, decide_eq_true_eq, last_iff, coords0]

theorem idle3_last (t : Fin (cfg2 a).N) (h : t.val = 16383) : (cfg2 a).idle 3 ((cfg2 a).grid.coords t) = false := by
  rw [idle3_eq, decide_eq_true h]; rfl

theorem idle3_not_last (t : Fin (cfg2 a).N) (h : t.val ≠ 16383) : (cfg2 a).idle 3 ((cfg2 a).grid.coords t) = true := by
  rw [idle3_eq, decide_eq_false h]; rfl

/-- The input windows are never idle. -/
theorem live0 (i) : (cfg2 a).idle 0 i = false := rfl
theorem live1 (i) : (cfg2 a).idle 1 i = false := rfl
theorem live2 (i) : (cfg2 a).idle 2 i = false := rfl

/-- No window's block is cut. -/
theorem clip2 (w : Fin (cfg2 a).W) (i) (x) : ((cfg2 a).win w).clip i x = none := rfl

/-- The conditions of the body at point t, by the point's number. -/
theorem first_at (t : Fin (cfg2 a).N) :
    (Scalar.cmpi .ne (Scalar.extui (Scalar.cmpi .eq (BitVec.ofNat 32 (grid2.coords t 0).val) 0#32)) 0#32) = 1#1 ↔ t.val = 0 := by
  rw [first_iff]; exact Eq.congr_left (coords0 a t)

theorem last_at (t : Fin (cfg2 a).N) : k2_cond2 (grid2.coords t) = 1#1 ↔ t.val = 16383 := by
  rw [last_iff]; exact Eq.congr_left (coords0 a t)

/-- Each window's current staging memref at point t, as the pipeline passes it, and its wholeness. -/
abbrev ms2_0 (t : Fin (cfg2 a).N) : Memref sig .tc .vmem S8x64 .f32 := spec2_0.stage ((cfg2 a).slots t 0)
abbrev hs2_0 (t : Fin (cfg2 a).N) : (ms2_0 a t).IsWhole := hstage2_0 (((cfg2 a).slots t 0).cast nbuf2_0)
abbrev ms2_1 (t : Fin (cfg2 a).N) : Memref sig .tc .vmem S8x64 .f32 := spec2_1.stage ((cfg2 a).slots t 1)
abbrev hs2_1 (t : Fin (cfg2 a).N) : (ms2_1 a t).IsWhole := hstage2_1 (((cfg2 a).slots t 1).cast nbuf2_1)
abbrev ms2_2 (t : Fin (cfg2 a).N) : Memref sig .tc .vmem S8x64 .f32 := spec2_2.stage ((cfg2 a).slots t 2)
abbrev hs2_2 (t : Fin (cfg2 a).N) : (ms2_2 a t).IsWhole := hstage2_2 (((cfg2 a).slots t 2).cast nbuf2_2)
abbrev ms2_3 (t : Fin (cfg2 a).N) : Memref sig .tc .vmem S1x1 .f32 := spec2_3.stage ((cfg2 a).slots t 3)
abbrev hs2_3 (t : Fin (cfg2 a).N) : (ms2_3 a t).IsWhole := hstage2_3 (((cfg2 a).slots t 3).cast nbuf2_3)

/-- The body at point t, on what the pipeline calls it with. -/
abbrev bodyAt2 (t : Fin (cfg2 a).N) : Prog (TpuEff nD τ sig (Elt F) Λ₀ .tc) PUnit :=
  cc2__gather_kernel (grid2.coords t) (Memref.whole main_v26) (Memref.isWhole_whole _) (Memref.whole main_v38) (Memref.isWhole_whole _) (Memref.whole main_v50) (Memref.isWhole_whole _)
    (ms2_0 a t) (hs2_0 a t) (ms2_1 a t) (hs2_1 a t) (ms2_2 a t) (hs2_2 a t) (ms2_3 a t) (hs2_3 a t)
    (Memref.whole cc2_scratch0) (Memref.isWhole_whole _) (Memref.whole cc2_scratch1) (Memref.isWhole_whole _)

/-- It is the label table's row at the point. -/
theorem bodyAt2_eq (t : Fin (cfg2 a).N) :
    defs₀ (F := F) .tc (cfg2 a).body ((cfg2 a).bodyArgs t ((cfg2 a).slots t)) = bodyAt2 a t := rfl

end Sched

/-! ## What the output window's buffer holds when the body runs -/

section Before

variable {a : (pcfg2 (F := F)).Adm} {c : Dev nD} (dat : Dat τ (Elt F) Unit ℕ (UR sig nD τ) ℕ (cfg2 a) c)

/-- The output window's buffer is never stored into before the last point and never fetched: at every point the
    body finds in it what it held when the region began. -/
theorem before3 (t : Fin (cfg2 a).N) (d) : dat.before 3 t d = d := by
  have hN := lt_N2 a t
  rw [dat.before_idle_run 3 (fetch3 a) d t.val t (Nat.le_refl _)
    (fun j _ hj => ⟨idle3_not_last a j (by omega), flush3_not_last a j (by omega)⟩)]
  exact dat.before_out_reset 3 rfl _ (.inl (Nat.sub_self _)) d

end Before

end Cert.KernelIdeal.G2

end
-- ==== Proof.G2Data.lean ====
/-
  Region 2 of @main, the gather and the two running sums: the pipeline's proof data and its body obligation. The
  region runs 16384 points. At point i it has staged the three 8-row blocks that hold the rows the i-th words of
  the three prefetched tables name; the body adds to two one-element cells the squared squared distance of the
  first and second selected rows and the squared hinge of the distance of the first and third. The cells are reset
  at the first point and read out at the last, where the output cell receives (first + second) / 65536 * 1e6; the
  output window is idle at every other point and written back once, at the end. Stated at a parameter V, the
  TensorCore's buffer contents when the region is entered: the two sums point by point as a recursion, the
  invariant between points (the two cells at the sums so far, the tables whole), the proof data, what the body finds
  in each window's buffer, the body obligation by the three control cases, and the arrays after the region.
-/
import proofs.«427562_j44873818309267_2_alg».proof.Proof.G2Sched
import proofs.«427562_j44873818309267_2_alg».proof.Proof.G2Runs
import Idealize.ShloMosaic.Lib.Pipeline.FrameBody
import Idealize.ShloMosaic.Lib.Pipeline.TableIdle
import Idealize.ShloMosaic.Lib.Pipeline.Value
import Idealize.ShloMosaic.Lib.Tactic

set_option maxRecDepth 16384

noncomputable section

namespace Cert.KernelIdeal.G2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The prefetched tables, read off the region-entry contents -/

/-- The tables' contents when the region is entered (there is one device). -/
def tbl : pre2.Contents (Elt F) := fun j => V (0 : Dev nD) (pre2.ref j)

/-- On every device the tables hold those contents. -/
theorem V_pre (c : Dev nD) (j : Fin 3) : V c (pre2.ref j) = tbl V j := by
  obtain rfl : c = 0 := Subsingleton.elim _ _; rfl

/-- The pipeline's side condition of the tables' contents: every fetched block inside its array. -/
abbrev Ok : Prop := ok2 (F := F) (tbl V)
/-- The tables' contents as admissible contents, and the pipeline at them. -/
abbrev adm (hO : Ok V) : (pcfg2 (F := F)).Adm := ⟨tbl V, hO⟩
abbrev cfgM (hO : Ok V) : Pipeline.Cfg sig Λ₀ := cfg2 (adm V hO)

/-- The tables held at half the full share, table by table. -/
theorem PhiT2_eq (c : Dev nD) (v : pre2.Contents (Elt F)) :
    (Pipeline.prefHeld pre2 c (fun _ => fullShare.right) v : sProp 𝕄) = iprop(tbPt c tbM0 (v 0) ∗ tbPt c tbM1 (v 1) ∗ tbPt c tbM2 (v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window w's block at point t, read off its array as the region finds it: for the three input windows the 8 rows
    of the table starting at eight times the block index, a function of the tables' words. -/
def iblk2 (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec2 w))

/-! ## The two running sums, point by point -/

/-- One point's update of the two cells: the first cell gains the squared squared distance of the rows the first
    and second words select, the second the squared hinge of the distance of the rows the first and third select. -/
def stepAt (hO : Ok V) (c : Dev nD) (t : Fin (cfgM V hO).N) (s : Vec F S1x1 .f32 × Vec F S1x1 .f32) :
    Vec F S1x1 .f32 × Vec F S1x1 .f32 :=
  (accP (wordAt (c := c) (M := tbM0) (tbl V 0) (grid2.coords t)) (wordAt (c := c) (M := tbM1) (tbl V 1) (grid2.coords t))
      (iblk2 V hO c 0 t) (iblk2 V hO c 1 t) s.1,
   accN (wordAt (c := c) (M := tbM0) (tbl V 0) (grid2.coords t)) (wordAt (c := c) (M := tbM2) (tbl V 2) (grid2.coords t))
      (iblk2 V hO c 0 t) (iblk2 V hO c 2 t) s.2)

/-- The two cells after the body at point n: the first point updates zero, every later point what the point
    before left. -/
def accAt (hO : Ok V) (c : Dev nD) : (n : ℕ) → n < (cfgM V hO).N → Vec F S1x1 .f32 × Vec F S1x1 .f32
  | 0, hn => stepAt V hO c ⟨0, hn⟩ (zeroCell, zeroCell)
  | n + 1, hn => stepAt V hO c ⟨n + 1, hn⟩ (accAt hO c n (Nat.lt_of_succ_lt hn))

theorem accAt_zero (hO : Ok V) (c : Dev nD) (t : Fin (cfgM V hO).N) (h : t.val = 0) :
    accAt V hO c t.val t.isLt = stepAt V hO c t (zeroCell, zeroCell) := by
  obtain ⟨n, hn⟩ := t
  cases n with
  | zero => rfl
  | succ n => exact absurd h (Nat.succ_ne_zero n)

theorem accAt_pos (hO : Ok V) (c : Dev nD) (t : Fin (cfgM V hO).N) (h : t.val ≠ 0) :
    accAt V hO c t.val t.isLt = stepAt V hO c t (accAt V hO c (t.val - 1) (Nat.lt_of_le_of_lt (Nat.sub_le _ _) t.isLt)) := by
  obtain ⟨n, hn⟩ := t
  cases n with
  | zero => exact absurd rfl h
  | succ n => rfl

/-- The last point's number is a point. -/
theorem last_lt (hO : Ok V) : 16383 < (cfgM V hO).N := by rw [N2]; decide

/-- The two cells after the last point. -/
def endP (hO : Ok V) (c : Dev nD) : Vec F S1x1 .f32 := (accAt V hO c 16383 (last_lt V hO)).1
def endN (hO : Ok V) (c : Dev nD) : Vec F S1x1 .f32 := (accAt V hO c 16383 (last_lt V hO)).2

/-! ## The invariant between points -/

/-- The core's scoped buffers of the other two regions, each at some contents. -/
def restS (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- The region's scoped rest is those eight buffers and the two cells, each cell owned as a memref at some contents. -/
theorem scoped2_split (c : Dev nD) :
    (Pipeline.scopedRest (Ix := Unit) (Name := ℕ) (U := UR sig nD τ) (Lvl := ℕ) (Val := Elt F) spec2 c : sProp 𝕄)
      ⊣⊢ iprop(restS c ∗ (∃ d, owns (c : Thread nD τ) scM0 fullShare d) ∗ (∃ d, owns (c : Thread nD τ) scM1 fullShare d)) := by
  rw [scopedRest2_eq]
  unfold restS
  simp only [scM0, scM1, owns_whole]
  constructor
  · iintro ⟨H0, H1, H2, H3, H4, H5, H6, H7, H8, H9⟩
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexact H8
    iexact H9
  · iintro ⟨⟨H0, H1, H2, H3, H4, H5, H6, H7⟩, H8, H9⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The invariant before position n: before the first point the scoped rest and the generator register as the
    region finds them, and the three tables whole; afterwards the two cells at what the point before left, the other
    scoped buffers and the generator register at anything, and the three tables whole. -/
def PhiS2 (hO : Ok V) (c : Dev nD) : (n : ℕ) → n ≤ (cfgM V hO).N → sProp 𝕄
  | 0, _ => iprop(Pipeline.ΦA spec2 c ∗ Pipeline.prefHeld pre2 c (fun _ => fullShare) (tbl V))
  | n + 1, hn => iprop(owns (c : Thread nD τ) scM0 fullShare (accAt V hO c n hn).1 ∗ owns (c : Thread nD τ) scM1 fullShare (accAt V hO c n hn).2
      ∗ restS c ∗ (∃ r, prngReg c r) ∗ Pipeline.prefHeld pre2 c (fun _ => fullShare) (tbl V))

theorem PhiS2_zero (hO : Ok V) (c : Dev nD) (n : ℕ) (h : n ≤ (cfgM V hO).N) (hz : n = 0) :
    PhiS2 V hO c n h = iprop(Pipeline.ΦA spec2 c ∗ Pipeline.prefHeld pre2 c (fun _ => fullShare) (tbl V)) := by
  subst hz; rfl

theorem PhiS2_succ (hO : Ok V) (c : Dev nD) (n : ℕ) (hn : n < (cfgM V hO).N) :
    PhiS2 V hO c (n + 1) hn = iprop(owns (c : Thread nD τ) scM0 fullShare (accAt V hO c n hn).1 ∗ owns (c : Thread nD τ) scM1 fullShare (accAt V hO c n hn).2
      ∗ restS c ∗ (∃ r, prngReg c r) ∗ Pipeline.prefHeld pre2 c (fun _ => fullShare) (tbl V)) := rfl

theorem PhiS2_pos (hO : Ok V) (c : Dev nD) (n : ℕ) (h : n ≤ (cfgM V hO).N) (hz : n ≠ 0) :
    PhiS2 V hO c n h = iprop(owns (c : Thread nD τ) scM0 fullShare (accAt V hO c (n - 1) (by omega)).1 ∗ owns (c : Thread nD τ) scM1 fullShare (accAt V hO c (n - 1) (by omega)).2
      ∗ restS c ∗ (∃ r, prngReg c r) ∗ Pipeline.prefHeld pre2 c (fun _ => fullShare) (tbl V)) := by
  cases n with
  | zero => exact absurd rfl hz
  | succ n => rfl

/-! ## The pipeline's proof data -/

/-- The proof data of the region on core c: the arrays as the region finds them; after the body each input's
    buffer at its block and the output's at the output cell of the two sums (consulted at the last point only); the
    invariant above; nothing owed; the table array staged by two windows held at the two halves of the full share. -/
def dat2 (hO : Ok V) (c : Dev nD) : Dat τ (Elt F) Unit ℕ (UR sig nD τ) ℕ (cfgM V hO) c where
  A w := V c (Pipeline.arrRef spec2 w)
  after w t := match w with
    | ⟨0, _⟩ => iblk2 V hO c 0 t
    | ⟨1, _⟩ => iblk2 V hO c 1 t
    | ⟨2, _⟩ => iblk2 V hO c 2 t
    | ⟨3, _⟩ => outCell (accAt V hO c t.val t.isLt).1 (accAt V hO c t.val t.isLt).2
  Φ t := PhiS2 V hO c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq2 (hO : Ok V) (c : Dev nD) (w : Fin (cfgM V hO).W) : (dat2 V hO c).A w = V c (Pipeline.arrRef spec2 w) := by
  dsimp only [dat2]

theorem q2_0 (hO : Ok V) (c : Dev nD) : (dat2 V hO c).q 0 = fullShare := rfl
theorem q2_1 (hO : Ok V) (c : Dev nD) : (dat2 V hO c).q 1 = fullShare.left := rfl
theorem q2_2 (hO : Ok V) (c : Dev nD) : (dat2 V hO c).q 2 = fullShare.right := rfl
theorem q2_3 (hO : Ok V) (c : Dev nD) : (dat2 V hO c).q 3 = fullShare := rfl

theorem after2_0 (hO : Ok V) (c : Dev nD) (t : Fin (cfgM V hO).N) : (dat2 V hO c).after 0 t = iblk2 V hO c 0 t := by dsimp only [dat2]; try rfl
theorem after2_1 (hO : Ok V) (c : Dev nD) (t : Fin (cfgM V hO).N) : (dat2 V hO c).after 1 t = iblk2 V hO c 1 t := by dsimp only [dat2]; try rfl
theorem after2_2 (hO : Ok V) (c : Dev nD) (t : Fin (cfgM V hO).N) : (dat2 V hO c).after 2 t = iblk2 V hO c 2 t := by dsimp only [dat2]; try rfl
theorem after2_3 (hO : Ok V) (c : Dev nD) (t : Fin (cfgM V hO).N) :
    (dat2 V hO c).after 3 t = outCell (accAt V hO c t.val t.isLt).1 (accAt V hO c t.val t.isLt).2 := by dsimp only [dat2]; try rfl

/-- The invariant at a point's start, restated at the point's number. -/
theorem PhiS2_castSucc (hO : Ok V) (c : Dev nD) (t : Fin (cfgM V hO).N) :
    (dat2 V hO c).Φ t.castSucc = PhiS2 V hO c t.val (Nat.le_of_lt t.isLt) := by
  dsimp only [dat2]; simp only [Fin.coe_castSucc]

/-- Before the first point: what the region hands over. -/
theorem Φ_first (hO : Ok V) (c : Dev nD) :
    (dat2 V hO c).Φ 0 = iprop(Pipeline.ΦA spec2 c ∗ Pipeline.prefHeld pre2 c (fun _ => fullShare) (tbl V)) := rfl

/-- After the last point: the two cells at the full sums. -/
theorem Φ_last (hO : Ok V) (c : Dev nD) :
    (dat2 V hO c).Φ (Fin.last (cfgM V hO).N) = iprop(owns (c : Thread nD τ) scM0 fullShare (endP V hO c) ∗ owns (c : Thread nD τ) scM1 fullShare (endN V hO c)
      ∗ restS c ∗ (∃ r, prngReg c r) ∗ Pipeline.prefHeld pre2 c (fun _ => fullShare) (tbl V)) := by
  have hN : (cfgM V hO).N = 16384 := N2 _
  rw [show (dat2 V hO c).Φ (Fin.last (cfgM V hO).N) = PhiS2 V hO c (Fin.last (cfgM V hO).N).val (Nat.le_of_lt_succ (Fin.last (cfgM V hO).N).isLt) from rfl]
  rw [PhiS2_pos V hO c _ _ (by rw [Fin.val_last]; omega)]
  unfold endP endN
  simp only [Fin.val_last, hN]

/-! ## What the body finds in each window's buffer -/

theorem before2_0 (hO : Ok V) (c : Dev nD) (t : Fin (cfgM V hO).N) (d) : (dat2 V hO c).before 0 t d = iblk2 V hO c 0 t :=
  ((dat2 V hO c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (hO : Ok V) (c : Dev nD) (t : Fin (cfgM V hO).N) (d) : (dat2 V hO c).before 1 t d = iblk2 V hO c 1 t :=
  ((dat2 V hO c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (hO : Ok V) (c : Dev nD) (t : Fin (cfgM V hO).N) (d) : (dat2 V hO c).before 2 t d = iblk2 V hO c 2 t :=
  ((dat2 V hO c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem before2_3 (hO : Ok V) (c : Dev nD) (t : Fin (cfgM V hO).N) (d) : (dat2 V hO c).before 3 t d = d :=
  before3 (dat2 V hO c) t d

/-! ## The body obligation, at a generic point -/

/-- The invariant before the first point with the two cells as memrefs owned at some contents. -/
theorem PhiA2_split (c : Dev nD) :
    (Pipeline.ΦA spec2 c : sProp 𝕄)
      ⊣⊢ iprop((restS c ∗ (∃ d, owns (c : Thread nD τ) scM0 fullShare d) ∗ (∃ d, owns (c : Thread nD τ) scM1 fullShare d)) ∗ (∃ r, prngReg c r)) := by
  unfold Pipeline.ΦA
  exact ⟨sep_mono (scoped2_split c).1 .rfl, sep_mono (scoped2_split c).2 .rfl⟩

/-- The tables whole are their two halves; the right halves are what the body reads. -/
theorem tables_split (c : Dev nD) (v : pre2.Contents (Elt F)) :
    (Pipeline.prefHeld pre2 c (fun _ => fullShare) v : sProp 𝕄)
      ⊣⊢ iprop(Pipeline.prefHeld pre2 c (fun _ => fullShare.left) v ∗ tbPt c tbM0 (v 0) ∗ tbPt c tbM1 (v 1) ∗ tbPt c tbM2 (v 2)) := by
  rw [← PhiT2_eq]
  exact Pipeline.prefHeld_share pre2 c (PosShare.mem_left_op_right fullShare) v

/-- What the body is called with at point t, the windows one by one, -/
def bodyPre2 (hO : Ok V) (c : Dev nD) (t : Fin (cfgM V hO).N) : sProp 𝕄 :=
  iprop((dat2 V hO c).Φ t.castSucc ∗ (dat2 V hO c).owesAt () t.castSucc
    ∗ (∃ d, owns (c : Thread nD τ) (ms2_0 (adm V hO) t) fullShare ((dat2 V hO c).before 0 t d))
    ∗ (∃ d, owns (c : Thread nD τ) (ms2_1 (adm V hO) t) fullShare ((dat2 V hO c).before 1 t d))
    ∗ (∃ d, owns (c : Thread nD τ) (ms2_2 (adm V hO) t) fullShare ((dat2 V hO c).before 2 t d))
    ∗ (∃ d, owns (c : Thread nD τ) (ms2_3 (adm V hO) t) fullShare ((dat2 V hO c).before 3 t d)))

/-- and what it returns. -/
def bodyPost2 (hO : Ok V) (c : Dev nD) (t : Fin (cfgM V hO).N) : sProp 𝕄 :=
  iprop((dat2 V hO c).Φ t.succ ∗ (dat2 V hO c).owesAt () t.succ
    ∗ (dat2 V hO c).leavesExact 0 t
    ∗ (dat2 V hO c).leavesExact 1 t
    ∗ (dat2 V hO c).leavesExact 2 t
    ∗ (dat2 V hO c).leavesExact 3 t)

theorem leaves2_0 (hO : Ok V) (c : Dev nD) (t : Fin (cfgM V hO).N) :
    (dat2 V hO c).leavesExact 0 t = owns (c : Thread nD τ) (ms2_0 (adm V hO) t) fullShare (iblk2 V hO c 0 t) := by
  unfold Dat.leavesExact; rw [live0, after2_0]; rfl
theorem leaves2_1 (hO : Ok V) (c : Dev nD) (t : Fin (cfgM V hO).N) :
    (dat2 V hO c).leavesExact 1 t = owns (c : Thread nD τ) (ms2_1 (adm V hO) t) fullShare (iblk2 V hO c 1 t) := by
  unfold Dat.leavesExact; rw [live1, after2_1]; rfl
theorem leaves2_2 (hO : Ok V) (c : Dev nD) (t : Fin (cfgM V hO).N) :
    (dat2 V hO c).leavesExact 2 t = owns (c : Thread nD τ) (ms2_2 (adm V hO) t) fullShare (iblk2 V hO c 2 t) := by
  unfold Dat.leavesExact; rw [live2, after2_2]; rfl
theorem leaves2_3_idle (hO : Ok V) (c : Dev nD) (t : Fin (cfgM V hO).N) (h : t.val ≠ 16383) :
    (dat2 V hO c).leavesExact 3 t = iprop(∃ d, owns (c : Thread nD τ) (ms2_3 (adm V hO) t) fullShare d) := by
  rw [Dat.leavesExact_idle (dat2 V hO c) 3 t (idle3_not_last _ t h) (flush3_not_last _ t h)]
  simp only [before2_3]
  rfl
theorem leaves2_3_last (hO : Ok V) (c : Dev nD) (t : Fin (cfgM V hO).N) (h : t.val = 16383) :
    (dat2 V hO c).leavesExact 3 t = owns (c : Thread nD τ) (ms2_3 (adm V hO) t) fullShare (outCell (accAt V hO c t.val t.isLt).1 (accAt V hO c t.val t.isLt).2) := by
  unfold Dat.leavesExact; rw [idle3_last _ t h, after2_3]; rfl

/-- The three control cases of a point, by its number. -/
theorem cases_of (hO : Ok V) (t : Fin (cfgM V hO).N) :
    (condFirst (grid2.coords t) ↔ t.val = 0) ∧ (condLast (grid2.coords t) ↔ t.val = 16383) :=
  ⟨first_at (adm V hO) t, last_at (adm V hO) t⟩

set_option maxHeartbeats 1600000 in
/-- The body at any point. The inputs' buffers hold their blocks and the output's what it held when the region
    began; the point's number says which of the three cases runs. The invariant hands the body the two cells (at
    anything before the first point, else at what the point before left) and the tables, whose right halves the
    body reads; it takes back the cells at this point's sums and the tables whole. -/
theorem sound_body2 (hO : Ok V) (c : Dev nD) (t : Fin (cfgM V hO).N) :
    bodyPre2 V hO c t ⊢ wp frame (wpE (defs₀ (F := F)) Variants.none c none) Set.univ (bodyAt2 (adm V hO) t) (fun _ => bodyPost2 V hO c t) := by
  unfold bodyPre2 bodyPost2 bodyAt2
  simp only [before2_0, before2_1, before2_2, before2_3]
  rw [show (dat2 V hO c).owesAt () t.succ = (dat2 V hO c).owesAt () t.castSucc from rfl]
  rw [show (dat2 V hO c).Φ t.succ = PhiS2 V hO c (t.val + 1) t.isLt from rfl, PhiS2_succ]
  rw [leaves2_0, leaves2_1, leaves2_2]
  have hN : t.val < 16384 := lt_N2 _ t
  obtain ⟨hF, hL⟩ := cases_of V hO t
  by_cases h0 : t.val = 0
  · -- the first point
    have hl : t.val ≠ 16383 := by omega
    rw [leaves2_3_idle V hO c t hl, accAt_zero V hO c t h0]
    rw [PhiS2_castSucc V hO c t, PhiS2_zero V hO c _ _ h0]
    unfold stepAt
    iintro ⟨⟨HA, HT⟩, Ho, ⟨%d0, H0⟩, ⟨%d1, H1⟩, ⟨%d2, H2⟩, ⟨%d3, H3⟩⟩
    ihave HA' := (PhiA2_split c).1 $$ HA
    icases HA' with ⟨⟨HR, HS0, HS1⟩, Hg⟩
    ihave HT' := (tables_split c (tbl V)).1 $$ HT
    icases HT' with ⟨HTl, HT0, HT1, HT2⟩
    iapply (runA c (grid2.coords t) _ _ _ _ _ _ _ _ (hF.mpr h0) (fun h => hl (hL.mp h))
      (iblk2 V hO c 0 t) (iblk2 V hO c 1 t) (iblk2 V hO c 2 t) d3 (tbl V 0) (tbl V 1) (tbl V 2) Set.univ _)
    isplitl [H0]; · iexact H0
    isplitl [H1]; · iexact H1
    isplitl [H2]; · iexact H2
    isplitl [H3]; · iexact H3
    isplitl [HS0]; · iexact HS0
    isplitl [HS1]; · iexact HS1
    isplitl [HT0]; · iexact HT0
    isplitl [HT1]; · iexact HT1
    isplitl [HT2]; · iexact HT2
    iintro ⟨H0, H1, H2, H3, HS0, HS1, HT0, HT1, HT2⟩
    isplitl [HS0 HS1 HR Hg HTl HT0 HT1 HT2]
    · isplitl [HS0]; · iexact HS0
      isplitl [HS1]; · iexact HS1
      isplitl [HR]; · iexact HR
      isplitl [Hg]; · iexact Hg
      iapply (tables_split c (tbl V)).2
      isplitl [HTl]; · iexact HTl
      isplitl [HT0]; · iexact HT0
      isplitl [HT1]; · iexact HT1
      iexact HT2
    isplitl [Ho]; · iexact Ho
    isplitl [H0]; · iexact H0
    isplitl [H1]; · iexact H1
    isplitl [H2]; · iexact H2
    iexists _; iexact H3
  · rw [accAt_pos V hO c t h0]
    rw [PhiS2_castSucc V hO c t, PhiS2_pos V hO c _ _ h0]
    unfold stepAt
    by_cases hl : t.val = 16383
    · -- the last point
      rw [leaves2_3_last V hO c t hl, accAt_pos V hO c t h0]
      unfold stepAt
      iintro ⟨⟨HS0, HS1, HR, Hg, HT⟩, Ho, ⟨%d0, H0⟩, ⟨%d1, H1⟩, ⟨%d2, H2⟩, ⟨%d3, H3⟩⟩
      ihave HT' := (tables_split c (tbl V)).1 $$ HT
      icases HT' with ⟨HTl, HT0, HT1, HT2⟩
      iapply (runC c (grid2.coords t) _ _ _ _ _ _ _ _ (fun h => h0 (hF.mp h)) (hL.mpr hl)
        (iblk2 V hO c 0 t) (iblk2 V hO c 1 t) (iblk2 V hO c 2 t) _ _ (tbl V 0) (tbl V 1) (tbl V 2) Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HT0]; · iexact HT0
      isplitl [HT1]; · iexact HT1
      isplitl [HT2]; · iexact HT2
      iintro ⟨H0, H1, H2, H3, HS0, HS1, HT0, HT1, HT2⟩
      isplitl [HS0 HS1 HR Hg HTl HT0 HT1 HT2]
      · isplitl [HS0]; · iexact HS0
        isplitl [HS1]; · iexact HS1
        isplitl [HR]; · iexact HR
        isplitl [Hg]; · iexact Hg
        iapply (tables_split c (tbl V)).2
        isplitl [HTl]; · iexact HTl
        isplitl [HT0]; · iexact HT0
        isplitl [HT1]; · iexact HT1
        iexact HT2
      isplitl [Ho]; · iexact Ho
      isplitl [H0]; · iexact H0
      isplitl [H1]; · iexact H1
      isplitl [H2]; · iexact H2
      iexact H3
    · -- a middle point
      rw [leaves2_3_idle V hO c t hl]
      iintro ⟨⟨HS0, HS1, HR, Hg, HT⟩, Ho, ⟨%d0, H0⟩, ⟨%d1, H1⟩, ⟨%d2, H2⟩, ⟨%d3, H3⟩⟩
      ihave HT' := (tables_split c (tbl V)).1 $$ HT
      icases HT' with ⟨HTl, HT0, HT1, HT2⟩
      iapply (runB c (grid2.coords t) _ _ _ _ _ _ _ _ (fun h => h0 (hF.mp h)) (fun h => hl (hL.mp h))
        (iblk2 V hO c 0 t) (iblk2 V hO c 1 t) (iblk2 V hO c 2 t) d3 _ _ (tbl V 0) (tbl V 1) (tbl V 2) Set.univ _)
      isplitl [H0]; · iexact H0
      isplitl [H1]; · iexact H1
      isplitl [H2]; · iexact H2
      isplitl [H3]; · iexact H3
      isplitl [HS0]; · iexact HS0
      isplitl [HS1]; · iexact HS1
      isplitl [HT0]; · iexact HT0
      isplitl [HT1]; · iexact HT1
      isplitl [HT2]; · iexact HT2
      iintro ⟨H0, H1, H2, H3, HS0, HS1, HT0, HT1, HT2⟩
      isplitl [HS0 HS1 HR Hg HTl HT0 HT1 HT2]
      · isplitl [HS0]; · iexact HS0
        isplitl [HS1]; · iexact HS1
        isplitl [HR]; · iexact HR
        isplitl [Hg]; · iexact Hg
        iapply (tables_split c (tbl V)).2
        isplitl [HTl]; · iexact HTl
        isplitl [HT0]; · iexact HT0
        isplitl [HT1]; · iexact HT1
        iexact HT2
      isplitl [Ho]; · iexact Ho
      isplitl [H0]; · iexact H0
      isplitl [H1]; · iexact H1
      isplitl [H2]; · iexact H2
      iexists _; iexact H3

/-- The library's body obligation, at every point. -/
theorem body_obligation2 (hO : Ok V) (c : Dev nD) : BodyObligation (dat2 (F := F) V hO c) (defs₀ (F := F)) Variants.none () Set.univ := fun t => by
  rw [bigSep_W2, bigSep_W2]
  exact sound_body2 V hO c t

/-! ## The arrays after the region -/

/-- The two tables of rows are left as the region found them. -/
theorem kept2_0 (hO : Ok V) (c : Dev nD) : (dat2 V hO c).arrAt 0 (cfgM V hO).N = V c main_v53 :=
  ((dat2 V hO c).arrAt_in 0 rfl _).trans (A_eq2 V hO c 0)
theorem kept2_1 (hO : Ok V) (c : Dev nD) : (dat2 V hO c).arrAt 1 (cfgM V hO).N = V c main_v54 :=
  ((dat2 V hO c).arrAt_in 1 rfl _).trans (A_eq2 V hO c 1)
theorem kept2_2 (hO : Ok V) (c : Dev nD) : (dat2 V hO c).arrAt 2 (cfgM V hO).N = V c main_v54 :=
  ((dat2 V hO c).arrAt_in 2 rfl _).trans (A_eq2 V hO c 2)

/-- A 1 x 1 array has one index. -/
theorem idx1x1 (i j : S1x1.Idx) : i = j := by
  funext a
  match a with
  | ⟨0, _⟩ =>
    have hi : (i 0).val < 1 := (i 0).isLt
    have hj : (j 0).val < 1 := (j 0).isLt
    exact Fin.ext (show (i 0).val = (j 0).val by omega)
  | ⟨1, _⟩ =>
    have hi : (i 1).val < 1 := (i 1).isLt
    have hj : (j 1).val < 1 := (j 1).isLt
    exact Fin.ext (show (i 1).val = (j 1).val by omega)

/-- The one index of the output array is in the block the last point writes back. -/
theorem mem_rect3 (hO : Ok V) (i : S1x1.Idx) : i ∈ (((cfgM V hO).win 3).rect ⟨16383, last_lt V hO⟩).set :=
  Rect.mem_set_unit.mpr fun (a : Fin 2) => by
    match a with
    | ⟨0, _⟩ =>
      have hi : (i 0).val < 1 := (i 0).isLt
      show 0 * 1 ≤ (i 0).val ∧ (i 0).val < 0 * 1 + 1
      omega
    | ⟨1, _⟩ =>
      have hi : (i 1).val < 1 := (i 1).isLt
      show 0 * 1 ≤ (i 1).val ∧ (i 1).val < 0 * 1 + 1
      omega

/-- The output cell after the region, as the contents of the output array. -/
abbrev G3 (hO : Ok V) (c : Dev nD) : Buf (Elt F) ((c : Thread nD τ).loc main_v55) := outCell (endP V hO c) (endN V hO c)

set_option backward.isDefEq.respectTransparency.types false in
/-- The output array after the region: the one write-back, at the last point, of the output cell computed from
    the two full sums. -/
theorem final2 (hO : Ok V) (c : Dev nD) : (dat2 V hO c).arrAt 3 (cfgM V hO).N = outCell (endP V hO c) (endN V hO c) := by
  refine (dat2 V hO c).arrAt_eq_of_cover 3 (G3 V hO c) (fun t hf => ?_) (fun i => ?_)
  · have ht : t.val = 16383 := (flush3_iff _ t).mp hf
    show ((cfgM V hO).win 3).cut ((cfgM V hO).grid.coords t) ((dat2 V hO c).after 3 t) = _
    rw [after2_3]
    obtain ⟨n, hn⟩ := t
    simp only at ht
    subst ht
    funext j
    show outCell (endP V hO c) (endN V hO c) _ = outCell (endP V hO c) (endN V hO c) _
    exact congrArg _ (idx1x1 _ _)
  · refine ⟨⟨16383, last_lt V hO⟩, flush3_last _ _ rfl, ?_⟩
    show i ∈ ((View.whole main_v55).slice (((cfgM V hO).win 3).rect ⟨16383, last_lt V hO⟩)).set
    rw [View.set_slice_whole]
    exact mem_rect3 V hO i

end Cert.KernelIdeal.G2

end
-- ==== Proof.G2Region.lean ====
/-
  The third region as a segment of @main's run.

  Between two items of @main a core holds every unscoped buffer whole at a known valuation, beside its generator
  register at some state and the fact that it owes nothing. The third region is entered from that state at the
  valuation the second transpose leaves, and left in it at the same valuation updated at the [1, 1] output cell.

  What the region takes out of the unscoped buffers at its entry: the three prefetched index tables, whole; the
  buffers behind its four windows' arrays; and the rest, which bypasses it. The windows' arrays are three buffers,
  not four: the second and third windows both read the transposed table of the moving volume. That buffer's full
  share is cut into its two halves, one per window; the first window's table and the output cell are held whole.
  Neither half is ever written, so at the exit both windows hold the entry contents and the halves join again into
  the full share. The output cell's buffer comes back at what the write-backs leave in it.

  Through the region's invariant pass the generator register, the tables, and the scoped buffers no window stages;
  among those are the two running-sum cells, which the invariant names at each point and hands back at the end at
  some contents.
-/
import proofs.«427562_j44873818309267_2_alg».proof.Proof.G2Data
import proofs.«427562_j44873818309267_2_alg».proof.Proof.RunRegions
import Idealize.ShloMosaic.Lib.Pipeline.FrameBody
import Idealize.ShloMosaic.Lib.Pipeline.RegionsLoop
import Idealize.ShloMosaic.Lib.Tactic

set_option maxRecDepth 16384

noncomputable section

namespace Cert.KernelIdeal.G2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The region at any entry valuation -/

section Region

-- the valuation the region is entered from, per core
variable (Wv : Dev nD → Valuation τ sig (Elt F))

/-- The entry valuation read at the core's own references. -/
abbrev Vr : (c : Dev nD) → (b : Ref sig .tc) → Buf (Elt F) ((c : Thread nD τ).loc b) := fun c b => Wv c b

-- the tables it holds are admissible
variable (hO : Ok (Vr Wv))

/-- The exit valuation: the output cell's buffer at what the write-backs leave, every other buffer as entered. -/
abbrev Wout (c : Dev nD) : Valuation τ sig (Elt F) :=
  Function.update (Wv c) main_v55 ((dat2 (Vr Wv) hO c).arrAt 3 (cfgM (Vr Wv) hO).N)

/-- What enters the invariant beside the tables: the generator register. -/
abbrev X2 (c : Dev nD) : sProp 𝕄 := iprop(∃ r, prngReg c r)
/-- What the invariant gives back: the generator register and the tables, whole. -/
abbrev Y2 (c : Dev nD) : sProp 𝕄 := iprop((∃ r, prngReg c r) ∗ Pipeline.prefHeld pre2 c (fun _ => fullShare) (tbl (Vr Wv)))
/-- What bypasses the region: the unscoped buffers that are neither behind a window nor a table. -/
abbrev Z2 (c : Dev nD) : sProp 𝕄 :=
  Pipeline.unscopedRestP (Ix := Unit) (Name := ℕ) (U := UR sig nD τ) (Lvl := ℕ) pre2 spec2 c (Vr Wv c)

/-! ### The invariant's ends -/

/-- The invariant before the first point: the generator register and the scoped buffers no window stages make the
    class part, the tables ride beside it. -/
theorem hin2 (c : Dev nD) :
    iprop(X2 c ∗ Pipeline.prefHeld pre2 c (fun _ => fullShare) (tbl (Vr Wv)) ∗ Pipeline.scopedRest spec2 c)
      ⊢ ((dat2 (Vr Wv) hO c).Φ 0 : sProp 𝕄) := by
  rw [Φ_first]; unfold Pipeline.ΦA
  iintro ⟨Hp, Ht, Hr⟩
  isplitl [Hr Hp]
  · isplitl [Hr]; · iexact Hr
    iexact Hp
  iexact Ht

/-- The invariant after the last point gives back the generator register and the tables, and the scoped buffers no
    window stages: the other two regions' eight staging buffers and the two cells, each at some contents. -/
theorem hout2 (c : Dev nD) :
    ((dat2 (Vr Wv) hO c).Φ (Fin.last (cfgM (Vr Wv) hO).N) : sProp 𝕄)
      ⊢ iprop(Y2 Wv c ∗ Pipeline.ownSems0 (fun k : PEmpty => k.elim) c ∗ Pipeline.scopedRest spec2 c) := by
  rw [Pipeline.ownSems0_none, Φ_last, scopedRest2_eq]; unfold restS
  rw [owns_whole, owns_whole]
  iintro ⟨H0, H1, ⟨Ha, Hb, Hc, Hd, He, Hf, Hg, Hh⟩, Hp, Ht⟩
  isplitl [Hp Ht]
  · isplitl [Hp]; · iexact Hp
    iexact Ht
  isplitr; · iempintro
  isplitl [Ha]; · iexact Ha
  isplitl [Hb]; · iexact Hb
  isplitl [Hc]; · iexact Hc
  isplitl [Hd]; · iexact Hd
  isplitl [He]; · iexact He
  isplitl [Hf]; · iexact Hf
  isplitl [Hg]; · iexact Hg
  isplitl [Hh]; · iexact Hh
  isplitl [H0]; · iexists _; iexact H0
  iexists _; iexact H1

/-! ### The buffers behind the windows -/

/-- The buffers behind the windows' arrays: three, the middle one behind two windows. -/
theorem arrImg : Finset.univ.image (Pipeline.arrRef spec2)
    = ([Pipeline.arrRef spec2 0, Pipeline.arrRef spec2 1, Pipeline.arrRef spec2 3] : List (Ref sig .tc)).toFinset := by decide

/-- The two middle windows are on one array. -/
theorem ref12 : Pipeline.arrRef spec2 1 = Pipeline.arrRef spec2 2 := rfl

/-- Those buffers one by one, each whole. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc (Pipeline.arrRef spec2 0)) ↦{fullShare} V (Pipeline.arrRef spec2 0))
          ∗ (((c : Thread nD τ).loc (Pipeline.arrRef spec2 1)) ↦{fullShare} V (Pipeline.arrRef spec2 1))
          ∗ (((c : Thread nD τ).loc (Pipeline.arrRef spec2 3)) ↦{fullShare} V (Pipeline.arrRef spec2 3))) := by
  unfold Pipeline.arrBufs
  exact bigSep_eq_bigSepL_of_eq _ arrImg (by decide) _

/-- A buffer's points-to along an equation of references. -/
theorem pt_cast (c : Dev nD) (q : PosShare TreeShare) (V : (b : Ref sig .tc) → Buf (Elt F) ((c : Thread nD τ).loc b))
    {r r' : Ref sig .tc} (h : r = r') :
    ((((c : Thread nD τ).loc r) ↦{q} V r) : sProp 𝕄) = (((c : Thread nD τ).loc r') ↦{q} V r') := by subst h; rfl

include Wv hO in
/-- A core's unscoped buffers at any valuation are the buffers behind the windows and the rest. -/
theorem bufs_split (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs spec2 c V ∗ Pipeline.unscopedRest spec2 c V) :=
  Pipeline.PerCore.unscopedBufs_split₀ (P := Unit) (fun _ _ => cfgM (Vr Wv) hO) () c winFacts₀2.arr_unscoped V

/-! ### The windows' arrays at the proof data's shares -/

/-- Every window's array is its whole buffer. -/
theorem set2 (w : Fin 4) : ((cfgM (Vr Wv) hO).win w).arr.view.set = Finset.univ := (arr_whole2 w).set_eq_univ

/-- The share each window holds its array at: the first input and the output whole, the two windows on the shared
    array a half each. -/
theorem share2_0 (c : Dev nD) : (dat2 (Vr Wv) hO c).share 0 = fullShare := rfl
theorem share2_1 (c : Dev nD) : (dat2 (Vr Wv) hO c).share 1 = fullShare.left := rfl
theorem share2_2 (c : Dev nD) : (dat2 (Vr Wv) hO c).share 2 = fullShare.right := rfl
theorem share2_3 (c : Dev nD) : (dat2 (Vr Wv) hO c).share 3 = fullShare := rfl

/-- The windows' arrays one by one, each at its share. -/
theorem arrays2_eq (c : Dev nD) (Fw : (w : Fin 4) → Buf (Elt F) (((cfgM (Vr Wv) hO).win w).arr.view.loc (c : Thread nD τ))) :
    ((dat2 (Vr Wv) hO c).arrays Fw : sProp 𝕄)
      = iprop((((c : Thread nD τ).loc (Pipeline.arrRef spec2 0)) ↦{fullShare} Fw 0)
          ∗ (((c : Thread nD τ).loc (Pipeline.arrRef spec2 1)) ↦{fullShare.left} Fw 1)
          ∗ (((c : Thread nD τ).loc (Pipeline.arrRef spec2 2)) ↦{fullShare.right} Fw 2)
          ∗ (((c : Thread nD τ).loc (Pipeline.arrRef spec2 3)) ↦{fullShare} Fw 3)) := by
  rw [show ((dat2 (Vr Wv) hO c).arrays Fw : sProp 𝕄)
      = bigSep Finset.univ fun w : Fin 4 => ((((c : Thread nD τ).loc (Pipeline.arrRef spec2 w)) ↦{(dat2 (Vr Wv) hO c).share w} Fw w : sProp 𝕄)) from by
    unfold Dat.arrays
    exact bigSep_congr fun w _ => by rw [set2]]
  rw [bigSep_W2, share2_0, share2_1, share2_2, share2_3]

/-- Before any write-back an array holds the entry contents. -/
theorem arrAt2_zero (c : Dev nD) (w : Fin 4) : (dat2 (Vr Wv) hO c).arrAt w 0 = Vr Wv c (Pipeline.arrRef spec2 w) :=
  (show (dat2 (Vr Wv) hO c).arrAt w 0 = (dat2 (Vr Wv) hO c).A w from rfl).trans (A_eq2 (Vr Wv) hO c w)

/-- The tables' contents on the core are the admissible contents the pipeline is pinned at. -/
theorem prefHeld_tbl (c : Dev nD) :
    (Pipeline.prefHeld (Ix := Unit) (Name := ℕ) (U := UR sig nD τ) (Lvl := ℕ) pre2 c (fun _ => fullShare) (fun k => Vr Wv c (pre2.ref k)) : sProp 𝕄)
      = Pipeline.prefHeld pre2 c (fun _ => fullShare) (tbl (Vr Wv)) :=
  congrArg _ (funext fun k => V_pre (Vr Wv) c k)

/-! ### Entry -/

/-- The core's unscoped buffers at the entry valuation are the windows' arrays at the proof data's shares, the tables
    whole, and the rest: the shared array's full share is cut into its halves. -/
theorem split2 (c : Dev nD) :
    (StableHlo.held (c : Thread nD τ) (Pipeline.ucRefs τ sig) (Wv c) : sProp 𝕄)
      ⊢ iprop(((dat2 (Vr Wv) hO c).arrays ((dat2 (Vr Wv) hO c).arrAt · 0))
          ∗ Pipeline.prefHeld pre2 c (fun _ => fullShare) (tbl (Vr Wv)) ∗ Z2 Wv c) := by
  rw [← Pipeline.unscopedBufs_held (Ix := Unit) (Name := ℕ) (U := UR sig nD τ) (Lvl := ℕ) c (Wv c)]
  rw [bufs_split Wv hO c (Vr Wv c)]
  rw [Pipeline.unscopedRest_split preFacts2 c (Vr Wv c), arrBufs2_eq, arrays2_eq]
  simp only [arrAt2_zero]
  iintro ⟨⟨H53, H54, H55⟩, Ht, Hz⟩
  ihave H54' := (pointsTo_share (PosShare.mem_left_op_right fullShare)).1 $$ H54
  icases H54' with ⟨H54l, H54r⟩
  ihave H54r' := (Entails.of_eq (pt_cast c fullShare.right (Vr Wv c) ref12)) $$ H54r
  ihave Ht' := (Entails.of_eq (prefHeld_tbl Wv c)) $$ Ht
  isplitl [H53 H54l H54r' H55]
  · isplitl [H53]; · iexact H53
    isplitl [H54l]; · iexact H54l
    isplitl [H54r']; · iexact H54r'
    iexact H55
  isplitl [Ht']; · iexact Ht'
  iexact Hz

/-- ENTRY: out of the thread state come the windows' arrays at the entry contents, the tables, the core owing
    nothing within any bound, the generator register, and the rest that bypasses the region. -/
theorem hentry2 (c : Dev nD) :
    iprop((StableHlo.held (c : Thread nD τ) (Pipeline.ucRefs τ sig) (Wv c) ∗ Run.R c) ∗ Pipeline.ownSems0 (fun k : PEmpty => k.elim) c ∗ levAts Run.L Run.lv)
      ⊢ (|={Set.univ}=> iprop((dat2 (Vr Wv) hO c).arrays ((dat2 (Vr Wv) hO c).arrAt · 0)
          ∗ Pipeline.prefHeld pre2 c (fun _ => fullShare) (tbl (Vr Wv))
          ∗ (dat2 (Vr Wv) hO c).owesAt () 0 ∗ X2 c ∗ Z2 Wv c) : sProp 𝕄) := by
  rw [Pipeline.ownSems0_none]
  iintro ⟨⟨Hub, Hp, HO⟩, -, -⟩
  ihave H := (split2 Wv hO c) $$ Hub
  icases H with ⟨Ha, Ht, Hz⟩
  imodintro
  isplitl [Ha]; · iexact Ha
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitl [Hp]; · iexact Hp
  iexact Hz

/-! ### Exit -/

/-- The output cell's buffer is behind a window. -/
theorem mem55 : main_v55 ∈ Finset.univ.image (Pipeline.arrRef spec2) := Finset.mem_image.mpr ⟨3, Finset.mem_univ _, rfl⟩

/-- Off the output cell's buffer the exit valuation is the entry valuation, -/
theorem Wout_of (c : Dev nD) (b : Ref sig .tc) (h : b ≠ main_v55) : Wout Wv hO c b = Wv c b :=
  Function.update_of_ne (StableHlo.devRef_ne_of_ne h) _ _
/-- and at it what the write-backs leave. -/
theorem Wout_out (c : Dev nD) : Wout Wv hO c (Pipeline.arrRef spec2 3) = (dat2 (Vr Wv) hO c).arrAt 3 (cfgM (Vr Wv) hO).N :=
  Function.update_self _ _ _

/-- The input windows' arrays are never written: at the end each holds the entry contents. -/
theorem kept2_0' (c : Dev nD) : (dat2 (Vr Wv) hO c).arrAt 0 (cfgM (Vr Wv) hO).N = Vr Wv c (Pipeline.arrRef spec2 0) := kept2_0 (Vr Wv) hO c
theorem kept2_1' (c : Dev nD) : (dat2 (Vr Wv) hO c).arrAt 1 (cfgM (Vr Wv) hO).N = Vr Wv c (Pipeline.arrRef spec2 1) := kept2_1 (Vr Wv) hO c
theorem kept2_2' (c : Dev nD) : (dat2 (Vr Wv) hO c).arrAt 2 (cfgM (Vr Wv) hO).N = Vr Wv c (Pipeline.arrRef spec2 2) := kept2_2 (Vr Wv) hO c

/-- The unscoped buffers behind no window hold at the exit what they held at the entry. -/
theorem rest_exit (c : Dev nD) :
    (Pipeline.unscopedRest (Ix := Unit) (Name := ℕ) (U := UR sig nD τ) (Lvl := ℕ) spec2 c (fun b => Wout Wv hO c b) : sProp 𝕄)
      = Pipeline.unscopedRest spec2 c (Vr Wv c) := by
  unfold Pipeline.unscopedRest
  exact bigSep_congr fun b hb => by
    beta_reduce
    rw [Wout_of Wv hO c b (fun e => (Finset.mem_sdiff.mp hb).2 (e ▸ mem55))]

/-- The windows' arrays at their final contents, the tables whole and the rest are the core's unscoped buffers at the
    exit valuation: the two halves of the shared array, both at the entry contents, join into its full share. -/
theorem join2 (c : Dev nD) :
    iprop(((dat2 (Vr Wv) hO c).arrays ((dat2 (Vr Wv) hO c).arrAt · (cfgM (Vr Wv) hO).N))
        ∗ Pipeline.prefHeld pre2 c (fun _ => fullShare) (tbl (Vr Wv)) ∗ Z2 Wv c)
      ⊢ (StableHlo.held (c : Thread nD τ) (Pipeline.ucRefs τ sig) (Wout Wv hO c) : sProp 𝕄) := by
  rw [← Pipeline.unscopedBufs_held (Ix := Unit) (Name := ℕ) (U := UR sig nD τ) (Lvl := ℕ) c (Wout Wv hO c)]
  rw [bufs_split Wv hO c (fun b => Wout Wv hO c b)]
  rw [rest_exit, Pipeline.unscopedRest_split preFacts2 c (Vr Wv c), arrBufs2_eq, arrays2_eq]
  beta_reduce
  rw [Wout_of Wv hO c (Pipeline.arrRef spec2 0) (by decide), Wout_of Wv hO c (Pipeline.arrRef spec2 1) (by decide), Wout_out]
  rw [kept2_0', kept2_1', kept2_2']
  iintro ⟨⟨H53, H54l, H54r, H55⟩, Ht, Hz⟩
  ihave H54r' := (Entails.of_eq (pt_cast c fullShare.right (Vr Wv c) ref12.symm)) $$ H54r
  ihave H54 := (pointsTo_share (PosShare.mem_left_op_right fullShare)).2 $$ [H54l H54r']
  · isplitl [H54l]; · iexact H54l
    iexact H54r'
  ihave Ht' := (Entails.of_eq (prefHeld_tbl Wv c).symm) $$ Ht
  isplitl [H53 H54 H55]
  · isplitl [H53]; · iexact H53
    isplitl [H54]; · iexact H54
    iexact H55
  isplitl [Ht']; · iexact Ht'
  iexact Hz

/-- EXIT: the arrays at their final contents, the core owing nothing, what the invariant gave back and what bypassed the
    region make the thread state at the exit valuation. -/
theorem hexit2 (c : Dev nD) :
    iprop((dat2 (Vr Wv) hO c).arrays ((dat2 (Vr Wv) hO c).arrAt · (cfgM (Vr Wv) hO).N)
        ∗ (dat2 (Vr Wv) hO c).owesAt () (Fin.last (cfgM (Vr Wv) hO).N) ∗ Y2 Wv c ∗ Z2 Wv c)
      ⊢ (|={Set.univ}=> iprop(StableHlo.held (c : Thread nD τ) (Pipeline.ucRefs τ sig) (Wout Wv hO c) ∗ Run.R c) : sProp 𝕄) := by
  iintro ⟨Ha, HO, ⟨Hp, Ht⟩, Hz⟩
  imodintro
  isplitl [Ha Ht Hz]
  · iapply (join2 Wv hO c)
    isplitl [Ha]; · iexact Ha
    isplitl [Ht]; · iexact Ht
    iexact Hz
  isplitl [Hp]; · iexact Hp
  unfold Pipeline.Dat.owesAt Pipeline.owesWithin
  icases HO with ⟨%W, -, HO⟩; iexists W; iexact HO

end Region

/-! ## The region in @main's run -/

section InRun

variable (m : (ℓ : Loc nD τ sig) → Buf (Elt F) ℓ) (hO : Ok (Run.V9r m))

/-- The third region over the thread state "every unscoped buffer held at a valuation, the generator register at some
    state, nothing owed": entered at the valuation the second transpose leaves, left at that valuation updated at the
    output cell with what the write-backs leave there. The tables and the windows' arrays are taken out of the unscoped
    buffers, the array behind two windows cut into two halves, one per window, and joined again at the exit; the generator
    register and the tables pass through the invariant; the kernel has no semaphore of its own. -/
def reg2 : Pipeline.RegionSeg (pcfgs (F := F)) (Run.adm (adm (Run.V9r m) hO))
    (Run.pdats m (adm (Run.V9r m) hO) (dat2 (Run.V9r m) hO)) () defs₀ Run.𝒱₀ Run.L Run.lv 2 where
  win := winFacts₀2
  block_pos := block_pos2
  stage_whole := stage_whole2
  K := PEmpty
  osem k := k.elim
  ho := Pipeline.OwnSemFacts.none _
  hbody c := (body_obligation2 (Run.V9r m) hO c).loose
  hwaits := Pipeline.hwaits_of_owed_zero _ _ _ _ Run.L Run.lv 2 fun _ _ => rfl
  pre c := iprop(StableHlo.held (c : Thread nD τ) (Pipeline.ucRefs τ sig) (Run.W9 m c) ∗ Run.R c)
  post c := iprop(StableHlo.held (c : Thread nD τ) (Pipeline.ucRefs τ sig)
      (Run.W10 m (fun c => (dat2 (Run.V9r m) hO c).arrAt 3 (cfgM (Run.V9r m) hO).N) c) ∗ Run.R c)
  X c := X2 c
  Y c := Y2 (Run.W9 m) c
  Z c := Z2 (Run.W9 m) c
  hentry c := hentry2 (Run.W9 m) hO c
  hin c := hin2 (Run.W9 m) hO c
  hout c := hout2 (Run.W9 m) hO c
  hexit c := hexit2 (Run.W9 m) hO c

/-- The region is entered from the run's thread state after the second transpose, -/
theorem reg2_pre (c : Dev nD) :
    iprop(StableHlo.held (c : Thread nD τ) (Pipeline.ucRefs τ sig) (Run.W9 m c) ∗ Run.R c) ⊢ (reg2 m hO).pre c := .rfl
/-- and leaves the run's thread state at the output cell updated. -/
theorem reg2_post (c : Dev nD) :
    (reg2 m hO).post c ⊢ iprop(StableHlo.held (c : Thread nD τ) (Pipeline.ucRefs τ sig)
      (Run.W10 m (fun c => (dat2 (Run.V9r m) hO c).arrAt 3 (cfgM (Run.V9r m) hO).N) c) ∗ Run.R c) := .rfl

end InRun

end Cert.KernelIdeal.G2

end
-- ==== Proof.KFrame.lean ====
/-
  The frame of @main, and its run with the result, at any instance of the floats.

  When the third region is entered its three prefetched tables are as the host stretches computed them, for the
  transposes before it change their own tables only: table w holds, at point i, the flat voxel index of the i-th
  point of list w, redirected. A flat voxel index is below 704000, so every 8-row block the region fetches lies
  inside its 704000 x 64 table: the side condition its pipeline asks of the tables' contents. With that the three
  regions are segments of @main's run between known buffer contents, and the run's theorems apply: every weakly fair
  execution terminates with the five arguments as launched, and the result buffer ends holding entry (0, 0) of the
  third region's [1, 1] output.
-/
import proofs.«427562_j44873818309267_2_alg».proof.Proof.RunTables
import proofs.«427562_j44873818309267_2_alg».proof.Proof.Tables
import proofs.«427562_j44873818309267_2_alg».proof.Proof.TablesOk
import proofs.«427562_j44873818309267_2_alg».proof.Proof.G2Data
import proofs.«427562_j44873818309267_2_alg».proof.Proof.G2Region

set_option maxRecDepth 16384

noncomputable section

namespace Cert.KernelIdeal.Final

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal.Gen

variable {F : FTy → Type} [FloatOps F]

variable (m : (ℓ : Loc nD τ sig) → Buf (Elt F) ℓ)

/-! ## The prefetched tables when the third region is entered -/

/-- Table 0 holds the flat voxel index of each point of the first list, redirected: the transposes leave it as the
    host stretches computed it. -/
theorem tbl_flat0 : G2.tbl (Run.V9r m) 0
    = fun j : S16384.Idx => BitVec.ofNat 32 (Cert.Redirect.pos (m (((0 : Dev nD) : Thread nD τ).loc main_arg2)) (j 0)).flat :=
  (Run.W9_v26 m 0).trans (Tables.tbl0 m 0)
/-- Table 1: the second list. -/
theorem tbl_flat1 : G2.tbl (Run.V9r m) 1
    = fun j : S16384.Idx => BitVec.ofNat 32 (Cert.Redirect.pos (m (((0 : Dev nD) : Thread nD τ).loc main_arg3)) (j 0)).flat :=
  (Run.W9_v38 m 0).trans (Tables.tbl1 m 0)
/-- Table 2: the third list. -/
theorem tbl_flat2 : G2.tbl (Run.V9r m) 2
    = fun j : S16384.Idx => BitVec.ofNat 32 (Cert.Redirect.pos (m (((0 : Dev nD) : Thread nD τ).loc main_arg4)) (j 0)).flat :=
  (Run.W9_v50 m 0).trans (Tables.tbl2 m 0)

/-- Every block the third region fetches lies inside its table: a flat voxel index is below 704000. -/
theorem ok : G2.Ok (Run.V9r m) :=
  Tables.ok2_of_flat (G2.tbl (Run.V9r m))
    (Cert.Redirect.pos (m (((0 : Dev nD) : Thread nD τ).loc main_arg2)))
    (Cert.Redirect.pos (m (((0 : Dev nD) : Thread nD τ).loc main_arg3)))
    (Cert.Redirect.pos (m (((0 : Dev nD) : Thread nD τ).loc main_arg4)))
    (tbl_flat0 m) (tbl_flat1 m) (tbl_flat2 m)

/-! ## The run -/

/-- The third region's tables at their contents, its proof data, and what it leaves in its output. -/
abbrev a2 : (pcfg2 (F := F)).Adm := G2.adm (Run.V9r m) (ok m)
abbrev pd2 : (c : Dev nD) → Dat τ (Elt F) Unit ℕ (UR sig nD τ) ℕ (cfg2 (a2 m)) c := G2.dat2 (Run.V9r m) (ok m)
abbrev o2 : (c : Dev nD) → Buf (Elt F) ((c : Thread nD τ).loc main_v55) :=
  fun c => (G2.dat2 (Run.V9r m) (ok m) c).arrAt 3 (G2.cfgM (Run.V9r m) (ok m)).N

/-- THE FRAME at any `F`: from any memory with zero counters, every weakly fair execution of @main on the TensorCores
    terminates, nothing faulting, and every final state has the five argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Run.frame m (o2 m) (a2 m) (pd2 m) (G2.reg2 m (ok m)) (fun _ => .rfl) (fun _ => .rfl) ρ

/-- THE RUN WITH THE RESULT at any `F`: as the frame, and the result buffer ends holding entry (0, 0) of what the
    third region leaves in its output. -/
theorem value_out (ρ : Dev nD → PrngReg) : θ_run defs (onTc (τ := τ) (main (F := F))) ⟨m, fun _ => 0, ρ⟩ (fun r => ∀ c : Dev nD,
      r.2.mem ((c.tc : Thread nD τ).loc main_v56) = (fun _ => (o2 m c : S1x1.Idx → Elt F .f32) (ValueIdx.ix2 (0 : Fin 1) (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (Run.V11_result m (o2 m) c), (h c).2⟩)
    (Run.value m (o2 m) (a2 m) (pd2 m) (G2.reg2 m (ok m)) (fun _ => .rfl) (fun _ => .rfl) ρ)

end Cert.KernelIdeal.Final

end
-- ==== Proof.G2Pay.lean ====
/-
  The payloads of the gather region read at an index, at the extended reals.

  A block of 8 rows of 64 channels is masked by comparing the row coordinate with a row word and summed over the
  8 rows: seven zeros and one entry, so the result is the selected row. The positive payload is the square of
  the squared distance of two selected rows, the negative payload the squared hinge of the squared distance, the
  cells' payloads add the term on the right of the cell, and the output payload divides and scales the sum of
  the two cells.
-/
import proofs.«427562_j44873818309267_2_alg».proof.Proof.Gen.KernelIdeal.Skeleton
import proofs.«427562_j44873818309267_2_alg».proof.Proof.Spec
import Idealize.ShloMosaic.PureOps.Ideal.Laws
import Idealize.ShloMosaic.Lib.Pipeline.Value
import Idealize.ShloMosaic.Lib.ValueLayout
import Idealize.ShloMosaic.Lib.ValueIdx

set_option maxRecDepth 16384

noncomputable section

namespace Cert.KernelIdeal.G2V

open Idealize.ShloMosaic
open Cert.KernelIdeal Cert.KernelIdeal.Gen

/-! ## Words of small numbers -/

/-- Two row numbers below 8 with the same 32-bit word are equal. -/
theorem word_inj {k r : Nat} (hk : k < 8) (hr : r < 8) (h : BitVec.ofNat 32 k = BitVec.ofNat 32 r) : k = r := by
  have := congrArg BitVec.toNat h
  rw [BitVec.toNat_ofNat, BitVec.toNat_ofNat] at this
  omega

/-- A select on the comparison of a word with itself takes the first value. -/
theorem select_cmpi_eq_same {α : Type} (w : BitVec 32) (a b : α) : Scalar.select (IntOp.cmpi .eq w w) a b = a := by
  unfold IntOp.cmpi Scalar.select
  simp

/-- A select on the comparison of two different words takes the second value. -/
theorem select_cmpi_eq_ne {α : Type} {w w' : BitVec 32} (h : w ≠ w') (a b : α) : Scalar.select (IntOp.cmpi .eq w w') a b = b := by
  have hb : (w == w') = false := beq_eq_false_iff_ne.2 h
  show (if BitVec.ofBool (w == w') = 1 then a else b) = b
  rw [hb]; exact if_neg (by decide)

/-! ## The masked sum over the 8 rows -/

/-- The reduced column `c` with row `k` put back is `(k, c)`. -/
theorem lift_rows (h : S8x64.Reduces [0] S64) (c : Fin 64) (k : Fin (S8x64.size 0)) :
    h.lift (ValueIdx.ix1 c) k = ValueIdx.ix2 (⟨k.val, k.isLt⟩ : Fin 8) c := by
  funext a; apply Fin.ext
  fin_cases a <;> rfl

/-- The masked block at an index: the entry when the index's row is the row of the word, zero otherwise. -/
theorem masked_at (hio : S8x64.Iotas .tc 32 [0]) (hsc : S8x64.ShapeCasts S8x64) (wr : BitVec 32)
    (x : FVec Ideal S8x64 .f32) (i : S8x64.Idx) :
    (select (cmpi .eq (iota .tc S8x64 32 [0] hio) (broadcast S8x64 wr)) (shapeCast S8x64 x hsc)
        (broadcast S8x64 (Scalar.ofBits (F := Ideal) .f32 0x00000000#32)) : FVec Ideal S8x64 .f32) i
      = Scalar.select (IntOp.cmpi .eq (BitVec.ofNat 32 (i 0).val) wr) (x i) (0 : EReal) := by
  rw [ValueIdx.select_apply, ValueIdx.broadcast_apply, shapeCast_self]
  show Scalar.select (IntOp.cmpi .eq (iota .tc S8x64 32 [0] hio i) wr) (x i) (Ideal.ofBits .f32 0x00000000#32) = _
  rw [iota_single_apply, Ideal.ofBits_zero_f32]

/-- The sum over the 8 rows of the masked block is the row of the word. -/
theorem rowSel_apply (hio : S8x64.Iotas .tc 32 [0]) (hsc : S8x64.ShapeCasts S8x64) (hred : S8x64.Reduces [0] S64)
    (hφ : FKind.Formats .f32) (hacc : (0x00000000#32 : BitVec 32) = FKind.add.neutral .f32 hφ)
    (wr : BitVec 32) (r : Fin 8) (hr : wr = BitVec.ofNat 32 r.val) (x : FVec Ideal S8x64 .f32) (c : Fin 64) :
    multiReduction (F := Ideal) .add [0] S64
        (select (cmpi .eq (iota .tc S8x64 32 [0] hio) (broadcast S8x64 wr)) (shapeCast S8x64 x hsc)
          (broadcast S8x64 (Scalar.ofBits (F := Ideal) .f32 0x00000000#32)))
        0x00000000#32 hred hφ hacc (ValueIdx.ix1 c)
      = x (ValueIdx.ix2 r c) := by
  refine (Ideal.multiReduction_add_single _ _ hred hφ hacc (ValueIdx.ix1 c)).trans ?_
  refine (Finset.sum_eq_single (r : Fin (S8x64.size 0)) ?_ ?_).trans ?_
  · intro k _ hk
    refine (masked_at hio hsc wr x _).trans ?_
    refine select_cmpi_eq_ne ?_ _ _
    rw [hr]
    intro e
    exact hk (Fin.ext (word_inj (k := k.val) (r := r.val) k.isLt r.isLt e))
  · intro h; exact absurd (Finset.mem_univ _) h
  · refine (masked_at hio hsc wr x _).trans ?_
    rw [hr]
    refine (select_cmpi_eq_same _ _ _).trans ?_
    exact congrArg x (lift_rows hred c r)

/-! ## The selected row -/

/-- The masked sum of a block, as one row of 64 channels, is the row of the word. -/
theorem pay6_apply (hio : S8x64.Iotas .tc 32 [0]) (wr : BitVec 32) (r : Fin 8) (hr : wr = BitVec.ofNat 32 r.val)
    (x : FVec Ideal S8x64 .f32) (c : Fin 64) :
    k2_pay6 (F := Ideal) (iota .tc S8x64 32 [0] hio) wr x (ValueIdx.ix2 (0 : Fin 1) c) = x (ValueIdx.ix2 r c) := by
  unfold k2_pay6
  refine (ValueIdx.shapeCast_a_1a_apply _ _ (0 : Fin 1) c).trans ?_
  exact rowSel_apply hio _ _ _ _ wr r hr x c

/-! ## The squared distance of two rows -/

/-- The squared distance of row `r0` of one block and row `r1` of another: the sum over the 64 channels of the
squared difference. -/
def rowDist (x0 x1 : FVec Ideal S8x64 .f32) (r0 r1 : Fin 8) : EReal :=
  ∑ c : Fin 64, (x0 (ValueIdx.ix2 r0 c) - x1 (ValueIdx.ix2 r1 c)) * (x0 (ValueIdx.ix2 r0 c) - x1 (ValueIdx.ix2 r1 c))

/-- The reduced unit index with channel `k` put back is `(0, k)`. -/
theorem lift_cols (h : S1x64.Reduces [1] S1) (u : Fin 1) (k : Fin (S1x64.size 1)) :
    h.lift (ValueIdx.ix1 u) k = ValueIdx.ix2 u (⟨k.val, k.isLt⟩ : Fin 64) := by
  funext a; apply Fin.ext
  fin_cases a <;> rfl

/-- The sum over the 64 channels of the squared difference of two rows, as a 1 x 1 cell. -/
theorem sqDist_apply (A B : FVec Ideal S1x64 .f32) (a b : Fin 64 → EReal)
    (hA : ∀ c, A (ValueIdx.ix2 (0 : Fin 1) c) = a c) (hB : ∀ c, B (ValueIdx.ix2 (0 : Fin 1) c) = b c)
    (hred : S1x64.Reduces [1] S1) (hφ : FKind.Formats .f32) (hacc : (0x00000000#32 : BitVec 32) = FKind.add.neutral .f32 hφ)
    (hsc : S1.ShapeCasts S1x1) :
    shapeCast S1x1 (multiReduction (F := Ideal) .add [1] S1 (mulf (subf A B) (subf A B)) 0x00000000#32 hred hφ hacc) hsc
        (ValueIdx.ix2 (0 : Fin 1) (0 : Fin 1))
      = ∑ c : Fin 64, (a c - b c) * (a c - b c) := by
  refine (ValueIdx.shapeCast_a_1a_apply _ _ (0 : Fin 1) (0 : Fin 1)).trans ?_
  refine (Ideal.multiReduction_add_single _ _ hred hφ hacc (ValueIdx.ix1 (0 : Fin 1))).trans ?_
  refine Finset.sum_congr rfl (fun k _ => ?_)
  refine (congrArg (mulf (subf A B) (subf A B)) (lift_cols hred 0 k)).trans ?_
  show (A _ - B _) * (A _ - B _) = _
  rw [hA, hB]
  rfl

/-- The positive payload: the squared distance of the two selected rows, squared. -/
theorem pay7_apply (hio : S8x64.Iotas .tc 32 [0]) (wr0 wr1 : BitVec 32) (r0 r1 : Fin 8)
    (h0 : wr0 = BitVec.ofNat 32 r0.val) (h1 : wr1 = BitVec.ofNat 32 r1.val) (x0 x1 : FVec Ideal S8x64 .f32) :
    k2_pay7 (F := Ideal) (iota .tc S8x64 32 [0] hio) wr0 wr1 x0 x1 (ValueIdx.ix2 (0 : Fin 1) (0 : Fin 1))
      = rowDist x0 x1 r0 r1 * rowDist x0 x1 r0 r1 := by
  have hD := sqDist_apply (k2_pay6 (F := Ideal) (iota .tc S8x64 32 [0] hio) wr0 x0)
    (k2_pay6 (F := Ideal) (iota .tc S8x64 32 [0] hio) wr1 x1)
    (fun c => x0 (ValueIdx.ix2 r0 c)) (fun c => x1 (ValueIdx.ix2 r1 c))
    (fun c => pay6_apply hio wr0 r0 h0 x0 c) (fun c => pay6_apply hio wr1 r1 h1 x1 c)
    reduces_S1x64_S1 (.inl rfl) rfl shapeCasts_S1_S1x1
  unfold k2_pay7
  exact congrArg₂ (fun a b : EReal => a * b) hD hD

/-- The negative payload: the squared hinge of the squared distance of the two selected rows. -/
theorem pay8_apply (hio : S8x64.Iotas .tc 32 [0]) (wr0 v31 v32 : BitVec 32) (v37 : BitVec 1) (r0 r2 : Fin 8)
    (h0 : wr0 = BitVec.ofNat 32 r0.val)
    (h2 : Scalar.select v37 (Scalar.addi v32 v31) v32 = BitVec.ofNat 32 r2.val) (x0 x2 : FVec Ideal S8x64 .f32) :
    k2_pay8 (F := Ideal) (iota .tc S8x64 32 [0] hio) wr0 v31 v32 v37 x0 x2 (ValueIdx.ix2 (0 : Fin 1) (0 : Fin 1))
      = Cert.Spec.hinge (rowDist x0 x2 r0 r2) := by
  have hD := sqDist_apply (k2_pay6 (F := Ideal) (iota .tc S8x64 32 [0] hio) wr0 x0)
    (k2_pay6 (F := Ideal) (iota .tc S8x64 32 [0] hio) (Scalar.select v37 (Scalar.addi v32 v31) v32) x2)
    (fun c => x0 (ValueIdx.ix2 r0 c)) (fun c => x2 (ValueIdx.ix2 r2 c))
    (fun c => pay6_apply hio wr0 r0 h0 x0 c) (fun c => pay6_apply hio _ r2 h2 x2 c)
    reduces_S1x64_S1 (.inl rfl) rfl shapeCasts_S1_S1x1
  unfold k2_pay8
  exact congrArg Cert.Spec.hinge hD

/-! ## The cells -/

/-- The first cell's payload: the cell plus the term. -/
theorem pay1_apply (v72 v79 : FVec Ideal S1x1 .f32) (j : S1x1.Idx) : k2_pay1 (F := Ideal) v72 v79 j = v79 j + v72 j := by
  unfold k2_pay1
  rw [shapeCast_self]
  rfl

/-- The second cell's payload: the cell plus the term. -/
theorem pay2_apply (v78 v84 : FVec Ideal S1x1 .f32) (j : S1x1.Idx) : k2_pay2 (F := Ideal) v78 v84 j = v84 j + v78 j := by
  unfold k2_pay2
  rw [shapeCast_self]
  rfl

/-- The reset value of the first cell is zero. -/
theorem pay4_apply (j : S1x1.Idx) : (k2_pay4 (F := Ideal)) j = 0 := by
  unfold k2_pay4
  rw [shapeCast_self]
  exact Ideal.ofBits_zero_f32

/-- The reset value of the second cell is zero. -/
theorem pay5_apply (j : S1x1.Idx) : (k2_pay5 (F := Ideal)) j = 0 := by
  unfold k2_pay5
  rw [shapeCast_self]
  exact Ideal.ofBits_zero_f32

/-- The output payload: the two cells added, divided and scaled. -/
theorem pay3_apply (p n : FVec Ideal S1x1 .f32) (j : S1x1.Idx) :
    k2_pay3 (F := Ideal) p n j
      = Ideal.div (p j + n j) (Ideal.ofBits .f32 0x47800000#32) * Ideal.ofBits .f32 0x49742400#32 := rfl

end Cert.KernelIdeal.G2V

end
-- ==== Proof.G2Fold.lean ====
/-
  The fold over the points.

  A running cell starts at zero before the first point and each point adds its term on the right. After all the
  points the cell holds the plain sum of the terms. With the positive cell fed by the squared distance squared and
  the negative cell by the squared hinge, the last point's quotient and scaling is the loss of the specification.
-/
import proofs.«427562_j44873818309267_2_alg».proof.Proof.Spec
import Mathlib.Algebra.BigOperators.Fin

noncomputable section

namespace Cert.KernelIdeal.G2V

open Idealize.ShloMosaic

/-- The running cell after the first `n` points: zero before the first point; point `n` adds its term on the
right of what the cell held. Past the last point nothing is added. -/
def cell {N : Nat} (d : Fin N → EReal) : Nat → EReal
  | 0 => 0
  | n + 1 => cell d n + (if h : n < N then d ⟨n, h⟩ else 0)

theorem cell_zero {N : Nat} (d : Fin N → EReal) : cell d 0 = 0 := rfl

/-- One point: the cell after point `t` is the cell before it plus the point's term. -/
theorem cell_succ {N : Nat} (d : Fin N → EReal) (t : Fin N) : cell d (t.val + 1) = cell d t.val + d t := by
  show cell d t.val + (if h : t.val < N then d ⟨t.val, h⟩ else 0) = _
  rw [dif_pos t.isLt]

/-- The first point, after the reset: the cell holds zero plus the first term. -/
theorem cell_first {N : Nat} (d : Fin N → EReal) (h : 0 < N) : cell d 1 = 0 + d ⟨0, h⟩ := by
  show cell d 0 + (if h : 0 < N then d ⟨0, h⟩ else 0) = _
  rw [dif_pos h, cell_zero]

/-- The cell after `n` points is the sum of the first `n` terms. -/
theorem cell_eq_sum_range {N : Nat} (d : Fin N → EReal) (n : Nat) :
    cell d n = ∑ i ∈ Finset.range n, (if h : i < N then d ⟨i, h⟩ else 0) := by
  induction n with
  | zero => rfl
  | succ n ih =>
    rw [Finset.sum_range_succ, ← ih]
    rfl

/-- After all the points the cell is the sum of all the terms. -/
theorem cell_full {N : Nat} (d : Fin N → EReal) : cell d N = ∑ i : Fin N, d i := by
  rw [cell_eq_sum_range, ← Fin.sum_univ_eq_sum_range (fun i => if h : i < N then d ⟨i, h⟩ else 0) N]
  refine Finset.sum_congr rfl (fun i _ => ?_)
  rw [dif_pos i.isLt]

/-- The last point's output: the two full cells, added, divided and scaled, are the loss. -/
theorem out_eq_loss (fixF movF : Cert.Spec.SFeat.Idx → EReal) (pf pp pn : Fin 16384 → Cert.Spec.Voxel)
    (dP dN : Fin 16384 → EReal)
    (hP : ∀ i, dP i = Cert.Spec.dist fixF movF (pf i) (pp i) * Cert.Spec.dist fixF movF (pf i) (pp i))
    (hN : ∀ i, dN i = Cert.Spec.hinge (Cert.Spec.dist fixF movF (pf i) (pn i))) :
    Ideal.div (cell dP 16384 + cell dN 16384) (Ideal.ofBits .f32 0x47800000#32)
        * Ideal.ofBits .f32 0x49742400#32
      = Cert.Spec.loss fixF movF pf pp pn := by
  rw [cell_full, cell_full]
  unfold Cert.Spec.loss Cert.Spec.posSum Cert.Spec.negSum
  rw [Finset.sum_congr rfl (fun i _ => hP i), Finset.sum_congr rfl (fun i _ => hN i)]

end Cert.KernelIdeal.G2V

end
-- ==== Proof.G2Blocks.lean ====
/-
  The input blocks of the third region read at an index. Windows 0, 1 and 2 fetch [8, 64] blocks of the
  [704000, 64] tables; the block index on the row axis is read off a prefetched table (the point's row
  index divided by 8), and is 0 on the channel axis. With the tables' contents a variable: the block at
  point t, read at row r and channel ch, is the table at row 8 × (block index) + r, channel ch.
-/
import proofs.«427562_j44873818309267_2_alg».proof.Proof.Gen.KernelIdeal.Launch
import Idealize.ShloMosaic.Lib.Pipeline.Value
import Idealize.ShloMosaic.Lib.ValueIdx

noncomputable section

namespace Cert.KernelIdeal.G2B

open Idealize.ShloMosaic Idealize.ShloMosaic.TcCoe
open Idealize.SL.Sem
open Cert.KernelIdeal.Gen

variable {F : FTy → Type} [FloatOps F]

/-! ## Window 0 -/

/-- Window 0's block index at a point is its printed index map at the tables' contents. -/
theorem index_0 (a : (pcfg2 (F := F)).Adm) (t : Fin (cfg2 a).N) :
    ((cfg2 a).win 0).index t = cc2_transform_0 k2_off1_inb numel1_S1 a.1 (grid2.coords t) := rfl

/-- The block index on the channel axis is 0. -/
theorem index_0_ch (pf : pre2.Contents (Elt F)) (i : grid2.Coords) :
    cc2_transform_0 k2_off1_inb numel1_S1 pf i (1 : Fin 2) = 0 := rfl

/-- A row of the block is a row of the table. -/
theorem row_lt_0 (a : (pcfg2 (F := F)).Adm) (t : Fin (cfg2 a).N) (r : Fin 8) :
    8 * (cc2_transform_0 k2_off1_inb numel1_S1 a.1 (grid2.coords t) (0 : Fin 2)) + r.val < 704000 := by
  have h : (cc2_transform_0 k2_off1_inb numel1_S1 a.1 (grid2.coords t) (0 : Fin 2) + 1) * 8 ≤ 704000 := hinb2 a.1 a.2 0 (grid2.coords t) 0
  have hr := r.isLt
  omega

/-- Window 0's block at point t, read at row r and channel ch, is the table at row 8 × (block index) + r. -/
theorem blk_read_0 (a : (pcfg2 (F := F)).Adm) (t : Fin (cfg2 a).N) (A : S704000x64.Idx → Elt F .f32) (r : Fin 8) (ch : Fin 64) :
    ((((cfg2 a).win 0).blk t).view.read (Elt F) A) (ValueIdx.ix2 r ch)
      = A (ValueIdx.ix2 ⟨8 * (cc2_transform_0 k2_off1_inb numel1_S1 a.1 (grid2.coords t) (0 : Fin 2)) + r.val, row_lt_0 a t r⟩ ch) := by
  show A ((((cfg2 a).win 0).blk t).view.emb (ValueIdx.ix2 r ch)) = _
  refine congrArg A ?_
  funext d; apply Fin.ext
  match d with
  | ⟨0, _⟩ =>
    show ((cfg2 a).win 0).index t (0 : Fin 2) * 8 + 1 * r.val = 8 * (cc2_transform_0 k2_off1_inb numel1_S1 a.1 (grid2.coords t) (0 : Fin 2)) + r.val
    rw [index_0]; omega
  | ⟨1, _⟩ =>
    show ((cfg2 a).win 0).index t (1 : Fin 2) * 64 + 1 * ch.val = ch.val
    rw [index_0, index_0_ch]; omega

/-! ## Window 1 -/

/-- Window 1's block index at a point is its printed index map at the tables' contents. -/
theorem index_1 (a : (pcfg2 (F := F)).Adm) (t : Fin (cfg2 a).N) :
    ((cfg2 a).win 1).index t = cc2_transform_1 k2_off1_inb numel1_S1 a.1 (grid2.coords t) := rfl

/-- The block index on the channel axis is 0. -/
theorem index_1_ch (pf : pre2.Contents (Elt F)) (i : grid2.Coords) :
    cc2_transform_1 k2_off1_inb numel1_S1 pf i (1 : Fin 2) = 0 := rfl

/-- A row of the block is a row of the table. -/
theorem row_lt_1 (a : (pcfg2 (F := F)).Adm) (t : Fin (cfg2 a).N) (r : Fin 8) :
    8 * (cc2_transform_1 k2_off1_inb numel1_S1 a.1 (grid2.coords t) (0 : Fin 2)) + r.val < 704000 := by
  have h : (cc2_transform_1 k2_off1_inb numel1_S1 a.1 (grid2.coords t) (0 : Fin 2) + 1) * 8 ≤ 704000 := hinb2 a.1 a.2 1 (grid2.coords t) 0
  have hr := r.isLt
  omega

/-- Window 1's block at point t, read at row r and channel ch, is the table at row 8 × (block index) + r. -/
theorem blk_read_1 (a : (pcfg2 (F := F)).Adm) (t : Fin (cfg2 a).N) (A : S704000x64.Idx → Elt F .f32) (r : Fin 8) (ch : Fin 64) :
    ((((cfg2 a).win 1).blk t).view.read (Elt F) A) (ValueIdx.ix2 r ch)
      = A (ValueIdx.ix2 ⟨8 * (cc2_transform_1 k2_off1_inb numel1_S1 a.1 (grid2.coords t) (0 : Fin 2)) + r.val, row_lt_1 a t r⟩ ch) := by
  show A ((((cfg2 a).win 1).blk t).view.emb (ValueIdx.ix2 r ch)) = _
  refine congrArg A ?_
  funext d; apply Fin.ext
  match d with
  | ⟨0, _⟩ =>
    show ((cfg2 a).win 1).index t (0 : Fin 2) * 8 + 1 * r.val = 8 * (cc2_transform_1 k2_off1_inb numel1_S1 a.1 (grid2.coords t) (0 : Fin 2)) + r.val
    rw [index_1]; omega
  | ⟨1, _⟩ =>
    show ((cfg2 a).win 1).index t (1 : Fin 2) * 64 + 1 * ch.val = ch.val
    rw [index_1, index_1_ch]; omega

/-! ## Window 2 -/

/-- Window 2's block index at a point is its printed index map at the tables' contents. -/
theorem index_2 (a : (pcfg2 (F := F)).Adm) (t : Fin (cfg2 a).N) :
    ((cfg2 a).win 2).index t = cc2_transform_2 k2_off1_inb numel1_S1 a.1 (grid2.coords t) := rfl

/-- The block index on the channel axis is 0. -/
theorem index_2_ch (pf : pre2.Contents (Elt F)) (i : grid2.Coords) :
    cc2_transform_2 k2_off1_inb numel1_S1 pf i (1 : Fin 2) = 0 := rfl

/-- A row of the block is a row of the table. -/
theorem row_lt_2 (a : (pcfg2 (F := F)).Adm) (t : Fin (cfg2 a).N) (r : Fin 8) :
    8 * (cc2_transform_2 k2_off1_inb numel1_S1 a.1 (grid2.coords t) (0 : Fin 2)) + r.val < 704000 := by
  have h : (cc2_transform_2 k2_off1_inb numel1_S1 a.1 (grid2.coords t) (0 : Fin 2) + 1) * 8 ≤ 704000 := hinb2 a.1 a.2 2 (grid2.coords t) 0
  have hr := r.isLt
  omega

/-- Window 2's block at point t, read at row r and channel ch, is the table at row 8 × (block index) + r. -/
theorem blk_read_2 (a : (pcfg2 (F := F)).Adm) (t : Fin (cfg2 a).N) (A : S704000x64.Idx → Elt F .f32) (r : Fin 8) (ch : Fin 64) :
    ((((cfg2 a).win 2).blk t).view.read (Elt F) A) (ValueIdx.ix2 r ch)
      = A (ValueIdx.ix2 ⟨8 * (cc2_transform_2 k2_off1_inb numel1_S1 a.1 (grid2.coords t) (0 : Fin 2)) + r.val, row_lt_2 a t r⟩ ch) := by
  show A ((((cfg2 a).win 2).blk t).view.emb (ValueIdx.ix2 r ch)) = _
  refine congrArg A ?_
  funext d; apply Fin.ext
  match d with
  | ⟨0, _⟩ =>
    show ((cfg2 a).win 2).index t (0 : Fin 2) * 8 + 1 * r.val = 8 * (cc2_transform_2 k2_off1_inb numel1_S1 a.1 (grid2.coords t) (0 : Fin 2)) + r.val
    rw [index_2]; omega
  | ⟨1, _⟩ =>
    show ((cfg2 a).win 2).index t (1 : Fin 2) * 64 + 1 * ch.val = ch.val
    rw [index_2, index_2_ch]; omega

end Cert.KernelIdeal.G2B

end
-- ==== Proof.G2Rows.lean ====
/-
  Rows of the tables. A block of the third region whose block index is f / 8, read at row f % 8, is row f of
  its table; and row p.flat of the transposed table of a volume is the volume's feature vector at the voxel p.
-/
import proofs.«427562_j44873818309267_2_alg».proof.Proof.G2Blocks
import proofs.«427562_j44873818309267_2_alg».proof.Proof.Spec
import proofs.«427562_j44873818309267_2_alg».proof.Proof.Redirect

noncomputable section

namespace Cert.KernelIdeal.G2B

open Idealize.ShloMosaic Idealize.ShloMosaic.TcCoe
open Idealize.SL.Sem
open Cert.KernelIdeal.Gen

variable {F : FTy → Type} [FloatOps F]

/-- Window 0's block at a point whose block index is f / 8, read at row f % 8, is row f of the table. -/
theorem blk_row_0 (a : (pcfg2 (F := F)).Adm) (t : Fin (cfg2 a).N) (A : S704000x64.Idx → Elt F .f32) (f : Nat) (hf : f < 704000)
    (hidx : cc2_transform_0 k2_off1_inb numel1_S1 a.1 (grid2.coords t) (0 : Fin 2) = f / 8) (ch : Fin 64) :
    ((((cfg2 a).win 0).blk t).view.read (Elt F) A) (ValueIdx.ix2 (⟨f % 8, Nat.mod_lt _ (by decide)⟩ : Fin 8) ch)
      = A (ValueIdx.ix2 ⟨f, hf⟩ ch) := by
  rw [blk_read_0]
  have e : (⟨8 * (cc2_transform_0 k2_off1_inb numel1_S1 a.1 (grid2.coords t) (0 : Fin 2)) + f % 8, row_lt_0 a t ⟨f % 8, Nat.mod_lt _ (by decide)⟩⟩ : Fin 704000) = ⟨f, hf⟩ :=
    Fin.ext (by show 8 * (cc2_transform_0 k2_off1_inb numel1_S1 a.1 (grid2.coords t) (0 : Fin 2)) + f % 8 = f; rw [hidx]; omega)
  exact congrArg (fun k : Fin 704000 => A (ValueIdx.ix2 k ch)) e

/-- Window 1's block at a point whose block index is f / 8, read at row f % 8, is row f of the table. -/
theorem blk_row_1 (a : (pcfg2 (F := F)).Adm) (t : Fin (cfg2 a).N) (A : S704000x64.Idx → Elt F .f32) (f : Nat) (hf : f < 704000)
    (hidx : cc2_transform_1 k2_off1_inb numel1_S1 a.1 (grid2.coords t) (0 : Fin 2) = f / 8) (ch : Fin 64) :
    ((((cfg2 a).win 1).blk t).view.read (Elt F) A) (ValueIdx.ix2 (⟨f % 8, Nat.mod_lt _ (by decide)⟩ : Fin 8) ch)
      = A (ValueIdx.ix2 ⟨f, hf⟩ ch) := by
  rw [blk_read_1]
  have e : (⟨8 * (cc2_transform_1 k2_off1_inb numel1_S1 a.1 (grid2.coords t) (0 : Fin 2)) + f % 8, row_lt_1 a t ⟨f % 8, Nat.mod_lt _ (by decide)⟩⟩ : Fin 704000) = ⟨f, hf⟩ :=
    Fin.ext (by show 8 * (cc2_transform_1 k2_off1_inb numel1_S1 a.1 (grid2.coords t) (0 : Fin 2)) + f % 8 = f; rw [hidx]; omega)
  exact congrArg (fun k : Fin 704000 => A (ValueIdx.ix2 k ch)) e

/-- Window 2's block at a point whose block index is f / 8, read at row f % 8, is row f of the table. -/
theorem blk_row_2 (a : (pcfg2 (F := F)).Adm) (t : Fin (cfg2 a).N) (A : S704000x64.Idx → Elt F .f32) (f : Nat) (hf : f < 704000)
    (hidx : cc2_transform_2 k2_off1_inb numel1_S1 a.1 (grid2.coords t) (0 : Fin 2) = f / 8) (ch : Fin 64) :
    ((((cfg2 a).win 2).blk t).view.read (Elt F) A) (ValueIdx.ix2 (⟨f % 8, Nat.mod_lt _ (by decide)⟩ : Fin 8) ch)
      = A (ValueIdx.ix2 ⟨f, hf⟩ ch) := by
  rw [blk_read_2]
  have e : (⟨8 * (cc2_transform_2 k2_off1_inb numel1_S1 a.1 (grid2.coords t) (0 : Fin 2)) + f % 8, row_lt_2 a t ⟨f % 8, Nat.mod_lt _ (by decide)⟩⟩ : Fin 704000) = ⟨f, hf⟩ :=
    Fin.ext (by show 8 * (cc2_transform_2 k2_off1_inb numel1_S1 a.1 (grid2.coords t) (0 : Fin 2)) + f % 8 = f; rw [hidx]; omega)
  exact congrArg (fun k : Fin 704000 => A (ValueIdx.ix2 k ch)) e

/-! ## A table's row at a voxel is the volume's feature vector there -/

/-- The transposed table of the volume viewed as [64, 704000], at the row of a voxel's flat index: the volume's
    feature vector at the voxel. -/
theorem table_row (T : S704000x64.Idx → Elt F .f32) (X : S64x704000.Idx → Elt F .f32) (feat : Cert.Spec.SFeat.Idx → Elt F .f32)
    (hT : T = fun j => X (ValueIdx.ix2 (j 1) (j 0)))
    (hX : ∀ (ch : Fin 64) (p : Cert.Spec.Voxel), X (ValueIdx.ix2 ch ⟨p.flat, p.flat_lt⟩) = feat (ValueIdx.ix5 (0 : Fin 1) ch p.1 p.2.1 p.2.2))
    (p : Cert.Spec.Voxel) (ch : Fin 64) :
    T (ValueIdx.ix2 ⟨p.flat, p.flat_lt⟩ ch) = feat (ValueIdx.ix5 (0 : Fin 1) ch p.1 p.2.1 p.2.2) := by
  subst hT
  exact hX ch p

/-- On the extended reals it is the specification's feature vector. -/
theorem table_row_ideal (T : S704000x64.Idx → Elt Ideal .f32) (X : S64x704000.Idx → Elt Ideal .f32) (feat : Cert.Spec.SFeat.Idx → EReal)
    (hT : T = fun j => X (ValueIdx.ix2 (j 1) (j 0)))
    (hX : ∀ (ch : Fin 64) (p : Cert.Spec.Voxel), X (ValueIdx.ix2 ch ⟨p.flat, p.flat_lt⟩) = feat (ValueIdx.ix5 (0 : Fin 1) ch p.1 p.2.1 p.2.2))
    (p : Cert.Spec.Voxel) (ch : Fin 64) :
    T (ValueIdx.ix2 ⟨p.flat, p.flat_lt⟩ ch) = Cert.Spec.rowAt feat p ch :=
  table_row (F := Ideal) T X feat hT hX p ch

end Cert.KernelIdeal.G2B

end
-- ==== Proof.G2Cells.lean ====
/-
  The cells of the gather region over the named runs, at the extended reals: the first cell after a point is the
  cell plus the squared distance of the two selected rows, squared; the second is the cell plus the squared hinge
  of the distance; the reset value is zero; the output is the two sums added, divided and scaled. The row a table
  word selects is the word modulo eight.
-/
import proofs.«427562_j44873818309267_2_alg».proof.Proof.G2Pay
import proofs.«427562_j44873818309267_2_alg».proof.Proof.G2Words
import proofs.«427562_j44873818309267_2_alg».proof.Proof.G2Fold
import proofs.«427562_j44873818309267_2_alg».proof.Proof.G2Runs

set_option maxRecDepth 16384

noncomputable section

namespace Cert.KernelIdeal.G2V

open Idealize.ShloMosaic
open Cert.KernelIdeal Cert.KernelIdeal.Gen

/-! ## The cells of the gather region over the named runs -/

/-- The 1 x 1 cell has one index. -/
theorem idx11_eq (j : S1x1.Idx) : j = ValueIdx.ix2 (0 : Fin 1) (0 : Fin 1) := by
  have h0 := ValueIdx.idx2_lt0 j
  have h1 := ValueIdx.idx2_lt1 j
  funext a; apply Fin.ext
  fin_cases a
  · show (j 0).val = 0; omega
  · show (j 1).val = 0; omega

/-- The first cell after a point: the cell plus the squared distance of the two selected rows, squared. -/
theorem accP_apply (w0 w1 : BitVec 32) (r0 r1 : Fin 8) (h0 : G2.rowW w0 = BitVec.ofNat 32 r0.val)
    (h1 : G2.rowW w1 = BitVec.ofNat 32 r1.val) (x0 x1 : FVec Ideal S8x64 .f32) (a : FVec Ideal S1x1 .f32) :
    G2.accP (F := Ideal) w0 w1 x0 x1 a (ValueIdx.ix2 (0 : Fin 1) (0 : Fin 1))
      = a (ValueIdx.ix2 (0 : Fin 1) (0 : Fin 1)) + rowDist x0 x1 r0 r1 * rowDist x0 x1 r0 r1 := by
  unfold G2.accP
  rw [pay1_apply]
  exact congrArg (fun t => a (ValueIdx.ix2 (0 : Fin 1) (0 : Fin 1)) + t)
    (pay7_apply Gen.iota_S8x64_d0_w32 (G2.rowW w0) (G2.rowW w1) r0 r1 h0 h1 x0 x1)

/-- The second cell after a point: the cell plus the squared hinge of the distance of the two selected rows. -/
theorem accN_apply (w0 w2 : BitVec 32) (r0 r2 : Fin 8) (h0 : G2.rowW w0 = BitVec.ofNat 32 r0.val)
    (h2 : G2.rowW w2 = BitVec.ofNat 32 r2.val) (x0 x2 : FVec Ideal S8x64 .f32) (a : FVec Ideal S1x1 .f32) :
    G2.accN (F := Ideal) w0 w2 x0 x2 a (ValueIdx.ix2 (0 : Fin 1) (0 : Fin 1))
      = a (ValueIdx.ix2 (0 : Fin 1) (0 : Fin 1)) + Cert.Spec.hinge (rowDist x0 x2 r0 r2) := by
  unfold G2.accN
  rw [pay2_apply]
  exact congrArg (fun t => a (ValueIdx.ix2 (0 : Fin 1) (0 : Fin 1)) + t)
    (pay8_apply Gen.iota_S8x64_d0_w32 (G2.rowW w0) G2.eightW (G2.remW w2) (G2.fixW w2) r0 r2 h0 h2 x0 x2)

/-- The reset value of a cell is zero. -/
theorem zeroCell_apply (j : S1x1.Idx) : (G2.zeroCell (F := Ideal)) j = 0 := by
  unfold G2.zeroCell
  exact pay4_apply j

/-- The output cell: the two sums added, divided and scaled. -/
theorem outCell_apply (p n : FVec Ideal S1x1 .f32) (j : S1x1.Idx) :
    G2.outCell (F := Ideal) p n j
      = Ideal.div (p j + n j) (Ideal.ofBits .f32 0x47800000#32) * Ideal.ofBits .f32 0x49742400#32 := by
  unfold G2.outCell
  exact pay3_apply p n j

/-- The row a table word selects is the word modulo eight. -/
theorem rowW_eq (w : BitVec 32) (hw : w.toNat < 2 ^ 31) : G2.rowW w = BitVec.ofNat 32 (w.toNat % 8) := by
  unfold G2.rowW G2.fixW G2.remW G2.eightW
  exact row_chain w hw

/-- The row a table word selects, as a row number of the block. -/
def rowOf (w : BitVec 32) : Fin 8 := ⟨w.toNat % 8, Nat.mod_lt _ (by decide)⟩

theorem rowW_eq_rowOf (w : BitVec 32) (hw : w.toNat < 2 ^ 31) : G2.rowW w = BitVec.ofNat 32 (rowOf w).val :=
  rowW_eq w hw

/-! ## The selected rows as feature vectors, and one point of the fold -/

/-- When the selected rows are the two feature vectors, their squared distance is the specification's. -/
theorem rowDist_eq_dist (fixF movF : Cert.Spec.SFeat.Idx → EReal) (pf pq : Cert.Spec.Voxel)
    (x0 x1 : FVec Ideal S8x64 .f32) (r0 r1 : Fin 8)
    (h0 : ∀ c, x0 (ValueIdx.ix2 r0 c) = Cert.Spec.rowAt fixF pf c)
    (h1 : ∀ c, x1 (ValueIdx.ix2 r1 c) = Cert.Spec.rowAt movF pq c) :
    rowDist x0 x1 r0 r1 = Cert.Spec.dist fixF movF pf pq := by
  unfold rowDist Cert.Spec.dist
  exact Finset.sum_congr rfl (fun c _ => by rw [h0, h1])

/-- One point of the first cell: from the running cell before the point to the running cell after it. -/
theorem accP_cell {N : Nat} (dP : Fin N → EReal) (t : Fin N) (w0 w1 : BitVec 32) (r0 r1 : Fin 8)
    (h0 : G2.rowW w0 = BitVec.ofNat 32 r0.val) (h1 : G2.rowW w1 = BitVec.ofNat 32 r1.val)
    (x0 x1 : FVec Ideal S8x64 .f32) (a : FVec Ideal S1x1 .f32)
    (ha : a (ValueIdx.ix2 (0 : Fin 1) (0 : Fin 1)) = cell dP t.val)
    (hd : dP t = rowDist x0 x1 r0 r1 * rowDist x0 x1 r0 r1) :
    G2.accP (F := Ideal) w0 w1 x0 x1 a (ValueIdx.ix2 (0 : Fin 1) (0 : Fin 1)) = cell dP (t.val + 1) := by
  rw [accP_apply w0 w1 r0 r1 h0 h1, cell_succ, ha, hd]

/-- One point of the second cell. -/
theorem accN_cell {N : Nat} (dN : Fin N → EReal) (t : Fin N) (w0 w2 : BitVec 32) (r0 r2 : Fin 8)
    (h0 : G2.rowW w0 = BitVec.ofNat 32 r0.val) (h2 : G2.rowW w2 = BitVec.ofNat 32 r2.val)
    (x0 x2 : FVec Ideal S8x64 .f32) (a : FVec Ideal S1x1 .f32)
    (ha : a (ValueIdx.ix2 (0 : Fin 1) (0 : Fin 1)) = cell dN t.val)
    (hd : dN t = Cert.Spec.hinge (rowDist x0 x2 r0 r2)) :
    G2.accN (F := Ideal) w0 w2 x0 x2 a (ValueIdx.ix2 (0 : Fin 1) (0 : Fin 1)) = cell dN (t.val + 1) := by
  rw [accN_apply w0 w2 r0 r2 h0 h2, cell_succ, ha, hd]

/-- The reset value of a cell is the running cell before the first point. -/
theorem zeroCell_cell {N : Nat} (d : Fin N → EReal) (j : S1x1.Idx) : (G2.zeroCell (F := Ideal)) j = cell d 0 :=
  zeroCell_apply j

end Cert.KernelIdeal.G2V

end
-- ==== Proof.G2Bridge.lean ====
/-
  The value of the third region on the extended reals. With the three prefetched tables holding the flat indices
  of the points' voxels, and the two transposed tables holding at row p.flat the feature vector of their volume at
  the voxel p: at each point the word of a table selects, in the fetched 8-row block, the row of the point's voxel,
  so the two cells gain the squared distance squared and the squared hinge of the point; after point n each cell
  is the sum of its terms over the points 0 to n; what the last point writes into the output cell is the loss.
-/
import proofs.«427562_j44873818309267_2_alg».proof.Proof.G2Runs
import proofs.«427562_j44873818309267_2_alg».proof.Proof.G2Sched
import proofs.«427562_j44873818309267_2_alg».proof.Proof.G2Pay
import proofs.«427562_j44873818309267_2_alg».proof.Proof.G2Fold
import proofs.«427562_j44873818309267_2_alg».proof.Proof.G2Blocks
import proofs.«427562_j44873818309267_2_alg».proof.Proof.G2Rows
import proofs.«427562_j44873818309267_2_alg».proof.Proof.G2Cells
import proofs.«427562_j44873818309267_2_alg».proof.Proof.G2Data
import proofs.«427562_j44873818309267_2_alg».proof.Proof.TablesOk

noncomputable section

namespace Cert.KernelIdeal.KV

open Idealize.ShloMosaic Idealize.ShloMosaic.TcCoe
open Idealize.SL.Sem
open Cert.KernelIdeal Cert.KernelIdeal.Gen
open Cert.Spec (Voxel)

/-- The word of table 0 the body reads at a point is the flat index of the point's voxel in list 0. -/
theorem word0 (V : (c : Dev nD) → (b : Ref sig .tc) → Buf (Elt Ideal) ((c : Thread nD τ).loc b)) (hO : G2.Ok V) (c : Dev nD)
    (p : Fin 16384 → Voxel) (hT : (G2.tbl V 0 : S16384.Idx → BitVec 32) = fun i : S16384.Idx => BitVec.ofNat 32 (p (i 0)).flat)
    (t : Fin (G2.cfgM V hO).N) (k : Fin 16384) (hk : grid2.coords t 0 = k) :
    G2.wordAt (c := c) (M := G2.tbM0) (G2.tbl V 0) (grid2.coords t) = BitVec.ofNat 32 (p k).flat := by
  refine (G2.wordAt_tb0 c (G2.tbl V 0) (grid2.coords t)).trans ?_
  rw [← hk]
  exact congrFun hT (ValueIdx.ix1 (grid2.coords t 0))

/-- The word of table 1 the body reads at a point is the flat index of the point's voxel in list 1. -/
theorem word1 (V : (c : Dev nD) → (b : Ref sig .tc) → Buf (Elt Ideal) ((c : Thread nD τ).loc b)) (hO : G2.Ok V) (c : Dev nD)
    (p : Fin 16384 → Voxel) (hT : (G2.tbl V 1 : S16384.Idx → BitVec 32) = fun i : S16384.Idx => BitVec.ofNat 32 (p (i 0)).flat)
    (t : Fin (G2.cfgM V hO).N) (k : Fin 16384) (hk : grid2.coords t 0 = k) :
    G2.wordAt (c := c) (M := G2.tbM1) (G2.tbl V 1) (grid2.coords t) = BitVec.ofNat 32 (p k).flat := by
  refine (G2.wordAt_tb1 c (G2.tbl V 1) (grid2.coords t)).trans ?_
  rw [← hk]
  exact congrFun hT (ValueIdx.ix1 (grid2.coords t 0))

/-- The word of table 2 the body reads at a point is the flat index of the point's voxel in list 2. -/
theorem word2 (V : (c : Dev nD) → (b : Ref sig .tc) → Buf (Elt Ideal) ((c : Thread nD τ).loc b)) (hO : G2.Ok V) (c : Dev nD)
    (p : Fin 16384 → Voxel) (hT : (G2.tbl V 2 : S16384.Idx → BitVec 32) = fun i : S16384.Idx => BitVec.ofNat 32 (p (i 0)).flat)
    (t : Fin (G2.cfgM V hO).N) (k : Fin 16384) (hk : grid2.coords t 0 = k) :
    G2.wordAt (c := c) (M := G2.tbM2) (G2.tbl V 2) (grid2.coords t) = BitVec.ofNat 32 (p k).flat := by
  refine (G2.wordAt_tb2 c (G2.tbl V 2) (grid2.coords t)).trans ?_
  rw [← hk]
  exact congrFun hT (ValueIdx.ix1 (grid2.coords t 0))

/-- Window 0's block at a point, read at the row the point's word selects, is the feature vector at the point's voxel. -/
theorem blk0_row (V : (c : Dev nD) → (b : Ref sig .tc) → Buf (Elt Ideal) ((c : Thread nD τ).loc b)) (hO : G2.Ok V) (c : Dev nD)
    (feat : Cert.Spec.SFeat.Idx → EReal)
    (p : Fin 16384 → Voxel) (hT : (G2.tbl V 0 : S16384.Idx → BitVec 32) = fun i : S16384.Idx => BitVec.ofNat 32 (p (i 0)).flat)
    (hA : ∀ (q : Voxel) (ch : Fin 64), (V c main_v53 : S704000x64.Idx → EReal) (ValueIdx.ix2 ⟨q.flat, q.flat_lt⟩ ch) = Cert.Spec.rowAt feat q ch)
    (t : Fin (G2.cfgM V hO).N) (k : Fin 16384) (hk : grid2.coords t 0 = k) (ch : Fin 64) :
    (G2.iblk2 V hO c 0 t : FVec Ideal S8x64 .f32) (ValueIdx.ix2 (⟨(p k).flat % 8, Nat.mod_lt _ (by decide)⟩ : Fin 8) ch)
      = Cert.Spec.rowAt feat (p k) ch := by
  have hidx : cc2_transform_0 k2_off1_inb numel1_S1 (G2.adm V hO).1 (grid2.coords t) (0 : Fin 2) = (p k).flat / 8 := by
    show cc2_transform_0 k2_off1_inb numel1_S1 (G2.tbl V) (grid2.coords t) (0 : Fin 2) = _
    rw [Tables.transform_eq_0 (G2.tbl V) p hT (grid2.coords t), hk]; rfl
  exact (G2B.blk_row_0 (G2.adm V hO) t (V c main_v53) (p k).flat (p k).flat_lt hidx ch).trans (hA (p k) ch)

/-- Window 1's block at a point, read at the row the point's word selects, is the feature vector at the point's voxel. -/
theorem blk1_row (V : (c : Dev nD) → (b : Ref sig .tc) → Buf (Elt Ideal) ((c : Thread nD τ).loc b)) (hO : G2.Ok V) (c : Dev nD)
    (feat : Cert.Spec.SFeat.Idx → EReal)
    (p : Fin 16384 → Voxel) (hT : (G2.tbl V 1 : S16384.Idx → BitVec 32) = fun i : S16384.Idx => BitVec.ofNat 32 (p (i 0)).flat)
    (hA : ∀ (q : Voxel) (ch : Fin 64), (V c main_v54 : S704000x64.Idx → EReal) (ValueIdx.ix2 ⟨q.flat, q.flat_lt⟩ ch) = Cert.Spec.rowAt feat q ch)
    (t : Fin (G2.cfgM V hO).N) (k : Fin 16384) (hk : grid2.coords t 0 = k) (ch : Fin 64) :
    (G2.iblk2 V hO c 1 t : FVec Ideal S8x64 .f32) (ValueIdx.ix2 (⟨(p k).flat % 8, Nat.mod_lt _ (by decide)⟩ : Fin 8) ch)
      = Cert.Spec.rowAt feat (p k) ch := by
  have hidx : cc2_transform_1 k2_off1_inb numel1_S1 (G2.adm V hO).1 (grid2.coords t) (0 : Fin 2) = (p k).flat / 8 := by
    show cc2_transform_1 k2_off1_inb numel1_S1 (G2.tbl V) (grid2.coords t) (0 : Fin 2) = _
    rw [Tables.transform_eq_1 (G2.tbl V) p hT (grid2.coords t), hk]; rfl
  exact (G2B.blk_row_1 (G2.adm V hO) t (V c main_v54) (p k).flat (p k).flat_lt hidx ch).trans (hA (p k) ch)

/-- Window 2's block at a point, read at the row the point's word selects, is the feature vector at the point's voxel. -/
theorem blk2_row (V : (c : Dev nD) → (b : Ref sig .tc) → Buf (Elt Ideal) ((c : Thread nD τ).loc b)) (hO : G2.Ok V) (c : Dev nD)
    (feat : Cert.Spec.SFeat.Idx → EReal)
    (p : Fin 16384 → Voxel) (hT : (G2.tbl V 2 : S16384.Idx → BitVec 32) = fun i : S16384.Idx => BitVec.ofNat 32 (p (i 0)).flat)
    (hA : ∀ (q : Voxel) (ch : Fin 64), (V c main_v54 : S704000x64.Idx → EReal) (ValueIdx.ix2 ⟨q.flat, q.flat_lt⟩ ch) = Cert.Spec.rowAt feat q ch)
    (t : Fin (G2.cfgM V hO).N) (k : Fin 16384) (hk : grid2.coords t 0 = k) (ch : Fin 64) :
    (G2.iblk2 V hO c 2 t : FVec Ideal S8x64 .f32) (ValueIdx.ix2 (⟨(p k).flat % 8, Nat.mod_lt _ (by decide)⟩ : Fin 8) ch)
      = Cert.Spec.rowAt feat (p k) ch := by
  have hidx : cc2_transform_2 k2_off1_inb numel1_S1 (G2.adm V hO).1 (grid2.coords t) (0 : Fin 2) = (p k).flat / 8 := by
    show cc2_transform_2 k2_off1_inb numel1_S1 (G2.tbl V) (grid2.coords t) (0 : Fin 2) = _
    rw [Tables.transform_eq_2 (G2.tbl V) p hT (grid2.coords t), hk]; rfl
  exact (G2B.blk_row_2 (G2.adm V hO) t (V c main_v54) (p k).flat (p k).flat_lt hidx ch).trans (hA (p k) ch)

/-! ## The terms of the two sums -/

/-- The positive term of point i: the squared distance, squared. -/
def dP (fixF movF : Cert.Spec.SFeat.Idx → EReal) (p0 p1 : Fin 16384 → Voxel) : Fin 16384 → EReal :=
  fun i => Cert.Spec.dist fixF movF (p0 i) (p1 i) * Cert.Spec.dist fixF movF (p0 i) (p1 i)

/-- The negative term of point i: the squared hinge of the distance. -/
def dN (fixF movF : Cert.Spec.SFeat.Idx → EReal) (p0 p2 : Fin 16384 → Voxel) : Fin 16384 → EReal :=
  fun i => Cert.Spec.hinge (Cert.Spec.dist fixF movF (p0 i) (p2 i))

/-- The row of the 8-row block a voxel's flat index selects. -/
abbrev rowOfFlat (q : Voxel) : Fin 8 := ⟨q.flat % 8, Nat.mod_lt _ (by decide)⟩

/-! ## One point -/

/-- One point's update: each cell gains the point's term. -/
theorem step_value (V : (c : Dev nD) → (b : Ref sig .tc) → Buf (Elt Ideal) ((c : Thread nD τ).loc b)) (hO : G2.Ok V) (c : Dev nD)
    (fixF movF : Cert.Spec.SFeat.Idx → EReal) (p0 p1 p2 : Fin 16384 → Voxel)
    (hT0 : (G2.tbl V 0 : S16384.Idx → BitVec 32) = fun i : S16384.Idx => BitVec.ofNat 32 (p0 (i 0)).flat)
    (hT1 : (G2.tbl V 1 : S16384.Idx → BitVec 32) = fun i : S16384.Idx => BitVec.ofNat 32 (p1 (i 0)).flat)
    (hT2 : (G2.tbl V 2 : S16384.Idx → BitVec 32) = fun i : S16384.Idx => BitVec.ofNat 32 (p2 (i 0)).flat)
    (hFix : ∀ (q : Voxel) (ch : Fin 64), (V c main_v53 : S704000x64.Idx → EReal) (ValueIdx.ix2 ⟨q.flat, q.flat_lt⟩ ch) = Cert.Spec.rowAt fixF q ch)
    (hMov : ∀ (q : Voxel) (ch : Fin 64), (V c main_v54 : S704000x64.Idx → EReal) (ValueIdx.ix2 ⟨q.flat, q.flat_lt⟩ ch) = Cert.Spec.rowAt movF q ch)
    (t : Fin (G2.cfgM V hO).N) (k : Fin 16384) (hk : grid2.coords t 0 = k)
    (s : Vec Ideal S1x1 .f32 × Vec Ideal S1x1 .f32)
    (h1 : s.1 (ValueIdx.ix2 (0 : Fin 1) (0 : Fin 1)) = G2V.cell (dP fixF movF p0 p1) k.val)
    (h2 : s.2 (ValueIdx.ix2 (0 : Fin 1) (0 : Fin 1)) = G2V.cell (dN fixF movF p0 p2) k.val) :
    (G2.stepAt V hO c t s).1 (ValueIdx.ix2 (0 : Fin 1) (0 : Fin 1)) = G2V.cell (dP fixF movF p0 p1) (k.val + 1)
    ∧ (G2.stepAt V hO c t s).2 (ValueIdx.ix2 (0 : Fin 1) (0 : Fin 1)) = G2V.cell (dN fixF movF p0 p2) (k.val + 1) := by
  have w0 := word0 V hO c p0 hT0 t k hk
  have w1 := word1 V hO c p1 hT1 t k hk
  have w2 := word2 V hO c p2 hT2 t k hk
  have r0 : G2.rowW (BitVec.ofNat 32 (p0 k).flat) = BitVec.ofNat 32 (rowOfFlat (p0 k)).val := Tables.rowW_flat _ (p0 k).flat_lt
  have r1 : G2.rowW (BitVec.ofNat 32 (p1 k).flat) = BitVec.ofNat 32 (rowOfFlat (p1 k)).val := Tables.rowW_flat _ (p1 k).flat_lt
  have r2 : G2.rowW (BitVec.ofNat 32 (p2 k).flat) = BitVec.ofNat 32 (rowOfFlat (p2 k)).val := Tables.rowW_flat _ (p2 k).flat_lt
  have d1 : G2V.rowDist (G2.iblk2 V hO c 0 t : FVec Ideal S8x64 .f32) (G2.iblk2 V hO c 1 t : FVec Ideal S8x64 .f32) (rowOfFlat (p0 k)) (rowOfFlat (p1 k))
      = Cert.Spec.dist fixF movF (p0 k) (p1 k) :=
    G2V.rowDist_eq_dist fixF movF (p0 k) (p1 k) _ _ _ _
      (fun ch => blk0_row V hO c fixF p0 hT0 hFix t k hk ch) (fun ch => blk1_row V hO c movF p1 hT1 hMov t k hk ch)
  have d2 : G2V.rowDist (G2.iblk2 V hO c 0 t : FVec Ideal S8x64 .f32) (G2.iblk2 V hO c 2 t : FVec Ideal S8x64 .f32) (rowOfFlat (p0 k)) (rowOfFlat (p2 k))
      = Cert.Spec.dist fixF movF (p0 k) (p2 k) :=
    G2V.rowDist_eq_dist fixF movF (p0 k) (p2 k) _ _ _ _
      (fun ch => blk0_row V hO c fixF p0 hT0 hFix t k hk ch) (fun ch => blk2_row V hO c movF p2 hT2 hMov t k hk ch)
  unfold G2.stepAt
  dsimp only
  rw [w0, w1, w2]
  exact ⟨G2V.accP_cell (dP fixF movF p0 p1) k _ _ _ _ r0 r1 _ _ _ h1 (by rw [d1]; rfl),
    G2V.accN_cell (dN fixF movF p0 p2) k _ _ _ _ r0 r2 _ _ _ h2 (by rw [d2]; rfl)⟩

/-! ## The two running sums after each point -/

/-- Point number n has coordinate n. -/
theorem coord_at (V : (c : Dev nD) → (b : Ref sig .tc) → Buf (Elt Ideal) ((c : Thread nD τ).loc b)) (hO : G2.Ok V)
    (t : Fin (G2.cfgM V hO).N) (h : t.val < 16384) : grid2.coords t 0 = (⟨t.val, h⟩ : Fin 16384) :=
  Fin.ext (G2.coords0 (G2.adm V hO) t)

/-- After point n each cell holds the sum of its terms over the points 0 to n. -/
theorem acc_value (V : (c : Dev nD) → (b : Ref sig .tc) → Buf (Elt Ideal) ((c : Thread nD τ).loc b)) (hO : G2.Ok V) (c : Dev nD)
    (fixF movF : Cert.Spec.SFeat.Idx → EReal) (p0 p1 p2 : Fin 16384 → Voxel)
    (hT0 : (G2.tbl V 0 : S16384.Idx → BitVec 32) = fun i : S16384.Idx => BitVec.ofNat 32 (p0 (i 0)).flat)
    (hT1 : (G2.tbl V 1 : S16384.Idx → BitVec 32) = fun i : S16384.Idx => BitVec.ofNat 32 (p1 (i 0)).flat)
    (hT2 : (G2.tbl V 2 : S16384.Idx → BitVec 32) = fun i : S16384.Idx => BitVec.ofNat 32 (p2 (i 0)).flat)
    (hFix : ∀ (q : Voxel) (ch : Fin 64), (V c main_v53 : S704000x64.Idx → EReal) (ValueIdx.ix2 ⟨q.flat, q.flat_lt⟩ ch) = Cert.Spec.rowAt fixF q ch)
    (hMov : ∀ (q : Voxel) (ch : Fin 64), (V c main_v54 : S704000x64.Idx → EReal) (ValueIdx.ix2 ⟨q.flat, q.flat_lt⟩ ch) = Cert.Spec.rowAt movF q ch) :
    ∀ (n : ℕ) (hn : n < (G2.cfgM V hO).N),
      (G2.accAt V hO c n hn).1 (ValueIdx.ix2 (0 : Fin 1) (0 : Fin 1)) = G2V.cell (dP fixF movF p0 p1) (n + 1)
      ∧ (G2.accAt V hO c n hn).2 (ValueIdx.ix2 (0 : Fin 1) (0 : Fin 1)) = G2V.cell (dN fixF movF p0 p2) (n + 1)
  | 0, hn => by
    have h16 : (0 : ℕ) < 16384 := by decide
    exact step_value V hO c fixF movF p0 p1 p2 hT0 hT1 hT2 hFix hMov ⟨0, hn⟩ ⟨0, h16⟩ (coord_at V hO ⟨0, hn⟩ h16) (G2.zeroCell, G2.zeroCell)
      (G2V.zeroCell_cell (dP fixF movF p0 p1) (ValueIdx.ix2 (0 : Fin 1) (0 : Fin 1)))
      (G2V.zeroCell_cell (dN fixF movF p0 p2) (ValueIdx.ix2 (0 : Fin 1) (0 : Fin 1)))
  | n + 1, hn => by
    have h16 : n + 1 < 16384 := lt_of_lt_of_eq hn (G2.N2 (G2.adm V hO))
    have ih := acc_value V hO c fixF movF p0 p1 p2 hT0 hT1 hT2 hFix hMov n (Nat.lt_of_succ_lt hn)
    exact step_value V hO c fixF movF p0 p1 p2 hT0 hT1 hT2 hFix hMov ⟨n + 1, hn⟩ ⟨n + 1, h16⟩ (coord_at V hO ⟨n + 1, hn⟩ h16) _ ih.1 ih.2

/-! ## The output -/

/-- What the last point writes into the output cell is the loss of the specification. -/
theorem out_value (V : (c : Dev nD) → (b : Ref sig .tc) → Buf (Elt Ideal) ((c : Thread nD τ).loc b)) (hO : G2.Ok V) (c : Dev nD)
    (fixF movF : Cert.Spec.SFeat.Idx → EReal) (p0 p1 p2 : Fin 16384 → Voxel)
    (hT0 : (G2.tbl V 0 : S16384.Idx → BitVec 32) = fun i : S16384.Idx => BitVec.ofNat 32 (p0 (i 0)).flat)
    (hT1 : (G2.tbl V 1 : S16384.Idx → BitVec 32) = fun i : S16384.Idx => BitVec.ofNat 32 (p1 (i 0)).flat)
    (hT2 : (G2.tbl V 2 : S16384.Idx → BitVec 32) = fun i : S16384.Idx => BitVec.ofNat 32 (p2 (i 0)).flat)
    (hFix : ∀ (q : Voxel) (ch : Fin 64), (V c main_v53 : S704000x64.Idx → EReal) (ValueIdx.ix2 ⟨q.flat, q.flat_lt⟩ ch) = Cert.Spec.rowAt fixF q ch)
    (hMov : ∀ (q : Voxel) (ch : Fin 64), (V c main_v54 : S704000x64.Idx → EReal) (ValueIdx.ix2 ⟨q.flat, q.flat_lt⟩ ch) = Cert.Spec.rowAt movF q ch) :
    G2.outCell (G2.endP V hO c) (G2.endN V hO c) (ValueIdx.ix2 (0 : Fin 1) (0 : Fin 1)) = Cert.Spec.loss fixF movF p0 p1 p2 := by
  rw [G2V.outCell_apply]
  obtain ⟨e1, e2⟩ := acc_value V hO c fixF movF p0 p1 p2 hT0 hT1 hT2 hFix hMov 16383 (G2.last_lt V hO)
  unfold G2.endP G2.endN
  rw [e1, e2]
  exact G2V.out_eq_loss fixF movF p0 p1 p2 _ _ (fun _ => rfl) (fun _ => rfl)

end Cert.KernelIdeal.KV

end
-- ==== Proof.KValue.lean ====
/-
  The value of @main on the extended reals: the loss.

  The fixed volume's table holds at (n, ch) entry (ch, n) of the volume viewed as [64, 704000], and that view at a
  voxel's flat index is the volume at the voxel: so row flat(p) of the table is the volume's feature vector at p;
  the moving volume's table likewise. The three prefetched tables hold the flat indices of the redirected points.
  Over such tables the two running sums of the third region are the positive and the negative term of the loss, and
  its output cell (their sum divided by 65536, times one million) is the loss; the last host stretch reshapes that
  cell into the scalar result.
-/
import proofs.«427562_j44873818309267_2_alg».proof.Proof.KFrame
import proofs.«427562_j44873818309267_2_alg».proof.Proof.G2Bridge
import proofs.«427562_j44873818309267_2_alg».proof.Proof.G2Rows
import proofs.«427562_j44873818309267_2_alg».proof.Proof.RunTables
import Idealize.ShloMosaic.PureOps.Ideal

set_option maxRecDepth 16384

noncomputable section

namespace Cert.KernelIdeal.Final

open Idealize.ShloMosaic Idealize.ShloMosaic.TcCoe
open Idealize.SL Idealize.SL.Sem
open Cert.KernelIdeal.Gen
open Cert.Spec (Voxel)

variable (m : (ℓ : Loc nD τ sig) → Buf (Elt Ideal) ℓ)

/-- The fixed volume's table, as the third region finds it, holds at a voxel's flat index the volume's feature
    vector at that voxel. -/
theorem fix_row (c : Dev nD) (p : Voxel) (ch : Fin 64) :
    (Run.V9r m c main_v53 : S704000x64.Idx → Elt Ideal .f32) (ValueIdx.ix2 ⟨p.flat, p.flat_lt⟩ ch)
      = Cert.Spec.rowAt (m ((c : Thread nD τ).loc main_arg0)) p ch :=
  G2B.table_row_ideal _ (V7 m c main_v51) (m ((c : Thread nD τ).loc main_arg0)) (Run.W9_v53 m c)
    (fun ch p => Tables.V7_v51_at m c ch ⟨p.flat, p.flat_lt⟩ p.1 p.2.1 p.2.2 rfl) p ch

/-- The moving volume's table likewise. -/
theorem mov_row (c : Dev nD) (p : Voxel) (ch : Fin 64) :
    (Run.V9r m c main_v54 : S704000x64.Idx → Elt Ideal .f32) (ValueIdx.ix2 ⟨p.flat, p.flat_lt⟩ ch)
      = Cert.Spec.rowAt (m ((c : Thread nD τ).loc main_arg1)) p ch :=
  G2B.table_row_ideal _ (V7 m c main_v52) (m ((c : Thread nD τ).loc main_arg1)) (Run.W9_v54 m c)
    (fun ch p => Tables.V7_v52_at m c ch ⟨p.flat, p.flat_lt⟩ p.1 p.2.1 p.2.2 rfl) p ch

/-- What the third region leaves in its output is the loss of the two volumes at the three redirected lists. -/
theorem out_loss (c : Dev nD) :
    (o2 m c : S1x1.Idx → Elt Ideal .f32) (ValueIdx.ix2 (0 : Fin 1) (0 : Fin 1))
      = Cert.Spec.loss (m ((c : Thread nD τ).loc main_arg0)) (m ((c : Thread nD τ).loc main_arg1))
          (Cert.Redirect.pos (m ((c : Thread nD τ).loc main_arg2))) (Cert.Redirect.pos (m ((c : Thread nD τ).loc main_arg3)))
          (Cert.Redirect.pos (m ((c : Thread nD τ).loc main_arg4))) := by
  obtain rfl : c = 0 := Subsingleton.elim _ _
  show ((G2.dat2 (Run.V9r m) (ok m) 0).arrAt 3 (G2.cfgM (Run.V9r m) (ok m)).N : S1x1.Idx → Elt Ideal .f32) _ = _
  rw [G2.final2]
  exact KV.out_value (Run.V9r m) (ok m) 0 _ _ _ _ _ (tbl_flat0 m) (tbl_flat1 m) (tbl_flat2 m) (fix_row m 0) (mov_row m 0)

/-- THE VALUE on the extended reals: @main runs, the result buffer ends holding the loss of the two feature volumes at
    the three redirected point lists, and the five arguments end as launched. -/
theorem value (ρ : Dev nD → PrngReg) : θ_run defs (onTc (τ := τ) (main (F := Ideal))) ⟨m, fun _ => 0, ρ⟩ (fun r => ∀ c : Dev nD,
      r.2.mem ((c.tc : Thread nD τ).loc main_v56) = (fun _ => Cert.Spec.loss (m ((c : Thread nD τ).loc main_arg0)) (m ((c : Thread nD τ).loc main_arg1))
          (Cert.Redirect.pos (m ((c : Thread nD τ).loc main_arg2))) (Cert.Redirect.pos (m ((c : Thread nD τ).loc main_arg3)))
          (Cert.Redirect.pos (m ((c : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (funext fun _ => out_loss m c), (h c).2⟩) (value_out m ρ)

end Cert.KernelIdeal.Final

end
-- ==== Proof.RefOps.lean ====
/-
  The reference's @main as one straight line of host operations.

  The three calls of the outlined floored remainder are written out at their call sites, each over the buffers of
  its own call (the divisor's zero test and replacement, the truncated remainder, the sign tests, the corrected
  remainder, the choice), so the whole function is a list of 211 operations. The list is given once whole and once
  in the three consecutive pieces in which the function is printed; the function equals the run of the list, and so
  every weakly fair execution terminates with each buffer at the fold of the operations over the launch contents.
-/
import proofs.«427562_j44873818309267_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of the first printed piece (the three redirections, the first gather, the head of the second). -/
abbrev w0 : List (HloOp τ sig (Elt F)) :=
  [ nullary main_c (fun i => lit0 (S3.rowMajor i)),
    nullary main_c_0 (fun i => lit1 (S3.rowMajor i)),
    unary main_c main_v0 (broadcastInDim S1x3 ![1] bcast_S3_S1x3_1 : (⟨S3, .i32⟩ : BufTy).Contents (Elt F) → (⟨S1x3, .i32⟩ : BufTy).Contents (Elt F)),
    unary main_v0 main_v1 (broadcastInDim S16384x3 ![0, 1] bcast_S1x3_S16384x3_0_1 : (⟨S1x3, .i32⟩ : BufTy).Contents (Elt F) → (⟨S16384x3, .i32⟩ : BufTy).Contents (Elt F)),
    binary main_arg2 main_v1 main_v2 (subi : (⟨S16384x3, .i32⟩ : BufTy).Contents (Elt F) → (⟨S16384x3, .i32⟩ : BufTy).Contents (Elt F) → (⟨S16384x3, .i32⟩ : BufTy).Contents (Elt F)),
    unary main_c_0 main_v3 (broadcastInDim S1x3 ![1] bcast_S3_S1x3_1 : (⟨S3, .i32⟩ : BufTy).Contents (Elt F) → (⟨S1x3, .i32⟩ : BufTy).Contents (Elt F)),
    TRef.nullary main_call0.c (constantI S_ 32 0#32),
    TRef.unary main_call0.c main_call0.v0 (broadcastInDim S1x3 ![] bcast_S_S1x3),
    TRef.binary (.of main_v3) main_call0.v0 main_call0.v1 (cmpi .eq),
    TRef.nullary main_call0.c_0 (constantI S_ 32 1#32),
    TRef.unary main_call0.c_0 main_call0.v2 (broadcastInDim S1x3 ![] bcast_S_S1x3),
    TRef.ternary main_call0.v1 main_call0.v2 (.of main_v3) main_call0.call0.v0 select,
    TRef.unary main_call0.call0.v0 main_call0.v4 (broadcastInDim S16384x3 ![0, 1] bcast_S1x3_S16384x3_0_1),
    TRef.binary (.of main_v2) main_call0.v4 main_call0.v5 Host.remsi,
    TRef.nullary main_call0.c_1 (constantI S_ 32 0#32),
    TRef.unary main_call0.c_1 main_call0.v6 (broadcastInDim S16384x3 ![] bcast_S_S16384x3),
    TRef.binary main_call0.v5 main_call0.v6 main_call0.v7 (cmpi .ne),
    TRef.nullary main_call0.c_2 (constantI S_ 32 0#32),
    TRef.unary main_call0.c_2 main_call0.v8 (broadcastInDim S16384x3 ![] bcast_S_S16384x3),
    TRef.binary main_call0.v5 main_call0.v8 main_call0.v9 (cmpi .slt),
    TRef.nullary main_call0.c_3 (constantI S_ 32 0#32),
    TRef.unary main_call0.c_3 main_call0.v10 (broadcastInDim S1x3 ![] bcast_S_S1x3),
    TRef.binary main_call0.call0.v0 main_call0.v10 main_call0.v11 (cmpi .slt),
    TRef.unary main_call0.v11 main_call0.v12 (broadcastInDim S16384x3 ![0, 1] bcast_S1x3_S16384x3_0_1),
    TRef.binary main_call0.v9 main_call0.v12 main_call0.v13 (cmpi .ne),
    TRef.binary main_call0.v13 main_call0.v7 main_call0.v14 andi,
    TRef.unary main_call0.call0.v0 main_call0.v15 (broadcastInDim S16384x3 ![0, 1] bcast_S1x3_S16384x3_0_1),
    TRef.binary main_call0.v5 main_call0.v15 main_call0.v16 addi,
    TRef.ternary main_call0.v14 main_call0.v16 main_call0.v5 main_call0.v17 select,
    unary main_c main_v5 (broadcastInDim S1x3 ![1] bcast_S3_S1x3_1 : (⟨S3, .i32⟩ : BufTy).Contents (Elt F) → (⟨S1x3, .i32⟩ : BufTy).Contents (Elt F)),
    unary main_v5 main_v6 (broadcastInDim S16384x3 ![0, 1] bcast_S1x3_S16384x3_0_1 : (⟨S1x3, .i32⟩ : BufTy).Contents (Elt F) → (⟨S16384x3, .i32⟩ : BufTy).Contents (Elt F)),
    binary main_arg3 main_v6 main_v7 (subi : (⟨S16384x3, .i32⟩ : BufTy).Contents (Elt F) → (⟨S16384x3, .i32⟩ : BufTy).Contents (Elt F) → (⟨S16384x3, .i32⟩ : BufTy).Contents (Elt F)),
    unary main_c_0 main_v8 (broadcastInDim S1x3 ![1] bcast_S3_S1x3_1 : (⟨S3, .i32⟩ : BufTy).Contents (Elt F) → (⟨S1x3, .i32⟩ : BufTy).Contents (Elt F)),
    TRef.nullary main_call1.c (constantI S_ 32 0#32),
    TRef.unary main_call1.c main_call1.v0 (broadcastInDim S1x3 ![] bcast_S_S1x3),
    TRef.binary (.of main_v8) main_call1.v0 main_call1.v1 (cmpi .eq),
    TRef.nullary main_call1.c_0 (constantI S_ 32 1#32),
    TRef.unary main_call1.c_0 main_call1.v2 (broadcastInDim S1x3 ![] bcast_S_S1x3),
    TRef.ternary main_call1.v1 main_call1.v2 (.of main_v8) main_call1.call0.v0 select,
    TRef.unary main_call1.call0.v0 main_call1.v4 (broadcastInDim S16384x3 ![0, 1] bcast_S1x3_S16384x3_0_1),
    TRef.binary (.of main_v7) main_call1.v4 main_call1.v5 Host.remsi,
    TRef.nullary main_call1.c_1 (constantI S_ 32 0#32),
    TRef.unary main_call1.c_1 main_call1.v6 (broadcastInDim S16384x3 ![] bcast_S_S16384x3),
    TRef.binary main_call1.v5 main_call1.v6 main_call1.v7 (cmpi .ne),
    TRef.nullary main_call1.c_2 (constantI S_ 32 0#32),
    TRef.unary main_call1.c_2 main_call1.v8 (broadcastInDim S16384x3 ![] bcast_S_S16384x3),
    TRef.binary main_call1.v5 main_call1.v8 main_call1.v9 (cmpi .slt),
    TRef.nullary main_call1.c_3 (constantI S_ 32 0#32),
    TRef.unary main_call1.c_3 main_call1.v10 (broadcastInDim S1x3 ![] bcast_S_S1x3),
    TRef.binary main_call1.call0.v0 main_call1.v10 main_call1.v11 (cmpi .slt),
    TRef.unary main_call1.v11 main_call1.v12 (broadcastInDim S16384x3 ![0, 1] bcast_S1x3_S16384x3_0_1),
    TRef.binary main_call1.v9 main_call1.v12 main_call1.v13 (cmpi .ne),
    TRef.binary main_call1.v13 main_call1.v7 main_call1.v14 andi,
    TRef.unary main_call1.call0.v0 main_call1.v15 (broadcastInDim S16384x3 ![0, 1] bcast_S1x3_S16384x3_0_1),
    TRef.binary main_call1.v5 main_call1.v15 main_call1.v16 addi,
    TRef.ternary main_call1.v14 main_call1.v16 main_call1.v5 main_call1.v17 select,
    unary main_c main_v10 (broadcastInDim S1x3 ![1] bcast_S3_S1x3_1 : (⟨S3, .i32⟩ : BufTy).Contents (Elt F) → (⟨S1x3, .i32⟩ : BufTy).Contents (Elt F)),
    unary main_v10 main_v11 (broadcastInDim S16384x3 ![0, 1] bcast_S1x3_S16384x3_0_1 : (⟨S1x3, .i32⟩ : BufTy).Contents (Elt F) → (⟨S16384x3, .i32⟩ : BufTy).Contents (Elt F)),
    binary main_arg4 main_v11 main_v12 (subi : (⟨S16384x3, .i32⟩ : BufTy).Contents (Elt F) → (⟨S16384x3, .i32⟩ : BufTy).Contents (Elt F) → (⟨S16384x3, .i32⟩ : BufTy).Contents (Elt F)),
    unary main_c_0 main_v13 (broadcastInDim S1x3 ![1] bcast_S3_S1x3_1 : (⟨S3, .i32⟩ : BufTy).Contents (Elt F) → (⟨S1x3, .i32⟩ : BufTy).Contents (Elt F)),
    TRef.nullary main_call2.c (constantI S_ 32 0#32),
    TRef.unary main_call2.c main_call2.v0 (broadcastInDim S1x3 ![] bcast_S_S1x3),
    TRef.binary (.of main_v13) main_call2.v0 main_call2.v1 (cmpi .eq),
    TRef.nullary main_call2.c_0 (constantI S_ 32 1#32),
    TRef.unary main_call2.c_0 main_call2.v2 (broadcastInDim S1x3 ![] bcast_S_S1x3),
    TRef.ternary main_call2.v1 main_call2.v2 (.of main_v13) main_call2.call0.v0 select,
    TRef.unary main_call2.call0.v0 main_call2.v4 (broadcastInDim S16384x3 ![0, 1] bcast_S1x3_S16384x3_0_1),
    TRef.binary (.of main_v12) main_call2.v4 main_call2.v5 Host.remsi,
    TRef.nullary main_call2.c_1 (constantI S_ 32 0#32),
    TRef.unary main_call2.c_1 main_call2.v6 (broadcastInDim S16384x3 ![] bcast_S_S16384x3),
    TRef.binary main_call2.v5 main_call2.v6 main_call2.v7 (cmpi .ne),
    TRef.nullary main_call2.c_2 (constantI S_ 32 0#32),
    TRef.unary main_call2.c_2 main_call2.v8 (broadcastInDim S16384x3 ![] bcast_S_S16384x3),
    TRef.binary main_call2.v5 main_call2.v8 main_call2.v9 (cmpi .slt),
    TRef.nullary main_call2.c_3 (constantI S_ 32 0#32),
    TRef.unary main_call2.c_3 main_call2.v10 (broadcastInDim S1x3 ![] bcast_S_S1x3),
    TRef.binary main_call2.call0.v0 main_call2.v10 main_call2.v11 (cmpi .slt),
    TRef.unary main_call2.v11 main_call2.v12 (broadcastInDim S16384x3 ![0, 1] bcast_S1x3_S16384x3_0_1),
    TRef.binary main_call2.v9 main_call2.v12 main_call2.v13 (cmpi .ne),
    TRef.binary main_call2.v13 main_call2.v7 main_call2.v14 andi,
    TRef.unary main_call2.call0.v0 main_call2.v15 (broadcastInDim S16384x3 ![0, 1] bcast_S1x3_S16384x3_0_1),
    TRef.binary main_call2.v5 main_call2.v15 main_call2.v16 addi,
    TRef.ternary main_call2.v14 main_call2.v16 main_call2.v5 main_call2.v17 select,
    reshape main_arg0 main_v15 rfl shapeCasts_S1x64x100x88x80_S64x100x88x80,
    unary main_v4 main_v16 ((extractStridedSlice S16384x1 ![0, 0] · slices_S16384x3_S16384x1_0_0) : (⟨S16384x3, .i32⟩ : BufTy).Contents (Elt F) → (⟨S16384x1, .i32⟩ : BufTy).Contents (Elt F)),
    reshape main_v16 main_v17 rfl shapeCasts_S16384x1_S16384,
    unary main_v4 main_v18 ((extractStridedSlice S16384x1 ![0, 1] · slices_S16384x3_S16384x1_0_1) : (⟨S16384x3, .i32⟩ : BufTy).Contents (Elt F) → (⟨S16384x1, .i32⟩ : BufTy).Contents (Elt F)),
    reshape main_v18 main_v19 rfl shapeCasts_S16384x1_S16384,
    unary main_v4 main_v20 ((extractStridedSlice S16384x1 ![0, 2] · slices_S16384x3_S16384x1_0_2) : (⟨S16384x3, .i32⟩ : BufTy).Contents (Elt F) → (⟨S16384x1, .i32⟩ : BufTy).Contents (Elt F)),
    reshape main_v20 main_v21 rfl shapeCasts_S16384x1_S16384,
    nullary main_c_1 (constantI S_ 32 0#32),
    unary main_c_1 main_v22 (broadcastInDim S16384 ![] bcast_S_S16384 : (⟨S_, .i32⟩ : BufTy).Contents (Elt F) → (⟨S16384, .i32⟩ : BufTy).Contents (Elt F)),
    binary main_v17 main_v22 main_v23 (cmpi .slt : (⟨S16384, .i32⟩ : BufTy).Contents (Elt F) → (⟨S16384, .i32⟩ : BufTy).Contents (Elt F) → (⟨S16384, .i1⟩ : BufTy).Contents (Elt F)),
    nullary main_c_2 (constantI S_ 32 100#32),
    unary main_c_2 main_v24 (broadcastInDim S16384 ![] bcast_S_S16384 : (⟨S_, .i32⟩ : BufTy).Contents (Elt F) → (⟨S16384, .i32⟩ : BufTy).Contents (Elt F)),
    binary main_v17 main_v24 main_v25 (addi : (⟨S16384, .i32⟩ : BufTy).Contents (Elt F) → (⟨S16384, .i32⟩ : BufTy).Contents (Elt F) → (⟨S16384, .i32⟩ : BufTy).Contents (Elt F)),
    ternary main_v23 main_v25 main_v17 main_v26 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_3 (constantI S_ 32 0#32),
    unary main_c_3 main_v27 (broadcastInDim S16384 ![] bcast_S_S16384 : (⟨S_, .i32⟩ : BufTy).Contents (Elt F) → (⟨S16384, .i32⟩ : BufTy).Contents (Elt F)),
    binary main_v19 main_v27 main_v28 (cmpi .slt : (⟨S16384, .i32⟩ : BufTy).Contents (Elt F) → (⟨S16384, .i32⟩ : BufTy).Contents (Elt F) → (⟨S16384, .i1⟩ : BufTy).Contents (Elt F)),
    nullary main_c_4 (constantI S_ 32 88#32),
    unary main_c_4 main_v29 (broadcastInDim S16384 ![] bcast_S_S16384 : (⟨S_, .i32⟩ : BufTy).Contents (Elt F) → (⟨S16384, .i32⟩ : BufTy).Contents (Elt F)),
    binary main_v19 main_v29 main_v30 (addi : (⟨S16384, .i32⟩ : BufTy).Contents (Elt F) → (⟨S16384, .i32⟩ : BufTy).Contents (Elt F) → (⟨S16384, .i32⟩ : BufTy).Contents (Elt F)),
    ternary main_v28 main_v30 main_v19 main_v31 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_5 (constantI S_ 32 0#32),
    unary main_c_5 main_v32 (broadcastInDim S16384 ![] bcast_S_S16384 : (⟨S_, .i32⟩ : BufTy).Contents (Elt F) → (⟨S16384, .i32⟩ : BufTy).Contents (Elt F)),
    binary main_v21 main_v32 main_v33 (cmpi .slt : (⟨S16384, .i32⟩ : BufTy).Contents (Elt F) → (⟨S16384, .i32⟩ : BufTy).Contents (Elt F) → (⟨S16384, .i1⟩ : BufTy).Contents (Elt F)),
    nullary main_c_6 (constantI S_ 32 80#32),
    unary main_c_6 main_v34 (broadcastInDim S16384 ![] bcast_S_S16384 : (⟨S_, .i32⟩ : BufTy).Contents (Elt F) → (⟨S16384, .i32⟩ : BufTy).Contents (Elt F)),
    binary main_v21 main_v34 main_v35 (addi : (⟨S16384, .i32⟩ : BufTy).Contents (Elt F) → (⟨S16384, .i32⟩ : BufTy).Contents (Elt F) → (⟨S16384, .i32⟩ : BufTy).Contents (Elt F)),
    ternary main_v33 main_v35 main_v21 main_v36 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v26 main_v37 (broadcastInDim S16384x1 ![0] bcast_S16384_S16384x1_0 : (⟨S16384, .i32⟩ : BufTy).Contents (Elt F) → (⟨S16384x1, .i32⟩ : BufTy).Contents (Elt F)),
    unary main_v31 main_v38 (broadcastInDim S16384x1 ![0] bcast_S16384_S16384x1_0 : (⟨S16384, .i32⟩ : BufTy).Contents (Elt F) → (⟨S16384x1, .i32⟩ : BufTy).Contents (Elt F)),
    unary main_v36 main_v39 (broadcastInDim S16384x1 ![0] bcast_S16384_S16384x1_0 : (⟨S16384, .i32⟩ : BufTy).Contents (Elt F) → (⟨S16384x1, .i32⟩ : BufTy).Contents (Elt F)),
    nary ![main_v37, main_v38, main_v39] main_v40 (fun u => concatenate S16384x3 1 [⟨S16384x1, u 0⟩, ⟨S16384x1, u 1⟩, ⟨S16384x1, u 2⟩] concatenates_S16384x1_S16384x1_S16384x1_S16384x3_d1),
    binary main_v15 main_v40 main_v41 ((fun x i => Host.gather gather_S64x100x88x80_S16384x3_S64x16384_0_123_n_n_123_1_64111 x i) : (⟨S64x100x88x80, .f32⟩ : BufTy).Contents (Elt F) → (⟨S16384x3, .i32⟩ : BufTy).Contents (Elt F) → (⟨S64x16384, .f32⟩ : BufTy).Contents (Elt F)),
    unary main_v41 main_v42 ((transpose S16384x64 [1, 0] · transposes_S64x16384_S16384x64_1_0) : (⟨S64x16384, .f32⟩ : BufTy).Contents (Elt F) → (⟨S16384x64, .f32⟩ : BufTy).Contents (Elt F)),
    reshape main_arg1 main_v43 rfl shapeCasts_S1x64x100x88x80_S64x100x88x80,
    unary main_v9 main_v44 ((extractStridedSlice S16384x1 ![0, 0] · slices_S16384x3_S16384x1_0_0) : (⟨S16384x3, .i32⟩ : BufTy).Contents (Elt F) → (⟨S16384x1, .i32⟩ : BufTy).Contents (Elt F)),
    reshape main_v44 main_v45 rfl shapeCasts_S16384x1_S16384,
    unary main_v9 main_v46 ((extractStridedSlice S16384x1 ![0, 1] · slices_S16384x3_S16384x1_0_1) : (⟨S16384x3, .i32⟩ : BufTy).Contents (Elt F) → (⟨S16384x1, .i32⟩ : BufTy).Contents (Elt F)),
    reshape main_v46 main_v47 rfl shapeCasts_S16384x1_S16384,
    unary main_v9 main_v48 ((extractStridedSlice S16384x1 ![0, 2] · slices_S16384x3_S16384x1_0_2) : (⟨S16384x3, .i32⟩ : BufTy).Contents (Elt F) → (⟨S16384x1, .i32⟩ : BufTy).Contents (Elt F)),
    reshape main_v48 main_v49 rfl shapeCasts_S16384x1_S16384,
    nullary main_c_7 (constantI S_ 32 0#32),
    unary main_c_7 main_v50 (broadcastInDim S16384 ![] bcast_S_S16384 : (⟨S_, .i32⟩ : BufTy).Contents (Elt F) → (⟨S16384, .i32⟩ : BufTy).Contents (Elt F)) ]

/-- The operations of the second printed piece (the rest of the second gather, the third, the first difference). -/
abbrev w1 : List (HloOp τ sig (Elt F)) :=
  [ binary main_v45 main_v50 main_v51 (cmpi .slt : (⟨S16384, .i32⟩ : BufTy).Contents (Elt F) → (⟨S16384, .i32⟩ : BufTy).Contents (Elt F) → (⟨S16384, .i1⟩ : BufTy).Contents (Elt F)),
    nullary main_c_8 (constantI S_ 32 100#32),
    unary main_c_8 main_v52 (broadcastInDim S16384 ![] bcast_S_S16384 : (⟨S_, .i32⟩ : BufTy).Contents (Elt F) → (⟨S16384, .i32⟩ : BufTy).Contents (Elt F)),
    binary main_v45 main_v52 main_v53 (addi : (⟨S16384, .i32⟩ : BufTy).Contents (Elt F) → (⟨S16384, .i32⟩ : BufTy).Contents (Elt F) → (⟨S16384, .i32⟩ : BufTy).Contents (Elt F)),
    ternary main_v51 main_v53 main_v45 main_v54 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_9 (constantI S_ 32 0#32),
    unary main_c_9 main_v55 (broadcastInDim S16384 ![] bcast_S_S16384 : (⟨S_, .i32⟩ : BufTy).Contents (Elt F) → (⟨S16384, .i32⟩ : BufTy).Contents (Elt F)),
    binary main_v47 main_v55 main_v56 (cmpi .slt : (⟨S16384, .i32⟩ : BufTy).Contents (Elt F) → (⟨S16384, .i32⟩ : BufTy).Contents (Elt F) → (⟨S16384, .i1⟩ : BufTy).Contents (Elt F)),
    nullary main_c_10 (constantI S_ 32 88#32),
    unary main_c_10 main_v57 (broadcastInDim S16384 ![] bcast_S_S16384 : (⟨S_, .i32⟩ : BufTy).Contents (Elt F) → (⟨S16384, .i32⟩ : BufTy).Contents (Elt F)),
    binary main_v47 main_v57 main_v58 (addi : (⟨S16384, .i32⟩ : BufTy).Contents (Elt F) → (⟨S16384, .i32⟩ : BufTy).Contents (Elt F) → (⟨S16384, .i32⟩ : BufTy).Contents (Elt F)),
    ternary main_v56 main_v58 main_v47 main_v59 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_11 (constantI S_ 32 0#32),
    unary main_c_11 main_v60 (broadcastInDim S16384 ![] bcast_S_S16384 : (⟨S_, .i32⟩ : BufTy).Contents (Elt F) → (⟨S16384, .i32⟩ : BufTy).Contents (Elt F)),
    binary main_v49 main_v60 main_v61 (cmpi .slt : (⟨S16384, .i32⟩ : BufTy).Contents (Elt F) → (⟨S16384, .i32⟩ : BufTy).Contents (Elt F) → (⟨S16384, .i1⟩ : BufTy).Contents (Elt F)),
    nullary main_c_12 (constantI S_ 32 80#32),
    unary main_c_12 main_v62 (broadcastInDim S16384 ![] bcast_S_S16384 : (⟨S_, .i32⟩ : BufTy).Contents (Elt F) → (⟨S16384, .i32⟩ : BufTy).Contents (Elt F)),
    binary main_v49 main_v62 main_v63 (addi : (⟨S16384, .i32⟩ : BufTy).Contents (Elt F) → (⟨S16384, .i32⟩ : BufTy).Contents (Elt F) → (⟨S16384, .i32⟩ : BufTy).Contents (Elt F)),
    ternary main_v61 main_v63 main_v49 main_v64 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v54 main_v65 (broadcastInDim S16384x1 ![0] bcast_S16384_S16384x1_0 : (⟨S16384, .i32⟩ : BufTy).Contents (Elt F) → (⟨S16384x1, .i32⟩ : BufTy).Contents (Elt F)),
    unary main_v59 main_v66 (broadcastInDim S16384x1 ![0] bcast_S16384_S16384x1_0 : (⟨S16384, .i32⟩ : BufTy).Contents (Elt F) → (⟨S16384x1, .i32⟩ : BufTy).Contents (Elt F)),
    unary main_v64 main_v67 (broadcastInDim S16384x1 ![0] bcast_S16384_S16384x1_0 : (⟨S16384, .i32⟩ : BufTy).Contents (Elt F) → (⟨S16384x1, .i32⟩ : BufTy).Contents (Elt F)),
    nary ![main_v65, main_v66, main_v67] main_v68 (fun u => concatenate S16384x3 1 [⟨S16384x1, u 0⟩, ⟨S16384x1, u 1⟩, ⟨S16384x1, u 2⟩] concatenates_S16384x1_S16384x1_S16384x1_S16384x3_d1),
    binary main_v43 main_v68 main_v69 ((fun x i => Host.gather gather_S64x100x88x80_S16384x3_S64x16384_0_123_n_n_123_1_64111 x i) : (⟨S64x100x88x80, .f32⟩ : BufTy).Contents (Elt F) → (⟨S16384x3, .i32⟩ : BufTy).Contents (Elt F) → (⟨S64x16384, .f32⟩ : BufTy).Contents (Elt F)),
    unary main_v69 main_v70 ((transpose S16384x64 [1, 0] · transposes_S64x16384_S16384x64_1_0) : (⟨S64x16384, .f32⟩ : BufTy).Contents (Elt F) → (⟨S16384x64, .f32⟩ : BufTy).Contents (Elt F)),
    reshape main_arg1 main_v71 rfl shapeCasts_S1x64x100x88x80_S64x100x88x80,
    unary main_v14 main_v72 ((extractStridedSlice S16384x1 ![0, 0] · slices_S16384x3_S16384x1_0_0) : (⟨S16384x3, .i32⟩ : BufTy).Contents (Elt F) → (⟨S16384x1, .i32⟩ : BufTy).Contents (Elt F)),
    reshape main_v72 main_v73 rfl shapeCasts_S16384x1_S16384,
    unary main_v14 main_v74 ((extractStridedSlice S16384x1 ![0, 1] · slices_S16384x3_S16384x1_0_1) : (⟨S16384x3, .i32⟩ : BufTy).Contents (Elt F) → (⟨S16384x1, .i32⟩ : BufTy).Contents (Elt F)),
    reshape main_v74 main_v75 rfl shapeCasts_S16384x1_S16384,
    unary main_v14 main_v76 ((extractStridedSlice S16384x1 ![0, 2] · slices_S16384x3_S16384x1_0_2) : (⟨S16384x3, .i32⟩ : BufTy).Contents (Elt F) → (⟨S16384x1, .i32⟩ : BufTy).Contents (Elt F)),
    reshape main_v76 main_v77 rfl shapeCasts_S16384x1_S16384,
    nullary main_c_13 (constantI S_ 32 0#32),
    unary main_c_13 main_v78 (broadcastInDim S16384 ![] bcast_S_S16384 : (⟨S_, .i32⟩ : BufTy).Contents (Elt F) → (⟨S16384, .i32⟩ : BufTy).Contents (Elt F)),
    binary main_v73 main_v78 main_v79 (cmpi .slt : (⟨S16384, .i32⟩ : BufTy).Contents (Elt F) → (⟨S16384, .i32⟩ : BufTy).Contents (Elt F) → (⟨S16384, .i1⟩ : BufTy).Contents (Elt F)),
    nullary main_c_14 (constantI S_ 32 100#32),
    unary main_c_14 main_v80 (broadcastInDim S16384 ![] bcast_S_S16384 : (⟨S_, .i32⟩ : BufTy).Contents (Elt F) → (⟨S16384, .i32⟩ : BufTy).Contents (Elt F)),
    binary main_v73 main_v80 main_v81 (addi : (⟨S16384, .i32⟩ : BufTy).Contents (Elt F) → (⟨S16384, .i32⟩ : BufTy).Contents (Elt F) → (⟨S16384, .i32⟩ : BufTy).Contents (Elt F)),
    ternary main_v79 main_v81 main_v73 main_v82 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_15 (constantI S_ 32 0#32),
    unary main_c_15 main_v83 (broadcastInDim S16384 ![] bcast_S_S16384 : (⟨S_, .i32⟩ : BufTy).Contents (Elt F) → (⟨S16384, .i32⟩ : BufTy).Contents (Elt F)),
    binary main_v75 main_v83 main_v84 (cmpi .slt : (⟨S16384, .i32⟩ : BufTy).Contents (Elt F) → (⟨S16384, .i32⟩ : BufTy).Contents (Elt F) → (⟨S16384, .i1⟩ : BufTy).Contents (Elt F)),
    nullary main_c_16 (constantI S_ 32 88#32),
    unary main_c_16 main_v85 (broadcastInDim S16384 ![] bcast_S_S16384 : (⟨S_, .i32⟩ : BufTy).Contents (Elt F) → (⟨S16384, .i32⟩ : BufTy).Contents (Elt F)),
    binary main_v75 main_v85 main_v86 (addi : (⟨S16384, .i32⟩ : BufTy).Contents (Elt F) → (⟨S16384, .i32⟩ : BufTy).Contents (Elt F) → (⟨S16384, .i32⟩ : BufTy).Contents (Elt F)),
    ternary main_v84 main_v86 main_v75 main_v87 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_17 (constantI S_ 32 0#32),
    unary main_c_17 main_v88 (broadcastInDim S16384 ![] bcast_S_S16384 : (⟨S_, .i32⟩ : BufTy).Contents (Elt F) → (⟨S16384, .i32⟩ : BufTy).Contents (Elt F)),
    binary main_v77 main_v88 main_v89 (cmpi .slt : (⟨S16384, .i32⟩ : BufTy).Contents (Elt F) → (⟨S16384, .i32⟩ : BufTy).Contents (Elt F) → (⟨S16384, .i1⟩ : BufTy).Contents (Elt F)),
    nullary main_c_18 (constantI S_ 32 80#32),
    unary main_c_18 main_v90 (broadcastInDim S16384 ![] bcast_S_S16384 : (⟨S_, .i32⟩ : BufTy).Contents (Elt F) → (⟨S16384, .i32⟩ : BufTy).Contents (Elt F)),
    binary main_v77 main_v90 main_v91 (addi : (⟨S16384, .i32⟩ : BufTy).Contents (Elt F) → (⟨S16384, .i32⟩ : BufTy).Contents (Elt F) → (⟨S16384, .i32⟩ : BufTy).Contents (Elt F)),
    ternary main_v89 main_v91 main_v77 main_v92 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v82 main_v93 (broadcastInDim S16384x1 ![0] bcast_S16384_S16384x1_0 : (⟨S16384, .i32⟩ : BufTy).Contents (Elt F) → (⟨S16384x1, .i32⟩ : BufTy).Contents (Elt F)),
    unary main_v87 main_v94 (broadcastInDim S16384x1 ![0] bcast_S16384_S16384x1_0 : (⟨S16384, .i32⟩ : BufTy).Contents (Elt F) → (⟨S16384x1, .i32⟩ : BufTy).Contents (Elt F)),
    unary main_v92 main_v95 (broadcastInDim S16384x1 ![0] bcast_S16384_S16384x1_0 : (⟨S16384, .i32⟩ : BufTy).Contents (Elt F) → (⟨S16384x1, .i32⟩ : BufTy).Contents (Elt F)),
    nary ![main_v93, main_v94, main_v95] main_v96 (fun u => concatenate S16384x3 1 [⟨S16384x1, u 0⟩, ⟨S16384x1, u 1⟩, ⟨S16384x1, u 2⟩] concatenates_S16384x1_S16384x1_S16384x1_S16384x3_d1),
    binary main_v71 main_v96 main_v97 ((fun x i => Host.gather gather_S64x100x88x80_S16384x3_S64x16384_0_123_n_n_123_1_64111 x i) : (⟨S64x100x88x80, .f32⟩ : BufTy).Contents (Elt F) → (⟨S16384x3, .i32⟩ : BufTy).Contents (Elt F) → (⟨S64x16384, .f32⟩ : BufTy).Contents (Elt F)),
    unary main_v97 main_v98 ((transpose S16384x64 [1, 0] · transposes_S64x16384_S16384x64_1_0) : (⟨S64x16384, .f32⟩ : BufTy).Contents (Elt F) → (⟨S16384x64, .f32⟩ : BufTy).Contents (Elt F)),
    binary main_v42 main_v70 main_v99 (subf : (⟨S16384x64, .f32⟩ : BufTy).Contents (Elt F) → (⟨S16384x64, .f32⟩ : BufTy).Contents (Elt F) → (⟨S16384x64, .f32⟩ : BufTy).Contents (Elt F)) ]

/-- The operations of the third printed piece (the squared distances, the two sums, the scaling). -/
abbrev w2 : List (HloOp τ sig (Elt F)) :=
  [ binary main_v99 main_v99 main_v100 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v100 main_cst main_v101 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    binary main_v42 main_v98 main_v102 (subf : (⟨S16384x64, .f32⟩ : BufTy).Contents (Elt F) → (⟨S16384x64, .f32⟩ : BufTy).Contents (Elt F) → (⟨S16384x64, .f32⟩ : BufTy).Contents (Elt F)),
    binary main_v102 main_v102 main_v103 (mulf : (⟨S16384x64, .f32⟩ : BufTy).Contents (Elt F) → (⟨S16384x64, .f32⟩ : BufTy).Contents (Elt F) → (⟨S16384x64, .f32⟩ : BufTy).Contents (Elt F)),
    nullary main_cst_19 (constant S_ .f32 0x00000000#32),
    binary main_v103 main_cst_19 main_v104 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    binary main_v101 main_v101 main_v105 (mulf : (⟨S16384, .f32⟩ : BufTy).Contents (Elt F) → (⟨S16384, .f32⟩ : BufTy).Contents (Elt F) → (⟨S16384, .f32⟩ : BufTy).Contents (Elt F)),
    nullary main_cst_20 (constant S_ .f32 0x00000000#32),
    binary main_v105 main_cst_20 main_v106 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    unary main_v104 main_v107 (Host.sqrt : (⟨S16384, .f32⟩ : BufTy).Contents (Elt F) → (⟨S16384, .f32⟩ : BufTy).Contents (Elt F)),
    nullary main_cst_21 (constant S_ .f32 0x3F800000#32),
    unary main_cst_21 main_v108 (broadcastInDim S16384 ![] bcast_S_S16384 : (⟨S_, .f32⟩ : BufTy).Contents (Elt F) → (⟨S16384, .f32⟩ : BufTy).Contents (Elt F)),
    binary main_v108 main_v107 main_v109 (subf : (⟨S16384, .f32⟩ : BufTy).Contents (Elt F) → (⟨S16384, .f32⟩ : BufTy).Contents (Elt F) → (⟨S16384, .f32⟩ : BufTy).Contents (Elt F)),
    nullary main_cst_22 (constant S_ .f32 0x00000000#32),
    unary main_cst_22 main_v110 (broadcastInDim S16384 ![] bcast_S_S16384 : (⟨S_, .f32⟩ : BufTy).Contents (Elt F) → (⟨S16384, .f32⟩ : BufTy).Contents (Elt F)),
    binary main_v110 main_v109 main_v111 (maximumf : (⟨S16384, .f32⟩ : BufTy).Contents (Elt F) → (⟨S16384, .f32⟩ : BufTy).Contents (Elt F) → (⟨S16384, .f32⟩ : BufTy).Contents (Elt F)),
    binary main_v111 main_v111 main_v112 (mulf : (⟨S16384, .f32⟩ : BufTy).Contents (Elt F) → (⟨S16384, .f32⟩ : BufTy).Contents (Elt F) → (⟨S16384, .f32⟩ : BufTy).Contents (Elt F)),
    nullary main_cst_23 (constant S_ .f32 0x00000000#32),
    binary main_v112 main_cst_23 main_v113 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    binary main_v106 main_v113 main_v114 (addf : (⟨S_, .f32⟩ : BufTy).Contents (Elt F) → (⟨S_, .f32⟩ : BufTy).Contents (Elt F) → (⟨S_, .f32⟩ : BufTy).Contents (Elt F)),
    nullary main_cst_24 (constant S_ .f32 0x47800000#32),
    binary main_v114 main_cst_24 main_v115 (Host.divf : (⟨S_, .f32⟩ : BufTy).Contents (Elt F) → (⟨S_, .f32⟩ : BufTy).Contents (Elt F) → (⟨S_, .f32⟩ : BufTy).Contents (Elt F)),
    nullary main_cst_25 (constant S_ .f32 0x49742400#32),
    binary main_v115 main_cst_25 main_v116 (mulf : (⟨S_, .f32⟩ : BufTy).Contents (Elt F) → (⟨S_, .f32⟩ : BufTy).Contents (Elt F) → (⟨S_, .f32⟩ : BufTy).Contents (Elt F)) ]

/-- All 211 operations, in order. -/
abbrev opsAll : List (HloOp τ sig (Elt F)) :=
  [ nullary main_c (fun i => lit0 (S3.rowMajor i)),
    nullary main_c_0 (fun i => lit1 (S3.rowMajor i)),
    unary main_c main_v0 (broadcastInDim S1x3 ![1] bcast_S3_S1x3_1 : (⟨S3, .i32⟩ : BufTy).Contents (Elt F) → (⟨S1x3, .i32⟩ : BufTy).Contents (Elt F)),
    unary main_v0 main_v1 (broadcastInDim S16384x3 ![0, 1] bcast_S1x3_S16384x3_0_1 : (⟨S1x3, .i32⟩ : BufTy).Contents (Elt F) → (⟨S16384x3, .i32⟩ : BufTy).Contents (Elt F)),
    binary main_arg2 main_v1 main_v2 (subi : (⟨S16384x3, .i32⟩ : BufTy).Contents (Elt F) → (⟨S16384x3, .i32⟩ : BufTy).Contents (Elt F) → (⟨S16384x3, .i32⟩ : BufTy).Contents (Elt F)),
    unary main_c_0 main_v3 (broadcastInDim S1x3 ![1] bcast_S3_S1x3_1 : (⟨S3, .i32⟩ : BufTy).Contents (Elt F) → (⟨S1x3, .i32⟩ : BufTy).Contents (Elt F)),
    TRef.nullary main_call0.c (constantI S_ 32 0#32),
    TRef.unary main_call0.c main_call0.v0 (broadcastInDim S1x3 ![] bcast_S_S1x3),
    TRef.binary (.of main_v3) main_call0.v0 main_call0.v1 (cmpi .eq),
    TRef.nullary main_call0.c_0 (constantI S_ 32 1#32),
    TRef.unary main_call0.c_0 main_call0.v2 (broadcastInDim S1x3 ![] bcast_S_S1x3),
    TRef.ternary main_call0.v1 main_call0.v2 (.of main_v3) main_call0.call0.v0 select,
    TRef.unary main_call0.call0.v0 main_call0.v4 (broadcastInDim S16384x3 ![0, 1] bcast_S1x3_S16384x3_0_1),
    TRef.binary (.of main_v2) main_call0.v4 main_call0.v5 Host.remsi,
    TRef.nullary main_call0.c_1 (constantI S_ 32 0#32),
    TRef.unary main_call0.c_1 main_call0.v6 (broadcastInDim S16384x3 ![] bcast_S_S16384x3),
    TRef.binary main_call0.v5 main_call0.v6 main_call0.v7 (cmpi .ne),
    TRef.nullary main_call0.c_2 (constantI S_ 32 0#32),
    TRef.unary main_call0.c_2 main_call0.v8 (broadcastInDim S16384x3 ![] bcast_S_S16384x3),
    TRef.binary main_call0.v5 main_call0.v8 main_call0.v9 (cmpi .slt),
    TRef.nullary main_call0.c_3 (constantI S_ 32 0#32),
    TRef.unary main_call0.c_3 main_call0.v10 (broadcastInDim S1x3 ![] bcast_S_S1x3),
    TRef.binary main_call0.call0.v0 main_call0.v10 main_call0.v11 (cmpi .slt),
    TRef.unary main_call0.v11 main_call0.v12 (broadcastInDim S16384x3 ![0, 1] bcast_S1x3_S16384x3_0_1),
    TRef.binary main_call0.v9 main_call0.v12 main_call0.v13 (cmpi .ne),
    TRef.binary main_call0.v13 main_call0.v7 main_call0.v14 andi,
    TRef.unary main_call0.call0.v0 main_call0.v15 (broadcastInDim S16384x3 ![0, 1] bcast_S1x3_S16384x3_0_1),
    TRef.binary main_call0.v5 main_call0.v15 main_call0.v16 addi,
    TRef.ternary main_call0.v14 main_call0.v16 main_call0.v5 main_call0.v17 select,
    unary main_c main_v5 (broadcastInDim S1x3 ![1] bcast_S3_S1x3_1 : (⟨S3, .i32⟩ : BufTy).Contents (Elt F) → (⟨S1x3, .i32⟩ : BufTy).Contents (Elt F)),
    unary main_v5 main_v6 (broadcastInDim S16384x3 ![0, 1] bcast_S1x3_S16384x3_0_1 : (⟨S1x3, .i32⟩ : BufTy).Contents (Elt F) → (⟨S16384x3, .i32⟩ : BufTy).Contents (Elt F)),
    binary main_arg3 main_v6 main_v7 (subi : (⟨S16384x3, .i32⟩ : BufTy).Contents (Elt F) → (⟨S16384x3, .i32⟩ : BufTy).Contents (Elt F) → (⟨S16384x3, .i32⟩ : BufTy).Contents (Elt F)),
    unary main_c_0 main_v8 (broadcastInDim S1x3 ![1] bcast_S3_S1x3_1 : (⟨S3, .i32⟩ : BufTy).Contents (Elt F) → (⟨S1x3, .i32⟩ : BufTy).Contents (Elt F)),
    TRef.nullary main_call1.c (constantI S_ 32 0#32),
    TRef.unary main_call1.c main_call1.v0 (broadcastInDim S1x3 ![] bcast_S_S1x3),
    TRef.binary (.of main_v8) main_call1.v0 main_call1.v1 (cmpi .eq),
    TRef.nullary main_call1.c_0 (constantI S_ 32 1#32),
    TRef.unary main_call1.c_0 main_call1.v2 (broadcastInDim S1x3 ![] bcast_S_S1x3),
    TRef.ternary main_call1.v1 main_call1.v2 (.of main_v8) main_call1.call0.v0 select,
    TRef.unary main_call1.call0.v0 main_call1.v4 (broadcastInDim S16384x3 ![0, 1] bcast_S1x3_S16384x3_0_1),
    TRef.binary (.of main_v7) main_call1.v4 main_call1.v5 Host.remsi,
    TRef.nullary main_call1.c_1 (constantI S_ 32 0#32),
    TRef.unary main_call1.c_1 main_call1.v6 (broadcastInDim S16384x3 ![] bcast_S_S16384x3),
    TRef.binary main_call1.v5 main_call1.v6 main_call1.v7 (cmpi .ne),
    TRef.nullary main_call1.c_2 (constantI S_ 32 0#32),
    TRef.unary main_call1.c_2 main_call1.v8 (broadcastInDim S16384x3 ![] bcast_S_S16384x3),
    TRef.binary main_call1.v5 main_call1.v8 main_call1.v9 (cmpi .slt),
    TRef.nullary main_call1.c_3 (constantI S_ 32 0#32),
    TRef.unary main_call1.c_3 main_call1.v10 (broadcastInDim S1x3 ![] bcast_S_S1x3),
    TRef.binary main_call1.call0.v0 main_call1.v10 main_call1.v11 (cmpi .slt),
    TRef.unary main_call1.v11 main_call1.v12 (broadcastInDim S16384x3 ![0, 1] bcast_S1x3_S16384x3_0_1),
    TRef.binary main_call1.v9 main_call1.v12 main_call1.v13 (cmpi .ne),
    TRef.binary main_call1.v13 main_call1.v7 main_call1.v14 andi,
    TRef.unary main_call1.call0.v0 main_call1.v15 (broadcastInDim S16384x3 ![0, 1] bcast_S1x3_S16384x3_0_1),
    TRef.binary main_call1.v5 main_call1.v15 main_call1.v16 addi,
    TRef.ternary main_call1.v14 main_call1.v16 main_call1.v5 main_call1.v17 select,
    unary main_c main_v10 (broadcastInDim S1x3 ![1] bcast_S3_S1x3_1 : (⟨S3, .i32⟩ : BufTy).Contents (Elt F) → (⟨S1x3, .i32⟩ : BufTy).Contents (Elt F)),
    unary main_v10 main_v11 (broadcastInDim S16384x3 ![0, 1] bcast_S1x3_S16384x3_0_1 : (⟨S1x3, .i32⟩ : BufTy).Contents (Elt F) → (⟨S16384x3, .i32⟩ : BufTy).Contents (Elt F)),
    binary main_arg4 main_v11 main_v12 (subi : (⟨S16384x3, .i32⟩ : BufTy).Contents (Elt F) → (⟨S16384x3, .i32⟩ : BufTy).Contents (Elt F) → (⟨S16384x3, .i32⟩ : BufTy).Contents (Elt F)),
    unary main_c_0 main_v13 (broadcastInDim S1x3 ![1] bcast_S3_S1x3_1 : (⟨S3, .i32⟩ : BufTy).Contents (Elt F) → (⟨S1x3, .i32⟩ : BufTy).Contents (Elt F)),
    TRef.nullary main_call2.c (constantI S_ 32 0#32),
    TRef.unary main_call2.c main_call2.v0 (broadcastInDim S1x3 ![] bcast_S_S1x3),
    TRef.binary (.of main_v13) main_call2.v0 main_call2.v1 (cmpi .eq),
    TRef.nullary main_call2.c_0 (constantI S_ 32 1#32),
    TRef.unary main_call2.c_0 main_call2.v2 (broadcastInDim S1x3 ![] bcast_S_S1x3),
    TRef.ternary main_call2.v1 main_call2.v2 (.of main_v13) main_call2.call0.v0 select,
    TRef.unary main_call2.call0.v0 main_call2.v4 (broadcastInDim S16384x3 ![0, 1] bcast_S1x3_S16384x3_0_1),
    TRef.binary (.of main_v12) main_call2.v4 main_call2.v5 Host.remsi,
    TRef.nullary main_call2.c_1 (constantI S_ 32 0#32),
    TRef.unary main_call2.c_1 main_call2.v6 (broadcastInDim S16384x3 ![] bcast_S_S16384x3),
    TRef.binary main_call2.v5 main_call2.v6 main_call2.v7 (cmpi .ne),
    TRef.nullary main_call2.c_2 (constantI S_ 32 0#32),
    TRef.unary main_call2.c_2 main_call2.v8 (broadcastInDim S16384x3 ![] bcast_S_S16384x3),
    TRef.binary main_call2.v5 main_call2.v8 main_call2.v9 (cmpi .slt),
    TRef.nullary main_call2.c_3 (constantI S_ 32 0#32),
    TRef.unary main_call2.c_3 main_call2.v10 (broadcastInDim S1x3 ![] bcast_S_S1x3),
    TRef.binary main_call2.call0.v0 main_call2.v10 main_call2.v11 (cmpi .slt),
    TRef.unary main_call2.v11 main_call2.v12 (broadcastInDim S16384x3 ![0, 1] bcast_S1x3_S16384x3_0_1),
    TRef.binary main_call2.v9 main_call2.v12 main_call2.v13 (cmpi .ne),
    TRef.binary main_call2.v13 main_call2.v7 main_call2.v14 andi,
    TRef.unary main_call2.call0.v0 main_call2.v15 (broadcastInDim S16384x3 ![0, 1] bcast_S1x3_S16384x3_0_1),
    TRef.binary main_call2.v5 main_call2.v15 main_call2.v16 addi,
    TRef.ternary main_call2.v14 main_call2.v16 main_call2.v5 main_call2.v17 select,
    reshape main_arg0 main_v15 rfl shapeCasts_S1x64x100x88x80_S64x100x88x80,
    unary main_v4 main_v16 ((extractStridedSlice S16384x1 ![0, 0] · slices_S16384x3_S16384x1_0_0) : (⟨S16384x3, .i32⟩ : BufTy).Contents (Elt F) → (⟨S16384x1, .i32⟩ : BufTy).Contents (Elt F)),
    reshape main_v16 main_v17 rfl shapeCasts_S16384x1_S16384,
    unary main_v4 main_v18 ((extractStridedSlice S16384x1 ![0, 1] · slices_S16384x3_S16384x1_0_1) : (⟨S16384x3, .i32⟩ : BufTy).Contents (Elt F) → (⟨S16384x1, .i32⟩ : BufTy).Contents (Elt F)),
    reshape main_v18 main_v19 rfl shapeCasts_S16384x1_S16384,
    unary main_v4 main_v20 ((extractStridedSlice S16384x1 ![0, 2] · slices_S16384x3_S16384x1_0_2) : (⟨S16384x3, .i32⟩ : BufTy).Contents (Elt F) → (⟨S16384x1, .i32⟩ : BufTy).Contents (Elt F)),
    reshape main_v20 main_v21 rfl shapeCasts_S16384x1_S16384,
    nullary main_c_1 (constantI S_ 32 0#32),
    unary main_c_1 main_v22 (broadcastInDim S16384 ![] bcast_S_S16384 : (⟨S_, .i32⟩ : BufTy).Contents (Elt F) → (⟨S16384, .i32⟩ : BufTy).Contents (Elt F)),
    binary main_v17 main_v22 main_v23 (cmpi .slt : (⟨S16384, .i32⟩ : BufTy).Contents (Elt F) → (⟨S16384, .i32⟩ : BufTy).Contents (Elt F) → (⟨S16384, .i1⟩ : BufTy).Contents (Elt F)),
    nullary main_c_2 (constantI S_ 32 100#32),
    unary main_c_2 main_v24 (broadcastInDim S16384 ![] bcast_S_S16384 : (⟨S_, .i32⟩ : BufTy).Contents (Elt F) → (⟨S16384, .i32⟩ : BufTy).Contents (Elt F)),
    binary main_v17 main_v24 main_v25 (addi : (⟨S16384, .i32⟩ : BufTy).Contents (Elt F) → (⟨S16384, .i32⟩ : BufTy).Contents (Elt F) → (⟨S16384, .i32⟩ : BufTy).Contents (Elt F)),
    ternary main_v23 main_v25 main_v17 main_v26 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_3 (constantI S_ 32 0#32),
    unary main_c_3 main_v27 (broadcastInDim S16384 ![] bcast_S_S16384 : (⟨S_, .i32⟩ : BufTy).Contents (Elt F) → (⟨S16384, .i32⟩ : BufTy).Contents (Elt F)),
    binary main_v19 main_v27 main_v28 (cmpi .slt : (⟨S16384, .i32⟩ : BufTy).Contents (Elt F) → (⟨S16384, .i32⟩ : BufTy).Contents (Elt F) → (⟨S16384, .i1⟩ : BufTy).Contents (Elt F)),
    nullary main_c_4 (constantI S_ 32 88#32),
    unary main_c_4 main_v29 (broadcastInDim S16384 ![] bcast_S_S16384 : (⟨S_, .i32⟩ : BufTy).Contents (Elt F) → (⟨S16384, .i32⟩ : BufTy).Contents (Elt F)),
    binary main_v19 main_v29 main_v30 (addi : (⟨S16384, .i32⟩ : BufTy).Contents (Elt F) → (⟨S16384, .i32⟩ : BufTy).Contents (Elt F) → (⟨S16384, .i32⟩ : BufTy).Contents (Elt F)),
    ternary main_v28 main_v30 main_v19 main_v31 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_5 (constantI S_ 32 0#32),
    unary main_c_5 main_v32 (broadcastInDim S16384 ![] bcast_S_S16384 : (⟨S_, .i32⟩ : BufTy).Contents (Elt F) → (⟨S16384, .i32⟩ : BufTy).Contents (Elt F)),
    binary main_v21 main_v32 main_v33 (cmpi .slt : (⟨S16384, .i32⟩ : BufTy).Contents (Elt F) → (⟨S16384, .i32⟩ : BufTy).Contents (Elt F) → (⟨S16384, .i1⟩ : BufTy).Contents (Elt F)),
    nullary main_c_6 (constantI S_ 32 80#32),
    unary main_c_6 main_v34 (broadcastInDim S16384 ![] bcast_S_S16384 : (⟨S_, .i32⟩ : BufTy).Contents (Elt F) → (⟨S16384, .i32⟩ : BufTy).Contents (Elt F)),
    binary main_v21 main_v34 main_v35 (addi : (⟨S16384, .i32⟩ : BufTy).Contents (Elt F) → (⟨S16384, .i32⟩ : BufTy).Contents (Elt F) → (⟨S16384, .i32⟩ : BufTy).Contents (Elt F)),
    ternary main_v33 main_v35 main_v21 main_v36 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v26 main_v37 (broadcastInDim S16384x1 ![0] bcast_S16384_S16384x1_0 : (⟨S16384, .i32⟩ : BufTy).Contents (Elt F) → (⟨S16384x1, .i32⟩ : BufTy).Contents (Elt F)),
    unary main_v31 main_v38 (broadcastInDim S16384x1 ![0] bcast_S16384_S16384x1_0 : (⟨S16384, .i32⟩ : BufTy).Contents (Elt F) → (⟨S16384x1, .i32⟩ : BufTy).Contents (Elt F)),
    unary main_v36 main_v39 (broadcastInDim S16384x1 ![0] bcast_S16384_S16384x1_0 : (⟨S16384, .i32⟩ : BufTy).Contents (Elt F) → (⟨S16384x1, .i32⟩ : BufTy).Contents (Elt F)),
    nary ![main_v37, main_v38, main_v39] main_v40 (fun u => concatenate S16384x3 1 [⟨S16384x1, u 0⟩, ⟨S16384x1, u 1⟩, ⟨S16384x1, u 2⟩] concatenates_S16384x1_S16384x1_S16384x1_S16384x3_d1),
    binary main_v15 main_v40 main_v41 ((fun x i => Host.gather gather_S64x100x88x80_S16384x3_S64x16384_0_123_n_n_123_1_64111 x i) : (⟨S64x100x88x80, .f32⟩ : BufTy).Contents (Elt F) → (⟨S16384x3, .i32⟩ : BufTy).Contents (Elt F) → (⟨S64x16384, .f32⟩ : BufTy).Contents (Elt F)),
    unary main_v41 main_v42 ((transpose S16384x64 [1, 0] · transposes_S64x16384_S16384x64_1_0) : (⟨S64x16384, .f32⟩ : BufTy).Contents (Elt F) → (⟨S16384x64, .f32⟩ : BufTy).Contents (Elt F)),
    reshape main_arg1 main_v43 rfl shapeCasts_S1x64x100x88x80_S64x100x88x80,
    unary main_v9 main_v44 ((extractStridedSlice S16384x1 ![0, 0] · slices_S16384x3_S16384x1_0_0) : (⟨S16384x3, .i32⟩ : BufTy).Contents (Elt F) → (⟨S16384x1, .i32⟩ : BufTy).Contents (Elt F)),
    reshape main_v44 main_v45 rfl shapeCasts_S16384x1_S16384,
    unary main_v9 main_v46 ((extractStridedSlice S16384x1 ![0, 1] · slices_S16384x3_S16384x1_0_1) : (⟨S16384x3, .i32⟩ : BufTy).Contents (Elt F) → (⟨S16384x1, .i32⟩ : BufTy).Contents (Elt F)),
    reshape main_v46 main_v47 rfl shapeCasts_S16384x1_S16384,
    unary main_v9 main_v48 ((extractStridedSlice S16384x1 ![0, 2] · slices_S16384x3_S16384x1_0_2) : (⟨S16384x3, .i32⟩ : BufTy).Contents (Elt F) → (⟨S16384x1, .i32⟩ : BufTy).Contents (Elt F)),
    reshape main_v48 main_v49 rfl shapeCasts_S16384x1_S16384,
    nullary main_c_7 (constantI S_ 32 0#32),
    unary main_c_7 main_v50 (broadcastInDim S16384 ![] bcast_S_S16384 : (⟨S_, .i32⟩ : BufTy).Contents (Elt F) → (⟨S16384, .i32⟩ : BufTy).Contents (Elt F)),
    binary main_v45 main_v50 main_v51 (cmpi .slt : (⟨S16384, .i32⟩ : BufTy).Contents (Elt F) → (⟨S16384, .i32⟩ : BufTy).Contents (Elt F) → (⟨S16384, .i1⟩ : BufTy).Contents (Elt F)),
    nullary main_c_8 (constantI S_ 32 100#32),
    unary main_c_8 main_v52 (broadcastInDim S16384 ![] bcast_S_S16384 : (⟨S_, .i32⟩ : BufTy).Contents (Elt F) → (⟨S16384, .i32⟩ : BufTy).Contents (Elt F)),
    binary main_v45 main_v52 main_v53 (addi : (⟨S16384, .i32⟩ : BufTy).Contents (Elt F) → (⟨S16384, .i32⟩ : BufTy).Contents (Elt F) → (⟨S16384, .i32⟩ : BufTy).Contents (Elt F)),
    ternary main_v51 main_v53 main_v45 main_v54 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_9 (constantI S_ 32 0#32),
    unary main_c_9 main_v55 (broadcastInDim S16384 ![] bcast_S_S16384 : (⟨S_, .i32⟩ : BufTy).Contents (Elt F) → (⟨S16384, .i32⟩ : BufTy).Contents (Elt F)),
    binary main_v47 main_v55 main_v56 (cmpi .slt : (⟨S16384, .i32⟩ : BufTy).Contents (Elt F) → (⟨S16384, .i32⟩ : BufTy).Contents (Elt F) → (⟨S16384, .i1⟩ : BufTy).Contents (Elt F)),
    nullary main_c_10 (constantI S_ 32 88#32),
    unary main_c_10 main_v57 (broadcastInDim S16384 ![] bcast_S_S16384 : (⟨S_, .i32⟩ : BufTy).Contents (Elt F) → (⟨S16384, .i32⟩ : BufTy).Contents (Elt F)),
    binary main_v47 main_v57 main_v58 (addi : (⟨S16384, .i32⟩ : BufTy).Contents (Elt F) → (⟨S16384, .i32⟩ : BufTy).Contents (Elt F) → (⟨S16384, .i32⟩ : BufTy).Contents (Elt F)),
    ternary main_v56 main_v58 main_v47 main_v59 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_11 (constantI S_ 32 0#32),
    unary main_c_11 main_v60 (broadcastInDim S16384 ![] bcast_S_S16384 : (⟨S_, .i32⟩ : BufTy).Contents (Elt F) → (⟨S16384, .i32⟩ : BufTy).Contents (Elt F)),
    binary main_v49 main_v60 main_v61 (cmpi .slt : (⟨S16384, .i32⟩ : BufTy).Contents (Elt F) → (⟨S16384, .i32⟩ : BufTy).Contents (Elt F) → (⟨S16384, .i1⟩ : BufTy).Contents (Elt F)),
    nullary main_c_12 (constantI S_ 32 80#32),
    unary main_c_12 main_v62 (broadcastInDim S16384 ![] bcast_S_S16384 : (⟨S_, .i32⟩ : BufTy).Contents (Elt F) → (⟨S16384, .i32⟩ : BufTy).Contents (Elt F)),
    binary main_v49 main_v62 main_v63 (addi : (⟨S16384, .i32⟩ : BufTy).Contents (Elt F) → (⟨S16384, .i32⟩ : BufTy).Contents (Elt F) → (⟨S16384, .i32⟩ : BufTy).Contents (Elt F)),
    ternary main_v61 main_v63 main_v49 main_v64 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v54 main_v65 (broadcastInDim S16384x1 ![0] bcast_S16384_S16384x1_0 : (⟨S16384, .i32⟩ : BufTy).Contents (Elt F) → (⟨S16384x1, .i32⟩ : BufTy).Contents (Elt F)),
    unary main_v59 main_v66 (broadcastInDim S16384x1 ![0] bcast_S16384_S16384x1_0 : (⟨S16384, .i32⟩ : BufTy).Contents (Elt F) → (⟨S16384x1, .i32⟩ : BufTy).Contents (Elt F)),
    unary main_v64 main_v67 (broadcastInDim S16384x1 ![0] bcast_S16384_S16384x1_0 : (⟨S16384, .i32⟩ : BufTy).Contents (Elt F) → (⟨S16384x1, .i32⟩ : BufTy).Contents (Elt F)),
    nary ![main_v65, main_v66, main_v67] main_v68 (fun u => concatenate S16384x3 1 [⟨S16384x1, u 0⟩, ⟨S16384x1, u 1⟩, ⟨S16384x1, u 2⟩] concatenates_S16384x1_S16384x1_S16384x1_S16384x3_d1),
    binary main_v43 main_v68 main_v69 ((fun x i => Host.gather gather_S64x100x88x80_S16384x3_S64x16384_0_123_n_n_123_1_64111 x i) : (⟨S64x100x88x80, .f32⟩ : BufTy).Contents (Elt F) → (⟨S16384x3, .i32⟩ : BufTy).Contents (Elt F) → (⟨S64x16384, .f32⟩ : BufTy).Contents (Elt F)),
    unary main_v69 main_v70 ((transpose S16384x64 [1, 0] · transposes_S64x16384_S16384x64_1_0) : (⟨S64x16384, .f32⟩ : BufTy).Contents (Elt F) → (⟨S16384x64, .f32⟩ : BufTy).Contents (Elt F)),
    reshape main_arg1 main_v71 rfl shapeCasts_S1x64x100x88x80_S64x100x88x80,
    unary main_v14 main_v72 ((extractStridedSlice S16384x1 ![0, 0] · slices_S16384x3_S16384x1_0_0) : (⟨S16384x3, .i32⟩ : BufTy).Contents (Elt F) → (⟨S16384x1, .i32⟩ : BufTy).Contents (Elt F)),
    reshape main_v72 main_v73 rfl shapeCasts_S16384x1_S16384,
    unary main_v14 main_v74 ((extractStridedSlice S16384x1 ![0, 1] · slices_S16384x3_S16384x1_0_1) : (⟨S16384x3, .i32⟩ : BufTy).Contents (Elt F) → (⟨S16384x1, .i32⟩ : BufTy).Contents (Elt F)),
    reshape main_v74 main_v75 rfl shapeCasts_S16384x1_S16384,
    unary main_v14 main_v76 ((extractStridedSlice S16384x1 ![0, 2] · slices_S16384x3_S16384x1_0_2) : (⟨S16384x3, .i32⟩ : BufTy).Contents (Elt F) → (⟨S16384x1, .i32⟩ : BufTy).Contents (Elt F)),
    reshape main_v76 main_v77 rfl shapeCasts_S16384x1_S16384,
    nullary main_c_13 (constantI S_ 32 0#32),
    unary main_c_13 main_v78 (broadcastInDim S16384 ![] bcast_S_S16384 : (⟨S_, .i32⟩ : BufTy).Contents (Elt F) → (⟨S16384, .i32⟩ : BufTy).Contents (Elt F)),
    binary main_v73 main_v78 main_v79 (cmpi .slt : (⟨S16384, .i32⟩ : BufTy).Contents (Elt F) → (⟨S16384, .i32⟩ : BufTy).Contents (Elt F) → (⟨S16384, .i1⟩ : BufTy).Contents (Elt F)),
    nullary main_c_14 (constantI S_ 32 100#32),
    unary main_c_14 main_v80 (broadcastInDim S16384 ![] bcast_S_S16384 : (⟨S_, .i32⟩ : BufTy).Contents (Elt F) → (⟨S16384, .i32⟩ : BufTy).Contents (Elt F)),
    binary main_v73 main_v80 main_v81 (addi : (⟨S16384, .i32⟩ : BufTy).Contents (Elt F) → (⟨S16384, .i32⟩ : BufTy).Contents (Elt F) → (⟨S16384, .i32⟩ : BufTy).Contents (Elt F)),
    ternary main_v79 main_v81 main_v73 main_v82 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_15 (constantI S_ 32 0#32),
    unary main_c_15 main_v83 (broadcastInDim S16384 ![] bcast_S_S16384 : (⟨S_, .i32⟩ : BufTy).Contents (Elt F) → (⟨S16384, .i32⟩ : BufTy).Contents (Elt F)),
    binary main_v75 main_v83 main_v84 (cmpi .slt : (⟨S16384, .i32⟩ : BufTy).Contents (Elt F) → (⟨S16384, .i32⟩ : BufTy).Contents (Elt F) → (⟨S16384, .i1⟩ : BufTy).Contents (Elt F)),
    nullary main_c_16 (constantI S_ 32 88#32),
    unary main_c_16 main_v85 (broadcastInDim S16384 ![] bcast_S_S16384 : (⟨S_, .i32⟩ : BufTy).Contents (Elt F) → (⟨S16384, .i32⟩ : BufTy).Contents (Elt F)),
    binary main_v75 main_v85 main_v86 (addi : (⟨S16384, .i32⟩ : BufTy).Contents (Elt F) → (⟨S16384, .i32⟩ : BufTy).Contents (Elt F) → (⟨S16384, .i32⟩ : BufTy).Contents (Elt F)),
    ternary main_v84 main_v86 main_v75 main_v87 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_17 (constantI S_ 32 0#32),
    unary main_c_17 main_v88 (broadcastInDim S16384 ![] bcast_S_S16384 : (⟨S_, .i32⟩ : BufTy).Contents (Elt F) → (⟨S16384, .i32⟩ : BufTy).Contents (Elt F)),
    binary main_v77 main_v88 main_v89 (cmpi .slt : (⟨S16384, .i32⟩ : BufTy).Contents (Elt F) → (⟨S16384, .i32⟩ : BufTy).Contents (Elt F) → (⟨S16384, .i1⟩ : BufTy).Contents (Elt F)),
    nullary main_c_18 (constantI S_ 32 80#32),
    unary main_c_18 main_v90 (broadcastInDim S16384 ![] bcast_S_S16384 : (⟨S_, .i32⟩ : BufTy).Contents (Elt F) → (⟨S16384, .i32⟩ : BufTy).Contents (Elt F)),
    binary main_v77 main_v90 main_v91 (addi : (⟨S16384, .i32⟩ : BufTy).Contents (Elt F) → (⟨S16384, .i32⟩ : BufTy).Contents (Elt F) → (⟨S16384, .i32⟩ : BufTy).Contents (Elt F)),
    ternary main_v89 main_v91 main_v77 main_v92 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v82 main_v93 (broadcastInDim S16384x1 ![0] bcast_S16384_S16384x1_0 : (⟨S16384, .i32⟩ : BufTy).Contents (Elt F) → (⟨S16384x1, .i32⟩ : BufTy).Contents (Elt F)),
    unary main_v87 main_v94 (broadcastInDim S16384x1 ![0] bcast_S16384_S16384x1_0 : (⟨S16384, .i32⟩ : BufTy).Contents (Elt F) → (⟨S16384x1, .i32⟩ : BufTy).Contents (Elt F)),
    unary main_v92 main_v95 (broadcastInDim S16384x1 ![0] bcast_S16384_S16384x1_0 : (⟨S16384, .i32⟩ : BufTy).Contents (Elt F) → (⟨S16384x1, .i32⟩ : BufTy).Contents (Elt F)),
    nary ![main_v93, main_v94, main_v95] main_v96 (fun u => concatenate S16384x3 1 [⟨S16384x1, u 0⟩, ⟨S16384x1, u 1⟩, ⟨S16384x1, u 2⟩] concatenates_S16384x1_S16384x1_S16384x1_S16384x3_d1),
    binary main_v71 main_v96 main_v97 ((fun x i => Host.gather gather_S64x100x88x80_S16384x3_S64x16384_0_123_n_n_123_1_64111 x i) : (⟨S64x100x88x80, .f32⟩ : BufTy).Contents (Elt F) → (⟨S16384x3, .i32⟩ : BufTy).Contents (Elt F) → (⟨S64x16384, .f32⟩ : BufTy).Contents (Elt F)),
    unary main_v97 main_v98 ((transpose S16384x64 [1, 0] · transposes_S64x16384_S16384x64_1_0) : (⟨S64x16384, .f32⟩ : BufTy).Contents (Elt F) → (⟨S16384x64, .f32⟩ : BufTy).Contents (Elt F)),
    binary main_v42 main_v70 main_v99 (subf : (⟨S16384x64, .f32⟩ : BufTy).Contents (Elt F) → (⟨S16384x64, .f32⟩ : BufTy).Contents (Elt F) → (⟨S16384x64, .f32⟩ : BufTy).Contents (Elt F)),
    binary main_v99 main_v99 main_v100 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v100 main_cst main_v101 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    binary main_v42 main_v98 main_v102 (subf : (⟨S16384x64, .f32⟩ : BufTy).Contents (Elt F) → (⟨S16384x64, .f32⟩ : BufTy).Contents (Elt F) → (⟨S16384x64, .f32⟩ : BufTy).Contents (Elt F)),
    binary main_v102 main_v102 main_v103 (mulf : (⟨S16384x64, .f32⟩ : BufTy).Contents (Elt F) → (⟨S16384x64, .f32⟩ : BufTy).Contents (Elt F) → (⟨S16384x64, .f32⟩ : BufTy).Contents (Elt F)),
    nullary main_cst_19 (constant S_ .f32 0x00000000#32),
    binary main_v103 main_cst_19 main_v104 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    binary main_v101 main_v101 main_v105 (mulf : (⟨S16384, .f32⟩ : BufTy).Contents (Elt F) → (⟨S16384, .f32⟩ : BufTy).Contents (Elt F) → (⟨S16384, .f32⟩ : BufTy).Contents (Elt F)),
    nullary main_cst_20 (constant S_ .f32 0x00000000#32),
    binary main_v105 main_cst_20 main_v106 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    unary main_v104 main_v107 (Host.sqrt : (⟨S16384, .f32⟩ : BufTy).Contents (Elt F) → (⟨S16384, .f32⟩ : BufTy).Contents (Elt F)),
    nullary main_cst_21 (constant S_ .f32 0x3F800000#32),
    unary main_cst_21 main_v108 (broadcastInDim S16384 ![] bcast_S_S16384 : (⟨S_, .f32⟩ : BufTy).Contents (Elt F) → (⟨S16384, .f32⟩ : BufTy).Contents (Elt F)),
    binary main_v108 main_v107 main_v109 (subf : (⟨S16384, .f32⟩ : BufTy).Contents (Elt F) → (⟨S16384, .f32⟩ : BufTy).Contents (Elt F) → (⟨S16384, .f32⟩ : BufTy).Contents (Elt F)),
    nullary main_cst_22 (constant S_ .f32 0x00000000#32),
    unary main_cst_22 main_v110 (broadcastInDim S16384 ![] bcast_S_S16384 : (⟨S_, .f32⟩ : BufTy).Contents (Elt F) → (⟨S16384, .f32⟩ : BufTy).Contents (Elt F)),
    binary main_v110 main_v109 main_v111 (maximumf : (⟨S16384, .f32⟩ : BufTy).Contents (Elt F) → (⟨S16384, .f32⟩ : BufTy).Contents (Elt F) → (⟨S16384, .f32⟩ : BufTy).Contents (Elt F)),
    binary main_v111 main_v111 main_v112 (mulf : (⟨S16384, .f32⟩ : BufTy).Contents (Elt F) → (⟨S16384, .f32⟩ : BufTy).Contents (Elt F) → (⟨S16384, .f32⟩ : BufTy).Contents (Elt F)),
    nullary main_cst_23 (constant S_ .f32 0x00000000#32),
    binary main_v112 main_cst_23 main_v113 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    binary main_v106 main_v113 main_v114 (addf : (⟨S_, .f32⟩ : BufTy).Contents (Elt F) → (⟨S_, .f32⟩ : BufTy).Contents (Elt F) → (⟨S_, .f32⟩ : BufTy).Contents (Elt F)),
    nullary main_cst_24 (constant S_ .f32 0x47800000#32),
    binary main_v114 main_cst_24 main_v115 (Host.divf : (⟨S_, .f32⟩ : BufTy).Contents (Elt F) → (⟨S_, .f32⟩ : BufTy).Contents (Elt F) → (⟨S_, .f32⟩ : BufTy).Contents (Elt F)),
    nullary main_cst_25 (constant S_ .f32 0x49742400#32),
    binary main_v115 main_cst_25 main_v116 (mulf : (⟨S_, .f32⟩ : BufTy).Contents (Elt F) → (⟨S_, .f32⟩ : BufTy).Contents (Elt F) → (⟨S_, .f32⟩ : BufTy).Contents (Elt F)) ]

/-- The whole list is the three pieces end to end. -/
theorem opsAll_eq : (opsAll : List (HloOp τ sig (Elt F))) = w0 ++ (w1 ++ w2) := rfl

set_option maxRecDepth 8192 in
set_option maxHeartbeats 4000000 in
/-- The first piece is the run of its operations: the remainder's definition opened at each call, sequencing reassociated. -/
theorem part0_eq (c : Dev nD) : main_part0 (F := F) c = seq w0 := by
  simp only [main_part0, fn_remainder.body, fn_where.body, seq, bind_assoc, pure_bind]
  rfl

set_option maxRecDepth 8192 in
set_option maxHeartbeats 4000000 in
theorem part1_eq (c : Dev nD) : main_part1 (F := F) c = seq w1 := rfl

set_option maxRecDepth 8192 in
set_option maxHeartbeats 4000000 in
theorem part2_eq (c : Dev nD) : main_part2 (F := F) c = seq w2 := rfl

/-- @main is the run of the whole list. -/
theorem main_eq (c : Dev nD) : main (F := F) c = seq opsAll := by
  rw [opsAll_eq, seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (opsAll : List (HloOp τ sig (Elt F))).Forall fun op => op.bufs ⊆ tcRefs τ sig :=
  ⟨nullary_bufs_sub .., nullary_bufs_sub .., unary_bufs_sub .., unary_bufs_sub .., binary_bufs_sub .., unary_bufs_sub .., nullary_bufs_sub .., unary_bufs_sub .., binary_bufs_sub .., nullary_bufs_sub .., unary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., unary_bufs_sub .., binary_bufs_sub .., ternary_bufs_sub .., unary_bufs_sub .., unary_bufs_sub .., binary_bufs_sub .., unary_bufs_sub .., nullary_bufs_sub .., unary_bufs_sub .., binary_bufs_sub .., nullary_bufs_sub .., unary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., unary_bufs_sub .., binary_bufs_sub .., ternary_bufs_sub .., unary_bufs_sub .., unary_bufs_sub .., binary_bufs_sub .., unary_bufs_sub .., nullary_bufs_sub .., unary_bufs_sub .., binary_bufs_sub .., nullary_bufs_sub .., unary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., unary_bufs_sub .., binary_bufs_sub .., ternary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., unary_bufs_sub .., binary_bufs_sub .., binary_bufs_sub .., nullary_bufs_sub .., binary_bufs_sub .., binary_bufs_sub .., binary_bufs_sub .., nullary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., binary_bufs_sub .., nullary_bufs_sub .., binary_bufs_sub .., binary_bufs_sub .., nullary_bufs_sub .., binary_bufs_sub .., nullary_bufs_sub .., binary_bufs_sub ..⟩

/-- On every device, from any memory with zero counters: every weakly fair execution of @main terminates, and every
    final state has each buffer at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after opsAll (launchContents m c) (b : DevRef τ sig) :=
  run_seq scopedRefs_eq scopedSems_eq defs main (fun _ => opsAll) main_eq (fun _ => ops_sub) m ρ

end Cert.ReferenceIdeal.RefValue

end
-- ==== Proof.RefEval.lean ====
/-
  The reference evaluated stretch by stretch.

  The 211 operations fall into eight stretches: the two constant rows; three redirections of a point list (the list
  moved by the crop origin, then its floored remainder by the extents); three gathers (the three coordinate columns of
  a redirected list, each negative entry raised by its extent, put side by side as start indices, the volume read at
  them and transposed to one row per point); and the loss (the squared differences summed over the channels, the
  positive sum of squares, the negative sum of squared hinges, the scaling). Each stretch's result is a named function
  of the contents it reads, and every other buffer it leaves alone.
-/
import proofs.«427562_j44873818309267_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The values -/

/-- The crop origin as a 1 x 3 row, from the constant table's contents. -/
def rowOf (c : IVec S3 32) : IVec S1x3 32 := broadcastInDim S1x3 ![1] bcast_S3_S1x3_1 c

/-- A point list moved by the origin row. -/
def shifted (x : IVec S16384x3 32) (o : IVec S1x3 32) : IVec S16384x3 32 :=
  subi x (broadcastInDim S16384x3 ![0, 1] bcast_S1x3_S16384x3_0_1 o)

/-- The divisor row with a zero entry replaced by one. -/
def safeDiv (d : IVec S1x3 32) : IVec S1x3 32 :=
  select (cmpi .eq d (broadcastInDim S1x3 ![] bcast_S_S1x3 (constantI S_ 32 0#32)))
    (broadcastInDim S1x3 ![] bcast_S_S1x3 (constantI S_ 32 1#32)) d

/-- The floored remainder of a list by a divisor row: the truncated remainder, raised by the divisor where it is
    nonzero and its sign differs from the divisor's. -/
def remFloor (x : IVec S16384x3 32) (d : IVec S1x3 32) : IVec S16384x3 32 :=
  select
    (andi
      (cmpi .ne
        (cmpi .slt (Host.remsi x (broadcastInDim S16384x3 ![0, 1] bcast_S1x3_S16384x3_0_1 (safeDiv d)))
          (broadcastInDim S16384x3 ![] bcast_S_S16384x3 (constantI S_ 32 0#32)))
        (broadcastInDim S16384x3 ![0, 1] bcast_S1x3_S16384x3_0_1
          (cmpi .slt (safeDiv d) (broadcastInDim S1x3 ![] bcast_S_S1x3 (constantI S_ 32 0#32)))))
      (cmpi .ne (Host.remsi x (broadcastInDim S16384x3 ![0, 1] bcast_S1x3_S16384x3_0_1 (safeDiv d)))
        (broadcastInDim S16384x3 ![] bcast_S_S16384x3 (constantI S_ 32 0#32))))
    (addi (Host.remsi x (broadcastInDim S16384x3 ![0, 1] bcast_S1x3_S16384x3_0_1 (safeDiv d)))
      (broadcastInDim S16384x3 ![0, 1] bcast_S1x3_S16384x3_0_1 (safeDiv d)))
    (Host.remsi x (broadcastInDim S16384x3 ![0, 1] bcast_S1x3_S16384x3_0_1 (safeDiv d)))

/-- A redirected point list, from the list and the two constant tables. -/
def redirected (x : IVec S16384x3 32) (o e : IVec S3 32) : IVec S16384x3 32 :=
  remFloor (shifted x (rowOf o)) (rowOf e)

/-- One coordinate column of a list, as a vector. -/
def column (off : Fin 2 → Nat) (h : S16384x3.Slices off S16384x1) (r : IVec S16384x3 32) : IVec S16384 32 :=
  shapeCast S16384 (extractStridedSlice S16384x1 off r h) shapeCasts_S16384x1_S16384

/-- A coordinate vector with each negative entry raised by the extent `n`. -/
def wrapNeg (n : BitVec 32) (c : IVec S16384 32) : IVec S16384 32 :=
  select (cmpi .slt c (broadcastInDim S16384 ![] bcast_S_S16384 (constantI S_ 32 0#32)))
    (addi c (broadcastInDim S16384 ![] bcast_S_S16384 (constantI S_ 32 n))) c

/-- The start indices of the gather: the three wrapped columns side by side. -/
def startIdx (r : IVec S16384x3 32) : IVec S16384x3 32 :=
  concatenate S16384x3 1
    [⟨S16384x1, broadcastInDim S16384x1 ![0] bcast_S16384_S16384x1_0 (wrapNeg 100#32 (column ![0, 0] slices_S16384x3_S16384x1_0_0 r))⟩,
     ⟨S16384x1, broadcastInDim S16384x1 ![0] bcast_S16384_S16384x1_0 (wrapNeg 88#32 (column ![0, 1] slices_S16384x3_S16384x1_0_1 r))⟩,
     ⟨S16384x1, broadcastInDim S16384x1 ![0] bcast_S16384_S16384x1_0 (wrapNeg 80#32 (column ![0, 2] slices_S16384x3_S16384x1_0_2 r))⟩]
    concatenates_S16384x1_S16384x1_S16384x1_S16384x3_d1

/-- The feature rows of a volume at a redirected list: one row of 64 channels per point. -/
def gathered (feat : FVec F S1x64x100x88x80 .f32) (r : IVec S16384x3 32) : FVec F S16384x64 .f32 :=
  transpose S16384x64 [1, 0]
    (Host.gather gather_S64x100x88x80_S16384x3_S64x16384_0_123_n_n_123_1_64111
      (shapeCast S64x100x88x80 feat shapeCasts_S1x64x100x88x80_S64x100x88x80) (startIdx r))
    transposes_S64x16384_S16384x64_1_0

/-- The squared distance of two tables' rows, per point. -/
def sqDist (a b : FVec F S16384x64 .f32) : FVec F S16384 .f32 :=
  Host.reduceAdd (mulf (subf a b) (subf a b)) (constant S_ .f32 0x00000000#32) reducesTo_S16384x64_S16384_d1 h_S_

/-- The hinge `max(0, 1 - sqrt d)` per point. -/
def hingeVec (d : FVec F S16384 .f32) : FVec F S16384 .f32 :=
  maximumf (broadcastInDim S16384 ![] bcast_S_S16384 (constant S_ .f32 0x00000000#32))
    (subf (broadcastInDim S16384 ![] bcast_S_S16384 (constant S_ .f32 0x3F800000#32)) (Host.sqrt d))

/-- The loss from the three gathered tables. -/
def lossOf (a p n : FVec F S16384x64 .f32) : FVec F S_ .f32 :=
  mulf
    (Host.divf
      (addf
        (Host.reduceAdd (mulf (sqDist a p) (sqDist a p)) (constant S_ .f32 0x00000000#32) reducesTo_S16384_S_d0 h_S_)
        (Host.reduceAdd (mulf (hingeVec (sqDist a n)) (hingeVec (sqDist a n))) (constant S_ .f32 0x00000000#32) reducesTo_S16384_S_d0 h_S_))
      (constant S_ .f32 0x47800000#32))
    (constant S_ .f32 0x49742400#32)

/-! ## The stretches -/

/-- The two constant tables. -/
abbrev sA : List (HloOp τ sig (Elt F)) :=
  [ nullary main_c (fun i => lit0 (S3.rowMajor i)),
    nullary main_c_0 (fun i => lit1 (S3.rowMajor i)) ]

/-- The first list's redirection. -/
abbrev sR0 : List (HloOp τ sig (Elt F)) :=
  [ unary main_c main_v0 (broadcastInDim S1x3 ![1] bcast_S3_S1x3_1 : (⟨S3, .i32⟩ : BufTy).Contents (Elt F) → (⟨S1x3, .i32⟩ : BufTy).Contents (Elt F)),
    unary main_v0 main_v1 (broadcastInDim S16384x3 ![0, 1] bcast_S1x3_S16384x3_0_1 : (⟨S1x3, .i32⟩ : BufTy).Contents (Elt F) → (⟨S16384x3, .i32⟩ : BufTy).Contents (Elt F)),
    binary main_arg2 main_v1 main_v2 (subi : (⟨S16384x3, .i32⟩ : BufTy).Contents (Elt F) → (⟨S16384x3, .i32⟩ : BufTy).Contents (Elt F) → (⟨S16384x3, .i32⟩ : BufTy).Contents (Elt F)),
    unary main_c_0 main_v3 (broadcastInDim S1x3 ![1] bcast_S3_S1x3_1 : (⟨S3, .i32⟩ : BufTy).Contents (Elt F) → (⟨S1x3, .i32⟩ : BufTy).Contents (Elt F)),
    TRef.nullary main_call0.c (constantI S_ 32 0#32),
    TRef.unary main_call0.c main_call0.v0 (broadcastInDim S1x3 ![] bcast_S_S1x3),
    TRef.binary (.of main_v3) main_call0.v0 main_call0.v1 (cmpi .eq),
    TRef.nullary main_call0.c_0 (constantI S_ 32 1#32),
    TRef.unary main_call0.c_0 main_call0.v2 (broadcastInDim S1x3 ![] bcast_S_S1x3),
    TRef.ternary main_call0.v1 main_call0.v2 (.of main_v3) main_call0.call0.v0 select,
    TRef.unary main_call0.call0.v0 main_call0.v4 (broadcastInDim S16384x3 ![0, 1] bcast_S1x3_S16384x3_0_1),
    TRef.binary (.of main_v2) main_call0.v4 main_call0.v5 Host.remsi,
    TRef.nullary main_call0.c_1 (constantI S_ 32 0#32),
    TRef.unary main_call0.c_1 main_call0.v6 (broadcastInDim S16384x3 ![] bcast_S_S16384x3),
    TRef.binary main_call0.v5 main_call0.v6 main_call0.v7 (cmpi .ne),
    TRef.nullary main_call0.c_2 (constantI S_ 32 0#32),
    TRef.unary main_call0.c_2 main_call0.v8 (broadcastInDim S16384x3 ![] bcast_S_S16384x3),
    TRef.binary main_call0.v5 main_call0.v8 main_call0.v9 (cmpi .slt),
    TRef.nullary main_call0.c_3 (constantI S_ 32 0#32),
    TRef.unary main_call0.c_3 main_call0.v10 (broadcastInDim S1x3 ![] bcast_S_S1x3),
    TRef.binary main_call0.call0.v0 main_call0.v10 main_call0.v11 (cmpi .slt),
    TRef.unary main_call0.v11 main_call0.v12 (broadcastInDim S16384x3 ![0, 1] bcast_S1x3_S16384x3_0_1),
    TRef.binary main_call0.v9 main_call0.v12 main_call0.v13 (cmpi .ne),
    TRef.binary main_call0.v13 main_call0.v7 main_call0.v14 andi,
    TRef.unary main_call0.call0.v0 main_call0.v15 (broadcastInDim S16384x3 ![0, 1] bcast_S1x3_S16384x3_0_1),
    TRef.binary main_call0.v5 main_call0.v15 main_call0.v16 addi,
    TRef.ternary main_call0.v14 main_call0.v16 main_call0.v5 main_call0.v17 select ]

/-- The second list's redirection. -/
abbrev sR1 : List (HloOp τ sig (Elt F)) :=
  [ unary main_c main_v5 (broadcastInDim S1x3 ![1] bcast_S3_S1x3_1 : (⟨S3, .i32⟩ : BufTy).Contents (Elt F) → (⟨S1x3, .i32⟩ : BufTy).Contents (Elt F)),
    unary main_v5 main_v6 (broadcastInDim S16384x3 ![0, 1] bcast_S1x3_S16384x3_0_1 : (⟨S1x3, .i32⟩ : BufTy).Contents (Elt F) → (⟨S16384x3, .i32⟩ : BufTy).Contents (Elt F)),
    binary main_arg3 main_v6 main_v7 (subi : (⟨S16384x3, .i32⟩ : BufTy).Contents (Elt F) → (⟨S16384x3, .i32⟩ : BufTy).Contents (Elt F) → (⟨S16384x3, .i32⟩ : BufTy).Contents (Elt F)),
    unary main_c_0 main_v8 (broadcastInDim S1x3 ![1] bcast_S3_S1x3_1 : (⟨S3, .i32⟩ : BufTy).Contents (Elt F) → (⟨S1x3, .i32⟩ : BufTy).Contents (Elt F)),
    TRef.nullary main_call1.c (constantI S_ 32 0#32),
    TRef.unary main_call1.c main_call1.v0 (broadcastInDim S1x3 ![] bcast_S_S1x3),
    TRef.binary (.of main_v8) main_call1.v0 main_call1.v1 (cmpi .eq),
    TRef.nullary main_call1.c_0 (constantI S_ 32 1#32),
    TRef.unary main_call1.c_0 main_call1.v2 (broadcastInDim S1x3 ![] bcast_S_S1x3),
    TRef.ternary main_call1.v1 main_call1.v2 (.of main_v8) main_call1.call0.v0 select,
    TRef.unary main_call1.call0.v0 main_call1.v4 (broadcastInDim S16384x3 ![0, 1] bcast_S1x3_S16384x3_0_1),
    TRef.binary (.of main_v7) main_call1.v4 main_call1.v5 Host.remsi,
    TRef.nullary main_call1.c_1 (constantI S_ 32 0#32),
    TRef.unary main_call1.c_1 main_call1.v6 (broadcastInDim S16384x3 ![] bcast_S_S16384x3),
    TRef.binary main_call1.v5 main_call1.v6 main_call1.v7 (cmpi .ne),
    TRef.nullary main_call1.c_2 (constantI S_ 32 0#32),
    TRef.unary main_call1.c_2 main_call1.v8 (broadcastInDim S16384x3 ![] bcast_S_S16384x3),
    TRef.binary main_call1.v5 main_call1.v8 main_call1.v9 (cmpi .slt),
    TRef.nullary main_call1.c_3 (constantI S_ 32 0#32),
    TRef.unary main_call1.c_3 main_call1.v10 (broadcastInDim S1x3 ![] bcast_S_S1x3),
    TRef.binary main_call1.call0.v0 main_call1.v10 main_call1.v11 (cmpi .slt),
    TRef.unary main_call1.v11 main_call1.v12 (broadcastInDim S16384x3 ![0, 1] bcast_S1x3_S16384x3_0_1),
    TRef.binary main_call1.v9 main_call1.v12 main_call1.v13 (cmpi .ne),
    TRef.binary main_call1.v13 main_call1.v7 main_call1.v14 andi,
    TRef.unary main_call1.call0.v0 main_call1.v15 (broadcastInDim S16384x3 ![0, 1] bcast_S1x3_S16384x3_0_1),
    TRef.binary main_call1.v5 main_call1.v15 main_call1.v16 addi,
    TRef.ternary main_call1.v14 main_call1.v16 main_call1.v5 main_call1.v17 select ]

/-- The third list's redirection. -/
abbrev sR2 : List (HloOp τ sig (Elt F)) :=
  [ unary main_c main_v10 (broadcastInDim S1x3 ![1] bcast_S3_S1x3_1 : (⟨S3, .i32⟩ : BufTy).Contents (Elt F) → (⟨S1x3, .i32⟩ : BufTy).Contents (Elt F)),
    unary main_v10 main_v11 (broadcastInDim S16384x3 ![0, 1] bcast_S1x3_S16384x3_0_1 : (⟨S1x3, .i32⟩ : BufTy).Contents (Elt F) → (⟨S16384x3, .i32⟩ : BufTy).Contents (Elt F)),
    binary main_arg4 main_v11 main_v12 (subi : (⟨S16384x3, .i32⟩ : BufTy).Contents (Elt F) → (⟨S16384x3, .i32⟩ : BufTy).Contents (Elt F) → (⟨S16384x3, .i32⟩ : BufTy).Contents (Elt F)),
    unary main_c_0 main_v13 (broadcastInDim S1x3 ![1] bcast_S3_S1x3_1 : (⟨S3, .i32⟩ : BufTy).Contents (Elt F) → (⟨S1x3, .i32⟩ : BufTy).Contents (Elt F)),
    TRef.nullary main_call2.c (constantI S_ 32 0#32),
    TRef.unary main_call2.c main_call2.v0 (broadcastInDim S1x3 ![] bcast_S_S1x3),
    TRef.binary (.of main_v13) main_call2.v0 main_call2.v1 (cmpi .eq),
    TRef.nullary main_call2.c_0 (constantI S_ 32 1#32),
    TRef.unary main_call2.c_0 main_call2.v2 (broadcastInDim S1x3 ![] bcast_S_S1x3),
    TRef.ternary main_call2.v1 main_call2.v2 (.of main_v13) main_call2.call0.v0 select,
    TRef.unary main_call2.call0.v0 main_call2.v4 (broadcastInDim S16384x3 ![0, 1] bcast_S1x3_S16384x3_0_1),
    TRef.binary (.of main_v12) main_call2.v4 main_call2.v5 Host.remsi,
    TRef.nullary main_call2.c_1 (constantI S_ 32 0#32),
    TRef.unary main_call2.c_1 main_call2.v6 (broadcastInDim S16384x3 ![] bcast_S_S16384x3),
    TRef.binary main_call2.v5 main_call2.v6 main_call2.v7 (cmpi .ne),
    TRef.nullary main_call2.c_2 (constantI S_ 32 0#32),
    TRef.unary main_call2.c_2 main_call2.v8 (broadcastInDim S16384x3 ![] bcast_S_S16384x3),
    TRef.binary main_call2.v5 main_call2.v8 main_call2.v9 (cmpi .slt),
    TRef.nullary main_call2.c_3 (constantI S_ 32 0#32),
    TRef.unary main_call2.c_3 main_call2.v10 (broadcastInDim S1x3 ![] bcast_S_S1x3),
    TRef.binary main_call2.call0.v0 main_call2.v10 main_call2.v11 (cmpi .slt),
    TRef.unary main_call2.v11 main_call2.v12 (broadcastInDim S16384x3 ![0, 1] bcast_S1x3_S16384x3_0_1),
    TRef.binary main_call2.v9 main_call2.v12 main_call2.v13 (cmpi .ne),
    TRef.binary main_call2.v13 main_call2.v7 main_call2.v14 andi,
    TRef.unary main_call2.call0.v0 main_call2.v15 (broadcastInDim S16384x3 ![0, 1] bcast_S1x3_S16384x3_0_1),
    TRef.binary main_call2.v5 main_call2.v15 main_call2.v16 addi,
    TRef.ternary main_call2.v14 main_call2.v16 main_call2.v5 main_call2.v17 select ]

/-- The fixed volume gathered at the first list. -/
abbrev sG0 : List (HloOp τ sig (Elt F)) :=
  [ reshape main_arg0 main_v15 rfl shapeCasts_S1x64x100x88x80_S64x100x88x80,
    unary main_v4 main_v16 ((extractStridedSlice S16384x1 ![0, 0] · slices_S16384x3_S16384x1_0_0) : (⟨S16384x3, .i32⟩ : BufTy).Contents (Elt F) → (⟨S16384x1, .i32⟩ : BufTy).Contents (Elt F)),
    reshape main_v16 main_v17 rfl shapeCasts_S16384x1_S16384,
    unary main_v4 main_v18 ((extractStridedSlice S16384x1 ![0, 1] · slices_S16384x3_S16384x1_0_1) : (⟨S16384x3, .i32⟩ : BufTy).Contents (Elt F) → (⟨S16384x1, .i32⟩ : BufTy).Contents (Elt F)),
    reshape main_v18 main_v19 rfl shapeCasts_S16384x1_S16384,
    unary main_v4 main_v20 ((extractStridedSlice S16384x1 ![0, 2] · slices_S16384x3_S16384x1_0_2) : (⟨S16384x3, .i32⟩ : BufTy).Contents (Elt F) → (⟨S16384x1, .i32⟩ : BufTy).Contents (Elt F)),
    reshape main_v20 main_v21 rfl shapeCasts_S16384x1_S16384,
    nullary main_c_1 (constantI S_ 32 0#32),
    unary main_c_1 main_v22 (broadcastInDim S16384 ![] bcast_S_S16384 : (⟨S_, .i32⟩ : BufTy).Contents (Elt F) → (⟨S16384, .i32⟩ : BufTy).Contents (Elt F)),
    binary main_v17 main_v22 main_v23 (cmpi .slt : (⟨S16384, .i32⟩ : BufTy).Contents (Elt F) → (⟨S16384, .i32⟩ : BufTy).Contents (Elt F) → (⟨S16384, .i1⟩ : BufTy).Contents (Elt F)),
    nullary main_c_2 (constantI S_ 32 100#32),
    unary main_c_2 main_v24 (broadcastInDim S16384 ![] bcast_S_S16384 : (⟨S_, .i32⟩ : BufTy).Contents (Elt F) → (⟨S16384, .i32⟩ : BufTy).Contents (Elt F)),
    binary main_v17 main_v24 main_v25 (addi : (⟨S16384, .i32⟩ : BufTy).Contents (Elt F) → (⟨S16384, .i32⟩ : BufTy).Contents (Elt F) → (⟨S16384, .i32⟩ : BufTy).Contents (Elt F)),
    ternary main_v23 main_v25 main_v17 main_v26 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_3 (constantI S_ 32 0#32),
    unary main_c_3 main_v27 (broadcastInDim S16384 ![] bcast_S_S16384 : (⟨S_, .i32⟩ : BufTy).Contents (Elt F) → (⟨S16384, .i32⟩ : BufTy).Contents (Elt F)),
    binary main_v19 main_v27 main_v28 (cmpi .slt : (⟨S16384, .i32⟩ : BufTy).Contents (Elt F) → (⟨S16384, .i32⟩ : BufTy).Contents (Elt F) → (⟨S16384, .i1⟩ : BufTy).Contents (Elt F)),
    nullary main_c_4 (constantI S_ 32 88#32),
    unary main_c_4 main_v29 (broadcastInDim S16384 ![] bcast_S_S16384 : (⟨S_, .i32⟩ : BufTy).Contents (Elt F) → (⟨S16384, .i32⟩ : BufTy).Contents (Elt F)),
    binary main_v19 main_v29 main_v30 (addi : (⟨S16384, .i32⟩ : BufTy).Contents (Elt F) → (⟨S16384, .i32⟩ : BufTy).Contents (Elt F) → (⟨S16384, .i32⟩ : BufTy).Contents (Elt F)),
    ternary main_v28 main_v30 main_v19 main_v31 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_5 (constantI S_ 32 0#32),
    unary main_c_5 main_v32 (broadcastInDim S16384 ![] bcast_S_S16384 : (⟨S_, .i32⟩ : BufTy).Contents (Elt F) → (⟨S16384, .i32⟩ : BufTy).Contents (Elt F)),
    binary main_v21 main_v32 main_v33 (cmpi .slt : (⟨S16384, .i32⟩ : BufTy).Contents (Elt F) → (⟨S16384, .i32⟩ : BufTy).Contents (Elt F) → (⟨S16384, .i1⟩ : BufTy).Contents (Elt F)),
    nullary main_c_6 (constantI S_ 32 80#32),
    unary main_c_6 main_v34 (broadcastInDim S16384 ![] bcast_S_S16384 : (⟨S_, .i32⟩ : BufTy).Contents (Elt F) → (⟨S16384, .i32⟩ : BufTy).Contents (Elt F)),
    binary main_v21 main_v34 main_v35 (addi : (⟨S16384, .i32⟩ : BufTy).Contents (Elt F) → (⟨S16384, .i32⟩ : BufTy).Contents (Elt F) → (⟨S16384, .i32⟩ : BufTy).Contents (Elt F)),
    ternary main_v33 main_v35 main_v21 main_v36 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v26 main_v37 (broadcastInDim S16384x1 ![0] bcast_S16384_S16384x1_0 : (⟨S16384, .i32⟩ : BufTy).Contents (Elt F) → (⟨S16384x1, .i32⟩ : BufTy).Contents (Elt F)),
    unary main_v31 main_v38 (broadcastInDim S16384x1 ![0] bcast_S16384_S16384x1_0 : (⟨S16384, .i32⟩ : BufTy).Contents (Elt F) → (⟨S16384x1, .i32⟩ : BufTy).Contents (Elt F)),
    unary main_v36 main_v39 (broadcastInDim S16384x1 ![0] bcast_S16384_S16384x1_0 : (⟨S16384, .i32⟩ : BufTy).Contents (Elt F) → (⟨S16384x1, .i32⟩ : BufTy).Contents (Elt F)),
    nary ![main_v37, main_v38, main_v39] main_v40 (fun u => concatenate S16384x3 1 [⟨S16384x1, u 0⟩, ⟨S16384x1, u 1⟩, ⟨S16384x1, u 2⟩] concatenates_S16384x1_S16384x1_S16384x1_S16384x3_d1),
    binary main_v15 main_v40 main_v41 ((fun x i => Host.gather gather_S64x100x88x80_S16384x3_S64x16384_0_123_n_n_123_1_64111 x i) : (⟨S64x100x88x80, .f32⟩ : BufTy).Contents (Elt F) → (⟨S16384x3, .i32⟩ : BufTy).Contents (Elt F) → (⟨S64x16384, .f32⟩ : BufTy).Contents (Elt F)),
    unary main_v41 main_v42 ((transpose S16384x64 [1, 0] · transposes_S64x16384_S16384x64_1_0) : (⟨S64x16384, .f32⟩ : BufTy).Contents (Elt F) → (⟨S16384x64, .f32⟩ : BufTy).Contents (Elt F)) ]

/-- The moving volume gathered at the second list. -/
abbrev sG1 : List (HloOp τ sig (Elt F)) :=
  [ reshape main_arg1 main_v43 rfl shapeCasts_S1x64x100x88x80_S64x100x88x80,
    unary main_v9 main_v44 ((extractStridedSlice S16384x1 ![0, 0] · slices_S16384x3_S16384x1_0_0) : (⟨S16384x3, .i32⟩ : BufTy).Contents (Elt F) → (⟨S16384x1, .i32⟩ : BufTy).Contents (Elt F)),
    reshape main_v44 main_v45 rfl shapeCasts_S16384x1_S16384,
    unary main_v9 main_v46 ((extractStridedSlice S16384x1 ![0, 1] · slices_S16384x3_S16384x1_0_1) : (⟨S16384x3, .i32⟩ : BufTy).Contents (Elt F) → (⟨S16384x1, .i32⟩ : BufTy).Contents (Elt F)),
    reshape main_v46 main_v47 rfl shapeCasts_S16384x1_S16384,
    unary main_v9 main_v48 ((extractStridedSlice S16384x1 ![0, 2] · slices_S16384x3_S16384x1_0_2) : (⟨S16384x3, .i32⟩ : BufTy).Contents (Elt F) → (⟨S16384x1, .i32⟩ : BufTy).Contents (Elt F)),
    reshape main_v48 main_v49 rfl shapeCasts_S16384x1_S16384,
    nullary main_c_7 (constantI S_ 32 0#32),
    unary main_c_7 main_v50 (broadcastInDim S16384 ![] bcast_S_S16384 : (⟨S_, .i32⟩ : BufTy).Contents (Elt F) → (⟨S16384, .i32⟩ : BufTy).Contents (Elt F)),
    binary main_v45 main_v50 main_v51 (cmpi .slt : (⟨S16384, .i32⟩ : BufTy).Contents (Elt F) → (⟨S16384, .i32⟩ : BufTy).Contents (Elt F) → (⟨S16384, .i1⟩ : BufTy).Contents (Elt F)),
    nullary main_c_8 (constantI S_ 32 100#32),
    unary main_c_8 main_v52 (broadcastInDim S16384 ![] bcast_S_S16384 : (⟨S_, .i32⟩ : BufTy).Contents (Elt F) → (⟨S16384, .i32⟩ : BufTy).Contents (Elt F)),
    binary main_v45 main_v52 main_v53 (addi : (⟨S16384, .i32⟩ : BufTy).Contents (Elt F) → (⟨S16384, .i32⟩ : BufTy).Contents (Elt F) → (⟨S16384, .i32⟩ : BufTy).Contents (Elt F)),
    ternary main_v51 main_v53 main_v45 main_v54 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_9 (constantI S_ 32 0#32),
    unary main_c_9 main_v55 (broadcastInDim S16384 ![] bcast_S_S16384 : (⟨S_, .i32⟩ : BufTy).Contents (Elt F) → (⟨S16384, .i32⟩ : BufTy).Contents (Elt F)),
    binary main_v47 main_v55 main_v56 (cmpi .slt : (⟨S16384, .i32⟩ : BufTy).Contents (Elt F) → (⟨S16384, .i32⟩ : BufTy).Contents (Elt F) → (⟨S16384, .i1⟩ : BufTy).Contents (Elt F)),
    nullary main_c_10 (constantI S_ 32 88#32),
    unary main_c_10 main_v57 (broadcastInDim S16384 ![] bcast_S_S16384 : (⟨S_, .i32⟩ : BufTy).Contents (Elt F) → (⟨S16384, .i32⟩ : BufTy).Contents (Elt F)),
    binary main_v47 main_v57 main_v58 (addi : (⟨S16384, .i32⟩ : BufTy).Contents (Elt F) → (⟨S16384, .i32⟩ : BufTy).Contents (Elt F) → (⟨S16384, .i32⟩ : BufTy).Contents (Elt F)),
    ternary main_v56 main_v58 main_v47 main_v59 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_11 (constantI S_ 32 0#32),
    unary main_c_11 main_v60 (broadcastInDim S16384 ![] bcast_S_S16384 : (⟨S_, .i32⟩ : BufTy).Contents (Elt F) → (⟨S16384, .i32⟩ : BufTy).Contents (Elt F)),
    binary main_v49 main_v60 main_v61 (cmpi .slt : (⟨S16384, .i32⟩ : BufTy).Contents (Elt F) → (⟨S16384, .i32⟩ : BufTy).Contents (Elt F) → (⟨S16384, .i1⟩ : BufTy).Contents (Elt F)),
    nullary main_c_12 (constantI S_ 32 80#32),
    unary main_c_12 main_v62 (broadcastInDim S16384 ![] bcast_S_S16384 : (⟨S_, .i32⟩ : BufTy).Contents (Elt F) → (⟨S16384, .i32⟩ : BufTy).Contents (Elt F)),
    binary main_v49 main_v62 main_v63 (addi : (⟨S16384, .i32⟩ : BufTy).Contents (Elt F) → (⟨S16384, .i32⟩ : BufTy).Contents (Elt F) → (⟨S16384, .i32⟩ : BufTy).Contents (Elt F)),
    ternary main_v61 main_v63 main_v49 main_v64 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v54 main_v65 (broadcastInDim S16384x1 ![0] bcast_S16384_S16384x1_0 : (⟨S16384, .i32⟩ : BufTy).Contents (Elt F) → (⟨S16384x1, .i32⟩ : BufTy).Contents (Elt F)),
    unary main_v59 main_v66 (broadcastInDim S16384x1 ![0] bcast_S16384_S16384x1_0 : (⟨S16384, .i32⟩ : BufTy).Contents (Elt F) → (⟨S16384x1, .i32⟩ : BufTy).Contents (Elt F)),
    unary main_v64 main_v67 (broadcastInDim S16384x1 ![0] bcast_S16384_S16384x1_0 : (⟨S16384, .i32⟩ : BufTy).Contents (Elt F) → (⟨S16384x1, .i32⟩ : BufTy).Contents (Elt F)),
    nary ![main_v65, main_v66, main_v67] main_v68 (fun u => concatenate S16384x3 1 [⟨S16384x1, u 0⟩, ⟨S16384x1, u 1⟩, ⟨S16384x1, u 2⟩] concatenates_S16384x1_S16384x1_S16384x1_S16384x3_d1),
    binary main_v43 main_v68 main_v69 ((fun x i => Host.gather gather_S64x100x88x80_S16384x3_S64x16384_0_123_n_n_123_1_64111 x i) : (⟨S64x100x88x80, .f32⟩ : BufTy).Contents (Elt F) → (⟨S16384x3, .i32⟩ : BufTy).Contents (Elt F) → (⟨S64x16384, .f32⟩ : BufTy).Contents (Elt F)),
    unary main_v69 main_v70 ((transpose S16384x64 [1, 0] · transposes_S64x16384_S16384x64_1_0) : (⟨S64x16384, .f32⟩ : BufTy).Contents (Elt F) → (⟨S16384x64, .f32⟩ : BufTy).Contents (Elt F)) ]

/-- The moving volume gathered at the third list. -/
abbrev sG2 : List (HloOp τ sig (Elt F)) :=
  [ reshape main_arg1 main_v71 rfl shapeCasts_S1x64x100x88x80_S64x100x88x80,
    unary main_v14 main_v72 ((extractStridedSlice S16384x1 ![0, 0] · slices_S16384x3_S16384x1_0_0) : (⟨S16384x3, .i32⟩ : BufTy).Contents (Elt F) → (⟨S16384x1, .i32⟩ : BufTy).Contents (Elt F)),
    reshape main_v72 main_v73 rfl shapeCasts_S16384x1_S16384,
    unary main_v14 main_v74 ((extractStridedSlice S16384x1 ![0, 1] · slices_S16384x3_S16384x1_0_1) : (⟨S16384x3, .i32⟩ : BufTy).Contents (Elt F) → (⟨S16384x1, .i32⟩ : BufTy).Contents (Elt F)),
    reshape main_v74 main_v75 rfl shapeCasts_S16384x1_S16384,
    unary main_v14 main_v76 ((extractStridedSlice S16384x1 ![0, 2] · slices_S16384x3_S16384x1_0_2) : (⟨S16384x3, .i32⟩ : BufTy).Contents (Elt F) → (⟨S16384x1, .i32⟩ : BufTy).Contents (Elt F)),
    reshape main_v76 main_v77 rfl shapeCasts_S16384x1_S16384,
    nullary main_c_13 (constantI S_ 32 0#32),
    unary main_c_13 main_v78 (broadcastInDim S16384 ![] bcast_S_S16384 : (⟨S_, .i32⟩ : BufTy).Contents (Elt F) → (⟨S16384, .i32⟩ : BufTy).Contents (Elt F)),
    binary main_v73 main_v78 main_v79 (cmpi .slt : (⟨S16384, .i32⟩ : BufTy).Contents (Elt F) → (⟨S16384, .i32⟩ : BufTy).Contents (Elt F) → (⟨S16384, .i1⟩ : BufTy).Contents (Elt F)),
    nullary main_c_14 (constantI S_ 32 100#32),
    unary main_c_14 main_v80 (broadcastInDim S16384 ![] bcast_S_S16384 : (⟨S_, .i32⟩ : BufTy).Contents (Elt F) → (⟨S16384, .i32⟩ : BufTy).Contents (Elt F)),
    binary main_v73 main_v80 main_v81 (addi : (⟨S16384, .i32⟩ : BufTy).Contents (Elt F) → (⟨S16384, .i32⟩ : BufTy).Contents (Elt F) → (⟨S16384, .i32⟩ : BufTy).Contents (Elt F)),
    ternary main_v79 main_v81 main_v73 main_v82 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_15 (constantI S_ 32 0#32),
    unary main_c_15 main_v83 (broadcastInDim S16384 ![] bcast_S_S16384 : (⟨S_, .i32⟩ : BufTy).Contents (Elt F) → (⟨S16384, .i32⟩ : BufTy).Contents (Elt F)),
    binary main_v75 main_v83 main_v84 (cmpi .slt : (⟨S16384, .i32⟩ : BufTy).Contents (Elt F) → (⟨S16384, .i32⟩ : BufTy).Contents (Elt F) → (⟨S16384, .i1⟩ : BufTy).Contents (Elt F)),
    nullary main_c_16 (constantI S_ 32 88#32),
    unary main_c_16 main_v85 (broadcastInDim S16384 ![] bcast_S_S16384 : (⟨S_, .i32⟩ : BufTy).Contents (Elt F) → (⟨S16384, .i32⟩ : BufTy).Contents (Elt F)),
    binary main_v75 main_v85 main_v86 (addi : (⟨S16384, .i32⟩ : BufTy).Contents (Elt F) → (⟨S16384, .i32⟩ : BufTy).Contents (Elt F) → (⟨S16384, .i32⟩ : BufTy).Contents (Elt F)),
    ternary main_v84 main_v86 main_v75 main_v87 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    nullary main_c_17 (constantI S_ 32 0#32),
    unary main_c_17 main_v88 (broadcastInDim S16384 ![] bcast_S_S16384 : (⟨S_, .i32⟩ : BufTy).Contents (Elt F) → (⟨S16384, .i32⟩ : BufTy).Contents (Elt F)),
    binary main_v77 main_v88 main_v89 (cmpi .slt : (⟨S16384, .i32⟩ : BufTy).Contents (Elt F) → (⟨S16384, .i32⟩ : BufTy).Contents (Elt F) → (⟨S16384, .i1⟩ : BufTy).Contents (Elt F)),
    nullary main_c_18 (constantI S_ 32 80#32),
    unary main_c_18 main_v90 (broadcastInDim S16384 ![] bcast_S_S16384 : (⟨S_, .i32⟩ : BufTy).Contents (Elt F) → (⟨S16384, .i32⟩ : BufTy).Contents (Elt F)),
    binary main_v77 main_v90 main_v91 (addi : (⟨S16384, .i32⟩ : BufTy).Contents (Elt F) → (⟨S16384, .i32⟩ : BufTy).Contents (Elt F) → (⟨S16384, .i32⟩ : BufTy).Contents (Elt F)),
    ternary main_v89 main_v91 main_v77 main_v92 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v82 main_v93 (broadcastInDim S16384x1 ![0] bcast_S16384_S16384x1_0 : (⟨S16384, .i32⟩ : BufTy).Contents (Elt F) → (⟨S16384x1, .i32⟩ : BufTy).Contents (Elt F)),
    unary main_v87 main_v94 (broadcastInDim S16384x1 ![0] bcast_S16384_S16384x1_0 : (⟨S16384, .i32⟩ : BufTy).Contents (Elt F) → (⟨S16384x1, .i32⟩ : BufTy).Contents (Elt F)),
    unary main_v92 main_v95 (broadcastInDim S16384x1 ![0] bcast_S16384_S16384x1_0 : (⟨S16384, .i32⟩ : BufTy).Contents (Elt F) → (⟨S16384x1, .i32⟩ : BufTy).Contents (Elt F)),
    nary ![main_v93, main_v94, main_v95] main_v96 (fun u => concatenate S16384x3 1 [⟨S16384x1, u 0⟩, ⟨S16384x1, u 1⟩, ⟨S16384x1, u 2⟩] concatenates_S16384x1_S16384x1_S16384x1_S16384x3_d1),
    binary main_v71 main_v96 main_v97 ((fun x i => Host.gather gather_S64x100x88x80_S16384x3_S64x16384_0_123_n_n_123_1_64111 x i) : (⟨S64x100x88x80, .f32⟩ : BufTy).Contents (Elt F) → (⟨S16384x3, .i32⟩ : BufTy).Contents (Elt F) → (⟨S64x16384, .f32⟩ : BufTy).Contents (Elt F)),
    unary main_v97 main_v98 ((transpose S16384x64 [1, 0] · transposes_S64x16384_S16384x64_1_0) : (⟨S64x16384, .f32⟩ : BufTy).Contents (Elt F) → (⟨S16384x64, .f32⟩ : BufTy).Contents (Elt F)) ]

/-- The loss. -/
abbrev sF : List (HloOp τ sig (Elt F)) :=
  [ binary main_v42 main_v70 main_v99 (subf : (⟨S16384x64, .f32⟩ : BufTy).Contents (Elt F) → (⟨S16384x64, .f32⟩ : BufTy).Contents (Elt F) → (⟨S16384x64, .f32⟩ : BufTy).Contents (Elt F)),
    binary main_v99 main_v99 main_v100 (mulf : (⟨S16384x64, .f32⟩ : BufTy).Contents (Elt F) → (⟨S16384x64, .f32⟩ : BufTy).Contents (Elt F) → (⟨S16384x64, .f32⟩ : BufTy).Contents (Elt F)),
    nullary main_cst (constant S_ .f32 0x00000000#32),
    binary main_v100 main_cst main_v101 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    binary main_v42 main_v98 main_v102 (subf : (⟨S16384x64, .f32⟩ : BufTy).Contents (Elt F) → (⟨S16384x64, .f32⟩ : BufTy).Contents (Elt F) → (⟨S16384x64, .f32⟩ : BufTy).Contents (Elt F)),
    binary main_v102 main_v102 main_v103 (mulf : (⟨S16384x64, .f32⟩ : BufTy).Contents (Elt F) → (⟨S16384x64, .f32⟩ : BufTy).Contents (Elt F) → (⟨S16384x64, .f32⟩ : BufTy).Contents (Elt F)),
    nullary main_cst_19 (constant S_ .f32 0x00000000#32),
    binary main_v103 main_cst_19 main_v104 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    binary main_v101 main_v101 main_v105 (mulf : (⟨S16384, .f32⟩ : BufTy).Contents (Elt F) → (⟨S16384, .f32⟩ : BufTy).Contents (Elt F) → (⟨S16384, .f32⟩ : BufTy).Contents (Elt F)),
    nullary main_cst_20 (constant S_ .f32 0x00000000#32),
    binary main_v105 main_cst_20 main_v106 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    unary main_v104 main_v107 (Host.sqrt : (⟨S16384, .f32⟩ : BufTy).Contents (Elt F) → (⟨S16384, .f32⟩ : BufTy).Contents (Elt F)),
    nullary main_cst_21 (constant S_ .f32 0x3F800000#32),
    unary main_cst_21 main_v108 (broadcastInDim S16384 ![] bcast_S_S16384 : (⟨S_, .f32⟩ : BufTy).Contents (Elt F) → (⟨S16384, .f32⟩ : BufTy).Contents (Elt F)),
    binary main_v108 main_v107 main_v109 (subf : (⟨S16384, .f32⟩ : BufTy).Contents (Elt F) → (⟨S16384, .f32⟩ : BufTy).Contents (Elt F) → (⟨S16384, .f32⟩ : BufTy).Contents (Elt F)),
    nullary main_cst_22 (constant S_ .f32 0x00000000#32),
    unary main_cst_22 main_v110 (broadcastInDim S16384 ![] bcast_S_S16384 : (⟨S_, .f32⟩ : BufTy).Contents (Elt F) → (⟨S16384, .f32⟩ : BufTy).Contents (Elt F)),
    binary main_v110 main_v109 main_v111 (maximumf : (⟨S16384, .f32⟩ : BufTy).Contents (Elt F) → (⟨S16384, .f32⟩ : BufTy).Contents (Elt F) → (⟨S16384, .f32⟩ : BufTy).Contents (Elt F)),
    binary main_v111 main_v111 main_v112 (mulf : (⟨S16384, .f32⟩ : BufTy).Contents (Elt F) → (⟨S16384, .f32⟩ : BufTy).Contents (Elt F) → (⟨S16384, .f32⟩ : BufTy).Contents (Elt F)),
    nullary main_cst_23 (constant S_ .f32 0x00000000#32),
    binary main_v112 main_cst_23 main_v113 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    binary main_v106 main_v113 main_v114 (addf : (⟨S_, .f32⟩ : BufTy).Contents (Elt F) → (⟨S_, .f32⟩ : BufTy).Contents (Elt F) → (⟨S_, .f32⟩ : BufTy).Contents (Elt F)),
    nullary main_cst_24 (constant S_ .f32 0x47800000#32),
    binary main_v114 main_cst_24 main_v115 (Host.divf : (⟨S_, .f32⟩ : BufTy).Contents (Elt F) → (⟨S_, .f32⟩ : BufTy).Contents (Elt F) → (⟨S_, .f32⟩ : BufTy).Contents (Elt F)),
    nullary main_cst_25 (constant S_ .f32 0x49742400#32),
    binary main_v115 main_cst_25 main_v116 (mulf : (⟨S_, .f32⟩ : BufTy).Contents (Elt F) → (⟨S_, .f32⟩ : BufTy).Contents (Elt F) → (⟨S_, .f32⟩ : BufTy).Contents (Elt F)) ]

variable (V : Valuation τ sig (Elt F))

/-- The fold of a line that is two lines end to end: the second line's fold from the first's. -/
theorem after_append (l₁ l₂ : List (HloOp τ sig (Elt F))) (W : Valuation τ sig (Elt F)) :
    after (l₁ ++ l₂) W = after l₂ (after l₁ W) := by
  induction l₁ generalizing W with
  | nil => rfl
  | cons op l ih => exact ih (op.result W)

/-! ### The constants -/

theorem sA_c : after sA V (main_c : DevRef τ sig) = fun i => lit0 (S3.rowMajor i) := by after_results_simp <;> rfl
theorem sA_c_0 : after sA V (main_c_0 : DevRef τ sig) = fun i => lit1 (S3.rowMajor i) := by after_results_simp <;> rfl
theorem sA_keep_main_arg0 : after sA V (main_arg0 : DevRef τ sig) = V (main_arg0 : DevRef τ sig) := by after_results_simp
theorem sA_keep_main_arg1 : after sA V (main_arg1 : DevRef τ sig) = V (main_arg1 : DevRef τ sig) := by after_results_simp
theorem sA_keep_main_arg2 : after sA V (main_arg2 : DevRef τ sig) = V (main_arg2 : DevRef τ sig) := by after_results_simp
theorem sA_keep_main_arg3 : after sA V (main_arg3 : DevRef τ sig) = V (main_arg3 : DevRef τ sig) := by after_results_simp
theorem sA_keep_main_arg4 : after sA V (main_arg4 : DevRef τ sig) = V (main_arg4 : DevRef τ sig) := by after_results_simp

/-! ### The redirections -/

theorem sR0_out : after sR0 V (main_v4 : DevRef τ sig)
    = redirected (V (main_arg2 : DevRef τ sig)) (V (main_c : DevRef τ sig)) (V (main_c_0 : DevRef τ sig)) := by
  unfold redirected remFloor shifted rowOf safeDiv
  after_results_simp
  simp only [StableHlo.TRef.ofBuf, StableHlo.TRef.toBuf, cast_eq]
theorem sR0_keep_main_c : after sR0 V (main_c : DevRef τ sig) = V (main_c : DevRef τ sig) := by after_results_simp
theorem sR0_keep_main_c_0 : after sR0 V (main_c_0 : DevRef τ sig) = V (main_c_0 : DevRef τ sig) := by after_results_simp
theorem sR0_keep_main_arg0 : after sR0 V (main_arg0 : DevRef τ sig) = V (main_arg0 : DevRef τ sig) := by after_results_simp
theorem sR0_keep_main_arg1 : after sR0 V (main_arg1 : DevRef τ sig) = V (main_arg1 : DevRef τ sig) := by after_results_simp
theorem sR0_keep_main_arg2 : after sR0 V (main_arg2 : DevRef τ sig) = V (main_arg2 : DevRef τ sig) := by after_results_simp
theorem sR0_keep_main_arg3 : after sR0 V (main_arg3 : DevRef τ sig) = V (main_arg3 : DevRef τ sig) := by after_results_simp
theorem sR0_keep_main_arg4 : after sR0 V (main_arg4 : DevRef τ sig) = V (main_arg4 : DevRef τ sig) := by after_results_simp

theorem sR1_out : after sR1 V (main_v9 : DevRef τ sig)
    = redirected (V (main_arg3 : DevRef τ sig)) (V (main_c : DevRef τ sig)) (V (main_c_0 : DevRef τ sig)) := by
  unfold redirected remFloor shifted rowOf safeDiv
  after_results_simp
  simp only [StableHlo.TRef.ofBuf, StableHlo.TRef.toBuf, cast_eq]
theorem sR1_keep_main_c : after sR1 V (main_c : DevRef τ sig) = V (main_c : DevRef τ sig) := by after_results_simp
theorem sR1_keep_main_c_0 : after sR1 V (main_c_0 : DevRef τ sig) = V (main_c_0 : DevRef τ sig) := by after_results_simp
theorem sR1_keep_main_v4 : after sR1 V (main_v4 : DevRef τ sig) = V (main_v4 : DevRef τ sig) := by after_results_simp
theorem sR1_keep_main_arg0 : after sR1 V (main_arg0 : DevRef τ sig) = V (main_arg0 : DevRef τ sig) := by after_results_simp
theorem sR1_keep_main_arg1 : after sR1 V (main_arg1 : DevRef τ sig) = V (main_arg1 : DevRef τ sig) := by after_results_simp
theorem sR1_keep_main_arg2 : after sR1 V (main_arg2 : DevRef τ sig) = V (main_arg2 : DevRef τ sig) := by after_results_simp
theorem sR1_keep_main_arg3 : after sR1 V (main_arg3 : DevRef τ sig) = V (main_arg3 : DevRef τ sig) := by after_results_simp
theorem sR1_keep_main_arg4 : after sR1 V (main_arg4 : DevRef τ sig) = V (main_arg4 : DevRef τ sig) := by after_results_simp

theorem sR2_out : after sR2 V (main_v14 : DevRef τ sig)
    = redirected (V (main_arg4 : DevRef τ sig)) (V (main_c : DevRef τ sig)) (V (main_c_0 : DevRef τ sig)) := by
  unfold redirected remFloor shifted rowOf safeDiv
  after_results_simp
  simp only [StableHlo.TRef.ofBuf, StableHlo.TRef.toBuf, cast_eq]
theorem sR2_keep_main_v4 : after sR2 V (main_v4 : DevRef τ sig) = V (main_v4 : DevRef τ sig) := by after_results_simp
theorem sR2_keep_main_v9 : after sR2 V (main_v9 : DevRef τ sig) = V (main_v9 : DevRef τ sig) := by after_results_simp
theorem sR2_keep_main_arg0 : after sR2 V (main_arg0 : DevRef τ sig) = V (main_arg0 : DevRef τ sig) := by after_results_simp
theorem sR2_keep_main_arg1 : after sR2 V (main_arg1 : DevRef τ sig) = V (main_arg1 : DevRef τ sig) := by after_results_simp
theorem sR2_keep_main_arg2 : after sR2 V (main_arg2 : DevRef τ sig) = V (main_arg2 : DevRef τ sig) := by after_results_simp
theorem sR2_keep_main_arg3 : after sR2 V (main_arg3 : DevRef τ sig) = V (main_arg3 : DevRef τ sig) := by after_results_simp
theorem sR2_keep_main_arg4 : after sR2 V (main_arg4 : DevRef τ sig) = V (main_arg4 : DevRef τ sig) := by after_results_simp

/-! ### The gathers -/

theorem sG0_out : after sG0 V (main_v42 : DevRef τ sig)
    = gathered (V (main_arg0 : DevRef τ sig)) (V (main_v4 : DevRef τ sig)) := by
  unfold gathered startIdx wrapNeg column
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Matrix.cons_val]
  rfl
theorem sG0_keep_main_v9 : after sG0 V (main_v9 : DevRef τ sig) = V (main_v9 : DevRef τ sig) := by after_results_simp
theorem sG0_keep_main_v14 : after sG0 V (main_v14 : DevRef τ sig) = V (main_v14 : DevRef τ sig) := by after_results_simp
theorem sG0_keep_main_arg0 : after sG0 V (main_arg0 : DevRef τ sig) = V (main_arg0 : DevRef τ sig) := by after_results_simp
theorem sG0_keep_main_arg1 : after sG0 V (main_arg1 : DevRef τ sig) = V (main_arg1 : DevRef τ sig) := by after_results_simp
theorem sG0_keep_main_arg2 : after sG0 V (main_arg2 : DevRef τ sig) = V (main_arg2 : DevRef τ sig) := by after_results_simp
theorem sG0_keep_main_arg3 : after sG0 V (main_arg3 : DevRef τ sig) = V (main_arg3 : DevRef τ sig) := by after_results_simp
theorem sG0_keep_main_arg4 : after sG0 V (main_arg4 : DevRef τ sig) = V (main_arg4 : DevRef τ sig) := by after_results_simp

theorem sG1_out : after sG1 V (main_v70 : DevRef τ sig)
    = gathered (V (main_arg1 : DevRef τ sig)) (V (main_v9 : DevRef τ sig)) := by
  unfold gathered startIdx wrapNeg column
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Matrix.cons_val]
  rfl
theorem sG1_keep_main_v42 : after sG1 V (main_v42 : DevRef τ sig) = V (main_v42 : DevRef τ sig) := by after_results_simp
theorem sG1_keep_main_v14 : after sG1 V (main_v14 : DevRef τ sig) = V (main_v14 : DevRef τ sig) := by after_results_simp
theorem sG1_keep_main_arg0 : after sG1 V (main_arg0 : DevRef τ sig) = V (main_arg0 : DevRef τ sig) := by after_results_simp
theorem sG1_keep_main_arg1 : after sG1 V (main_arg1 : DevRef τ sig) = V (main_arg1 : DevRef τ sig) := by after_results_simp
theorem sG1_keep_main_arg2 : after sG1 V (main_arg2 : DevRef τ sig) = V (main_arg2 : DevRef τ sig) := by after_results_simp
theorem sG1_keep_main_arg3 : after sG1 V (main_arg3 : DevRef τ sig) = V (main_arg3 : DevRef τ sig) := by after_results_simp
theorem sG1_keep_main_arg4 : after sG1 V (main_arg4 : DevRef τ sig) = V (main_arg4 : DevRef τ sig) := by after_results_simp

theorem sG2_out : after sG2 V (main_v98 : DevRef τ sig)
    = gathered (V (main_arg1 : DevRef τ sig)) (V (main_v14 : DevRef τ sig)) := by
  unfold gathered startIdx wrapNeg column
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Matrix.cons_val]
  rfl
theorem sG2_keep_main_v42 : after sG2 V (main_v42 : DevRef τ sig) = V (main_v42 : DevRef τ sig) := by after_results_simp
theorem sG2_keep_main_v70 : after sG2 V (main_v70 : DevRef τ sig) = V (main_v70 : DevRef τ sig) := by after_results_simp
theorem sG2_keep_main_arg0 : after sG2 V (main_arg0 : DevRef τ sig) = V (main_arg0 : DevRef τ sig) := by after_results_simp
theorem sG2_keep_main_arg1 : after sG2 V (main_arg1 : DevRef τ sig) = V (main_arg1 : DevRef τ sig) := by after_results_simp
theorem sG2_keep_main_arg2 : after sG2 V (main_arg2 : DevRef τ sig) = V (main_arg2 : DevRef τ sig) := by after_results_simp
theorem sG2_keep_main_arg3 : after sG2 V (main_arg3 : DevRef τ sig) = V (main_arg3 : DevRef τ sig) := by after_results_simp
theorem sG2_keep_main_arg4 : after sG2 V (main_arg4 : DevRef τ sig) = V (main_arg4 : DevRef τ sig) := by after_results_simp

/-! ### The loss -/

theorem sF_out : after sF V (main_v116 : DevRef τ sig)
    = lossOf (V (main_v42 : DevRef τ sig)) (V (main_v70 : DevRef τ sig)) (V (main_v98 : DevRef τ sig)) := by
  unfold lossOf hingeVec sqDist
  after_results_simp <;> rfl
theorem sF_keep_main_arg0 : after sF V (main_arg0 : DevRef τ sig) = V (main_arg0 : DevRef τ sig) := by after_results_simp
theorem sF_keep_main_arg1 : after sF V (main_arg1 : DevRef τ sig) = V (main_arg1 : DevRef τ sig) := by after_results_simp
theorem sF_keep_main_arg2 : after sF V (main_arg2 : DevRef τ sig) = V (main_arg2 : DevRef τ sig) := by after_results_simp
theorem sF_keep_main_arg3 : after sF V (main_arg3 : DevRef τ sig) = V (main_arg3 : DevRef τ sig) := by after_results_simp
theorem sF_keep_main_arg4 : after sF V (main_arg4 : DevRef τ sig) = V (main_arg4 : DevRef τ sig) := by after_results_simp

/-! ## The whole line -/

/-- The eight stretches end to end. -/
abbrev stretches : List (HloOp τ sig (Elt F)) := sA ++ (sR0 ++ (sR1 ++ (sR2 ++ (sG0 ++ (sG1 ++ (sG2 ++ sF))))))

/-- The crop origin's table. -/
abbrev tabO : IVec S3 32 := fun i => lit0 (S3.rowMajor i)
/-- The extents' table. -/
abbrev tabE : IVec S3 32 := fun i => lit1 (S3.rowMajor i)

/-- After the whole line the result buffer holds the loss of the three tables gathered at the three redirected lists. -/
theorem eval_out : after stretches V (main_v116 : DevRef τ sig)
    = lossOf (gathered (V (main_arg0 : DevRef τ sig)) (redirected (V (main_arg2 : DevRef τ sig)) tabO tabE))
        (gathered (V (main_arg1 : DevRef τ sig)) (redirected (V (main_arg3 : DevRef τ sig)) tabO tabE))
        (gathered (V (main_arg1 : DevRef τ sig)) (redirected (V (main_arg4 : DevRef τ sig)) tabO tabE)) := by
  simp only [stretches, after_append]
  rw [sF_out, sG2_out, sG2_keep_main_v42, sG2_keep_main_v70,
    sG1_out, sG1_keep_main_v42, sG1_keep_main_arg1, sG1_keep_main_v14,
    sG0_out, sG0_keep_main_arg1, sG0_keep_main_v9, sG0_keep_main_v14,
    sR2_out, sR2_keep_main_arg0, sR2_keep_main_arg1, sR2_keep_main_v4, sR2_keep_main_v9,
    sR1_out, sR1_keep_main_arg0, sR1_keep_main_arg1, sR1_keep_main_v4, sR1_keep_main_arg4, sR1_keep_main_c, sR1_keep_main_c_0,
    sR0_out, sR0_keep_main_arg0, sR0_keep_main_arg1, sR0_keep_main_arg3, sR0_keep_main_arg4, sR0_keep_main_c, sR0_keep_main_c_0,
    sA_c, sA_c_0, sA_keep_main_arg0, sA_keep_main_arg1, sA_keep_main_arg2, sA_keep_main_arg3, sA_keep_main_arg4]

/-- After the whole line `main_arg0` is unchanged. -/
theorem eval_main_arg0 : after stretches V (main_arg0 : DevRef τ sig) = V (main_arg0 : DevRef τ sig) := by
  simp only [stretches, after_append]
  rw [sF_keep_main_arg0, sG2_keep_main_arg0, sG1_keep_main_arg0, sG0_keep_main_arg0, sR2_keep_main_arg0, sR1_keep_main_arg0, sR0_keep_main_arg0, sA_keep_main_arg0]
/-- After the whole line `main_arg1` is unchanged. -/
theorem eval_main_arg1 : after stretches V (main_arg1 : DevRef τ sig) = V (main_arg1 : DevRef τ sig) := by
  simp only [stretches, after_append]
  rw [sF_keep_main_arg1, sG2_keep_main_arg1, sG1_keep_main_arg1, sG0_keep_main_arg1, sR2_keep_main_arg1, sR1_keep_main_arg1, sR0_keep_main_arg1, sA_keep_main_arg1]
/-- After the whole line `main_arg2` is unchanged. -/
theorem eval_main_arg2 : after stretches V (main_arg2 : DevRef τ sig) = V (main_arg2 : DevRef τ sig) := by
  simp only [stretches, after_append]
  rw [sF_keep_main_arg2, sG2_keep_main_arg2, sG1_keep_main_arg2, sG0_keep_main_arg2, sR2_keep_main_arg2, sR1_keep_main_arg2, sR0_keep_main_arg2, sA_keep_main_arg2]
/-- After the whole line `main_arg3` is unchanged. -/
theorem eval_main_arg3 : after stretches V (main_arg3 : DevRef τ sig) = V (main_arg3 : DevRef τ sig) := by
  simp only [stretches, after_append]
  rw [sF_keep_main_arg3, sG2_keep_main_arg3, sG1_keep_main_arg3, sG0_keep_main_arg3, sR2_keep_main_arg3, sR1_keep_main_arg3, sR0_keep_main_arg3, sA_keep_main_arg3]
/-- After the whole line `main_arg4` is unchanged. -/
theorem eval_main_arg4 : after stretches V (main_arg4 : DevRef τ sig) = V (main_arg4 : DevRef τ sig) := by
  simp only [stretches, after_append]
  rw [sF_keep_main_arg4, sG2_keep_main_arg4, sG1_keep_main_arg4, sG0_keep_main_arg4, sR2_keep_main_arg4, sR1_keep_main_arg4, sR0_keep_main_arg4, sA_keep_main_arg4]

end Cert.ReferenceIdeal.RefValue

end
-- ==== Proof.RefRun.lean ====
/-
  The reference's run with its result named.

  The list of all operations is the eight stretches end to end, so what the run leaves in the result buffer is the
  loss of the three tables gathered at the three redirected lists, and the five arguments are unchanged.
-/
import proofs.«427562_j44873818309267_2_alg».proof.Proof.RefOps
import proofs.«427562_j44873818309267_2_alg».proof.Proof.RefEval

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The whole list is the eight stretches end to end. -/
theorem opsAll_stretches : (opsAll : List (HloOp τ sig (Elt F))) = stretches := rfl

/-- On every device, for any float values, from any memory with zero counters: every weakly fair execution of @main
    terminates with the result buffer at the loss of the gathered tables and the arguments unchanged. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v116)
          = lossOf (gathered (m ((c.tc : Thread nD τ).loc main_arg0)) (redirected (m ((c.tc : Thread nD τ).loc main_arg2)) tabO tabE))
              (gathered (m ((c.tc : Thread nD τ).loc main_arg1)) (redirected (m ((c.tc : Thread nD τ).loc main_arg3)) tabO tabE))
              (gathered (m ((c.tc : Thread nD τ).loc main_arg1)) (redirected (m ((c.tc : Thread nD τ).loc main_arg4)) tabO tabE))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v116).trans (by rw [opsAll_stretches]; exact eval_out _),
       (h c main_arg0).trans (by rw [opsAll_stretches]; exact eval_main_arg0 _),
       (h c main_arg1).trans (by rw [opsAll_stretches]; exact eval_main_arg1 _),
       (h c main_arg2).trans (by rw [opsAll_stretches]; exact eval_main_arg2 _),
       (h c main_arg3).trans (by rw [opsAll_stretches]; exact eval_main_arg3 _),
       (h c main_arg4).trans (by rw [opsAll_stretches]; exact eval_main_arg4 _)⟩)
    (run_fold m ρ)

end Cert.ReferenceIdeal.RefValue

end
-- ==== Proof.RefGather.lean ====
/-
  A gathered table read at an entry.

  Row `i`, channel `c` of the table gathered from a volume at a redirected list is the volume's entry at channel `c`
  and the voxel the point `i` is redirected to. The start indices are the three coordinate columns of the redirected
  list; a redirected coordinate lies in `[0, extent)`, so it is not negative (the raise by the extent never applies)
  and the gather's clamp into `[0, extent - 1]` leaves it.
-/
import proofs.«427562_j44873818309267_2_alg».proof.Proof.RefEval
import proofs.«427562_j44873818309267_2_alg».proof.Proof.RedirectChain
import Idealize.ShloMosaic.Lib.Pipeline.Value
import Idealize.ShloMosaic.Lib.ValueIdx

noncomputable section

namespace Cert.ReferenceIdeal.RefValue

open Cert.ReferenceIdeal Cert.ReferenceIdeal.Gen Idealize.ShloMosaic Idealize.ShloMosaic.ValueIdx

/-! ## Words below `2 ^ 31` -/

/-- A word below `2 ^ 31` is not negative. -/
theorem slt_zero_of_lt (c : BitVec 32) (h : c.toNat < 2 ^ 31) : IntOp.cmpi .slt c 0#32 = 0#1 := by
  show BitVec.ofBool (c.slt 0#32) = 0#1
  have : c.slt 0#32 = false := by
    rw [BitVec.slt_eq_decide, BitVec.toInt_zero, BitVec.toInt_eq_toNat_of_lt (by omega)]
    exact decide_eq_false (by omega)
  rw [this]; rfl

/-- A word below `2 ^ 31` read signed is itself. -/
theorem toInt_toNat_of_lt (c : BitVec 32) (h : c.toNat < 2 ^ 31) : c.toInt.toNat = c.toNat := by
  rw [BitVec.toInt_eq_toNat_of_lt (by omega)]; exact Int.toNat_natCast _

/-! ## The start indices -/

/-- A coordinate vector whose entry at `i` is below `2 ^ 31` keeps it. -/
theorem wrapNeg_apply (n : BitVec 32) (v : IVec S16384 32) (i : Fin 16384) (h : (v (ix1 i)).toNat < 2 ^ 31) :
    wrapNeg n v (ix1 i) = v (ix1 i) := by
  show Scalar.select (IntOp.cmpi .slt (v (ix1 i)) 0#32) _ (v (ix1 i)) = _
  rw [slt_zero_of_lt _ h]; exact select_zero _ _

/-- Column `k` of a list read at point `i`. -/
theorem column_apply (k : Fin 3) (off : Fin 2 → Nat) (h : S16384x3.Slices off S16384x1) (h0 : off 0 = 0) (h1 : off 1 = k.val)
    (r : IVec S16384x3 32) (i : Fin 16384) : column off h r (ix1 i) = r (ix2 i k) := by
  unfold column
  refine (shapeCast_apply _ _ (ix1 i) (ix2 i (0 : Fin 1)) ?_).trans ?_
  · rw [Shape.rowMajor_val_two, Shape.rowMajor_val_one]
    show i.val * 1 + 0 = i.val
    omega
  · refine extractStridedSlice_apply off r h _ (ix2 i k) fun a => ?_
    match a with
    | ⟨0, _⟩ => show i.val = off 0 + i.val; omega
    | ⟨1, _⟩ => show k.val = off 1 + 0; omega

/-- The three pieces of the start indices: the wrapped coordinate columns, each one column wide. -/
abbrev pieces (r : IVec S16384x3 32) : List ((s : Shape) × (s.Idx → BitVec 32)) :=
  [⟨S16384x1, broadcastInDim S16384x1 ![0] bcast_S16384_S16384x1_0 (wrapNeg 100#32 (column ![0, 0] slices_S16384x3_S16384x1_0_0 r))⟩,
       ⟨S16384x1, broadcastInDim S16384x1 ![0] bcast_S16384_S16384x1_0 (wrapNeg 88#32 (column ![0, 1] slices_S16384x3_S16384x1_0_1 r))⟩,
       ⟨S16384x1, broadcastInDim S16384x1 ![0] bcast_S16384_S16384x1_0 (wrapNeg 80#32 (column ![0, 2] slices_S16384x3_S16384x1_0_2 r))⟩]

/-- The start indices are the pieces side by side. -/
theorem startIdx_pieces (r : IVec S16384x3 32) :
    startIdx r = concatenate S16384x3 1 (pieces r) concatenates_S16384x1_S16384x1_S16384x1_S16384x3_d1 := rfl

/-- The start indices at point `i`, axis 0: the list's entry, when that is below `2 ^ 31`. -/
theorem startIdx_apply0 (r : IVec S16384x3 32) (i : Fin 16384) (hr : (r (ix2 i (0 : Fin 3))).toNat < 2 ^ 31) :
    startIdx r (ix2 i (0 : Fin 3)) = r (ix2 i (0 : Fin 3)) := by
  rw [startIdx_pieces]
  have hxk : (pieces r)[0]'(by show 0 < 3; decide) = ⟨S16384x1, broadcastInDim S16384x1 ![0] bcast_S16384_S16384x1_0 (wrapNeg 100#32 (column ![0, 0] slices_S16384x3_S16384x1_0_0 r))⟩ := rfl
  have hpre : ((((pieces r).take 0).map (·.1)).map fun s => if h : s.rank = S16384x3.rank then s.size ((1 : Fin S16384x3.rank).cast h.symm) else 0).sum = 0 := rfl
  have hi : ∀ b : Fin S16384x1.rank, b.cast (rfl : S16384x1.rank = S16384x3.rank) ≠ (1 : Fin S16384x3.rank) → ((ix2 i (0 : Fin 1) : S16384x1.Idx) b).val = ((ix2 i (0 : Fin 3) : S16384x3.Idx) (b.cast rfl)).val := by
    intro b hb
    match b with
    | ⟨0, _⟩ => rfl
    | ⟨1, _⟩ => exact absurd rfl hb
  have ha : 0 + ((ix2 i (0 : Fin 1) : S16384x1.Idx) ((1 : Fin S16384x3.rank).cast (rfl : S16384x1.rank = S16384x3.rank).symm)).val = ((ix2 i (0 : Fin 3) : S16384x3.Idx) 1).val := rfl
  refine (concatenate_apply_piece (t := S16384x3) 1 (pieces r)
      concatenates_S16384x1_S16384x1_S16384x1_S16384x3_d1 (ix2 i (0 : Fin 3))
      0 (by show 0 < 3; decide) S16384x1 _ hxk rfl 0 hpre (ix2 i (0 : Fin 1)) hi ha).trans ?_
  refine (broadcastInDim_apply _ _ _ (ix2 i (0 : Fin 1)) (ix1 i) ?_).trans ?_
  · intro a
    match a with
    | ⟨0, _⟩ => rfl
  · have hc := column_apply 0 ![0, 0] slices_S16384x3_S16384x1_0_0 rfl rfl r i
    rw [wrapNeg_apply _ _ _ (by rw [hc]; exact hr), hc]

/-- The start indices at point `i`, axis 1: the list's entry, when that is below `2 ^ 31`. -/
theorem startIdx_apply1 (r : IVec S16384x3 32) (i : Fin 16384) (hr : (r (ix2 i (1 : Fin 3))).toNat < 2 ^ 31) :
    startIdx r (ix2 i (1 : Fin 3)) = r (ix2 i (1 : Fin 3)) := by
  rw [startIdx_pieces]
  have hxk : (pieces r)[1]'(by show 1 < 3; decide) = ⟨S16384x1, broadcastInDim S16384x1 ![0] bcast_S16384_S16384x1_0 (wrapNeg 88#32 (column ![0, 1] slices_S16384x3_S16384x1_0_1 r))⟩ := rfl
  have hpre : ((((pieces r).take 1).map (·.1)).map fun s => if h : s.rank = S16384x3.rank then s.size ((1 : Fin S16384x3.rank).cast h.symm) else 0).sum = 1 := rfl
  have hi : ∀ b : Fin S16384x1.rank, b.cast (rfl : S16384x1.rank = S16384x3.rank) ≠ (1 : Fin S16384x3.rank) → ((ix2 i (0 : Fin 1) : S16384x1.Idx) b).val = ((ix2 i (1 : Fin 3) : S16384x3.Idx) (b.cast rfl)).val := by
    intro b hb
    match b with
    | ⟨0, _⟩ => rfl
    | ⟨1, _⟩ => exact absurd rfl hb
  have ha : 1 + ((ix2 i (0 : Fin 1) : S16384x1.Idx) ((1 : Fin S16384x3.rank).cast (rfl : S16384x1.rank = S16384x3.rank).symm)).val = ((ix2 i (1 : Fin 3) : S16384x3.Idx) 1).val := rfl
  refine (concatenate_apply_piece (t := S16384x3) 1 (pieces r)
      concatenates_S16384x1_S16384x1_S16384x1_S16384x3_d1 (ix2 i (1 : Fin 3))
      1 (by show 1 < 3; decide) S16384x1 _ hxk rfl 1 hpre (ix2 i (0 : Fin 1)) hi ha).trans ?_
  refine (broadcastInDim_apply _ _ _ (ix2 i (0 : Fin 1)) (ix1 i) ?_).trans ?_
  · intro a
    match a with
    | ⟨0, _⟩ => rfl
  · have hc := column_apply 1 ![0, 1] slices_S16384x3_S16384x1_0_1 rfl rfl r i
    rw [wrapNeg_apply _ _ _ (by rw [hc]; exact hr), hc]

/-- The start indices at point `i`, axis 2: the list's entry, when that is below `2 ^ 31`. -/
theorem startIdx_apply2 (r : IVec S16384x3 32) (i : Fin 16384) (hr : (r (ix2 i (2 : Fin 3))).toNat < 2 ^ 31) :
    startIdx r (ix2 i (2 : Fin 3)) = r (ix2 i (2 : Fin 3)) := by
  rw [startIdx_pieces]
  have hxk : (pieces r)[2]'(by show 2 < 3; decide) = ⟨S16384x1, broadcastInDim S16384x1 ![0] bcast_S16384_S16384x1_0 (wrapNeg 80#32 (column ![0, 2] slices_S16384x3_S16384x1_0_2 r))⟩ := rfl
  have hpre : ((((pieces r).take 2).map (·.1)).map fun s => if h : s.rank = S16384x3.rank then s.size ((1 : Fin S16384x3.rank).cast h.symm) else 0).sum = 2 := rfl
  have hi : ∀ b : Fin S16384x1.rank, b.cast (rfl : S16384x1.rank = S16384x3.rank) ≠ (1 : Fin S16384x3.rank) → ((ix2 i (0 : Fin 1) : S16384x1.Idx) b).val = ((ix2 i (2 : Fin 3) : S16384x3.Idx) (b.cast rfl)).val := by
    intro b hb
    match b with
    | ⟨0, _⟩ => rfl
    | ⟨1, _⟩ => exact absurd rfl hb
  have ha : 2 + ((ix2 i (0 : Fin 1) : S16384x1.Idx) ((1 : Fin S16384x3.rank).cast (rfl : S16384x1.rank = S16384x3.rank).symm)).val = ((ix2 i (2 : Fin 3) : S16384x3.Idx) 1).val := rfl
  refine (concatenate_apply_piece (t := S16384x3) 1 (pieces r)
      concatenates_S16384x1_S16384x1_S16384x1_S16384x3_d1 (ix2 i (2 : Fin 3))
      2 (by show 2 < 3; decide) S16384x1 _ hxk rfl 2 hpre (ix2 i (0 : Fin 1)) hi ha).trans ?_
  refine (broadcastInDim_apply _ _ _ (ix2 i (0 : Fin 1)) (ix1 i) ?_).trans ?_
  · intro a
    match a with
    | ⟨0, _⟩ => rfl
  · have hc := column_apply 2 ![0, 2] slices_S16384x3_S16384x1_0_2 rfl rfl r i
    rw [wrapNeg_apply _ _ _ (by rw [hc]; exact hr), hc]

/-! ## The gather -/

section
variable {α : Type}

/-- The gather read at channel `c`, point `i`: the operand at channel `c` and the three start indices of the point, each
    read signed and clamped into the volume. -/
theorem gather_apply (X : S64x100x88x80.Idx → α) (idx : IVec S16384x3 32) (c : Fin 64) (i : Fin 16384)
    (p0 : Fin 100) (p1 : Fin 88) (p2 : Fin 80)
    (h0 : min (idx (ix2 i (0 : Fin 3))).toInt.toNat 99 = p0.val)
    (h1 : min (idx (ix2 i (1 : Fin 3))).toInt.toNat 87 = p1.val)
    (h2 : min (idx (ix2 i (2 : Fin 3))).toInt.toNat 79 = p2.val) :
    Host.gather gather_S64x100x88x80_S16384x3_S64x16384_0_123_n_n_123_1_64111 X idx (ix2 c i) = X (ix4 c p0 p1 p2) := by
  unfold Host.gather
  congr 1
  funext a
  refine Fin.ext ?_
  show gather_S64x100x88x80_S16384x3_S64x16384_0_123_n_n_123_1_64111.start (ix2 c i) idx a
      + gather_S64x100x88x80_S16384x3_S64x16384_0_123_n_n_123_1_64111.batchCoord (ix2 c i) a
      + gather_S64x100x88x80_S16384x3_S64x16384_0_123_n_n_123_1_64111.offCoord (ix2 c i) a = _
  rw [GatherDims.batchCoord_eq_zero _ _ _ List.not_mem_nil, Nat.add_zero]
  match a with
  | 0 =>
    unfold GatherDims.start GatherDims.offCoord
    rw [dif_neg (by decide), dif_pos (by decide), Nat.zero_add]
    rfl
  | 1 =>
    rw [GatherDims.offCoord_eq_zero _ _ _ (fun h => ((GatherDims.mem_sKept _ _).mp h).1 (by decide)), Nat.add_zero]
    unfold GatherDims.start
    rw [dif_pos (by decide)]
    have hsi : gather_S64x100x88x80_S16384x3_S64x16384_0_123_n_n_123_1_64111.siIdx (ix2 c i)
        ⟨List.idxOf (1 : Fin 4) gather_S64x100x88x80_S16384x3_S64x16384_0_123_n_n_123_1_64111.startIndexMap, List.idxOf_lt_length_iff.2 (by decide)⟩ = ix2 i (0 : Fin 3) := by
      funext b; refine Fin.ext ?_
      match b with
      | ⟨0, _⟩ => rfl
      | ⟨1, _⟩ => rfl
    rw [hsi]
    exact h0
  | 2 =>
    rw [GatherDims.offCoord_eq_zero _ _ _ (fun h => ((GatherDims.mem_sKept _ _).mp h).1 (by decide)), Nat.add_zero]
    unfold GatherDims.start
    rw [dif_pos (by decide)]
    have hsi : gather_S64x100x88x80_S16384x3_S64x16384_0_123_n_n_123_1_64111.siIdx (ix2 c i)
        ⟨List.idxOf (2 : Fin 4) gather_S64x100x88x80_S16384x3_S64x16384_0_123_n_n_123_1_64111.startIndexMap, List.idxOf_lt_length_iff.2 (by decide)⟩ = ix2 i (1 : Fin 3) := by
      funext b; refine Fin.ext ?_
      match b with
      | ⟨0, _⟩ => rfl
      | ⟨1, _⟩ => rfl
    rw [hsi]
    exact h1
  | 3 =>
    rw [GatherDims.offCoord_eq_zero _ _ _ (fun h => ((GatherDims.mem_sKept _ _).mp h).1 (by decide)), Nat.add_zero]
    unfold GatherDims.start
    rw [dif_pos (by decide)]
    have hsi : gather_S64x100x88x80_S16384x3_S64x16384_0_123_n_n_123_1_64111.siIdx (ix2 c i)
        ⟨List.idxOf (3 : Fin 4) gather_S64x100x88x80_S16384x3_S64x16384_0_123_n_n_123_1_64111.startIndexMap, List.idxOf_lt_length_iff.2 (by decide)⟩ = ix2 i (2 : Fin 3) := by
      funext b; refine Fin.ext ?_
      match b with
      | ⟨0, _⟩ => rfl
      | ⟨1, _⟩ => rfl
    rw [hsi]
    exact h2

/-- The volume without its unit batch axis, read at a channel and a voxel. -/
theorem volume_apply (feat : S1x64x100x88x80.Idx → α) (c : Fin 64) (p0 : Fin 100) (p1 : Fin 88) (p2 : Fin 80) :
    shapeCast S64x100x88x80 feat shapeCasts_S1x64x100x88x80_S64x100x88x80 (ix4 c p0 p1 p2) = feat (ix5 (0 : Fin 1) c p0 p1 p2) := by
  refine shapeCast_apply _ _ _ _ ?_
  rw [Shape.rowMajor_val_five, Shape.rowMajor_val_four]
  show (((0 * 64 + c.val) * 100 + p0.val) * 88 + p1.val) * 80 + p2.val = ((c.val * 100 + p0.val) * 88 + p1.val) * 80 + p2.val
  omega

end

/-! ## A gathered table's entry -/

section
variable {F : FTy → Type} [FloatOps F]

/-- Row `i`, channel `c` of the table gathered at a list whose three entries at point `i` lie inside the volume: the
    volume at channel `c` and those three coordinates. -/
theorem gathered_apply (feat : FVec F S1x64x100x88x80 .f32) (r : IVec S16384x3 32) (i : Fin 16384) (c : Fin 64)
    (h0 : (r (ix2 i (0 : Fin 3))).toNat < 100) (h1 : (r (ix2 i (1 : Fin 3))).toNat < 88) (h2 : (r (ix2 i (2 : Fin 3))).toNat < 80) :
    gathered feat r (ix2 i c)
      = feat (ix5 (0 : Fin 1) c ⟨(r (ix2 i (0 : Fin 3))).toNat, h0⟩ ⟨(r (ix2 i (1 : Fin 3))).toNat, h1⟩ ⟨(r (ix2 i (2 : Fin 3))).toNat, h2⟩) := by
  unfold gathered
  refine (transpose_apply [1, 0] _ transposes_S64x16384_S16384x64_1_0 (ix2 i c) (ix2 c i) ?_).trans ?_
  · intro b
    match b with
    | ⟨0, _⟩ => rfl
    | ⟨1, _⟩ => rfl
  refine (gather_apply _ _ c i ⟨(r (ix2 i (0 : Fin 3))).toNat, h0⟩ ⟨(r (ix2 i (1 : Fin 3))).toNat, h1⟩ ⟨(r (ix2 i (2 : Fin 3))).toNat, h2⟩ ?_ ?_ ?_).trans
    (volume_apply feat c _ _ _)
  · rw [startIdx_apply0 r i (by omega), toInt_toNat_of_lt _ (by omega)]
    exact Nat.min_eq_left (by show _ ≤ 99; omega)
  · rw [startIdx_apply1 r i (by omega), toInt_toNat_of_lt _ (by omega)]
    exact Nat.min_eq_left (by show _ ≤ 87; omega)
  · rw [startIdx_apply2 r i (by omega), toInt_toNat_of_lt _ (by omega)]
    exact Nat.min_eq_left (by show _ ≤ 79; omega)

end

/-! ## At a redirected list -/

/-- A redirected list, entry by entry: the redirected coordinate of the point's word on its axis. -/
theorem redirected_eq (x : IVec S16384x3 32) :
    redirected x tabO tabE = fun j => Cert.Redirect.coordW (j 1) (x j) := by
  unfold redirected remFloor shifted rowOf safeDiv
  exact Cert.Redirect.chain_eq bcast_S3_S1x3_1 bcast_S1x3_S16384x3_0_1 bcast_S_S1x3 bcast_S_S16384x3 tabE tabO
    (Cert.Redirect.ext_of_lit lit1 rfl rfl rfl) (Cert.Redirect.off_of_lit lit0 rfl rfl rfl) x

/-- Row `i`, channel `c` of the table gathered from a volume at a redirected list: the volume's feature vector at the
    voxel point `i` is redirected to, channel `c`. -/
theorem gathered_row (feat : Cert.Spec.SFeat.Idx → EReal) (x : Cert.Redirect.SPts.Idx → BitVec 32) (i : Fin 16384) (c : Fin 64) :
    gathered (F := Ideal) feat (redirected x tabO tabE) (ix2 i c) = Cert.Spec.rowAt feat (Cert.Redirect.pos x i) c := by
  rw [redirected_eq]
  exact gathered_apply (F := Ideal) feat _ i c (Cert.Redirect.coordW_lt 0 _) (Cert.Redirect.coordW_lt 1 _) (Cert.Redirect.coordW_lt 2 _)

end Cert.ReferenceIdeal.RefValue

end
-- ==== Proof.RefValue.lean ====
/-
  The reference's result is the specification's loss.

  At the exact values the row sums are sums over the 64 channels, the two totals sums over the 16384 points, and the
  three gathered tables are, entry by entry, the volumes' feature vectors at the redirected voxels; so the scalar the
  run leaves is the loss of the two volumes at the three redirected lists.
-/
import proofs.«427562_j44873818309267_2_alg».proof.Proof.RefRun
import proofs.«427562_j44873818309267_2_alg».proof.Proof.RefGather
import Idealize.ShloMosaic.PureOps.Ideal.Laws

noncomputable section

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

/-! ## The sums -/

/-- The index of a table that sums into row `i` at channel `k` is `(i, k)`. -/
theorem lift_row (h : S16384x64.Reduces [1] S16384) (i : Fin 16384) (k : Fin 64) : h.lift (ix1 i) k = ix2 i k := by
  funext a; apply Fin.ext
  match a with
  | ⟨0, _⟩ => rfl
  | ⟨1, _⟩ => rfl

/-- A vector's indices are its points. -/
def idxEquiv1 : S16384.Idx ≃ Fin 16384 where
  toFun j := j 0
  invFun := ix1
  left_inv j := (eq_ix1 j).symm
  right_inv _ := rfl

/-- A sum over a vector's indices is the sum over its points. -/
theorem sum_idx1 (f : S16384.Idx → EReal) : ∑ j : S16384.Idx, f j = ∑ i : Fin 16384, f (ix1 i) :=
  Fintype.sum_equiv idxEquiv1 f (fun i => f (ix1 i)) fun j => congrArg f (eq_ix1 j)

/-- The squared distance at point `i`: the sum over the channels of the squared difference. -/
theorem sqDist_apply (a b : FVec Ideal S16384x64 .f32) (i : Fin 16384) :
    sqDist a b (ix1 i) = ∑ c : Fin 64, (a (ix2 i c) - b (ix2 i c)) * (a (ix2 i c) - b (ix2 i c)) := by
  have h : S16384x64.Reduces [1] S16384 := by decide
  unfold sqDist Host.reduceAdd
  rw [Ideal.hostReduceAdd_def, Ideal.hostReduceAdd_single reducesTo_S16384x64_S16384_d1 h]
  show Ideal.ofBits .f32 0x00000000#32 + ∑ k : Fin 64, _ = _
  rw [Ideal.ofBits_zero_f32, zero_add]
  refine Finset.sum_congr rfl fun k _ => ?_
  rw [lift_row h i k]
  rfl

/-- A vector's total: the sum over the points. -/
theorem total_apply (v : FVec Ideal S16384 .f32) (j : S_.Idx) :
    Host.reduceAdd v (constant S_ .f32 0x00000000#32) reducesTo_S16384_S_d0 h_S_ j = ∑ i : Fin 16384, v (ix1 i) := by
  unfold Host.reduceAdd
  rw [Ideal.hostReduceAdd_def, Ideal.hostReduceAdd_total reducesTo_S16384_S_d0 (fun b => b.elim0)]
  show Ideal.ofBits .f32 0x00000000#32 + ∑ k : S16384.Idx, v k = _
  rw [Ideal.ofBits_zero_f32, zero_add, sum_idx1]

/-- The hinge vector at point `i`. -/
theorem hingeVec_apply (d : FVec Ideal S16384 .f32) (i : Fin 16384) :
    hingeVec d (ix1 i)
      = max (Ideal.ofBits .f32 0x00000000#32) (Ideal.ofBits .f32 0x3F800000#32 - Ideal.sqrt (d (ix1 i))) := by
  unfold hingeVec
  rw [maximumf_apply, subf_apply]
  rfl

/-! ## The loss -/

/-- The loss of three tables whose rows are the volumes' feature vectors at three lists of voxels. -/
theorem lossOf_eq (a p n : FVec Ideal S16384x64 .f32) (fixF movF : Cert.Spec.SFeat.Idx → EReal)
    (pf pp pn : Fin 16384 → Cert.Spec.Voxel)
    (ha : ∀ i c, a (ix2 i c) = Cert.Spec.rowAt fixF (pf i) c)
    (hp : ∀ i c, p (ix2 i c) = Cert.Spec.rowAt movF (pp i) c)
    (hn : ∀ i c, n (ix2 i c) = Cert.Spec.rowAt movF (pn i) c) :
    lossOf a p n = fun _ => Cert.Spec.loss fixF movF pf pp pn := by
  have hdp : ∀ i, sqDist a p (ix1 i) = Cert.Spec.dist fixF movF (pf i) (pp i) := fun i => by
    rw [sqDist_apply]; unfold Cert.Spec.dist
    exact Finset.sum_congr rfl fun c _ => by rw [ha, hp]
  have hdn : ∀ i, sqDist a n (ix1 i) = Cert.Spec.dist fixF movF (pf i) (pn i) := fun i => by
    rw [sqDist_apply]; unfold Cert.Spec.dist
    exact Finset.sum_congr rfl fun c _ => by rw [ha, hn]
  funext j
  unfold lossOf
  show Ideal.div (Host.reduceAdd (mulf (sqDist a p) (sqDist a p)) (constant S_ .f32 0x00000000#32) reducesTo_S16384_S_d0 h_S_ j
        + Host.reduceAdd (mulf (hingeVec (sqDist a n)) (hingeVec (sqDist a n))) (constant S_ .f32 0x00000000#32) reducesTo_S16384_S_d0 h_S_ j)
      (Ideal.ofBits .f32 0x47800000#32) * Ideal.ofBits .f32 0x49742400#32 = _
  rw [total_apply, total_apply]
  have e1 : (∑ i : Fin 16384, mulf (sqDist a p) (sqDist a p) (ix1 i)) = Cert.Spec.posSum fixF movF pf pp := by
    unfold Cert.Spec.posSum
    exact Finset.sum_congr rfl fun i _ => by
      rw [mulf_apply, hdp]
  have e2 : (∑ i : Fin 16384, mulf (hingeVec (sqDist a n)) (hingeVec (sqDist a n)) (ix1 i)) = Cert.Spec.negSum fixF movF pf pn := by
    unfold Cert.Spec.negSum
    exact Finset.sum_congr rfl fun i _ => by
      rw [mulf_apply, hingeVec_apply, hdn]
      rfl
  rw [e1, e2]
  rfl

/-! ## The run -/

/-- On every device, from any memory with zero counters: every weakly fair execution of the reference terminates with
    its result the specification's loss of the two volumes at the three redirected lists, and its arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc Cert.ReferenceIdeal.main_v116)
          = (fun _ => Cert.Spec.loss (m ((c.tc : Thread nD τ).loc main_arg0)) (m ((c.tc : Thread nD τ).loc main_arg1))
              (Cert.Redirect.pos (m ((c.tc : Thread nD τ).loc main_arg2))) (Cert.Redirect.pos (m ((c.tc : Thread nD τ).loc main_arg3))) (Cert.Redirect.pos (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.ReferenceIdeal.defs (F := Ideal)) _ _).mono (fun _ h c =>
      ⟨(h c).1.trans (lossOf_eq _ _ _ _ _ _ _ _
          (fun i ch => gathered_row (m ((c.tc : Thread nD τ).loc main_arg0)) (m ((c.tc : Thread nD τ).loc main_arg2)) i ch)
          (fun i ch => gathered_row (m ((c.tc : Thread nD τ).loc main_arg1)) (m ((c.tc : Thread nD τ).loc main_arg3)) i ch)
          (fun i ch => gathered_row (m ((c.tc : Thread nD τ).loc main_arg1)) (m ((c.tc : Thread nD τ).loc main_arg4)) i ch)),
       (h c).2⟩)
    (run_terms (F := Ideal) m ρ)

end Cert.ReferenceIdeal.RefValue

end
-- ==== Proof.Assemble.lean ====
/-
  The last step: from the value of each idealized program's result — both are the loss of Spec.lean at the two feature
  volumes and the three redirected lists of points the program was given — to the two claims that speak of the
  reference: it runs and keeps its arguments, and from memories agreeing on the arguments both programs end with the
  same result and unchanged arguments.
-/
import proofs.«427562_j44873818309267_2_alg».proof.Defs
import proofs.«427562_j44873818309267_2_alg».proof.Proof.Spec
import proofs.«427562_j44873818309267_2_alg».proof.Proof.Redirect

noncomputable section

namespace Cert.Proof.Assemble

open Idealize.ShloMosaic Idealize.ShloMosaic.TcCoe Idealize.SL.Sem

variable [hKernelIdeal : Cert.KernelIdeal.Facts] [hReferenceIdeal : Cert.ReferenceIdeal.Facts] [hPre_finite_inputs : Cert.Pre_finite_inputs.Facts]

/-- The loss of the arrays the kernel's memory holds on device `c`. -/
def lossK (m : (ℓ : Loc Cert.KernelIdeal.nD Cert.KernelIdeal.τ Cert.KernelIdeal.sig) → Buf (Elt Ideal) ℓ) (c : Dev Cert.KernelIdeal.nD) : EReal :=
  Cert.Spec.loss (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (Cert.Redirect.pos (m ((c.tc : Thread Cert.KernelIdeal.nD Cert.KernelIdeal.τ).loc Cert.KernelIdeal.main_arg2))) (Cert.Redirect.pos (m ((c.tc : Thread Cert.KernelIdeal.nD Cert.KernelIdeal.τ).loc Cert.KernelIdeal.main_arg3))) (Cert.Redirect.pos (m ((c.tc : Thread Cert.KernelIdeal.nD Cert.KernelIdeal.τ).loc Cert.KernelIdeal.main_arg4)))

/-- The loss of the arrays the reference's memory holds on device `c`. -/
def lossR (m : (ℓ : Loc Cert.ReferenceIdeal.nD Cert.ReferenceIdeal.τ Cert.ReferenceIdeal.sig) → Buf (Elt Ideal) ℓ) (c : Dev Cert.ReferenceIdeal.nD) : EReal :=
  Cert.Spec.loss (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
    (Cert.Redirect.pos (m ((c.tc : Thread Cert.ReferenceIdeal.nD Cert.ReferenceIdeal.τ).loc Cert.ReferenceIdeal.main_arg2))) (Cert.Redirect.pos (m ((c.tc : Thread Cert.ReferenceIdeal.nD Cert.ReferenceIdeal.τ).loc Cert.ReferenceIdeal.main_arg3))) (Cert.Redirect.pos (m ((c.tc : Thread Cert.ReferenceIdeal.nD Cert.ReferenceIdeal.τ).loc Cert.ReferenceIdeal.main_arg4)))

/-- The kernel's value statement: it runs, its result is the loss of its arguments, and its arguments are unchanged. -/
def ValueK : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v56) = (fun _ => lossK m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

/-- The reference's value statement, likewise. -/
def ValueR : Prop :=
  ∀ (m : (ℓ : Loc Cert.ReferenceIdeal.nD Cert.ReferenceIdeal.τ Cert.ReferenceIdeal.sig) → Buf (Elt Ideal) ℓ) (ρ : Dev Cert.ReferenceIdeal.nD → PrngReg),
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v116) = (fun _ => lossR m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

/-- The reference runs and keeps its arguments: its value statement with the result dropped. -/
theorem frame_ReferenceIdeal_of (hR : ValueR) : Cert.frame_ReferenceIdeal := fun m g _ =>
  (θ_run Cert.ReferenceIdeal.defs _ _).mono (fun _ h c => (h c).2) (hR m g)

/-- The kernel runs and keeps its arguments, likewise. -/
theorem frame_KernelIdeal_of (hK : ValueK) : Cert.frame_KernelIdeal := fun m g _ =>
  (θ_run Cert.KernelIdeal.defs _ _).mono (fun _ h c => (h c).2) (hK m g)

/-- From memories agreeing on the arguments, the two losses are one number. -/
theorem lossR_eq_lossK (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    lossR m' c = lossK m c := by
  obtain ⟨e0, e1, e2, e3, e4⟩ := h
  unfold lossR lossK
  rw [e0, e1, e2, e3, e4]

/-- Both programs end with the same result, the loss of the kernel's arguments, and unchanged arguments. -/
theorem algebraic_of (hK : ValueK) (hR : ValueR) : Cert.algebraic_KernelIdeal_ReferenceIdeal := by
  intro m g m' g' _ hagree
  refine ⟨fun c => fun _ => lossK m c, hK m g, ?_⟩
  refine (θ_run Cert.ReferenceIdeal.defs _ _).mono (fun _ h c => ⟨(h c).1.trans ?_, (h c).2⟩) (hR m' g')
  exact funext fun _ => lossR_eq_lossK m m' c (hagree c)

/-! ## The same under the precondition -/

/-- The kernel's value statement for memories of which the precondition holds. -/
def ValueKPre : Prop :=
  ∀ (m : (ℓ : Loc Cert.KernelIdeal.nD Cert.KernelIdeal.τ Cert.KernelIdeal.sig) → Buf (Elt Ideal) ℓ) (ρ : Dev Cert.KernelIdeal.nD → PrngReg), Cert.Pre_KernelIdeal m →
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v56) = (fun _ => lossK m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

/-- The reference's value statement for memories of which the precondition holds. -/
def ValueRPre : Prop :=
  ∀ (m : (ℓ : Loc Cert.ReferenceIdeal.nD Cert.ReferenceIdeal.τ Cert.ReferenceIdeal.sig) → Buf (Elt Ideal) ℓ) (ρ : Dev Cert.ReferenceIdeal.nD → PrngReg), Cert.Pre_ReferenceIdeal m →
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v116) = (fun _ => lossR m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

/-- The precondition passes from the kernel's memory to a reference memory agreeing with it on the arguments. -/
theorem pre_transfer (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) : Cert.Pre_ReferenceIdeal m' := by
  intro c
  obtain ⟨e0, e1, e2, e3, e4⟩ := hagree c
  rw [e0, e1, e2, e3, e4]
  exact hpre c

theorem frame_ReferenceIdeal_of_pre (hR : ValueRPre) : Cert.frame_ReferenceIdeal := fun m g hp =>
  (θ_run Cert.ReferenceIdeal.defs _ _).mono (fun _ h c => (h c).2) (hR m g hp)

theorem frame_KernelIdeal_of_pre (hK : ValueKPre) : Cert.frame_KernelIdeal := fun m g hp =>
  (θ_run Cert.KernelIdeal.defs _ _).mono (fun _ h c => (h c).2) (hK m g hp)

theorem algebraic_of_pre (hK : ValueKPre) (hR : ValueRPre) : Cert.algebraic_KernelIdeal_ReferenceIdeal := by
  intro m g m' g' hp hagree
  refine ⟨fun c => fun _ => lossK m c, hK m g hp, ?_⟩
  refine (θ_run Cert.ReferenceIdeal.defs _ _).mono (fun _ h c => ⟨(h c).1.trans ?_, (h c).2⟩) (hR m' g' (pre_transfer m m' hp hagree))
  exact funext fun _ => lossR_eq_lossK m m' c (hagree c)

end Cert.Proof.Assemble

end
-- ==== Proof.lean ====
/-
  The certificate of the correspondence-contrastive loss kernel against its reference, over the extended reals.

  Both programs redirect three lists of 16384 points into the 100 x 88 x 80 volume by the same floored remainder
  (Redirect.lean: a coordinate always lands inside the volume), read the 64-channel feature vectors of two volumes at
  the redirected voxels, and reduce them to one number, the loss of Spec.lean. The reference gathers the vectors on
  the host and sums; the kernel first transposes each volume, viewed as 64 x 704000, into a table of 704000 rows
  (Transpose0/1.lean), then walks the points: per point it fetches the 8-row block of each table that holds the
  voxel's row, picks the row by a sublane mask and a sum over the eight sublanes, and adds the point's two terms to
  two running cells, which the last point combines (G2Runs/G2Data/G2Bridge.lean). On the extended reals the two
  sides differ only in the order of the sums and in how a row is picked, so their results are the same number
  (Assemble.lean). The three frame claims: every program runs to the end, faults nowhere and leaves its arguments
  as they were (KFrame.lean and its word-level twin for the two kernel programs; the reference's run with its
  result dropped). The idealization rewrote nothing, so the preservation claim is trivial.
-/
import proofs.«427562_j44873818309267_2_alg».proof.Defs
import proofs.«427562_j44873818309267_2_alg».proof.Proof.Gen.Kernel
import proofs.«427562_j44873818309267_2_alg».proof.Proof.Gen.KernelIdeal
import proofs.«427562_j44873818309267_2_alg».proof.Proof.Gen.ReferenceIdeal
import proofs.«427562_j44873818309267_2_alg».proof.Proof.Gen.Pre_finite_inputs
import proofs.«427562_j44873818309267_2_alg».proof.Proof.KKFrame
import proofs.«427562_j44873818309267_2_alg».proof.Proof.KFrame
import proofs.«427562_j44873818309267_2_alg».proof.Proof.KValue
import proofs.«427562_j44873818309267_2_alg».proof.Proof.RefValue
import proofs.«427562_j44873818309267_2_alg».proof.Proof.Assemble

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Final.frame m ρ,
    fun m ρ _ => Cert.KernelIdeal.Final.frame m ρ,
    Cert.Proof.Assemble.frame_ReferenceIdeal_of (fun m ρ => Cert.ReferenceIdeal.RefValue.run m ρ),
    trivial,
    Cert.Proof.Assemble.algebraic_of (fun m ρ => Cert.KernelIdeal.Final.value m ρ)
      (fun m ρ => Cert.ReferenceIdeal.RefValue.run m ρ)⟩

end Cert.Proof

end
